-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S10x128x128 : Shape := ⟨3, ![10, 128, 128]⟩
abbrev S10x128 : Shape := ⟨2, ![10, 128]⟩
abbrev S2x625000 : Shape := ⟨2, ![2, 625000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10x128x128 : S_.BroadcastsInDim S10x128x128 (![] : Fin 0 → Fin S10x128x128.rank)
  reducesTo_S10x128x128_S_d0_1_2 : S10x128x128.ReducesTo [0, 1, 2] S_
  bcast_S_S10x128 : S_.BroadcastsInDim S10x128 (![] : Fin 0 → Fin S10x128.rank)
  reducesTo_S10x128_S_d0_1 : S10x128.ReducesTo [0, 1] S_

variable [Facts]

def fn_part1 {F : FTy → Type} [FloatOps F] (main_v13 : IVec S_ 1) (main_v16 : IVec S10x128 1) : IVec S_ 1 :=
  let main_c_5 : IVec S_ 1 := constantI S_ 1 1#1
  let main_v17 : IVec S_ 1 := (fun x v => Host.reduce IntOp.andi x v reducesTo_S10x128_S_d0_1 h_S_) main_v16 main_c_5
  let main_v18 : IVec S_ 1 := andi main_v13 main_v17
  main_v18

def fn {F : FTy → Type} [FloatOps F] (main_arg0 : FVec F S100000x128 .f32) (main_arg1 : FVec F S10x128x128 .f32) (main_arg2 : FVec F S10x128x128 .f32) (main_arg3 : FVec F S10x128 .f32) (main_arg4 : IVec S2x625000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10x128x128 .f32 := Host.absf main_arg1
  let main_cst_0 : FVec F S_ .f32 := constant S_ .f32 0x7F800000#32
  let main_v5 : FVec F S10x128x128 .f32 := broadcastInDim S10x128x128 ![] bcast_S_S10x128x128 main_cst_0
  let main_v6 : IVec S10x128x128 1 := cmpf .olt main_v4 main_v5
  let main_c_1 : IVec S_ 1 := constantI S_ 1 1#1
  let main_v7 : IVec S_ 1 := (fun x v => Host.reduce IntOp.andi x v reducesTo_S10x128x128_S_d0_1_2 h_S_) main_v6 main_c_1
  let main_v8 : IVec S_ 1 := andi main_v3 main_v7
  let main_v9 : FVec F S10x128x128 .f32 := Host.absf main_arg2
  let main_cst_2 : FVec F S_ .f32 := constant S_ .f32 0x7F800000#32
  let main_v10 : FVec F S10x128x128 .f32 := broadcastInDim S10x128x128 ![] bcast_S_S10x128x128 main_cst_2
  let main_v11 : IVec S10x128x128 1 := cmpf .olt main_v9 main_v10
  let main_c_3 : IVec S_ 1 := constantI S_ 1 1#1
  let main_v12 : IVec S_ 1 := (fun x v => Host.reduce IntOp.andi x v reducesTo_S10x128x128_S_d0_1_2 h_S_) main_v11 main_c_3
  let main_v13 : IVec S_ 1 := andi main_v8 main_v12
  let main_v14 : FVec F S10x128 .f32 := Host.absf main_arg3
  let main_cst_4 : FVec F S_ .f32 := constant S_ .f32 0x7F800000#32
  let main_v15 : FVec F S10x128 .f32 := broadcastInDim S10x128 ![] bcast_S_S10x128 main_cst_4
  let main_v16 : IVec S10x128 1 := cmpf .olt main_v14 main_v15
  fn_part1 (F := F) main_v13 main_v16
-- ==== Kernel.lean ====
abbrev S100000x128 : Shape := ⟨2, ![100000, 128]⟩
abbrev S10x128x128 : Shape := ⟨3, ![10, 128, 128]⟩
abbrev S10x128 : Shape := ⟨2, ![10, 128]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S100000 : Shape := ⟨1, ![100000]⟩
abbrev S625000x1 : Shape := ⟨2, ![625000, 1]⟩
abbrev S100000x1 : Shape := ⟨2, ![100000, 1]⟩
abbrev S10x256x128 : Shape := ⟨3, ![10, 256, 128]⟩
abbrev S625000x128 : Shape := ⟨2, ![625000, 128]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S10000x128 : Shape := ⟨2, ![10000, 128]⟩
abbrev S10000x256 : Shape := ⟨2, ![10000, 256]⟩

abbrev nBuf : Space → Nat
  | .hbm => 230
  | .vmem => 80
  | .smem => 0
  | _ => 0

abbrev hbmTy0_0 (i : Nat) : BufTy := match i % 128 with
  | 0 => ⟨S100000x128, .f32⟩
  | 1 => ⟨S10x128x128, .f32⟩
  | 2 => ⟨S10x128x128, .f32⟩
  | 3 => ⟨S10x128, .f32⟩
  | 4 => ⟨S2x625000, .i32⟩
  | 5 => ⟨S1x625000, .i32⟩
  | 6 => ⟨S625000, .i32⟩
  | 7 => ⟨S1x625000, .i32⟩
  | 8 => ⟨S625000, .i32⟩
  | 9 => ⟨S_, .f32⟩
  | 10 => ⟨S625000, .f32⟩
  | 11 => ⟨S_, .f32⟩
  | 12 => ⟨S100000, .f32⟩
  | 13 => ⟨S625000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S10x256x128, .f32⟩
  | 20 => ⟨S_, .i32⟩
  | 21 => ⟨S625000, .i32⟩
  | 22 => ⟨S625000, .i1⟩
  | 23 => ⟨S_, .i32⟩
  | 24 => ⟨S625000, .i32⟩
  | 25 => ⟨S625000, .i32⟩
  | 26 => ⟨S625000, .i32⟩
  | 27 => ⟨S625000x1, .i32⟩
  | 28 => ⟨S625000x128, .f32⟩
  | 29 => ⟨S_, .f32⟩
  | 30 => ⟨S100000x128, .f32⟩
  | 31 => ⟨S625000x1, .i32⟩
  | 32 => ⟨S100000x128, .f32⟩
  | 33 => ⟨S100000x128, .f32⟩
  | 34 => ⟨S100000x128, .f32⟩
  | 35 => ⟨S1x256x128, .f32⟩
  | 36 => ⟨S256x128, .f32⟩
  | 37 => ⟨S1x128, .f32⟩
  | 38 => ⟨S128, .f32⟩
  | 39 => ⟨S1x128, .f32⟩
  | 40 => ⟨S100000x128, .f32⟩
  | 41 => ⟨S_, .i32⟩
  | 42 => ⟨S625000, .i32⟩
  | 43 => ⟨S625000, .i1⟩
  | 44 => ⟨S_, .i32⟩
  | 45 => ⟨S625000, .i32⟩
  | 46 => ⟨S625000, .i32⟩
  | 47 => ⟨S625000, .i32⟩
  | 48 => ⟨S625000x1, .i32⟩
  | 49 => ⟨S625000x128, .f32⟩
  | 50 => ⟨S_, .f32⟩
  | 51 => ⟨S100000x128, .f32⟩
  | 52 => ⟨S625000x1, .i32⟩
  | 53 => ⟨S100000x128, .f32⟩
  | 54 => ⟨S100000x128, .f32⟩
  | 55 => ⟨S100000x128, .f32⟩
  | 56 => ⟨S1x256x128, .f32⟩
  | 57 => ⟨S256x128, .f32⟩
  | 58 => ⟨S1x128, .f32⟩
  | 59 => ⟨S128, .f32⟩
  | 60 => ⟨S1x128, .f32⟩
  | 61 => ⟨S100000x128, .f32⟩
  | 62 => ⟨S_, .i32⟩
  | 63 => ⟨S625000, .i32⟩
  | 64 => ⟨S625000, .i1⟩
  | 65 => ⟨S_, .i32⟩
  | 66 => ⟨S625000, .i32⟩
  | 67 => ⟨S625000, .i32⟩
  | 68 => ⟨S625000, .i32⟩
  | 69 => ⟨S625000x1, .i32⟩
  | 70 => ⟨S625000x128, .f32⟩
  | 71 => ⟨S_, .f32⟩
  | 72 => ⟨S100000x128, .f32⟩
  | 73 => ⟨S625000x1, .i32⟩
  | 74 => ⟨S100000x128, .f32⟩
  | 75 => ⟨S100000x128, .f32⟩
  | 76 => ⟨S100000x128, .f32⟩
  | 77 => ⟨S1x256x128, .f32⟩
  | 78 => ⟨S256x128, .f32⟩
  | 79 => ⟨S1x128, .f32⟩
  | 80 => ⟨S128, .f32⟩
  | 81 => ⟨S1x128, .f32⟩
  | 82 => ⟨S100000x128, .f32⟩
  | 83 => ⟨S_, .i32⟩
  | 84 => ⟨S625000, .i32⟩
  | 85 => ⟨S625000, .i1⟩
  | 86 => ⟨S_, .i32⟩
  | 87 => ⟨S625000, .i32⟩
  | 88 => ⟨S625000, .i32⟩
  | 89 => ⟨S625000, .i32⟩
  | 90 => ⟨S625000x1, .i32⟩
  | 91 => ⟨S625000x128, .f32⟩
  | 92 => ⟨S_, .f32⟩
  | 93 => ⟨S100000x128, .f32⟩
  | 94 => ⟨S625000x1, .i32⟩
  | 95 => ⟨S100000x128, .f32⟩
  | 96 => ⟨S100000x128, .f32⟩
  | 97 => ⟨S100000x128, .f32⟩
  | 98 => ⟨S1x256x128, .f32⟩
  | 99 => ⟨S256x128, .f32⟩
  | 100 => ⟨S1x128, .f32⟩
  | 101 => ⟨S128, .f32⟩
  | 102 => ⟨S1x128, .f32⟩
  | 103 => ⟨S100000x128, .f32⟩
  | 104 => ⟨S_, .i32⟩
  | 105 => ⟨S625000, .i32⟩
  | 106 => ⟨S625000, .i1⟩
  | 107 => ⟨S_, .i32⟩
  | 108 => ⟨S625000, .i32⟩
  | 109 => ⟨S625000, .i32⟩
  | 110 => ⟨S625000, .i32⟩
  | 111 => ⟨S625000x1, .i32⟩
  | 112 => ⟨S625000x128, .f32⟩
  | 113 => ⟨S_, .f32⟩
  | 114 => ⟨S100000x128, .f32⟩
  | 115 => ⟨S625000x1, .i32⟩
  | 116 => ⟨S100000x128, .f32⟩
  | 117 => ⟨S100000x128, .f32⟩
  | 118 => ⟨S100000x128, .f32⟩
  | 119 => ⟨S1x256x128, .f32⟩
  | 120 => ⟨S256x128, .f32⟩
  | 121 => ⟨S1x128, .f32⟩
  | 122 => ⟨S128, .f32⟩
  | 123 => ⟨S1x128, .f32⟩
  | 124 => ⟨S100000x128, .f32⟩
  | 125 => ⟨S_, .i32⟩
  | 126 => ⟨S625000, .i32⟩
  | 127 => ⟨S625000, .i1⟩
  | _ => ⟨S100000x128, .f32⟩

abbrev hbmTy0_1 (i : Nat) : BufTy := match i % 128 with
  | 0 => ⟨S_, .i32⟩
  | 1 => ⟨S625000, .i32⟩
  | 2 => ⟨S625000, .i32⟩
  | 3 => ⟨S625000, .i32⟩
  | 4 => ⟨S625000x1, .i32⟩
  | 5 => ⟨S625000x128, .f32⟩
  | 6 => ⟨S_, .f32⟩
  | 7 => ⟨S100000x128, .f32⟩
  | 8 => ⟨S625000x1, .i32⟩
  | 9 => ⟨S100000x128, .f32⟩
  | 10 => ⟨S100000x128, .f32⟩
  | 11 => ⟨S100000x128, .f32⟩
  | 12 => ⟨S1x256x128, .f32⟩
  | 13 => ⟨S256x128, .f32⟩
  | 14 => ⟨S1x128, .f32⟩
  | 15 => ⟨S128, .f32⟩
  | 16 => ⟨S1x128, .f32⟩
  | 17 => ⟨S100000x128, .f32⟩
  | 18 => ⟨S_, .i32⟩
  | 19 => ⟨S625000, .i32⟩
  | 20 => ⟨S625000, .i1⟩
  | 21 => ⟨S_, .i32⟩
  | 22 => ⟨S625000, .i32⟩
  | 23 => ⟨S625000, .i32⟩
  | 24 => ⟨S625000, .i32⟩
  | 25 => ⟨S625000x1, .i32⟩
  | 26 => ⟨S625000x128, .f32⟩
  | 27 => ⟨S_, .f32⟩
  | 28 => ⟨S100000x128, .f32⟩
  | 29 => ⟨S625000x1, .i32⟩
  | 30 => ⟨S100000x128, .f32⟩
  | 31 => ⟨S100000x128, .f32⟩
  | 32 => ⟨S100000x128, .f32⟩
  | 33 => ⟨S1x256x128, .f32⟩
  | 34 => ⟨S256x128, .f32⟩
  | 35 => ⟨S1x128, .f32⟩
  | 36 => ⟨S128, .f32⟩
  | 37 => ⟨S1x128, .f32⟩
  | 38 => ⟨S100000x128, .f32⟩
  | 39 => ⟨S_, .i32⟩
  | 40 => ⟨S625000, .i32⟩
  | 41 => ⟨S625000, .i1⟩
  | 42 => ⟨S_, .i32⟩
  | 43 => ⟨S625000, .i32⟩
  | 44 => ⟨S625000, .i32⟩
  | 45 => ⟨S625000, .i32⟩
  | 46 => ⟨S625000x1, .i32⟩
  | 47 => ⟨S625000x128, .f32⟩
  | 48 => ⟨S_, .f32⟩
  | 49 => ⟨S100000x128, .f32⟩
  | 50 => ⟨S625000x1, .i32⟩
  | 51 => ⟨S100000x128, .f32⟩
  | 52 => ⟨S100000x128, .f32⟩
  | 53 => ⟨S100000x128, .f32⟩
  | 54 => ⟨S1x256x128, .f32⟩
  | 55 => ⟨S256x128, .f32⟩
  | 56 => ⟨S1x128, .f32⟩
  | 57 => ⟨S128, .f32⟩
  | 58 => ⟨S1x128, .f32⟩
  | 59 => ⟨S100000x128, .f32⟩
  | 60 => ⟨S_, .i32⟩
  | 61 => ⟨S625000, .i32⟩
  | 62 => ⟨S625000, .i1⟩
  | 63 => ⟨S_, .i32⟩
  | 64 => ⟨S625000, .i32⟩
  | 65 => ⟨S625000, .i32⟩
  | 66 => ⟨S625000, .i32⟩
  | 67 => ⟨S625000x1, .i32⟩
  | 68 => ⟨S625000x128, .f32⟩
  | 69 => ⟨S_, .f32⟩
  | 70 => ⟨S100000x128, .f32⟩
  | 71 => ⟨S625000x1, .i32⟩
  | 72 => ⟨S100000x128, .f32⟩
  | 73 => ⟨S100000x128, .f32⟩
  | 74 => ⟨S100000x128, .f32⟩
  | 75 => ⟨S1x256x128, .f32⟩
  | 76 => ⟨S256x128, .f32⟩
  | 77 => ⟨S1x128, .f32⟩
  | 78 => ⟨S128, .f32⟩
  | 79 => ⟨S1x128, .f32⟩
  | 80 => ⟨S100000x128, .f32⟩
  | 81 => ⟨S_, .i32⟩
  | 82 => ⟨S625000, .i32⟩
  | 83 => ⟨S625000, .i1⟩
  | 84 => ⟨S_, .i32⟩
  | 85 => ⟨S625000, .i32⟩
  | 86 => ⟨S625000, .i32⟩
  | 87 => ⟨S625000, .i32⟩
  | 88 => ⟨S625000x1, .i32⟩
  | 89 => ⟨S625000x128, .f32⟩
  | 90 => ⟨S_, .f32⟩
  | 91 => ⟨S100000x128, .f32⟩
  | 92 => ⟨S625000x1, .i32⟩
  | 93 => ⟨S100000x128, .f32⟩
  | 94 => ⟨S100000x128, .f32⟩
  | 95 => ⟨S100000x128, .f32⟩
  | 96 => ⟨S1x256x128, .f32⟩
  | 97 => ⟨S256x128, .f32⟩
  | 98 => ⟨S1x128, .f32⟩
  | 99 => ⟨S128, .f32⟩
  | 100 => ⟨S1x128, .f32⟩
  | 101 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S256x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S256x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S256x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S256x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S256x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S256x128, .f32⟩
  | .local _ .vmem, ⟨45, _⟩ => ⟨S1x128, .f32⟩
  | .local _ .vmem, ⟨46, _⟩ => ⟨S10000x128, .f32⟩
  | .local _ .vmem, ⟨47, _⟩ => ⟨S10000x128, .f32⟩
  | .local _ .vmem, ⟨48, _⟩ => ⟨S10000x128, .f32⟩
  | .local _ .vmem, ⟨49, _⟩ => ⟨S10000x128, .f32⟩
  | .local _ .vmem, ⟨50, _⟩ => ⟨S10000x128, .f32⟩
  | .local _ .vmem, ⟨51, _⟩ => ⟨S10000x128, .f32⟩
  | .local _ .vmem, ⟨52, _⟩ => ⟨S256x128, .f32⟩
  | .local _ .vmem, ⟨53, _⟩ => ⟨S1x128, .f32⟩
  | .local _ .vmem, ⟨54, _⟩ => ⟨S10000x128, .f32⟩
  | .local _ .vmem, ⟨55, _⟩ => ⟨S10000x128, .f32⟩
  | .local _ .vmem, ⟨56, _⟩ => ⟨S10000x128, .f32⟩
  | .local _ .vmem, ⟨57, _⟩ => ⟨S10000x128, .f32⟩
  | .local _ .vmem, ⟨58, _⟩ => ⟨S10000x128, .f32⟩
  | .local _ .vmem, ⟨59, _⟩ => ⟨S10000x128, .f32⟩
  | .local _ .vmem, ⟨60, _⟩ => ⟨S256x128, .f32⟩
  | .local _ .vmem, ⟨61, _⟩ => ⟨S1x128, .f32⟩
  | .local _ .vmem, ⟨62, _⟩ => ⟨S10000x128, .f32⟩
  | .local _ .vmem, ⟨63, _⟩ => ⟨S10000x128, .f32⟩
  | .local _ .vmem, ⟨64, _⟩ => ⟨S10000x128, .f32⟩
  | .local _ .vmem, ⟨65, _⟩ => ⟨S10000x128, .f32⟩
  | .local _ .vmem, ⟨66, _⟩ => ⟨S10000x128, .f32⟩
  | .local _ .vmem, ⟨67, _⟩ => ⟨S10000x128, .f32⟩
  | .local _ .vmem, ⟨68, _⟩ => ⟨S256x128, .f32⟩
  | .local _ .vmem, ⟨69, _⟩ => ⟨S1x128, .f32⟩
  | .local _ .vmem, ⟨70, _⟩ => ⟨S10000x128, .f32⟩
  | .local _ .vmem, ⟨71, _⟩ => ⟨S10000x128, .f32⟩
  | .local _ .vmem, ⟨72, _⟩ => ⟨S10000x128, .f32⟩
  | .local _ .vmem, ⟨73, _⟩ => ⟨S10000x128, .f32⟩
  | .local _ .vmem, ⟨74, _⟩ => ⟨S10000x128, .f32⟩
  | .local _ .vmem, ⟨75, _⟩ => ⟨S10000x128, .f32⟩
  | .local _ .vmem, ⟨76, _⟩ => ⟨S256x128, .f32⟩
  | .local _ .vmem, ⟨77, _⟩ => ⟨S1x128, .f32⟩
  | .local _ .vmem, ⟨78, _⟩ => ⟨S10000x128, .f32⟩
  | .local _ .vmem, ⟨79, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_7 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_10 : Ref sig .tc := ⟨.hbm, 83, rfl⟩
abbrev main_v66 : Ref sig .tc := ⟨.hbm, 84, rfl⟩
abbrev main_v67 : Ref sig .tc := ⟨.hbm, 85, rfl⟩
abbrev main_c_11 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_c_13 : Ref sig .tc := ⟨.hbm, 104, rfl⟩
abbrev main_v84 : Ref sig .tc := ⟨.hbm, 105, rfl⟩
abbrev main_v85 : Ref sig .tc := ⟨.hbm, 106, rfl⟩
abbrev main_c_14 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_15 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_c_16 : Ref sig .tc := ⟨.hbm, 125, rfl⟩
abbrev main_v102 : Ref sig .tc := ⟨.hbm, 126, rfl⟩
abbrev main_v103 : Ref sig .tc := ⟨.hbm, 127, rfl⟩
abbrev main_c_17 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_18 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_c_19 : Ref sig .tc := ⟨.hbm, 146, rfl⟩
abbrev main_v120 : Ref sig .tc := ⟨.hbm, 147, rfl⟩
abbrev main_v121 : Ref sig .tc := ⟨.hbm, 148, rfl⟩
abbrev main_c_20 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_21 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_c_22 : Ref sig .tc := ⟨.hbm, 167, rfl⟩
abbrev main_v138 : Ref sig .tc := ⟨.hbm, 168, rfl⟩
abbrev main_v139 : Ref sig .tc := ⟨.hbm, 169, rfl⟩
abbrev main_c_23 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_24 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_c_25 : Ref sig .tc := ⟨.hbm, 188, rfl⟩
abbrev main_v156 : Ref sig .tc := ⟨.hbm, 189, rfl⟩
abbrev main_v157 : Ref sig .tc := ⟨.hbm, 190, rfl⟩
abbrev main_c_26 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_27 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_c_28 : Ref sig .tc := ⟨.hbm, 209, rfl⟩
abbrev main_v174 : Ref sig .tc := ⟨.hbm, 210, rfl⟩
abbrev main_v175 : Ref sig .tc := ⟨.hbm, 211, rfl⟩
abbrev main_c_29 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_cst_30 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg4_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg1_1 : Ref sig .tc := ⟨.vmem, 75, rfl⟩
abbrev cc9_stg2_0 : Ref sig .tc := ⟨.vmem, 76, rfl⟩
abbrev cc9_stg3_0 : Ref sig .tc := ⟨.vmem, 77, rfl⟩
abbrev cc9_stg4_0 : Ref sig .tc := ⟨.vmem, 78, rfl⟩
abbrev cc9_stg4_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem4_0 : DmaSem sig := 62
abbrev cc7_sem4_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem3_0 : DmaSem sig := 69
abbrev cc8_sem4_0 : DmaSem sig := 70
abbrev cc8_sem4_1 : DmaSem sig := 71
abbrev cc9_sem0_0 : DmaSem sig := 72
abbrev cc9_sem0_1 : DmaSem sig := 73
abbrev cc9_sem1_0 : DmaSem sig := 74
abbrev cc9_sem1_1 : DmaSem sig := 75
abbrev cc9_sem2_0 : DmaSem sig := 76
abbrev cc9_sem3_0 : DmaSem sig := 77
abbrev cc9_sem4_0 : DmaSem sig := 78
abbrev cc9_sem4_1 : DmaSem sig := 79

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S256x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S10000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S10000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S100000 : S_.BroadcastsInDim S100000 (![] : Fin 0 → Fin S100000.rank)
  bcast_S625000_S625000x1_0 : S625000.BroadcastsInDim S625000x1 (![0] : Fin 1 → Fin S625000x1.rank)
  bcast_S100000_S100000x1_0 : S100000.BroadcastsInDim S100000x1 (![0] : Fin 1 → Fin S100000x1.rank)
  concatenates_S10x128x128_S10x128x128_S10x256x128_d1 : Shape.Concatenates [S10x128x128, S10x128x128] S10x256x128 1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S10x256x128_S1x256x128_0_0_0 : S10x256x128.Slices ![0, 0, 0] S1x256x128
  shapeCasts_S1x256x128_S256x128 : S1x256x128.ShapeCasts S256x128
  slices_S10x128_S1x128_0_0 : S10x128.Slices ![0, 0] S1x128
  shapeCasts_S1x128_S128 : S1x128.ShapeCasts S128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  concatenates_S10000x128_S10000x128_S10000x256_d1 : Shape.Concatenates [S10000x128, S10000x128] S10000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S10x256x128_S1x256x128_1_0_0 : S10x256x128.Slices ![1, 0, 0] S1x256x128
  slices_S10x128_S1x128_1_0 : S10x128.Slices ![1, 0] S1x128
  slices_S10x256x128_S1x256x128_2_0_0 : S10x256x128.Slices ![2, 0, 0] S1x256x128
  slices_S10x128_S1x128_2_0 : S10x128.Slices ![2, 0] S1x128
  slices_S10x256x128_S1x256x128_3_0_0 : S10x256x128.Slices ![3, 0, 0] S1x256x128
  slices_S10x128_S1x128_3_0 : S10x128.Slices ![3, 0] S1x128
  slices_S10x256x128_S1x256x128_4_0_0 : S10x256x128.Slices ![4, 0, 0] S1x256x128
  slices_S10x128_S1x128_4_0 : S10x128.Slices ![4, 0] S1x128
  slices_S10x256x128_S1x256x128_5_0_0 : S10x256x128.Slices ![5, 0, 0] S1x256x128
  slices_S10x128_S1x128_5_0 : S10x128.Slices ![5, 0] S1x128
  slices_S10x256x128_S1x256x128_6_0_0 : S10x256x128.Slices ![6, 0, 0] S1x256x128
  slices_S10x128_S1x128_6_0 : S10x128.Slices ![6, 0] S1x128
  slices_S10x256x128_S1x256x128_7_0_0 : S10x256x128.Slices ![7, 0, 0] S1x256x128
  slices_S10x128_S1x128_7_0 : S10x128.Slices ![7, 0] S1x128
  slices_S10x256x128_S1x256x128_8_0_0 : S10x256x128.Slices ![8, 0, 0] S1x256x128
  slices_S10x128_S1x128_8_0 : S10x128.Slices ![8, 0] S1x128
  slices_S10x256x128_S1x256x128_9_0_0 : S10x256x128.Slices ![9, 0, 0] S1x256x128
  slices_S10x128_S1x128_9_0 : S10x128.Slices ![9, 0] S1x128
  scatter_S100000_S625000x1_S625000_n_0_0_1_wf : ScatterDims.WF S100000 S625000x1 S625000 [] [0] [0] 1
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S10000x256_S256x128_S10000x128_1_0_0_1_n_n_wf : DotDims.WF S10000x256 S256x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S100000x128.size a
  hwx2_4 : ∀ i : grid2.Coords, EltTy.bits .f32 = 32 ∨ (Rect.block (s := S100000x128) S10000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S100000x128.size a
  hwx3_4 : ∀ i : grid3.Coords, EltTy.bits .f32 = 32 ∨ (Rect.block (s := S100000x128) S10000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S100000x128.size a
  hwx4_4 : ∀ i : grid4.Coords, EltTy.bits .f32 = 32 ∨ (Rect.block (s := S100000x128) S10000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S100000x128.size a
  hwx5_1 : ∀ i : grid5.Coords, EltTy.bits .f32 = 32 ∨ (Rect.block (s := S100000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S256x128.size a
  hwx5_2 : ∀ i : grid5.Coords, EltTy.bits .f32 = 32 ∨ (Rect.block (s := S256x128) S256x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x128.size a ≤ S100000x128.size a
  hwx5_4 : ∀ i : grid5.Coords, EltTy.bits .f32 = 32 ∨ (Rect.block (s := S100000x128) S10000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S100000x128.size a
  hwx6_1 : ∀ i : grid6.Coords, EltTy.bits .f32 = 32 ∨ (Rect.block (s := S100000x128) S10000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .f32 = 32 ∨ (Rect.block (s := S256x128) S256x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x128.size a ≤ S100000x128.size a
  hwx6_4 : ∀ i : grid6.Coords, EltTy.bits .f32 = 32 ∨ (Rect.block (s := S100000x128) S10000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S100000x128.size a
  hwx7_1 : ∀ i : grid7.Coords, EltTy.bits .f32 = 32 ∨ (Rect.block (s := S100000x128) S10000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x128.size a ≤ S256x128.size a
  hwx7_2 : ∀ i : grid7.Coords, EltTy.bits .f32 = 32 ∨ (Rect.block (s := S256x128) S256x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x128.size a ≤ S100000x128.size a
  hwx7_4 : ∀ i : grid7.Coords, EltTy.bits .f32 = 32 ∨ (Rect.block (s := S100000x128) S10000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x128.size a ≤ S100000x128.size a
  hwx8_1 : ∀ i : grid8.Coords, EltTy.bits .f32 = 32 ∨ (Rect.block (s := S100000x128) S10000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x128.size a ≤ S256x128.size a
  hwx8_2 : ∀ i : grid8.Coords, EltTy.bits .f32 = 32 ∨ (Rect.block (s := S256x128) S256x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S10000x128.size a ≤ S100000x128.size a
  hwx8_4 : ∀ i : grid8.Coords, EltTy.bits .f32 = 32 ∨ (Rect.block (s := S100000x128) S10000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x128.size a ≤ S100000x128.size a
  hwx9_0 : ∀ i : grid9.Coords, EltTy.bits .f32 = 32 ∨ (Rect.block (s := S100000x128) S10000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x128.size a ≤ S100000x128.size a
  hwx9_1 : ∀ i : grid9.Coords, EltTy.bits .f32 = 32 ∨ (Rect.block (s := S100000x128) S10000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x128.size a ≤ S256x128.size a
  hwx9_2 : ∀ i : grid9.Coords, EltTy.bits .f32 = 32 ∨ (Rect.block (s := S256x128) S256x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S10000x128.size a ≤ S100000x128.size a
  hwx9_4 : ∀ i : grid9.Coords, EltTy.bits .f32 = 32 ∨ (Rect.block (s := S100000x128) S10000x128.size (cc9_transform_4 i) (hinb9_4 i)).WholeWords (EltTy.packing .f32)

variable [Facts₀]

def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

abbrev win0_0 : Pipeline.Window sig grid0 :=
  Pipeline.Window.ofSpec (Memref.whole main_v23) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v59) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v77) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v95) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v97) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v101) S10000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v113) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v115) S256x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v118) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v119) S10000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v131) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v119) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v133) S256x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v136) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v137) S10000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v149) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v137) S10000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v151) S256x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v154) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v155) S10000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v167) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v155) S10000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v169) S256x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v172) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v173) S10000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v185) S10000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v173) S10000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v187) S256x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v190) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v191) S10000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S100000x128 : Shape := ⟨2, ![100000, 128]⟩
abbrev S10x128x128 : Shape := ⟨3, ![10, 128, 128]⟩
abbrev S10x128 : Shape := ⟨2, ![10, 128]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S100000 : Shape := ⟨1, ![100000]⟩
abbrev S625000x1 : Shape := ⟨2, ![625000, 1]⟩
abbrev S100000x1 : Shape := ⟨2, ![100000, 1]⟩
abbrev S625000x128 : Shape := ⟨2, ![625000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 316
  | .vmem => 0
  | .smem => 0
  | _ => 0

abbrev hbmTy0_0 (i : Nat) : BufTy := match i % 128 with
  | 0 => ⟨S100000x128, .f32⟩
  | 1 => ⟨S10x128x128, .f32⟩
  | 2 => ⟨S10x128x128, .f32⟩
  | 3 => ⟨S10x128, .f32⟩
  | 4 => ⟨S2x625000, .i32⟩
  | 5 => ⟨S1x625000, .i32⟩
  | 6 => ⟨S625000, .i32⟩
  | 7 => ⟨S1x625000, .i32⟩
  | 8 => ⟨S625000, .i32⟩
  | 9 => ⟨S_, .f32⟩
  | 10 => ⟨S625000, .f32⟩
  | 11 => ⟨S_, .f32⟩
  | 12 => ⟨S100000, .f32⟩
  | 13 => ⟨S625000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S_, .i32⟩
  | 20 => ⟨S625000, .i32⟩
  | 21 => ⟨S625000, .i1⟩
  | 22 => ⟨S_, .i32⟩
  | 23 => ⟨S625000, .i32⟩
  | 24 => ⟨S625000, .i32⟩
  | 25 => ⟨S625000, .i32⟩
  | 26 => ⟨S625000x1, .i32⟩
  | 27 => ⟨S625000x128, .f32⟩
  | 28 => ⟨S_, .f32⟩
  | 29 => ⟨S100000x128, .f32⟩
  | 30 => ⟨S625000x1, .i32⟩
  | 31 => ⟨S100000x128, .f32⟩
  | 32 => ⟨S100000x128, .f32⟩
  | 33 => ⟨S100000x128, .f32⟩
  | 34 => ⟨S1x128x128, .f32⟩
  | 35 => ⟨S128x128, .f32⟩
  | 36 => ⟨S100000x128, .f32⟩
  | 37 => ⟨S1x128x128, .f32⟩
  | 38 => ⟨S128x128, .f32⟩
  | 39 => ⟨S100000x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .i32⟩
  | 50 => ⟨S625000, .i32⟩
  | 51 => ⟨S625000, .i1⟩
  | 52 => ⟨S_, .i32⟩
  | 53 => ⟨S625000, .i32⟩
  | 54 => ⟨S625000, .i32⟩
  | 55 => ⟨S625000, .i32⟩
  | 56 => ⟨S625000x1, .i32⟩
  | 57 => ⟨S625000x128, .f32⟩
  | 58 => ⟨S_, .f32⟩
  | 59 => ⟨S100000x128, .f32⟩
  | 60 => ⟨S625000x1, .i32⟩
  | 61 => ⟨S100000x128, .f32⟩
  | 62 => ⟨S100000x128, .f32⟩
  | 63 => ⟨S100000x128, .f32⟩
  | 64 => ⟨S1x128x128, .f32⟩
  | 65 => ⟨S128x128, .f32⟩
  | 66 => ⟨S100000x128, .f32⟩
  | 67 => ⟨S1x128x128, .f32⟩
  | 68 => ⟨S128x128, .f32⟩
  | 69 => ⟨S100000x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .i32⟩
  | 80 => ⟨S625000, .i32⟩
  | 81 => ⟨S625000, .i1⟩
  | 82 => ⟨S_, .i32⟩
  | 83 => ⟨S625000, .i32⟩
  | 84 => ⟨S625000, .i32⟩
  | 85 => ⟨S625000, .i32⟩
  | 86 => ⟨S625000x1, .i32⟩
  | 87 => ⟨S625000x128, .f32⟩
  | 88 => ⟨S_, .f32⟩
  | 89 => ⟨S100000x128, .f32⟩
  | 90 => ⟨S625000x1, .i32⟩
  | 91 => ⟨S100000x128, .f32⟩
  | 92 => ⟨S100000x128, .f32⟩
  | 93 => ⟨S100000x128, .f32⟩
  | 94 => ⟨S1x128x128, .f32⟩
  | 95 => ⟨S128x128, .f32⟩
  | 96 => ⟨S100000x128, .f32⟩
  | 97 => ⟨S1x128x128, .f32⟩
  | 98 => ⟨S128x128, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .i32⟩
  | 110 => ⟨S625000, .i32⟩
  | 111 => ⟨S625000, .i1⟩
  | 112 => ⟨S_, .i32⟩
  | 113 => ⟨S625000, .i32⟩
  | 114 => ⟨S625000, .i32⟩
  | 115 => ⟨S625000, .i32⟩
  | 116 => ⟨S625000x1, .i32⟩
  | 117 => ⟨S625000x128, .f32⟩
  | 118 => ⟨S_, .f32⟩
  | 119 => ⟨S100000x128, .f32⟩
  | 120 => ⟨S625000x1, .i32⟩
  | 121 => ⟨S100000x128, .f32⟩
  | 122 => ⟨S100000x128, .f32⟩
  | 123 => ⟨S100000x128, .f32⟩
  | 124 => ⟨S1x128x128, .f32⟩
  | 125 => ⟨S128x128, .f32⟩
  | 126 => ⟨S100000x128, .f32⟩
  | 127 => ⟨S1x128x128, .f32⟩
  | _ => ⟨S100000x128, .f32⟩

abbrev hbmTy0_1 (i : Nat) : BufTy := match i % 128 with
  | 0 => ⟨S128x128, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S_, .i32⟩
  | 12 => ⟨S625000, .i32⟩
  | 13 => ⟨S625000, .i1⟩
  | 14 => ⟨S_, .i32⟩
  | 15 => ⟨S625000, .i32⟩
  | 16 => ⟨S625000, .i32⟩
  | 17 => ⟨S625000, .i32⟩
  | 18 => ⟨S625000x1, .i32⟩
  | 19 => ⟨S625000x128, .f32⟩
  | 20 => ⟨S_, .f32⟩
  | 21 => ⟨S100000x128, .f32⟩
  | 22 => ⟨S625000x1, .i32⟩
  | 23 => ⟨S100000x128, .f32⟩
  | 24 => ⟨S100000x128, .f32⟩
  | 25 => ⟨S100000x128, .f32⟩
  | 26 => ⟨S1x128x128, .f32⟩
  | 27 => ⟨S128x128, .f32⟩
  | 28 => ⟨S100000x128, .f32⟩
  | 29 => ⟨S1x128x128, .f32⟩
  | 30 => ⟨S128x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S_, .i32⟩
  | 42 => ⟨S625000, .i32⟩
  | 43 => ⟨S625000, .i1⟩
  | 44 => ⟨S_, .i32⟩
  | 45 => ⟨S625000, .i32⟩
  | 46 => ⟨S625000, .i32⟩
  | 47 => ⟨S625000, .i32⟩
  | 48 => ⟨S625000x1, .i32⟩
  | 49 => ⟨S625000x128, .f32⟩
  | 50 => ⟨S_, .f32⟩
  | 51 => ⟨S100000x128, .f32⟩
  | 52 => ⟨S625000x1, .i32⟩
  | 53 => ⟨S100000x128, .f32⟩
  | 54 => ⟨S100000x128, .f32⟩
  | 55 => ⟨S100000x128, .f32⟩
  | 56 => ⟨S1x128x128, .f32⟩
  | 57 => ⟨S128x128, .f32⟩
  | 58 => ⟨S100000x128, .f32⟩
  | 59 => ⟨S1x128x128, .f32⟩
  | 60 => ⟨S128x128, .f32⟩
  | 61 => ⟨S100000x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .i32⟩
  | 72 => ⟨S625000, .i32⟩
  | 73 => ⟨S625000, .i1⟩
  | 74 => ⟨S_, .i32⟩
  | 75 => ⟨S625000, .i32⟩
  | 76 => ⟨S625000, .i32⟩
  | 77 => ⟨S625000, .i32⟩
  | 78 => ⟨S625000x1, .i32⟩
  | 79 => ⟨S625000x128, .f32⟩
  | 80 => ⟨S_, .f32⟩
  | 81 => ⟨S100000x128, .f32⟩
  | 82 => ⟨S625000x1, .i32⟩
  | 83 => ⟨S100000x128, .f32⟩
  | 84 => ⟨S100000x128, .f32⟩
  | 85 => ⟨S100000x128, .f32⟩
  | 86 => ⟨S1x128x128, .f32⟩
  | 87 => ⟨S128x128, .f32⟩
  | 88 => ⟨S100000x128, .f32⟩
  | 89 => ⟨S1x128x128, .f32⟩
  | 90 => ⟨S128x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .i32⟩
  | 102 => ⟨S625000, .i32⟩
  | 103 => ⟨S625000, .i1⟩
  | 104 => ⟨S_, .i32⟩
  | 105 => ⟨S625000, .i32⟩
  | 106 => ⟨S625000, .i32⟩
  | 107 => ⟨S625000, .i32⟩
  | 108 => ⟨S625000x1, .i32⟩
  | 109 => ⟨S625000x128, .f32⟩
  | 110 => ⟨S_, .f32⟩
  | 111 => ⟨S100000x128, .f32⟩
  | 112 => ⟨S625000x1, .i32⟩
  | 113 => ⟨S100000x128, .f32⟩
  | 114 => ⟨S100000x128, .f32⟩
  | 115 => ⟨S100000x128, .f32⟩
  | 116 => ⟨S1x128x128, .f32⟩
  | 117 => ⟨S128x128, .f32⟩
  | 118 => ⟨S100000x128, .f32⟩
  | 119 => ⟨S1x128x128, .f32⟩
  | 120 => ⟨S128x128, .f32⟩
  | 121 => ⟨S100000x128, .f32⟩
  | 122 => ⟨S100000x128, .f32⟩
  | 123 => ⟨S1x128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_2 (i : Nat) : BufTy := match i % 128 with
  | 0 => ⟨S_, .f32⟩
  | 1 => ⟨S100000x128, .f32⟩
  | 2 => ⟨S100000x128, .f32⟩
  | 3 => ⟨S_, .i32⟩
  | 4 => ⟨S625000, .i32⟩
  | 5 => ⟨S625000, .i1⟩
  | 6 => ⟨S_, .i32⟩
  | 7 => ⟨S625000, .i32⟩
  | 8 => ⟨S625000, .i32⟩
  | 9 => ⟨S625000, .i32⟩
  | 10 => ⟨S625000x1, .i32⟩
  | 11 => ⟨S625000x128, .f32⟩
  | 12 => ⟨S_, .f32⟩
  | 13 => ⟨S100000x128, .f32⟩
  | 14 => ⟨S625000x1, .i32⟩
  | 15 => ⟨S100000x128, .f32⟩
  | 16 => ⟨S100000x128, .f32⟩
  | 17 => ⟨S100000x128, .f32⟩
  | 18 => ⟨S1x128x128, .f32⟩
  | 19 => ⟨S128x128, .f32⟩
  | 20 => ⟨S100000x128, .f32⟩
  | 21 => ⟨S1x128x128, .f32⟩
  | 22 => ⟨S128x128, .f32⟩
  | 23 => ⟨S100000x128, .f32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .i32⟩
  | 34 => ⟨S625000, .i32⟩
  | 35 => ⟨S625000, .i1⟩
  | 36 => ⟨S_, .i32⟩
  | 37 => ⟨S625000, .i32⟩
  | 38 => ⟨S625000, .i32⟩
  | 39 => ⟨S625000, .i32⟩
  | 40 => ⟨S625000x1, .i32⟩
  | 41 => ⟨S625000x128, .f32⟩
  | 42 => ⟨S_, .f32⟩
  | 43 => ⟨S100000x128, .f32⟩
  | 44 => ⟨S625000x1, .i32⟩
  | 45 => ⟨S100000x128, .f32⟩
  | 46 => ⟨S100000x128, .f32⟩
  | 47 => ⟨S100000x128, .f32⟩
  | 48 => ⟨S1x128x128, .f32⟩
  | 49 => ⟨S128x128, .f32⟩
  | 50 => ⟨S100000x128, .f32⟩
  | 51 => ⟨S1x128x128, .f32⟩
  | 52 => ⟨S128x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_cst : Ref sig .tc := ⟨.hbm, 46, rfl⟩
abbrev main_call0_v0 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call1_cst : Ref sig .tc := ⟨.hbm, 76, rfl⟩
abbrev main_call1_v0 : Ref sig .tc := ⟨.hbm, 77, rfl⟩
abbrev main_v60 : Ref sig .tc := ⟨.hbm, 78, rfl⟩
abbrev main_c_7 : Ref sig .tc := ⟨.hbm, 79, rfl⟩
abbrev main_v61 : Ref sig .tc := ⟨.hbm, 80, rfl⟩
abbrev main_v62 : Ref sig .tc := ⟨.hbm, 81, rfl⟩
abbrev main_c_8 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_call2_cst : Ref sig .tc := ⟨.hbm, 106, rfl⟩
abbrev main_call2_v0 : Ref sig .tc := ⟨.hbm, 107, rfl⟩
abbrev main_v85 : Ref sig .tc := ⟨.hbm, 108, rfl⟩
abbrev main_c_10 : Ref sig .tc := ⟨.hbm, 109, rfl⟩
abbrev main_v86 : Ref sig .tc := ⟨.hbm, 110, rfl⟩
abbrev main_v87 : Ref sig .tc := ⟨.hbm, 111, rfl⟩
abbrev main_c_11 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_12 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_call3_cst : Ref sig .tc := ⟨.hbm, 136, rfl⟩
abbrev main_call3_v0 : Ref sig .tc := ⟨.hbm, 137, rfl⟩
abbrev main_v110 : Ref sig .tc := ⟨.hbm, 138, rfl⟩
abbrev main_c_13 : Ref sig .tc := ⟨.hbm, 139, rfl⟩
abbrev main_v111 : Ref sig .tc := ⟨.hbm, 140, rfl⟩
abbrev main_v112 : Ref sig .tc := ⟨.hbm, 141, rfl⟩
abbrev main_c_14 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_15 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_call4_cst : Ref sig .tc := ⟨.hbm, 166, rfl⟩
abbrev main_call4_v0 : Ref sig .tc := ⟨.hbm, 167, rfl⟩
abbrev main_v135 : Ref sig .tc := ⟨.hbm, 168, rfl⟩
abbrev main_c_16 : Ref sig .tc := ⟨.hbm, 169, rfl⟩
abbrev main_v136 : Ref sig .tc := ⟨.hbm, 170, rfl⟩
abbrev main_v137 : Ref sig .tc := ⟨.hbm, 171, rfl⟩
abbrev main_c_17 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_18 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_call5_cst : Ref sig .tc := ⟨.hbm, 196, rfl⟩
abbrev main_call5_v0 : Ref sig .tc := ⟨.hbm, 197, rfl⟩
abbrev main_v160 : Ref sig .tc := ⟨.hbm, 198, rfl⟩
abbrev main_c_19 : Ref sig .tc := ⟨.hbm, 199, rfl⟩
abbrev main_v161 : Ref sig .tc := ⟨.hbm, 200, rfl⟩
abbrev main_v162 : Ref sig .tc := ⟨.hbm, 201, rfl⟩
abbrev main_c_20 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_21 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_call6_cst : Ref sig .tc := ⟨.hbm, 226, rfl⟩
abbrev main_call6_v0 : Ref sig .tc := ⟨.hbm, 227, rfl⟩
abbrev main_v185 : Ref sig .tc := ⟨.hbm, 228, rfl⟩
abbrev main_c_22 : Ref sig .tc := ⟨.hbm, 229, rfl⟩
abbrev main_v186 : Ref sig .tc := ⟨.hbm, 230, rfl⟩
abbrev main_v187 : Ref sig .tc := ⟨.hbm, 231, rfl⟩
abbrev main_c_23 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_cst_24 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_call7_cst : Ref sig .tc := ⟨.hbm, 256, rfl⟩
abbrev main_call7_v0 : Ref sig .tc := ⟨.hbm, 257, rfl⟩
abbrev main_v210 : Ref sig .tc := ⟨.hbm, 258, rfl⟩
abbrev main_c_25 : Ref sig .tc := ⟨.hbm, 259, rfl⟩
abbrev main_v211 : Ref sig .tc := ⟨.hbm, 260, rfl⟩
abbrev main_v212 : Ref sig .tc := ⟨.hbm, 261, rfl⟩
abbrev main_c_26 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_cst_27 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_call8_cst : Ref sig .tc := ⟨.hbm, 286, rfl⟩
abbrev main_call8_v0 : Ref sig .tc := ⟨.hbm, 287, rfl⟩
abbrev main_v235 : Ref sig .tc := ⟨.hbm, 288, rfl⟩
abbrev main_c_28 : Ref sig .tc := ⟨.hbm, 289, rfl⟩
abbrev main_v236 : Ref sig .tc := ⟨.hbm, 290, rfl⟩
abbrev main_v237 : Ref sig .tc := ⟨.hbm, 291, rfl⟩
abbrev main_c_29 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_cst_30 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S100000 : S_.BroadcastsInDim S100000 (![] : Fin 0 → Fin S100000.rank)
  bcast_S625000_S625000x1_0 : S625000.BroadcastsInDim S625000x1 (![0] : Fin 1 → Fin S625000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S10x128x128_S1x128x128_0_0_0 : S10x128x128.Slices ![0, 0, 0] S1x128x128
  shapeCasts_S1x128x128_S128x128 : S1x128x128.ShapeCasts S128x128
  slices_S10x128_S1x128_0_0 : S10x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S10x128x128_S1x128x128_1_0_0 : S10x128x128.Slices ![1, 0, 0] S1x128x128
  slices_S10x128_S1x128_1_0 : S10x128.Slices ![1, 0] S1x128
  slices_S10x128x128_S1x128x128_2_0_0 : S10x128x128.Slices ![2, 0, 0] S1x128x128
  slices_S10x128_S1x128_2_0 : S10x128.Slices ![2, 0] S1x128
  slices_S10x128x128_S1x128x128_3_0_0 : S10x128x128.Slices ![3, 0, 0] S1x128x128
  slices_S10x128_S1x128_3_0 : S10x128.Slices ![3, 0] S1x128
  slices_S10x128x128_S1x128x128_4_0_0 : S10x128x128.Slices ![4, 0, 0] S1x128x128
  slices_S10x128_S1x128_4_0 : S10x128.Slices ![4, 0] S1x128
  slices_S10x128x128_S1x128x128_5_0_0 : S10x128x128.Slices ![5, 0, 0] S1x128x128
  slices_S10x128_S1x128_5_0 : S10x128.Slices ![5, 0] S1x128
  slices_S10x128x128_S1x128x128_6_0_0 : S10x128x128.Slices ![6, 0, 0] S1x128x128
  slices_S10x128_S1x128_6_0 : S10x128.Slices ![6, 0] S1x128
  slices_S10x128x128_S1x128x128_7_0_0 : S10x128x128.Slices ![7, 0, 0] S1x128x128
  slices_S10x128_S1x128_7_0 : S10x128.Slices ![7, 0] S1x128
  slices_S10x128x128_S1x128x128_8_0_0 : S10x128x128.Slices ![8, 0, 0] S1x128x128
  slices_S10x128_S1x128_8_0 : S10x128.Slices ![8, 0] S1x128
  slices_S10x128x128_S1x128x128_9_0_0 : S10x128x128.Slices ![9, 0, 0] S1x128x128
  slices_S10x128_S1x128_9_0 : S10x128.Slices ![9, 0] S1x128
  scatter_S100000_S625000x1_S625000_n_0_0_1_wf : ScatterDims.WF S100000 S625000x1 S625000 [] [0] [0] 1
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_0_0_1_n_n_wf : DotDims.WF S100000x128 S128x128 S100000x128 [1] [0] [0] [1] [] []

variable [Facts₀]

def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KDefs.lean ====
/-
  The host-side functions of the kernel's program, as functions of array contents, at any float family `F`.

  Before each layer the program computes on the host, from the node features `x`: the neighbour mean
  `agg = segment_sum(x[src], dst) / deg` (a gather of rows at the source ids, negative ids wrapped once by the
  node count; a scatter-add of those rows at the destination ids; a division by the in-degree clamped below at 1),
  the layer's slice of the stacked weights `[Wl ; Wr]` and the layer's bias row. They are named here once, so
  that ten layers' worth of host operations read as ten applications of the same functions.
-/
import proofs.«402578_j10522669875348_3_alg».proof.KernelIdeal

noncomputable section

namespace Cert.Sage.K

open Idealize.ShloMosaic Idealize.ShloMosaic.TcCoe Cert.KernelIdeal Cert.KernelIdeal.Facts₀

variable {F : FTy → Type} [FloatOps F] [Cert.KernelIdeal.Facts₀]

/-- The source ids: row 0 of `edge_index`. -/
def src (e : (⟨S2x625000, .i32⟩ : BufTy).Contents (Elt F)) : (⟨S625000, .i32⟩ : BufTy).Contents (Elt F) :=
  shapeCast S625000 (extractStridedSlice S1x625000 ![0, 0] e slices_S2x625000_S1x625000_0_0) shapeCasts_S1x625000_S625000

/-- The destination ids: row 1 of `edge_index`. -/
def dst (e : (⟨S2x625000, .i32⟩ : BufTy).Contents (Elt F)) : (⟨S625000, .i32⟩ : BufTy).Contents (Elt F) :=
  shapeCast S625000 (extractStridedSlice S1x625000 ![1, 0] e slices_S2x625000_S1x625000_1_0) shapeCasts_S1x625000_S625000

/-- The in-degree of every node, clamped below at 1, as a column: a scatter-add of ones at the destination ids
    into zeros, then the maximum with 1. -/
def deg (d : (⟨S625000, .i32⟩ : BufTy).Contents (Elt F)) : (⟨S100000x1, .f32⟩ : BufTy).Contents (Elt F) :=
  broadcastInDim S100000x1 ![0] bcast_S100000_S100000x1_0
    (maximumf
      (Host.scatterAdd scatter_S100000_S625000x1_S625000_n_0_0_1
        (broadcastInDim S100000 ![] bcast_S_S100000 (constant S_ .f32 0x00000000#32))
        (broadcastInDim S625000x1 ![0] bcast_S625000_S625000x1_0 d)
        (broadcastInDim S625000 ![] bcast_S_S625000 (constant S_ .f32 0x3F800000#32)))
      (broadcastInDim S100000 ![] bcast_S_S100000 (constant S_ .f32 0x3F800000#32)))

/-- The stacked weights `[Wl ; Wr]` along the row axis, all ten layers. -/
def wst (wl wr : (⟨S10x128x128, .f32⟩ : BufTy).Contents (Elt F)) : (⟨S10x256x128, .f32⟩ : BufTy).Contents (Elt F) :=
  concatenate S10x256x128 1 [⟨S10x128x128, wl⟩, ⟨S10x128x128, wr⟩] concatenates_S10x128x128_S10x128x128_S10x256x128_d1

/-- The neighbour mean of `x`: rows of `x` gathered at the source ids (a negative id wrapped once by 100000),
    scatter-added at the destination ids into zeros, divided by the clamped in-degree. -/
def agg (s d : (⟨S625000, .i32⟩ : BufTy).Contents (Elt F)) (dg : (⟨S100000x1, .f32⟩ : BufTy).Contents (Elt F))
    (x : (⟨S100000x128, .f32⟩ : BufTy).Contents (Elt F)) : (⟨S100000x128, .f32⟩ : BufTy).Contents (Elt F) :=
  Host.divf
    (Host.scatterAdd scatter_S100000x128_S625000x1_S625000x128_1_0_0_1
      (broadcastInDim S100000x128 ![] bcast_S_S100000x128 (constant S_ .f32 0x00000000#32))
      (broadcastInDim S625000x1 ![0] bcast_S625000_S625000x1_0 d)
      (Host.gather gather_S100000x128_S625000x1_S625000x128_1_0_n_n_0_1_1128 x
        (broadcastInDim S625000x1 ![0] bcast_S625000_S625000x1_0
          (select
            (cmpi .slt s (broadcastInDim S625000 ![] bcast_S_S625000 (constantI S_ 32 0#32)))
            (addi s (broadcastInDim S625000 ![] bcast_S_S625000 (constantI S_ 32 100000#32)))
            s))))
    (broadcastInDim S100000x128 ![0, 1] bcast_S100000x1_S100000x128_0_1 dg)

/-- Layer `k`'s slice of the stacked weights, as a [256, 128] matrix. -/
def wsl (k : Nat) (h : S10x256x128.Slices ![k, 0, 0] S1x256x128) (ws : (⟨S10x256x128, .f32⟩ : BufTy).Contents (Elt F)) :
    (⟨S256x128, .f32⟩ : BufTy).Contents (Elt F) :=
  shapeCast S256x128 (extractStridedSlice S1x256x128 ![k, 0, 0] ws h) shapeCasts_S1x256x128_S256x128

/-- Layer `k`'s bias row, as a [1, 128] matrix. -/
def bsl (k : Nat) (h : S10x128.Slices ![k, 0] S1x128) (b : (⟨S10x128, .f32⟩ : BufTy).Contents (Elt F)) :
    (⟨S1x128, .f32⟩ : BufTy).Contents (Elt F) :=
  shapeCast S1x128 (shapeCast S128 (extractStridedSlice S1x128 ![k, 0] b h) shapeCasts_S1x128_S128) shapeCasts_S128_S1x128

end Cert.Sage.K

end
-- ==== Proof.Spec.lean ====
/-
  One GraphSAGE layer, as a function of whole arrays over the extended reals.

  A layer takes the node features `x : [100000, 128]` and their neighbour means `agg : [100000, 128]` and returns
  `agg · Wl[K] + x · Wr[K] + b[K]`, clamped below at 0 on every layer but the last. Two arrangements of the same
  number appear: the sum of two products over 128 terms each, and ONE product over 256 terms of the rows
  `[agg | x]` against the stacked weights `[Wl[K] ; Wr[K]]`. They agree on all extended reals because a finite
  sum over `Fin (128 + 128)` splits into its two halves in any commutative monoid: no finiteness is needed.
-/
import Idealize.ShloMosaic.PureOps.Ideal
import Idealize.ShloMosaic.Lib.ValueIdx
import Mathlib.Algebra.BigOperators.Fin

noncomputable section

namespace Cert.Sage

open Idealize.ShloMosaic Idealize.ShloMosaic.ValueIdx

/-- Node features: 100000 nodes, 128 channels. -/
abbrev SN : Shape := ⟨2, ![100000, 128]⟩
/-- The per-layer square weights, ten layers. -/
abbrev SW3 : Shape := ⟨3, ![10, 128, 128]⟩
/-- The per-layer biases, ten layers. -/
abbrev SB2 : Shape := ⟨2, ![10, 128]⟩

/-- Entry (p, q) of layer `K` before the clamp: row p of `agg` against column q of `Wl[K]`, plus row p of `x`
    against column q of `Wr[K]`, plus `b[K, q]`. -/
def preAct (K : Fin 10) (agg x : SN.Idx → EReal) (Wl Wr : SW3.Idx → EReal) (B : SB2.Idx → EReal)
    (p : Fin 100000) (q : Fin 128) : EReal :=
  ((∑ k : Fin 128, agg (ix2 p k) * Wl (ix3 K k q)) + (∑ k : Fin 128, x (ix2 p k) * Wr (ix3 K k q))) + B (ix2 K q)

/-- Layer `K` as a whole array: the clamp at 0 applied when `relu` holds. -/
def layerVal (K : Fin 10) (relu : Bool) (agg x : SN.Idx → EReal) (Wl Wr : SW3.Idx → EReal) (B : SB2.Idx → EReal) :
    SN.Idx → EReal :=
  fun i => if relu then max (preAct K agg x Wl Wr B (i 0) (i 1)) 0 else preAct K agg x Wl Wr B (i 0) (i 1)

/-- The stacked row `[a | x]` of 256 entries: the first 128 from `a`, the rest from `x`. -/
def catRow (a x : Fin 128 → EReal) (k : Fin 256) : EReal :=
  if h : k.val < 128 then a ⟨k.val, h⟩ else x ⟨k.val - 128, by have := k.isLt; omega⟩

/-- One product over the 256 stacked terms is the sum of the two products over 128 terms: a finite sum over
    `Fin (128 + 128)` is the sum over its two halves. -/
theorem sum_cat (a x wl wr : Fin 128 → EReal) :
    (∑ k : Fin 256, catRow a x k * catRow wl wr k) = (∑ k : Fin 128, a k * wl k) + (∑ k : Fin 128, x k * wr k) := by
  have h := Fin.sum_univ_add (M := EReal) (a := 128) (b := 128) (fun k => catRow a x k * catRow wl wr k)
  refine h.trans ?_
  congr 1

/-- The stacked weights of one layer: 256 rows, 128 columns. -/
abbrev SW2 : Shape := ⟨2, ![256, 128]⟩
/-- One bias row. -/
abbrev SB1 : Shape := ⟨2, ![1, 128]⟩

/-- What the kernel's body computes, over whole arrays: entry (p, q) is the product of the stacked row
    `[a(p, ·) | x(p, ·)]` with column q of the stacked weights `w`, plus `b(0, q)`, clamped below at 0 when
    `relu` holds. -/
def combine (relu : Bool) (a x : SN.Idx → EReal) (w : SW2.Idx → EReal) (b : SB1.Idx → EReal) : SN.Idx → EReal :=
  fun i =>
    if relu then
      max ((∑ k : Fin 256, catRow (fun j => a (ix2 (i 0) j)) (fun j => x (ix2 (i 0) j)) k * w (ix2 k (i 1))) + b (ix2 0 (i 1))) 0
    else
      (∑ k : Fin 256, catRow (fun j => a (ix2 (i 0) j)) (fun j => x (ix2 (i 0) j)) k * w (ix2 k (i 1))) + b (ix2 0 (i 1))

end Cert.Sage

end
-- ==== Proof.KLayers.lean ====
/-
  The kernel's program, layer by layer, as functions of array contents over the extended reals: layer k takes the
  previous layer's output `x`, forms the neighbour mean of `x` on the host, and returns what the layer's kernel call
  leaves in its result array — the stacked product of `[agg | x]` with the layer's slice of the stacked weights,
  plus the layer's bias row, clamped below at 0 on all layers but the last. The edge ids, the in-degree column, the
  stacked weights and the bias table are functions of the launch arrays alone.
-/
import proofs.«402578_j10522669875348_3_alg».proof.Proof.Gen.KernelIdeal
import proofs.«402578_j10522669875348_3_alg».proof.Proof.KDefs
import proofs.«402578_j10522669875348_3_alg».proof.Proof.Spec

noncomputable section

namespace Cert.KernelIdeal.Gen

open Idealize.ShloMosaic Idealize.ShloMosaic.TcCoe Cert.KernelIdeal.Facts₀

/-- The contents of a node-feature array at the extended reals. -/
abbrev XTy : Type := (⟨S100000x128, .f32⟩ : BufTy).Contents (Elt Ideal)

variable (m : (ℓ : Loc nD τ sig) → Buf (Elt Ideal) ℓ) (c : Dev nD)

/-- The source ids of the launch's edge table. -/
def SRC : (⟨S625000, .i32⟩ : BufTy).Contents (Elt Ideal) := Cert.Sage.K.src (m ((c : Thread nD τ).loc main_arg4))
/-- The destination ids of the launch's edge table. -/
def DST : (⟨S625000, .i32⟩ : BufTy).Contents (Elt Ideal) := Cert.Sage.K.dst (m ((c : Thread nD τ).loc main_arg4))
/-- The clamped in-degree column. -/
def DEG : (⟨S100000x1, .f32⟩ : BufTy).Contents (Elt Ideal) := Cert.Sage.K.deg (DST m c)
/-- The stacked weights of all layers. -/
def WST : (⟨S10x256x128, .f32⟩ : BufTy).Contents (Elt Ideal) :=
  Cert.Sage.K.wst (m ((c : Thread nD τ).loc main_arg1)) (m ((c : Thread nD τ).loc main_arg2))
/-- The bias table. -/
def BIAS : (⟨S10x128, .f32⟩ : BufTy).Contents (Elt Ideal) := m ((c : Thread nD τ).loc main_arg3)

/-- Layer 0 of the kernel's program, as a function of the previous layer's output and the launch arrays. -/
def KL0 (x : XTy) : XTy :=
  Cert.Sage.combine true (Cert.Sage.K.agg (SRC m c) (DST m c) (DEG m c) x) x
    (Cert.Sage.K.wsl 0 slices_S10x256x128_S1x256x128_0_0_0 (WST m c)) (Cert.Sage.K.bsl 0 slices_S10x128_S1x128_0_0 (BIAS m c))

/-- Layer 1 of the kernel's program, as a function of the previous layer's output and the launch arrays. -/
def KL1 (x : XTy) : XTy :=
  Cert.Sage.combine true (Cert.Sage.K.agg (SRC m c) (DST m c) (DEG m c) x) x
    (Cert.Sage.K.wsl 1 slices_S10x256x128_S1x256x128_1_0_0 (WST m c)) (Cert.Sage.K.bsl 1 slices_S10x128_S1x128_1_0 (BIAS m c))

/-- Layer 2 of the kernel's program, as a function of the previous layer's output and the launch arrays. -/
def KL2 (x : XTy) : XTy :=
  Cert.Sage.combine true (Cert.Sage.K.agg (SRC m c) (DST m c) (DEG m c) x) x
    (Cert.Sage.K.wsl 2 slices_S10x256x128_S1x256x128_2_0_0 (WST m c)) (Cert.Sage.K.bsl 2 slices_S10x128_S1x128_2_0 (BIAS m c))

/-- Layer 3 of the kernel's program, as a function of the previous layer's output and the launch arrays. -/
def KL3 (x : XTy) : XTy :=
  Cert.Sage.combine true (Cert.Sage.K.agg (SRC m c) (DST m c) (DEG m c) x) x
    (Cert.Sage.K.wsl 3 slices_S10x256x128_S1x256x128_3_0_0 (WST m c)) (Cert.Sage.K.bsl 3 slices_S10x128_S1x128_3_0 (BIAS m c))

/-- Layer 4 of the kernel's program, as a function of the previous layer's output and the launch arrays. -/
def KL4 (x : XTy) : XTy :=
  Cert.Sage.combine true (Cert.Sage.K.agg (SRC m c) (DST m c) (DEG m c) x) x
    (Cert.Sage.K.wsl 4 slices_S10x256x128_S1x256x128_4_0_0 (WST m c)) (Cert.Sage.K.bsl 4 slices_S10x128_S1x128_4_0 (BIAS m c))

/-- Layer 5 of the kernel's program, as a function of the previous layer's output and the launch arrays. -/
def KL5 (x : XTy) : XTy :=
  Cert.Sage.combine true (Cert.Sage.K.agg (SRC m c) (DST m c) (DEG m c) x) x
    (Cert.Sage.K.wsl 5 slices_S10x256x128_S1x256x128_5_0_0 (WST m c)) (Cert.Sage.K.bsl 5 slices_S10x128_S1x128_5_0 (BIAS m c))

/-- Layer 6 of the kernel's program, as a function of the previous layer's output and the launch arrays. -/
def KL6 (x : XTy) : XTy :=
  Cert.Sage.combine true (Cert.Sage.K.agg (SRC m c) (DST m c) (DEG m c) x) x
    (Cert.Sage.K.wsl 6 slices_S10x256x128_S1x256x128_6_0_0 (WST m c)) (Cert.Sage.K.bsl 6 slices_S10x128_S1x128_6_0 (BIAS m c))

/-- Layer 7 of the kernel's program, as a function of the previous layer's output and the launch arrays. -/
def KL7 (x : XTy) : XTy :=
  Cert.Sage.combine true (Cert.Sage.K.agg (SRC m c) (DST m c) (DEG m c) x) x
    (Cert.Sage.K.wsl 7 slices_S10x256x128_S1x256x128_7_0_0 (WST m c)) (Cert.Sage.K.bsl 7 slices_S10x128_S1x128_7_0 (BIAS m c))

/-- Layer 8 of the kernel's program, as a function of the previous layer's output and the launch arrays. -/
def KL8 (x : XTy) : XTy :=
  Cert.Sage.combine true (Cert.Sage.K.agg (SRC m c) (DST m c) (DEG m c) x) x
    (Cert.Sage.K.wsl 8 slices_S10x256x128_S1x256x128_8_0_0 (WST m c)) (Cert.Sage.K.bsl 8 slices_S10x128_S1x128_8_0 (BIAS m c))

/-- Layer 9 of the kernel's program, as a function of the previous layer's output and the launch arrays. -/
def KL9 (x : XTy) : XTy :=
  Cert.Sage.combine false (Cert.Sage.K.agg (SRC m c) (DST m c) (DEG m c) x) x
    (Cert.Sage.K.wsl 9 slices_S10x256x128_S1x256x128_9_0_0 (WST m c)) (Cert.Sage.K.bsl 9 slices_S10x128_S1x128_9_0 (BIAS m c))

end Cert.KernelIdeal.Gen

end
-- ==== Proof.RDefs.lean ====
/-
  The reference's host functions, as functions of array contents, at any float family `F`.

  A layer of the reference is, from the node features `x`: the neighbour mean `agg` (the same gather, scatter-add
  and division as in the kernel's program), the two products `agg · Wl[k]` and `x · Wr[k]` against the layer's
  slices of the two weight tables, their sum, plus the layer's bias row broadcast over the nodes, and — on every
  layer but the last — the maximum with 0.
-/
import proofs.«402578_j10522669875348_3_alg».proof.ReferenceIdeal

noncomputable section

namespace Cert.Sage.R

open Idealize.ShloMosaic Idealize.ShloMosaic.TcCoe Cert.ReferenceIdeal Cert.ReferenceIdeal.Facts₀

variable {F : FTy → Type} [FloatOps F] [Cert.ReferenceIdeal.Facts₀]

/-- The source ids: row 0 of `edge_index`. -/
def src (e : (⟨S2x625000, .i32⟩ : BufTy).Contents (Elt F)) : (⟨S625000, .i32⟩ : BufTy).Contents (Elt F) :=
  shapeCast S625000 (extractStridedSlice S1x625000 ![0, 0] e slices_S2x625000_S1x625000_0_0) shapeCasts_S1x625000_S625000

/-- The destination ids: row 1 of `edge_index`. -/
def dst (e : (⟨S2x625000, .i32⟩ : BufTy).Contents (Elt F)) : (⟨S625000, .i32⟩ : BufTy).Contents (Elt F) :=
  shapeCast S625000 (extractStridedSlice S1x625000 ![1, 0] e slices_S2x625000_S1x625000_1_0) shapeCasts_S1x625000_S625000

/-- The in-degree of every node, clamped below at 1, as a column. -/
def deg (d : (⟨S625000, .i32⟩ : BufTy).Contents (Elt F)) : (⟨S100000x1, .f32⟩ : BufTy).Contents (Elt F) :=
  broadcastInDim S100000x1 ![0] bcast_S100000_S100000x1_0
    (maximumf
      (Host.scatterAdd scatter_S100000_S625000x1_S625000_n_0_0_1
        (broadcastInDim S100000 ![] bcast_S_S100000 (constant S_ .f32 0x00000000#32))
        (broadcastInDim S625000x1 ![0] bcast_S625000_S625000x1_0 d)
        (broadcastInDim S625000 ![] bcast_S_S625000 (constant S_ .f32 0x3F800000#32)))
      (broadcastInDim S100000 ![] bcast_S_S100000 (constant S_ .f32 0x3F800000#32)))

/-- The neighbour mean of `x`. -/
def agg (s d : (⟨S625000, .i32⟩ : BufTy).Contents (Elt F)) (dg : (⟨S100000x1, .f32⟩ : BufTy).Contents (Elt F))
    (x : (⟨S100000x128, .f32⟩ : BufTy).Contents (Elt F)) : (⟨S100000x128, .f32⟩ : BufTy).Contents (Elt F) :=
  Host.divf
    (Host.scatterAdd scatter_S100000x128_S625000x1_S625000x128_1_0_0_1
      (broadcastInDim S100000x128 ![] bcast_S_S100000x128 (constant S_ .f32 0x00000000#32))
      (broadcastInDim S625000x1 ![0] bcast_S625000_S625000x1_0 d)
      (Host.gather gather_S100000x128_S625000x1_S625000x128_1_0_n_n_0_1_1128 x
        (broadcastInDim S625000x1 ![0] bcast_S625000_S625000x1_0
          (select
            (cmpi .slt s (broadcastInDim S625000 ![] bcast_S_S625000 (constantI S_ 32 0#32)))
            (addi s (broadcastInDim S625000 ![] bcast_S_S625000 (constantI S_ 32 100000#32)))
            s))))
    (broadcastInDim S100000x128 ![0, 1] bcast_S100000x1_S100000x128_0_1 dg)

/-- Layer `k`'s slice of a weight table, as a [128, 128] matrix. -/
def wsl (k : Nat) (h : S10x128x128.Slices ![k, 0, 0] S1x128x128) (w : (⟨S10x128x128, .f32⟩ : BufTy).Contents (Elt F)) :
    (⟨S128x128, .f32⟩ : BufTy).Contents (Elt F) :=
  shapeCast S128x128 (extractStridedSlice S1x128x128 ![k, 0, 0] w h) shapeCasts_S1x128x128_S128x128

/-- Layer `k`'s bias row, broadcast over the nodes. -/
def bb (k : Nat) (h : S10x128.Slices ![k, 0] S1x128) (b : (⟨S10x128, .f32⟩ : BufTy).Contents (Elt F)) :
    (⟨S100000x128, .f32⟩ : BufTy).Contents (Elt F) :=
  broadcastInDim S100000x128 ![0, 1] bcast_S1x128_S100000x128_0_1
    (broadcastInDim S1x128 ![1] bcast_S128_S1x128_1
      (shapeCast S128 (extractStridedSlice S1x128 ![k, 0] b h) shapeCasts_S1x128_S128))

/-- Layer `k` before the clamp: `agg · Wl[k] + x · Wr[k] + b[k]`. -/
def pre (k : Nat) (hw : S10x128x128.Slices ![k, 0, 0] S1x128x128) (hb : S10x128.Slices ![k, 0] S1x128)
    (a x : (⟨S100000x128, .f32⟩ : BufTy).Contents (Elt F)) (wl wr : (⟨S10x128x128, .f32⟩ : BufTy).Contents (Elt F))
    (b : (⟨S10x128, .f32⟩ : BufTy).Contents (Elt F)) : (⟨S100000x128, .f32⟩ : BufTy).Contents (Elt F) :=
  addf
    (addf (Host.dotGeneral dot_S100000x128_S128x128_S100000x128_1_0_0_1_n_n none a (wsl k hw wl))
      (Host.dotGeneral dot_S100000x128_S128x128_S100000x128_1_0_0_1_n_n none x (wsl k hw wr)))
    (bb k hb b)

/-- The clamp below at 0. -/
def relu (y : (⟨S100000x128, .f32⟩ : BufTy).Contents (Elt F)) : (⟨S100000x128, .f32⟩ : BufTy).Contents (Elt F) :=
  maximumf y (broadcastInDim S100000x128 ![] bcast_S_S100000x128 (constant S_ .f32 0x00000000#32))

end Cert.Sage.R

end
-- ==== Proof.RLayers.lean ====
/-
  The reference, layer by layer, as functions of array contents at any float family: layer k takes the previous
  layer's output `x`, forms the neighbour mean of `x`, and returns `agg · Wl[k] + x · Wr[k] + b[k]`, clamped below at
  0 on all layers but the last. The edge ids and the in-degree column are functions of the launch arrays alone.
-/
import proofs.«402578_j10522669875348_3_alg».proof.Proof.Gen.ReferenceIdeal
import proofs.«402578_j10522669875348_3_alg».proof.Proof.RDefs

noncomputable section

namespace Cert.ReferenceIdeal.Value2

open Idealize.ShloMosaic Idealize.ShloMosaic.TcCoe Cert.ReferenceIdeal Cert.ReferenceIdeal.Facts₀

variable {F : FTy → Type} [FloatOps F]

/-- The contents of a node-feature array. -/
abbrev XTy : Type := (⟨S100000x128, .f32⟩ : BufTy).Contents (Elt F)

variable (m : (ℓ : Loc nD τ sig) → Buf (Elt F) ℓ) (c : Dev nD)

/-- The source ids of the launch's edge table. -/
def SRC : (⟨S625000, .i32⟩ : BufTy).Contents (Elt F) := Cert.Sage.R.src (m ((c.tc : Thread nD τ).loc main_arg4))
/-- The destination ids of the launch's edge table. -/
def DST : (⟨S625000, .i32⟩ : BufTy).Contents (Elt F) := Cert.Sage.R.dst (m ((c.tc : Thread nD τ).loc main_arg4))
/-- The clamped in-degree column. -/
def DEG : (⟨S100000x1, .f32⟩ : BufTy).Contents (Elt F) := Cert.Sage.R.deg (DST m c)

/-- Layer 0 of the reference, as a function of the previous layer's output and the launch arrays. -/
def RL0 (x : XTy (F := F)) : XTy (F := F) :=
  Cert.Sage.R.relu (Cert.Sage.R.pre 0 slices_S10x128x128_S1x128x128_0_0_0 slices_S10x128_S1x128_0_0
    (Cert.Sage.R.agg (SRC m c) (DST m c) (DEG m c) x) x
    (m ((c.tc : Thread nD τ).loc main_arg1)) (m ((c.tc : Thread nD τ).loc main_arg2)) (m ((c.tc : Thread nD τ).loc main_arg3)))

/-- Layer 1 of the reference, as a function of the previous layer's output and the launch arrays. -/
def RL1 (x : XTy (F := F)) : XTy (F := F) :=
  Cert.Sage.R.relu (Cert.Sage.R.pre 1 slices_S10x128x128_S1x128x128_1_0_0 slices_S10x128_S1x128_1_0
    (Cert.Sage.R.agg (SRC m c) (DST m c) (DEG m c) x) x
    (m ((c.tc : Thread nD τ).loc main_arg1)) (m ((c.tc : Thread nD τ).loc main_arg2)) (m ((c.tc : Thread nD τ).loc main_arg3)))

/-- Layer 2 of the reference, as a function of the previous layer's output and the launch arrays. -/
def RL2 (x : XTy (F := F)) : XTy (F := F) :=
  Cert.Sage.R.relu (Cert.Sage.R.pre 2 slices_S10x128x128_S1x128x128_2_0_0 slices_S10x128_S1x128_2_0
    (Cert.Sage.R.agg (SRC m c) (DST m c) (DEG m c) x) x
    (m ((c.tc : Thread nD τ).loc main_arg1)) (m ((c.tc : Thread nD τ).loc main_arg2)) (m ((c.tc : Thread nD τ).loc main_arg3)))

/-- Layer 3 of the reference, as a function of the previous layer's output and the launch arrays. -/
def RL3 (x : XTy (F := F)) : XTy (F := F) :=
  Cert.Sage.R.relu (Cert.Sage.R.pre 3 slices_S10x128x128_S1x128x128_3_0_0 slices_S10x128_S1x128_3_0
    (Cert.Sage.R.agg (SRC m c) (DST m c) (DEG m c) x) x
    (m ((c.tc : Thread nD τ).loc main_arg1)) (m ((c.tc : Thread nD τ).loc main_arg2)) (m ((c.tc : Thread nD τ).loc main_arg3)))

/-- Layer 4 of the reference, as a function of the previous layer's output and the launch arrays. -/
def RL4 (x : XTy (F := F)) : XTy (F := F) :=
  Cert.Sage.R.relu (Cert.Sage.R.pre 4 slices_S10x128x128_S1x128x128_4_0_0 slices_S10x128_S1x128_4_0
    (Cert.Sage.R.agg (SRC m c) (DST m c) (DEG m c) x) x
    (m ((c.tc : Thread nD τ).loc main_arg1)) (m ((c.tc : Thread nD τ).loc main_arg2)) (m ((c.tc : Thread nD τ).loc main_arg3)))

/-- Layer 5 of the reference, as a function of the previous layer's output and the launch arrays. -/
def RL5 (x : XTy (F := F)) : XTy (F := F) :=
  Cert.Sage.R.relu (Cert.Sage.R.pre 5 slices_S10x128x128_S1x128x128_5_0_0 slices_S10x128_S1x128_5_0
    (Cert.Sage.R.agg (SRC m c) (DST m c) (DEG m c) x) x
    (m ((c.tc : Thread nD τ).loc main_arg1)) (m ((c.tc : Thread nD τ).loc main_arg2)) (m ((c.tc : Thread nD τ).loc main_arg3)))

/-- Layer 6 of the reference, as a function of the previous layer's output and the launch arrays. -/
def RL6 (x : XTy (F := F)) : XTy (F := F) :=
  Cert.Sage.R.relu (Cert.Sage.R.pre 6 slices_S10x128x128_S1x128x128_6_0_0 slices_S10x128_S1x128_6_0
    (Cert.Sage.R.agg (SRC m c) (DST m c) (DEG m c) x) x
    (m ((c.tc : Thread nD τ).loc main_arg1)) (m ((c.tc : Thread nD τ).loc main_arg2)) (m ((c.tc : Thread nD τ).loc main_arg3)))

/-- Layer 7 of the reference, as a function of the previous layer's output and the launch arrays. -/
def RL7 (x : XTy (F := F)) : XTy (F := F) :=
  Cert.Sage.R.relu (Cert.Sage.R.pre 7 slices_S10x128x128_S1x128x128_7_0_0 slices_S10x128_S1x128_7_0
    (Cert.Sage.R.agg (SRC m c) (DST m c) (DEG m c) x) x
    (m ((c.tc : Thread nD τ).loc main_arg1)) (m ((c.tc : Thread nD τ).loc main_arg2)) (m ((c.tc : Thread nD τ).loc main_arg3)))

/-- Layer 8 of the reference, as a function of the previous layer's output and the launch arrays. -/
def RL8 (x : XTy (F := F)) : XTy (F := F) :=
  Cert.Sage.R.relu (Cert.Sage.R.pre 8 slices_S10x128x128_S1x128x128_8_0_0 slices_S10x128_S1x128_8_0
    (Cert.Sage.R.agg (SRC m c) (DST m c) (DEG m c) x) x
    (m ((c.tc : Thread nD τ).loc main_arg1)) (m ((c.tc : Thread nD τ).loc main_arg2)) (m ((c.tc : Thread nD τ).loc main_arg3)))

/-- Layer 9 of the reference, as a function of the previous layer's output and the launch arrays. -/
def RL9 (x : XTy (F := F)) : XTy (F := F) :=
  Cert.Sage.R.pre 9 slices_S10x128x128_S1x128x128_9_0_0 slices_S10x128_S1x128_9_0
    (Cert.Sage.R.agg (SRC m c) (DST m c) (DEG m c) x) x
    (m ((c.tc : Thread nD τ).loc main_arg1)) (m ((c.tc : Thread nD τ).loc main_arg2)) (m ((c.tc : Thread nD τ).loc main_arg3))

end Cert.ReferenceIdeal.Value2

end
-- ==== Proof.Same.lean ====
/-
  The two programs share their host chain: the source and destination ids, the clamped in-degree column and the
  neighbour mean are the SAME functions in the kernel's program and in the reference. Each program states them over
  its own copies of the shape and operation records; the records carry the same data, so the functions are equal by
  definition, at any float family.
-/
import proofs.«402578_j10522669875348_3_alg».proof.Proof.KDefs
import proofs.«402578_j10522669875348_3_alg».proof.Proof.RDefs

noncomputable section

namespace Cert.Sage

open Idealize.ShloMosaic

variable {F : FTy → Type} [FloatOps F] [Cert.KernelIdeal.Facts₀] [Cert.ReferenceIdeal.Facts₀]

/-- Row 0 of the edge table, in either program. -/
theorem src_same : K.src (F := F) = R.src (F := F) := rfl

/-- Row 1 of the edge table, in either program. -/
theorem dst_same : K.dst (F := F) = R.dst (F := F) := rfl

/-- The clamped in-degree column, in either program. -/
theorem deg_same : K.deg (F := F) = R.deg (F := F) := rfl

/-- The neighbour mean, in either program. -/
theorem agg_same : K.agg (F := F) = R.agg (F := F) := rfl

end Cert.Sage

end
-- ==== Proof.KStretch0.lean ====
/-
  The host operations before layer 0's kernel call, read as functions: from ANY buffer contents `W`, after them
  four buffers that every later layer reads again hold functions of the program's arguments alone (the source
  ids and the destination ids cut from the edge list, the clamped in-degree column, the stacked weights
  `[Wl ; Wr]`), the call's first operand holds the neighbour mean of the input features, its third the first
  layer's slice of the stacked weights, its fourth the first layer's bias row; the input features and the bias
  table keep their contents.
-/
import proofs.«402578_j10522669875348_3_alg».proof.Proof.Gen.KernelIdeal.Launch
import proofs.«402578_j10522669875348_3_alg».proof.Proof.KDefs
import Idealize.ShloMosaic.Lib.StableHlo.Run

noncomputable section

namespace Cert.KernelIdeal.Gen

open Idealize.ShloMosaic Idealize.ShloMosaic.TcCoe Idealize.ShloMosaic.StableHlo Cert.KernelIdeal.Facts₀

variable {F : FTy → Type} [FloatOps F]

/-- The source ids are row 0 of the edge list, as a vector. -/
theorem kstretch0_v1 (W : Valuation τ sig (Elt F)) :
    StableHlo.after (hostOps0 (F := F)) W (Proc.devRef .tc main_v1)
      = Cert.Sage.K.src (W (Proc.devRef .tc main_arg4)) := by
  after_results_simp
  rfl

/-- The destination ids are row 1 of the edge list, as a vector. -/
theorem kstretch0_v3 (W : Valuation τ sig (Elt F)) :
    StableHlo.after (hostOps0 (F := F)) W (Proc.devRef .tc main_v3)
      = Cert.Sage.K.dst (W (Proc.devRef .tc main_arg4)) := by
  after_results_simp
  rfl

/-- The in-degree column is the clamped count of the destination ids. -/
theorem kstretch0_v10 (W : Valuation τ sig (Elt F)) :
    StableHlo.after (hostOps0 (F := F)) W (Proc.devRef .tc main_v10)
      = Cert.Sage.K.deg (Cert.Sage.K.dst (W (Proc.devRef .tc main_arg4))) := by
  after_results_simp
  rfl

/-- The stacked weights are the two weight arguments joined along the row axis. -/
theorem kstretch0_v11 (W : Valuation τ sig (Elt F)) :
    StableHlo.after (hostOps0 (F := F)) W (Proc.devRef .tc main_v11)
      = Cert.Sage.K.wst (W (Proc.devRef .tc main_arg1)) (W (Proc.devRef .tc main_arg2)) := by
  after_results_simp
  rfl

/-- The call's first operand is the neighbour mean of the input features, over the ids and the in-degree column
    computed from the edge list. -/
theorem kstretch0_agg (W : Valuation τ sig (Elt F)) :
    StableHlo.after (hostOps0 (F := F)) W (Proc.devRef .tc main_v23)
      = Cert.Sage.K.agg (Cert.Sage.K.src (W (Proc.devRef .tc main_arg4))) (Cert.Sage.K.dst (W (Proc.devRef .tc main_arg4)))
          (Cert.Sage.K.deg (Cert.Sage.K.dst (W (Proc.devRef .tc main_arg4)))) (W (Proc.devRef .tc main_arg0)) := by
  after_results_simp
  rfl

/-- The call's third operand is layer 0's slice of the stacked weights. -/
theorem kstretch0_w (W : Valuation τ sig (Elt F)) :
    StableHlo.after (hostOps0 (F := F)) W (Proc.devRef .tc main_v25)
      = Cert.Sage.K.wsl 0 slices_S10x256x128_S1x256x128_0_0_0
          (Cert.Sage.K.wst (W (Proc.devRef .tc main_arg1)) (W (Proc.devRef .tc main_arg2))) := by
  after_results_simp
  rfl

/-- The call's fourth operand is layer 0's bias row. -/
theorem kstretch0_b (W : Valuation τ sig (Elt F)) :
    StableHlo.after (hostOps0 (F := F)) W (Proc.devRef .tc main_v28)
      = Cert.Sage.K.bsl 0 slices_S10x128_S1x128_0_0 (W (Proc.devRef .tc main_arg3)) := by
  after_results_simp
  rfl

/-- No operation of the stretch writes `b`: its contents pass through. -/
theorem kstretch0_keep (W : Valuation τ sig (Elt F)) (b : Ref sig .tc)
    (hb : b = main_arg0 ∨ b = main_arg3) :
    StableHlo.after (hostOps0 (F := F)) W (Proc.devRef .tc b) = W (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.reshape_writes, Finset.mem_singleton]
  rcases hb with rfl | rfl <;>
    (repeat' apply And.intro) <;> exact StableHlo.devRef_ne_of_ne (by decide)

end Cert.KernelIdeal.Gen

end
-- ==== Proof.KStretch1.lean ====
/-
  The host operations between layer 0's kernel call and layer 1's, read as functions: from ANY buffer contents
  `W`, after them the call's first operand holds the neighbour mean of the previous layer's output, its third the
  layer's slice of the stacked weights, its fourth the layer's bias row; the buffers later stretches read again
  (the edge ids, the in-degree column, the stacked weights, the bias table, the previous layer's output) keep
  their contents.
-/
import proofs.«402578_j10522669875348_3_alg».proof.Proof.Gen.KernelIdeal.Launch
import proofs.«402578_j10522669875348_3_alg».proof.Proof.KDefs
import Idealize.ShloMosaic.Lib.StableHlo.Run

noncomputable section

namespace Cert.KernelIdeal.Gen

open Idealize.ShloMosaic Idealize.ShloMosaic.TcCoe Idealize.ShloMosaic.StableHlo Cert.KernelIdeal.Facts₀

variable {F : FTy → Type} [FloatOps F]

theorem kstretch1_agg (W : Valuation τ sig (Elt F)) :
    StableHlo.after (hostOps1 (F := F)) W (Proc.devRef .tc main_v41)
      = Cert.Sage.K.agg (W (Proc.devRef .tc main_v1)) (W (Proc.devRef .tc main_v3)) (W (Proc.devRef .tc main_v10)) (W (Proc.devRef .tc main_v29)) := by
  after_results_simp
  rfl

theorem kstretch1_w (W : Valuation τ sig (Elt F)) :
    StableHlo.after (hostOps1 (F := F)) W (Proc.devRef .tc main_v43)
      = Cert.Sage.K.wsl 1 slices_S10x256x128_S1x256x128_1_0_0 (W (Proc.devRef .tc main_v11)) := by
  after_results_simp
  rfl

theorem kstretch1_b (W : Valuation τ sig (Elt F)) :
    StableHlo.after (hostOps1 (F := F)) W (Proc.devRef .tc main_v46)
      = Cert.Sage.K.bsl 1 slices_S10x128_S1x128_1_0 (W (Proc.devRef .tc main_arg3)) := by
  after_results_simp
  rfl

/-- No operation of the stretch writes `b`: its contents pass through. -/
theorem kstretch1_keep (W : Valuation τ sig (Elt F)) (b : Ref sig .tc)
    (hb : b = main_v29 ∨ b = main_v1 ∨ b = main_v3 ∨ b = main_v10 ∨ b = main_v11 ∨ b = main_arg3) :
    StableHlo.after (hostOps1 (F := F)) W (Proc.devRef .tc b) = W (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.ternary_writes, StableHlo.reshape_writes, Finset.mem_singleton]
  rcases hb with rfl | rfl | rfl | rfl | rfl | rfl <;>
    (repeat' apply And.intro) <;> exact StableHlo.devRef_ne_of_ne (by decide)

end Cert.KernelIdeal.Gen

end
-- ==== Proof.KStretch2.lean ====
/-
  The host operations between layer 1's kernel call and layer 2's, read as functions: from ANY buffer contents
  `W`, after them the call's first operand holds the neighbour mean of the previous layer's output, its third the
  layer's slice of the stacked weights, its fourth the layer's bias row; the buffers later stretches read again
  (the edge ids, the in-degree column, the stacked weights, the bias table, the previous layer's output) keep
  their contents.
-/
import proofs.«402578_j10522669875348_3_alg».proof.Proof.Gen.KernelIdeal.Launch
import proofs.«402578_j10522669875348_3_alg».proof.Proof.KDefs
import Idealize.ShloMosaic.Lib.StableHlo.Run

noncomputable section

namespace Cert.KernelIdeal.Gen

open Idealize.ShloMosaic Idealize.ShloMosaic.TcCoe Idealize.ShloMosaic.StableHlo Cert.KernelIdeal.Facts₀

variable {F : FTy → Type} [FloatOps F]

theorem kstretch2_agg (W : Valuation τ sig (Elt F)) :
    StableHlo.after (hostOps2 (F := F)) W (Proc.devRef .tc main_v59)
      = Cert.Sage.K.agg (W (Proc.devRef .tc main_v1)) (W (Proc.devRef .tc main_v3)) (W (Proc.devRef .tc main_v10)) (W (Proc.devRef .tc main_v47)) := by
  after_results_simp
  rfl

theorem kstretch2_w (W : Valuation τ sig (Elt F)) :
    StableHlo.after (hostOps2 (F := F)) W (Proc.devRef .tc main_v61)
      = Cert.Sage.K.wsl 2 slices_S10x256x128_S1x256x128_2_0_0 (W (Proc.devRef .tc main_v11)) := by
  after_results_simp
  rfl

theorem kstretch2_b (W : Valuation τ sig (Elt F)) :
    StableHlo.after (hostOps2 (F := F)) W (Proc.devRef .tc main_v64)
      = Cert.Sage.K.bsl 2 slices_S10x128_S1x128_2_0 (W (Proc.devRef .tc main_arg3)) := by
  after_results_simp
  rfl

/-- No operation of the stretch writes `b`: its contents pass through. -/
theorem kstretch2_keep (W : Valuation τ sig (Elt F)) (b : Ref sig .tc)
    (hb : b = main_v47 ∨ b = main_v1 ∨ b = main_v3 ∨ b = main_v10 ∨ b = main_v11 ∨ b = main_arg3) :
    StableHlo.after (hostOps2 (F := F)) W (Proc.devRef .tc b) = W (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes,
    StableHlo.ternary_writes, StableHlo.reshape_writes, Finset.mem_singleton]
  rcases hb with rfl | rfl | rfl | rfl | rfl | rfl <;>
    (repeat' apply And.intro) <;> exact StableHlo.devRef_ne_of_ne (by decide)

end Cert.KernelIdeal.Gen

end
-- ==== Proof.KStretch3.lean ====
/-
  The host operations between layer 2's kernel call and layer 3's, read as functions: from ANY buffer contents
  `W`, after them the call's first operand holds the neighbour mean of the previous layer's output, its third the
  layer's slice of the stacked weights, its fourth the layer's bias row; the buffers later stretches read again
  (the edge ids, the in-degree column, the stacked weights, the bias table, the previous layer's output) keep
  their contents.
-/
import proofs.«402578_j10522669875348_3_alg».proof.Proof.Gen.KernelIdeal.Launch
import proofs.«402578_j10522669875348_3_alg».proof.Proof.KDefs
import Idealize.ShloMosaic.Lib.StableHlo.Run

noncomputable section

namespace Cert.KernelIdeal.Gen

open Idealize.ShloMosaic Idealize.ShloMosaic.TcCoe Idealize.ShloMosaic.StableHlo Cert.KernelIdeal.Facts₀

variable {F : FTy → Type} [FloatOps F]

theorem kstretch3_agg (W : Valuation τ sig (Elt F)) :
    StableHlo.after (hostOps3 (F := F)) W (Proc.devRef .tc main_v77)
      = Cert.Sage.K.agg (W (Proc.devRef .tc main_v1)) (W (Proc.devRef .tc main_v3)) (W (Proc.devRef .tc main_v10)) (W (Proc.devRef .tc main_v65)) := by
  after_results_simp
  rfl

theorem kstretch3_w (W : Valuation τ sig (Elt F)) :
    StableHlo.after (hostOps3 (F := F)) W (Proc.devRef .tc main_v79)
      = Cert.Sage.K.wsl 3 slices_S10x256x128_S1x256x128_3_0_0 (W (Proc.devRef .tc main_v11)) := by
  after_results_simp
  rfl

theorem kstretch3_b (W : Valuation τ sig (Elt F)) :
    StableHlo.after (hostOps3 (F := F)) W (Proc.devRef .tc main_v82)
      = Cert.Sage.K.bsl 3 slices_S10x128_S1x128_3_0 (W (Proc.devRef .tc main_arg3)) := by
  after_results_simp
  rfl

/-- No operation of the stretch writes `b`: its contents pass through. -/
theorem kstretch3_keep (W : Valuation τ sig (Elt F)) (b : Ref sig .tc)
    (hb : b = main_v65 ∨ b = main_v1 ∨ b = main_v3 ∨ b = main_v10 ∨ b = main_v11 ∨ b = main_arg3) :
    StableHlo.after (hostOps3 (F := F)) W (Proc.devRef .tc b) = W (Proc.devRef .tc b) := by
  refine StableHlo.after_of_forall_not_mem (b := Proc.devRef .tc b) _ _ (List.forall_iff_forall_mem.mp ?_)
  simp only [hostOps3, List.Forall, StableHlo.nullary_writes, StableHlo.unary_writes, StableHlo.binary_writes,
    StableHlo.ternary_writes, StableHlo.reshape_writes, Finset.mem_singleton]
  rcases hb with rfl | rfl | rfl | rfl | rfl | rfl <;>
    (repeat' apply And.intro) <;> exact StableHlo.devRef_ne_of_ne (by decide)

end Cert.KernelIdeal.Gen

end
-- ==== Proof.KStretch4.lean ====
/-
  The host operations between layer 3's kernel call and layer 4's, read as functions: from ANY buffer contents
  `W`, after them the call's first operand holds the neighbour mean of the previous layer's output, its third the
  layer's slice of the stacked weights, its fourth the layer's bias row; the buffers later stretches read again
  (the edge ids, the in-degree column, the stacked weights, the bias table, the previous layer's output) keep
  their contents.
-/
import proofs.«402578_j10522669875348_3_alg».proof.Proof.Gen.KernelIdeal.Launch
import proofs.«402578_j10522669875348_3_alg».proof.Proof.KDefs
import Idealize.ShloMosaic.Lib.StableHlo.Run

noncomputable section

namespace Cert.KernelIdeal.Gen

open Idealize.ShloMosaic Idealize.ShloMosaic.TcCoe Idealize.ShloMosaic.StableHlo Cert.KernelIdeal.Facts₀

variable {F : FTy → Type} [FloatOps F]

theorem kstretch4_agg (W : Valuation τ sig (Elt F)) :
    StableHlo.after (hostOps4 (F := F)) W (Proc.devRef .tc main_v95)
      = Cert.Sage.K.agg (W (Proc.devRef .tc main_v1)) (W (Proc.devRef .tc main_v3)) (W (Proc.devRef .tc main_v10)) (W (Proc.devRef .tc main_v83)) := by
  after_results_simp
  rfl

theorem kstretch4_w (W : Valuation τ sig (Elt F)) :
    StableHlo.after (hostOps4 (F := F)) W (Proc.devRef .tc main_v97)
      = Cert.Sage.K.wsl 4 slices_S10x256x128_S1x256x128_4_0_0 (W (Proc.devRef .tc main_v11)) := by
  after_results_simp
  rfl

theorem kstretch4_b (W : Valuation τ sig (Elt F)) :
    StableHlo.after (hostOps4 (F := F)) W (Proc.devRef .tc main_v100)
      = Cert.Sage.K.bsl 4 slices_S10x128_S1x128_4_0 (W (Proc.devRef .tc main_arg3)) := by
  after_results_simp
  rfl

/-- No operation of the stretch writes `b`: its contents pass through. -/
theorem kstretch4_keep (W : Valuation τ sig (Elt F)) (b : Ref sig .tc)
    (hb : b = main_v83 ∨ b = main_v1 ∨ b = main_v3 ∨ b = main_v10 ∨ b = main_v11 ∨ b = main_arg3) :
    StableHlo.after (hostOps4 (F := F)) W (Proc.devRef .tc b) = W (Proc.devRef .tc b) := by
  refine StableHlo.after_of_forall_not_mem (b := Proc.devRef .tc b) _ _ (List.forall_iff_forall_mem.mp ?_)
  simp only [hostOps4, List.Forall, StableHlo.nullary_writes, StableHlo.unary_writes, StableHlo.binary_writes,
    StableHlo.ternary_writes, StableHlo.reshape_writes, Finset.mem_singleton]
  rcases hb with rfl | rfl | rfl | rfl | rfl | rfl <;>
    (repeat' apply And.intro) <;> exact StableHlo.devRef_ne_of_ne (by decide)

end Cert.KernelIdeal.Gen

end
-- ==== Proof.KStretch5.lean ====
/-
  The host operations between layer 4's kernel call and layer 5's, read as functions: from ANY buffer contents
  `W`, after them the call's first operand holds the neighbour mean of the previous layer's output, its third the
  layer's slice of the stacked weights, its fourth the layer's bias row; the buffers later stretches read again
  (the edge ids, the in-degree column, the stacked weights, the bias table, the previous layer's output) keep
  their contents.
-/
import proofs.«402578_j10522669875348_3_alg».proof.Proof.Gen.KernelIdeal.Launch
import proofs.«402578_j10522669875348_3_alg».proof.Proof.KDefs
import Idealize.ShloMosaic.Lib.StableHlo.Run

noncomputable section

namespace Cert.KernelIdeal.Gen

open Idealize.ShloMosaic Idealize.ShloMosaic.TcCoe Idealize.ShloMosaic.StableHlo Cert.KernelIdeal.Facts₀

variable {F : FTy → Type} [FloatOps F]

theorem kstretch5_agg (W : Valuation τ sig (Elt F)) :
    StableHlo.after (hostOps5 (F := F)) W (Proc.devRef .tc main_v113)
      = Cert.Sage.K.agg (W (Proc.devRef .tc main_v1)) (W (Proc.devRef .tc main_v3)) (W (Proc.devRef .tc main_v10)) (W (Proc.devRef .tc main_v101)) := by
  after_results_simp
  rfl

theorem kstretch5_w (W : Valuation τ sig (Elt F)) :
    StableHlo.after (hostOps5 (F := F)) W (Proc.devRef .tc main_v115)
      = Cert.Sage.K.wsl 5 slices_S10x256x128_S1x256x128_5_0_0 (W (Proc.devRef .tc main_v11)) := by
  after_results_simp
  rfl

theorem kstretch5_b (W : Valuation τ sig (Elt F)) :
    StableHlo.after (hostOps5 (F := F)) W (Proc.devRef .tc main_v118)
      = Cert.Sage.K.bsl 5 slices_S10x128_S1x128_5_0 (W (Proc.devRef .tc main_arg3)) := by
  after_results_simp
  rfl

/-- No operation of the stretch writes `b`: its contents pass through. -/
theorem kstretch5_keep (W : Valuation τ sig (Elt F)) (b : Ref sig .tc)
    (hb : b = main_v101 ∨ b = main_v1 ∨ b = main_v3 ∨ b = main_v10 ∨ b = main_v11 ∨ b = main_arg3) :
    StableHlo.after (hostOps5 (F := F)) W (Proc.devRef .tc b) = W (Proc.devRef .tc b) := by
  refine StableHlo.after_of_forall_not_mem (b := Proc.devRef .tc b) _ _ (List.forall_iff_forall_mem.mp ?_)
  simp only [hostOps5, List.Forall, StableHlo.nullary_writes, StableHlo.unary_writes, StableHlo.binary_writes,
    StableHlo.ternary_writes, StableHlo.reshape_writes, Finset.mem_singleton]
  rcases hb with rfl | rfl | rfl | rfl | rfl | rfl <;>
    (repeat' apply And.intro) <;> exact StableHlo.devRef_ne_of_ne (by decide)

end Cert.KernelIdeal.Gen

end
-- ==== Proof.KStretch6.lean ====
/-
  The host operations between layer 5's kernel call and layer 6's, read as functions: from ANY buffer contents
  `W`, after them the call's first operand holds the neighbour mean of the previous layer's output, its third the
  layer's slice of the stacked weights, its fourth the layer's bias row; the buffers later stretches read again
  (the edge ids, the in-degree column, the stacked weights, the bias table, the previous layer's output) keep
  their contents.
-/
import proofs.«402578_j10522669875348_3_alg».proof.Proof.Gen.KernelIdeal.Launch
import proofs.«402578_j10522669875348_3_alg».proof.Proof.KDefs
import Idealize.ShloMosaic.Lib.StableHlo.Run

noncomputable section

namespace Cert.KernelIdeal.Gen

open Idealize.ShloMosaic Idealize.ShloMosaic.TcCoe Idealize.ShloMosaic.StableHlo Cert.KernelIdeal.Facts₀

variable {F : FTy → Type} [FloatOps F]

theorem kstretch6_agg (W : Valuation τ sig (Elt F)) :
    StableHlo.after (hostOps6 (F := F)) W (Proc.devRef .tc main_v131)
      = Cert.Sage.K.agg (W (Proc.devRef .tc main_v1)) (W (Proc.devRef .tc main_v3)) (W (Proc.devRef .tc main_v10)) (W (Proc.devRef .tc main_v119)) := by
  after_results_simp
  rfl

theorem kstretch6_w (W : Valuation τ sig (Elt F)) :
    StableHlo.after (hostOps6 (F := F)) W (Proc.devRef .tc main_v133)
      = Cert.Sage.K.wsl 6 slices_S10x256x128_S1x256x128_6_0_0 (W (Proc.devRef .tc main_v11)) := by
  after_results_simp
  rfl

theorem kstretch6_b (W : Valuation τ sig (Elt F)) :
    StableHlo.after (hostOps6 (F := F)) W (Proc.devRef .tc main_v136)
      = Cert.Sage.K.bsl 6 slices_S10x128_S1x128_6_0 (W (Proc.devRef .tc main_arg3)) := by
  after_results_simp
  rfl

/-- No operation of the stretch writes `b`: its contents pass through. -/
theorem kstretch6_keep (W : Valuation τ sig (Elt F)) (b : Ref sig .tc)
    (hb : b = main_v119 ∨ b = main_v1 ∨ b = main_v3 ∨ b = main_v10 ∨ b = main_v11 ∨ b = main_arg3) :
    StableHlo.after (hostOps6 (F := F)) W (Proc.devRef .tc b) = W (Proc.devRef .tc b) := by
  refine StableHlo.after_of_forall_not_mem (b := Proc.devRef .tc b) _ _ (List.forall_iff_forall_mem.mp ?_)
  simp only [hostOps6, List.Forall, StableHlo.nullary_writes, StableHlo.unary_writes, StableHlo.binary_writes,
    StableHlo.ternary_writes, StableHlo.reshape_writes, Finset.mem_singleton]
  rcases hb with rfl | rfl | rfl | rfl | rfl | rfl <;>
    (repeat' apply And.intro) <;> exact StableHlo.devRef_ne_of_ne (by decide)

end Cert.KernelIdeal.Gen

end
-- ==== Proof.KStretch7.lean ====
/-
  The host operations between layer 6's kernel call and layer 7's, read as functions: from ANY buffer contents
  `W`, after them the call's first operand holds the neighbour mean of the previous layer's output, its third the
  layer's slice of the stacked weights, its fourth the layer's bias row; the buffers later stretches read again
  (the edge ids, the in-degree column, the stacked weights, the bias table, the previous layer's output) keep
  their contents.
-/
import proofs.«402578_j10522669875348_3_alg».proof.Proof.Gen.KernelIdeal.Launch
import proofs.«402578_j10522669875348_3_alg».proof.Proof.KDefs
import Idealize.ShloMosaic.Lib.StableHlo.Run

noncomputable section

namespace Cert.KernelIdeal.Gen

open Idealize.ShloMosaic Idealize.ShloMosaic.TcCoe Idealize.ShloMosaic.StableHlo Cert.KernelIdeal.Facts₀

variable {F : FTy → Type} [FloatOps F]

theorem kstretch7_agg (W : Valuation τ sig (Elt F)) :
    StableHlo.after (hostOps7 (F := F)) W (Proc.devRef .tc main_v149)
      = Cert.Sage.K.agg (W (Proc.devRef .tc main_v1)) (W (Proc.devRef .tc main_v3)) (W (Proc.devRef .tc main_v10)) (W (Proc.devRef .tc main_v137)) := by
  after_results_simp
  rfl

theorem kstretch7_w (W : Valuation τ sig (Elt F)) :
    StableHlo.after (hostOps7 (F := F)) W (Proc.devRef .tc main_v151)
      = Cert.Sage.K.wsl 7 slices_S10x256x128_S1x256x128_7_0_0 (W (Proc.devRef .tc main_v11)) := by
  after_results_simp
  rfl

theorem kstretch7_b (W : Valuation τ sig (Elt F)) :
    StableHlo.after (hostOps7 (F := F)) W (Proc.devRef .tc main_v154)
      = Cert.Sage.K.bsl 7 slices_S10x128_S1x128_7_0 (W (Proc.devRef .tc main_arg3)) := by
  after_results_simp
  rfl

/-- No operation of the stretch writes `b`: its contents pass through. -/
theorem kstretch7_keep (W : Valuation τ sig (Elt F)) (b : Ref sig .tc)
    (hb : b = main_v137 ∨ b = main_v1 ∨ b = main_v3 ∨ b = main_v10 ∨ b = main_v11 ∨ b = main_arg3) :
    StableHlo.after (hostOps7 (F := F)) W (Proc.devRef .tc b) = W (Proc.devRef .tc b) := by
  refine StableHlo.after_of_forall_not_mem (b := Proc.devRef .tc b) _ _ (List.forall_iff_forall_mem.mp ?_)
  simp only [hostOps7, List.Forall, StableHlo.nullary_writes, StableHlo.unary_writes, StableHlo.binary_writes,
    StableHlo.ternary_writes, StableHlo.reshape_writes, Finset.mem_singleton]
  rcases hb with rfl | rfl | rfl | rfl | rfl | rfl <;>
    (repeat' apply And.intro) <;> exact StableHlo.devRef_ne_of_ne (by decide)

end Cert.KernelIdeal.Gen

end
-- ==== Proof.KStretch8.lean ====
/-
  The host operations between layer 7's kernel call and layer 8's, read as functions: from ANY buffer contents
  `W`, after them the call's first operand holds the neighbour mean of the previous layer's output, its third the
  layer's slice of the stacked weights, its fourth the layer's bias row; the buffers later stretches read again
  (the edge ids, the in-degree column, the stacked weights, the bias table, the previous layer's output) keep
  their contents.
-/
import proofs.«402578_j10522669875348_3_alg».proof.Proof.Gen.KernelIdeal.Launch
import proofs.«402578_j10522669875348_3_alg».proof.Proof.KDefs
import Idealize.ShloMosaic.Lib.StableHlo.Run

noncomputable section

namespace Cert.KernelIdeal.Gen

open Idealize.ShloMosaic Idealize.ShloMosaic.TcCoe Idealize.ShloMosaic.StableHlo Cert.KernelIdeal.Facts₀

variable {F : FTy → Type} [FloatOps F]

theorem kstretch8_agg (W : Valuation τ sig (Elt F)) :
    StableHlo.after (hostOps8 (F := F)) W (Proc.devRef .tc main_v167)
      = Cert.Sage.K.agg (W (Proc.devRef .tc main_v1)) (W (Proc.devRef .tc main_v3)) (W (Proc.devRef .tc main_v10)) (W (Proc.devRef .tc main_v155)) := by
  after_results_simp
  rfl

theorem kstretch8_w (W : Valuation τ sig (Elt F)) :
    StableHlo.after (hostOps8 (F := F)) W (Proc.devRef .tc main_v169)
      = Cert.Sage.K.wsl 8 slices_S10x256x128_S1x256x128_8_0_0 (W (Proc.devRef .tc main_v11)) := by
  after_results_simp
  rfl

theorem kstretch8_b (W : Valuation τ sig (Elt F)) :
    StableHlo.after (hostOps8 (F := F)) W (Proc.devRef .tc main_v172)
      = Cert.Sage.K.bsl 8 slices_S10x128_S1x128_8_0 (W (Proc.devRef .tc main_arg3)) := by
  after_results_simp
  rfl

/-- No operation of the stretch writes `b`: its contents pass through. -/
theorem kstretch8_keep (W : Valuation τ sig (Elt F)) (b : Ref sig .tc)
    (hb : b = main_v155 ∨ b = main_v1 ∨ b = main_v3 ∨ b = main_v10 ∨ b = main_v11 ∨ b = main_arg3) :
    StableHlo.after (hostOps8 (F := F)) W (Proc.devRef .tc b) = W (Proc.devRef .tc b) := by
  refine StableHlo.after_of_forall_not_mem (b := Proc.devRef .tc b) _ _ (List.forall_iff_forall_mem.mp ?_)
  simp only [hostOps8, List.Forall, StableHlo.nullary_writes, StableHlo.unary_writes, StableHlo.binary_writes,
    StableHlo.ternary_writes, StableHlo.reshape_writes, Finset.mem_singleton]
  rcases hb with rfl | rfl | rfl | rfl | rfl | rfl <;>
    (repeat' apply And.intro) <;> exact StableHlo.devRef_ne_of_ne (by decide)

end Cert.KernelIdeal.Gen

end
-- ==== Proof.KStretch9.lean ====
/-
  The host operations between layer 8's kernel call and layer 9's, read as functions: from ANY buffer contents
  `W`, after them the call's first operand holds the neighbour mean of the previous layer's output, its third the
  layer's slice of the stacked weights, its fourth the layer's bias row; the buffers later stretches read again
  (the edge ids, the in-degree column, the stacked weights, the bias table, the previous layer's output) keep
  their contents.
-/
import proofs.«402578_j10522669875348_3_alg».proof.Proof.Gen.KernelIdeal.Launch
import proofs.«402578_j10522669875348_3_alg».proof.Proof.KDefs
import Idealize.ShloMosaic.Lib.StableHlo.Run

noncomputable section

namespace Cert.KernelIdeal.Gen

open Idealize.ShloMosaic Idealize.ShloMosaic.TcCoe Idealize.ShloMosaic.StableHlo Cert.KernelIdeal.Facts₀

variable {F : FTy → Type} [FloatOps F]

theorem kstretch9_agg (W : Valuation τ sig (Elt F)) :
    StableHlo.after (hostOps9 (F := F)) W (Proc.devRef .tc main_v185)
      = Cert.Sage.K.agg (W (Proc.devRef .tc main_v1)) (W (Proc.devRef .tc main_v3)) (W (Proc.devRef .tc main_v10)) (W (Proc.devRef .tc main_v173)) := by
  after_results_simp
  rfl

theorem kstretch9_w (W : Valuation τ sig (Elt F)) :
    StableHlo.after (hostOps9 (F := F)) W (Proc.devRef .tc main_v187)
      = Cert.Sage.K.wsl 9 slices_S10x256x128_S1x256x128_9_0_0 (W (Proc.devRef .tc main_v11)) := by
  after_results_simp
  rfl

theorem kstretch9_b (W : Valuation τ sig (Elt F)) :
    StableHlo.after (hostOps9 (F := F)) W (Proc.devRef .tc main_v190)
      = Cert.Sage.K.bsl 9 slices_S10x128_S1x128_9_0 (W (Proc.devRef .tc main_arg3)) := by
  after_results_simp
  rfl

/-- No operation of the stretch writes `b`: its contents pass through. -/
theorem kstretch9_keep (W : Valuation τ sig (Elt F)) (b : Ref sig .tc)
    (hb : b = main_v173 ∨ b = main_v1 ∨ b = main_v3 ∨ b = main_v10 ∨ b = main_v11 ∨ b = main_arg3) :
    StableHlo.after (hostOps9 (F := F)) W (Proc.devRef .tc b) = W (Proc.devRef .tc b) := by
  refine StableHlo.after_of_forall_not_mem (b := Proc.devRef .tc b) _ _ (List.forall_iff_forall_mem.mp ?_)
  simp only [hostOps9, List.Forall, StableHlo.nullary_writes, StableHlo.unary_writes, StableHlo.binary_writes,
    StableHlo.ternary_writes, StableHlo.reshape_writes, Finset.mem_singleton]
  rcases hb with rfl | rfl | rfl | rfl | rfl | rfl <;>
    (repeat' apply And.intro) <;> exact StableHlo.devRef_ne_of_ne (by decide)

end Cert.KernelIdeal.Gen

end
-- ==== Proof.Payload.lean ====
/-
  The body of one layer's kernel, read at an entry of its output block.

  Every layer's body is the same tree of whole-block operations: the two loaded blocks of 10000 rows are laid side
  by side into rows of 256 entries, multiplied into the 256 × 128 weights with a zero accumulator, the bias row is
  added to every row, and (on all layers but the last) the result is clamped below at 0. Read at row p and column q
  this is the sum over the 256 stacked terms of row p against column q of the weights, plus the bias at column q,
  and the maximum of that with 0.
-/
import proofs.«402578_j10522669875348_3_alg».proof.Proof.Gen.KernelIdeal.Skeleton
import proofs.«402578_j10522669875348_3_alg».proof.Proof.Spec
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.ValueIdx Idealize.SL.Sem

/-! ## The product's operand indices -/

/-- The left operand's row is the output's row. -/
theorem lhs_stacked_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl

/-- The left operand's column is the summation position. -/
theorem lhs_stacked_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q

/-- The right operand's row is the summation position. -/
theorem rhs_stacked_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q

/-- The right operand's column is the output's column. -/
theorem rhs_stacked_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-! ## The stacked rows -/

/-- Two blocks of 128 columns laid side by side, read at row p and column k of the 256: the first block's entry
    below column 128, the second's entry at column k − 128 from there on. -/
theorem stacked_apply (a x : FVec Ideal S10000x128 .f32) (p : Fin 10000) (k : Fin 256) :
    concatenate S10000x256 1 [⟨S10000x128, a⟩, ⟨S10000x128, x⟩] concatenates_S10000x128_S10000x128_S10000x256_d1 (ix2 p k)
      = Cert.Sage.catRow (fun j => a (ix2 p j)) (fun j => x (ix2 p j)) k := by
  unfold Cert.Sage.catRow
  by_cases h : k.val < 128
  · rw [dif_pos h]
    refine concatenate_pair_apply_left (1 : Fin S10000x256.rank) a x concatenates_S10000x128_S10000x128_S10000x256_d1 (ix2 p k) rfl
      (ix2 p ⟨k.val, h⟩) (fun b => ?_)
    match b with
    | ⟨0, _⟩ => rfl
    | ⟨1, _⟩ => rfl
  · rw [dif_neg h]
    refine concatenate_pair_apply_right (1 : Fin S10000x256.rank) a x concatenates_S10000x128_S10000x128_S10000x256_d1 (ix2 p k) rfl rfl
      (ix2 p ⟨k.val - 128, by have := k.isLt; omega⟩) (fun b hb => ?_) ?_
    · match b with
      | ⟨0, _⟩ => rfl
      | ⟨1, _⟩ => exact absurd rfl hb
    · show (k.val - 128) + 128 = k.val
      omega

/-! ## The common tree -/

/-- What every layer's body computes before the clamp, over whole blocks and for any float instance: the stacked
    rows times the weights into a zero accumulator, plus the bias row on every row. -/
def stackedAffine {F : FTy → Type} [FloatOps F] (a x : FVec F S10000x128 .f32) (w : FVec F S256x128 .f32) (b : FVec F S1x128 .f32) :
    FVec F S10000x128 .f32 :=
  addf (matmul dot_S10000x256_S256x128_S10000x128_1_0_0_1_n_n none
      (concatenate S10000x256 1 [⟨S10000x128, a⟩, ⟨S10000x128, x⟩] concatenates_S10000x128_S10000x128_S10000x256_d1) w
      (constant S10000x128 .f32 0x00000000#32))
    (broadcastTo S10000x128 b broadcasts_S1x128_S10000x128)

/-- At the extended reals, entry (p, q) of that tree is the product of the stacked row p with column q of the
    weights, plus the bias at column q. -/
theorem stackedAffine_apply (a x : FVec Ideal S10000x128 .f32) (w : FVec Ideal S256x128 .f32) (b : FVec Ideal S1x128 .f32)
    (p : Fin 10000) (q : Fin 128) :
    stackedAffine a x w b (ix2 p q)
      = (∑ kk : Fin 256, Cert.Sage.catRow (fun j => a (ix2 p j)) (fun j => x (ix2 p j)) kk * w (ix2 kk q)) + b (ix2 0 q) := by
  unfold stackedAffine
  refine (addf_apply _ _ (ix2 p q)).trans ?_
  congr 1
  · refine (Ideal.matmul_constant_zero_apply dot_S10000x256_S256x128_S10000x128_1_0_0_1_n_n none _ w (ix2 p q)).trans ?_
    rw [← Equiv.sum_comp (contrEquiv1 dot_S10000x256_S256x128_S10000x128_1_0_0_1_n_n 256 rfl rfl).symm]
    refine Finset.sum_congr rfl fun k _ => ?_
    have hk := contrEquiv1_symm_val dot_S10000x256_S256x128_S10000x128_1_0_0_1_n_n 256 rfl rfl k
    have el : dot_S10000x256_S256x128_S10000x128_1_0_0_1_n_n.lhsIdx (ix2 p q) ((contrEquiv1 dot_S10000x256_S256x128_S10000x128_1_0_0_1_n_n 256 rfl rfl).symm k) = ix2 p k := funext fun c => Fin.ext (by
      match c with
      | ⟨0, _⟩ => exact lhs_stacked_0 _ _
      | ⟨1, _⟩ => exact (lhs_stacked_1 _ _).trans hk)
    have er : dot_S10000x256_S256x128_S10000x128_1_0_0_1_n_n.rhsIdx (ix2 p q) ((contrEquiv1 dot_S10000x256_S256x128_S10000x128_1_0_0_1_n_n 256 rfl rfl).symm k) = ix2 k q := funext fun c => Fin.ext (by
      match c with
      | ⟨0, _⟩ => exact (rhs_stacked_0 _ _).trans hk
      | ⟨1, _⟩ => exact rhs_stacked_1 _ _)
    rw [el, er, stacked_apply]
  · refine broadcastTo_apply b broadcasts_S1x128_S10000x128 (ix2 p q) (ix2 0 q) (fun c => ?_)
    match c with
    | ⟨0, _⟩ => rfl
    | ⟨1, _⟩ => rfl

/-! ## The tree against the layer's whole-array function -/

/-- The unclamped tree at entry (p, q) of a block is the layer's unclamped function at entry (P, q) of the whole
    arrays, when row p of each of the two blocks is row P of its array. -/
theorem affine_eq_combine (a x : FVec Ideal S10000x128 .f32) (w : FVec Ideal S256x128 .f32) (b : FVec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    stackedAffine a x w b (ix2 p q) = Cert.Sage.combine false A X w b (ix2 P q) := by
  rw [stackedAffine_apply, funext ha, funext hx]
  rfl

/-- The tree clamped below at the zero word, at entry (p, q) of a block, is the layer's clamped function at entry
    (P, q) of the whole arrays, under the same condition on the rows. -/
theorem clamped_eq_combine (a x : FVec Ideal S10000x128 .f32) (w : FVec Ideal S256x128 .f32) (b : FVec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    maximumf (stackedAffine a x w b) (broadcast S10000x128 (Scalar.ofBits .f32 0x00000000#32)) (ix2 p q)
      = Cert.Sage.combine true A X w b (ix2 P q) := by
  refine (maximumf_apply _ _ (ix2 p q)).trans ?_
  rw [stackedAffine_apply, funext ha, funext hx]
  show max _ (Ideal.ofBits .f32 0x00000000#32) = _
  rw [Ideal.ofBits_zero_f32]
  rfl

/-! ## The three printed forms of the body -/

section Forms
variable {F : FTy → Type} [FloatOps F]

/-- The first layer's body is the common tree clamped below at the zero word. -/
theorem k0_pay1_tree (a x : Vec F S10000x128 .f32) (w : Vec F S256x128 .f32) (b : Vec F S1x128 .f32) :
    k0_pay1 a x w b = maximumf (stackedAffine a x w b) (broadcast S10000x128 (Scalar.ofBits .f32 0x00000000#32)) := by
  unfold k0_pay1 stackedAffine
  simp only [shapeCast_self]
  rw [shapeCast_self a]

/-- Layer 1's body is the common tree clamped below at the zero word. -/
theorem k1_pay1_tree (a x : Vec F S10000x128 .f32) (w : Vec F S256x128 .f32) (b : Vec F S1x128 .f32) :
    k1_pay1 a x w b = maximumf (stackedAffine a x w b) (broadcast S10000x128 (Scalar.ofBits .f32 0x00000000#32)) := by
  unfold k1_pay1 stackedAffine
  simp only [shapeCast_self]
  rw [shapeCast_self a, shapeCast_self x]

/-- Layer 2's body is the common tree clamped below at the zero word. -/
theorem k2_pay1_tree (a x : Vec F S10000x128 .f32) (w : Vec F S256x128 .f32) (b : Vec F S1x128 .f32) :
    k2_pay1 a x w b = maximumf (stackedAffine a x w b) (broadcast S10000x128 (Scalar.ofBits .f32 0x00000000#32)) := by
  unfold k2_pay1 stackedAffine
  simp only [shapeCast_self]
  rw [shapeCast_self a, shapeCast_self x]

/-- Layer 3's body is the common tree clamped below at the zero word. -/
theorem k3_pay1_tree (a x : Vec F S10000x128 .f32) (w : Vec F S256x128 .f32) (b : Vec F S1x128 .f32) :
    k3_pay1 a x w b = maximumf (stackedAffine a x w b) (broadcast S10000x128 (Scalar.ofBits .f32 0x00000000#32)) := by
  unfold k3_pay1 stackedAffine
  simp only [shapeCast_self]
  rw [shapeCast_self a, shapeCast_self x]

/-- Layer 4's body is the common tree clamped below at the zero word. -/
theorem k4_pay1_tree (a x : Vec F S10000x128 .f32) (w : Vec F S256x128 .f32) (b : Vec F S1x128 .f32) :
    k4_pay1 a x w b = maximumf (stackedAffine a x w b) (broadcast S10000x128 (Scalar.ofBits .f32 0x00000000#32)) := by
  unfold k4_pay1 stackedAffine
  simp only [shapeCast_self]
  rw [shapeCast_self a, shapeCast_self x]

/-- Layer 5's body is the common tree clamped below at the zero word. -/
theorem k5_pay1_tree (a x : Vec F S10000x128 .f32) (w : Vec F S256x128 .f32) (b : Vec F S1x128 .f32) :
    k5_pay1 a x w b = maximumf (stackedAffine a x w b) (broadcast S10000x128 (Scalar.ofBits .f32 0x00000000#32)) := by
  unfold k5_pay1 stackedAffine
  simp only [shapeCast_self]
  rw [shapeCast_self a, shapeCast_self x]

/-- Layer 6's body is the common tree clamped below at the zero word. -/
theorem k6_pay1_tree (a x : Vec F S10000x128 .f32) (w : Vec F S256x128 .f32) (b : Vec F S1x128 .f32) :
    k6_pay1 a x w b = maximumf (stackedAffine a x w b) (broadcast S10000x128 (Scalar.ofBits .f32 0x00000000#32)) := by
  unfold k6_pay1 stackedAffine
  simp only [shapeCast_self]
  rw [shapeCast_self a, shapeCast_self x]

/-- Layer 7's body is the common tree clamped below at the zero word. -/
theorem k7_pay1_tree (a x : Vec F S10000x128 .f32) (w : Vec F S256x128 .f32) (b : Vec F S1x128 .f32) :
    k7_pay1 a x w b = maximumf (stackedAffine a x w b) (broadcast S10000x128 (Scalar.ofBits .f32 0x00000000#32)) := by
  unfold k7_pay1 stackedAffine
  simp only [shapeCast_self]
  rw [shapeCast_self a, shapeCast_self x]

/-- Layer 8's body is the common tree clamped below at the zero word. -/
theorem k8_pay1_tree (a x : Vec F S10000x128 .f32) (w : Vec F S256x128 .f32) (b : Vec F S1x128 .f32) :
    k8_pay1 a x w b = maximumf (stackedAffine a x w b) (broadcast S10000x128 (Scalar.ofBits .f32 0x00000000#32)) := by
  unfold k8_pay1 stackedAffine
  simp only [shapeCast_self]
  rw [shapeCast_self a, shapeCast_self x]

/-- The last layer's body is the common tree, with no clamp. -/
theorem k9_pay1_tree (a x : Vec F S10000x128 .f32) (w : Vec F S256x128 .f32) (b : Vec F S1x128 .f32) :
    k9_pay1 a x w b = stackedAffine a x w b := by
  unfold k9_pay1 stackedAffine
  simp only [shapeCast_self]
  rw [shapeCast_self a, shapeCast_self x]

end Forms

/-! ## Each layer's body at an entry of a block, against the layer's whole-array function -/

/-- Layer 0's body at entry (p, q) of a block is the layer's clamped function at entry (P, q) of the whole arrays,
    when row p of each of the two blocks is row P of its array. -/
theorem k0_pay1_combine (a x : Vec Ideal S10000x128 .f32) (w : Vec Ideal S256x128 .f32) (b : Vec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    k0_pay1 a x w b (ix2 p q) = Cert.Sage.combine true A X w b (ix2 P q) :=
  (congrFun (k0_pay1_tree a x w b) (ix2 p q)).trans (clamped_eq_combine a x w b A X P p q ha hx)

/-- Layer 1's body at entry (p, q) of a block is the layer's clamped function at entry (P, q) of the whole arrays,
    when row p of each of the two blocks is row P of its array. -/
theorem k1_pay1_combine (a x : Vec Ideal S10000x128 .f32) (w : Vec Ideal S256x128 .f32) (b : Vec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    k1_pay1 a x w b (ix2 p q) = Cert.Sage.combine true A X w b (ix2 P q) :=
  (congrFun (k1_pay1_tree a x w b) (ix2 p q)).trans (clamped_eq_combine a x w b A X P p q ha hx)

/-- Layer 2's body at entry (p, q) of a block is the layer's clamped function at entry (P, q) of the whole arrays,
    when row p of each of the two blocks is row P of its array. -/
theorem k2_pay1_combine (a x : Vec Ideal S10000x128 .f32) (w : Vec Ideal S256x128 .f32) (b : Vec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    k2_pay1 a x w b (ix2 p q) = Cert.Sage.combine true A X w b (ix2 P q) :=
  (congrFun (k2_pay1_tree a x w b) (ix2 p q)).trans (clamped_eq_combine a x w b A X P p q ha hx)

/-- Layer 3's body at entry (p, q) of a block is the layer's clamped function at entry (P, q) of the whole arrays,
    when row p of each of the two blocks is row P of its array. -/
theorem k3_pay1_combine (a x : Vec Ideal S10000x128 .f32) (w : Vec Ideal S256x128 .f32) (b : Vec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    k3_pay1 a x w b (ix2 p q) = Cert.Sage.combine true A X w b (ix2 P q) :=
  (congrFun (k3_pay1_tree a x w b) (ix2 p q)).trans (clamped_eq_combine a x w b A X P p q ha hx)

/-- Layer 4's body at entry (p, q) of a block is the layer's clamped function at entry (P, q) of the whole arrays,
    when row p of each of the two blocks is row P of its array. -/
theorem k4_pay1_combine (a x : Vec Ideal S10000x128 .f32) (w : Vec Ideal S256x128 .f32) (b : Vec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    k4_pay1 a x w b (ix2 p q) = Cert.Sage.combine true A X w b (ix2 P q) :=
  (congrFun (k4_pay1_tree a x w b) (ix2 p q)).trans (clamped_eq_combine a x w b A X P p q ha hx)

/-- Layer 5's body at entry (p, q) of a block is the layer's clamped function at entry (P, q) of the whole arrays,
    when row p of each of the two blocks is row P of its array. -/
theorem k5_pay1_combine (a x : Vec Ideal S10000x128 .f32) (w : Vec Ideal S256x128 .f32) (b : Vec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    k5_pay1 a x w b (ix2 p q) = Cert.Sage.combine true A X w b (ix2 P q) :=
  (congrFun (k5_pay1_tree a x w b) (ix2 p q)).trans (clamped_eq_combine a x w b A X P p q ha hx)

/-- Layer 6's body at entry (p, q) of a block is the layer's clamped function at entry (P, q) of the whole arrays,
    when row p of each of the two blocks is row P of its array. -/
theorem k6_pay1_combine (a x : Vec Ideal S10000x128 .f32) (w : Vec Ideal S256x128 .f32) (b : Vec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    k6_pay1 a x w b (ix2 p q) = Cert.Sage.combine true A X w b (ix2 P q) :=
  (congrFun (k6_pay1_tree a x w b) (ix2 p q)).trans (clamped_eq_combine a x w b A X P p q ha hx)

/-- Layer 7's body at entry (p, q) of a block is the layer's clamped function at entry (P, q) of the whole arrays,
    when row p of each of the two blocks is row P of its array. -/
theorem k7_pay1_combine (a x : Vec Ideal S10000x128 .f32) (w : Vec Ideal S256x128 .f32) (b : Vec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    k7_pay1 a x w b (ix2 p q) = Cert.Sage.combine true A X w b (ix2 P q) :=
  (congrFun (k7_pay1_tree a x w b) (ix2 p q)).trans (clamped_eq_combine a x w b A X P p q ha hx)

/-- Layer 8's body at entry (p, q) of a block is the layer's clamped function at entry (P, q) of the whole arrays,
    when row p of each of the two blocks is row P of its array. -/
theorem k8_pay1_combine (a x : Vec Ideal S10000x128 .f32) (w : Vec Ideal S256x128 .f32) (b : Vec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    k8_pay1 a x w b (ix2 p q) = Cert.Sage.combine true A X w b (ix2 P q) :=
  (congrFun (k8_pay1_tree a x w b) (ix2 p q)).trans (clamped_eq_combine a x w b A X P p q ha hx)

/-- Layer 9's body at entry (p, q) of a block is the layer's unclamped function at entry (P, q) of the whole arrays,
    when row p of each of the two blocks is row P of its array. -/
theorem k9_pay1_combine (a x : Vec Ideal S10000x128 .f32) (w : Vec Ideal S256x128 .f32) (b : Vec Ideal S1x128 .f32)
    (A X : Cert.Sage.SN.Idx → EReal) (P : Fin 100000) (p : Fin 10000) (q : Fin 128)
    (ha : ∀ j : Fin 128, a (ix2 p j) = A (ix2 P j)) (hx : ∀ j : Fin 128, x (ix2 p j) = X (ix2 P j)) :
    k9_pay1 a x w b (ix2 p q) = Cert.Sage.combine false A X w b (ix2 P q) :=
  (congrFun (k9_pay1_tree a x w b) (ix2 p q)).trans (affine_eq_combine a x w b A X P p q ha hx)

end Cert.KernelIdeal.Gen

end
-- ==== Proof.Region0.lean ====
/-
  Layer 0's kernel over whole arrays.

  The kernel runs over ten grid points. At point t it is handed rows 10000·t … 10000·t + 9999 of the neighbour
  means and of the node features, all of the stacked weights and the bias row, and writes the same rows of its
  result. Each written block is therefore the matching block of ONE function of the whole arrays — the stacked
  row times the stacked weights, plus the bias, clamped below at 0 — and the ten blocks tile the result, so the result
  array after the run is that function.
-/
import proofs.«402578_j10522669875348_3_alg».proof.Proof.Gen.KernelIdeal.Frame
import proofs.«402578_j10522669875348_3_alg».proof.Proof.Payload
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem region0_zeros : (![0, 0] : Fin 2 → Nat) = fun _ => 0 := funext fun a => by fin_cases a <;> rfl

/-- The block indices at every grid point: the two row-blocked inputs and the result sit at block row t, column
    block 0; the weights and the bias are one block each; and there are ten points. -/
theorem region0_points : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 10 :=
  (by decide +kernel : ∀ t : Fin grid0.N, _)

/-- Row p of the neighbour-mean block at point t is row 10000·t + p of the array. -/
theorem region0_rows0 (c : Dev nD) (t : Fin cfg0.N) (p : Fin 10000) (j : Fin 128) (P : Fin 100000)
    (hP : P.val = t.val * 10000 + p.val) :
    (iblk0 V c 0 t : Vec Ideal S10000x128 .f32) (ix2 p j) = (V c main_v23 : Cert.Sage.SN.Idx → EReal) (ix2 P j) := by
  obtain ⟨e0, e1, -⟩ := region0_points t
  unfold iblk0
  rw [View.read_apply]
  show V c main_v23 _ = V c main_v23 _
  congr 1
  funext a
  apply Fin.ext
  match a with
  | ⟨0, _⟩ => show win0_0.index t 0 * 10000 + 1 * p.val = P.val; rw [e0, hP]; omega
  | ⟨1, _⟩ => show win0_0.index t 1 * 128 + 1 * j.val = j.val; rw [e1]; omega

/-- Row p of the node-feature block at point t is row 10000·t + p of the array. -/
theorem region0_rows1 (c : Dev nD) (t : Fin cfg0.N) (p : Fin 10000) (j : Fin 128) (P : Fin 100000)
    (hP : P.val = t.val * 10000 + p.val) :
    (iblk0 V c 1 t : Vec Ideal S10000x128 .f32) (ix2 p j) = (V c main_arg0 : Cert.Sage.SN.Idx → EReal) (ix2 P j) := by
  obtain ⟨-, -, e0, e1, -⟩ := region0_points t
  unfold iblk0
  rw [View.read_apply]
  show V c main_arg0 _ = V c main_arg0 _
  congr 1
  funext a
  apply Fin.ext
  match a with
  | ⟨0, _⟩ => show win0_1.index t 0 * 10000 + 1 * p.val = P.val; rw [e0, hP]; omega
  | ⟨1, _⟩ => show win0_1.index t 1 * 128 + 1 * j.val = j.val; rw [e1]; omega

/-- The weights' block at every point is the whole array of stacked weights. -/
theorem region0_weights (c : Dev nD) (t : Fin cfg0.N) :
    (iblk0 V c 2 t : Vec Ideal S256x128 .f32) = (V c main_v25 : Cert.Sage.SW2.Idx → EReal) := by
  obtain ⟨-, -, -, -, e0, e1, -⟩ := region0_points t
  funext y
  unfold iblk0
  rw [View.read_apply]
  show V c main_v25 _ = V c main_v25 y
  congr 1
  funext a
  apply Fin.ext
  match a with
  | ⟨0, _⟩ => show win0_2.index t 0 * 256 + 1 * (y 0).val = (y 0).val; rw [e0]; omega
  | ⟨1, _⟩ => show win0_2.index t 1 * 128 + 1 * (y 1).val = (y 1).val; rw [e1]; omega

/-- The bias block at every point is the whole bias row. -/
theorem region0_bias (c : Dev nD) (t : Fin cfg0.N) :
    (iblk0 V c 3 t : Vec Ideal S1x128 .f32) = (V c main_v28 : Cert.Sage.SB1.Idx → EReal) := by
  obtain ⟨-, -, -, -, -, -, e0, e1, -⟩ := region0_points t
  funext y
  unfold iblk0
  rw [View.read_apply]
  show V c main_v28 _ = V c main_v28 y
  congr 1
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega

/-- What point t writes back is block t of the layer's function of the whole arrays. -/
theorem region0_flushed (c : Dev nD) (t : Fin cfg0.N) :
    (dat0 (F := Ideal) V c).flushed 4 t = ((cfg0.win 4).blk t).view.read (Elt Ideal)
      (Cert.Sage.combine true (V c main_v23) (V c main_arg0) (V c main_v25) (V c main_v28)) := by
  show (cfg0.win 4).cut (grid0.coords t) ((dat0 V c).after 4 t) = _
  rw [after0_4]
  unfold out0_4
  rw [View.canon_unit_zero region0_zeros]
  simp only [View.ld_unit_zero (S := S10000x128) region0_zeros, View.ld_unit_zero (S := S256x128) region0_zeros,
    View.ld_unit_zero (S := S1x128) region0_zeros]
  funext j
  obtain ⟨p, q, rfl⟩ : ∃ (p : Fin 10000) (q : Fin 128), j = ix2 p q := ⟨j 0, j 1, eq_ix2 j⟩
  obtain ⟨-, -, -, -, -, -, -, -, e0, e1, ht⟩ := region0_points t
  have hP : t.val * 10000 + p.val < 100000 := by omega
  rw [View.read_apply]
  have he : ((cfg0.win 4).blk t).view.emb (ix2 p q) = ix2 (⟨t.val * 10000 + p.val, hP⟩ : Fin 100000) q :=
    funext fun a => Fin.ext (by
      match a with
      | ⟨0, _⟩ => show win0_4.index t 0 * 10000 + 1 * p.val = t.val * 10000 + p.val; rw [e0]; omega
      | ⟨1, _⟩ => show win0_4.index t 1 * 128 + 1 * q.val = q.val; rw [e1]; omega)
  rw [he]
  show k0_pay1 (iblk0 V c 0 t) (iblk0 V c 1 t) (iblk0 V c 2 t) (iblk0 V c 3 t) (ix2 p q)
    = Cert.Sage.combine true (V c main_v23) (V c main_arg0) (V c main_v25) (V c main_v28)
        (ix2 (⟨t.val * 10000 + p.val, hP⟩ : Fin 100000) q)
  exact (k0_pay1_combine (iblk0 V c 0 t) (iblk0 V c 1 t) (iblk0 V c 2 t) (iblk0 V c 3 t) (V c main_v23) (V c main_arg0)
      (⟨t.val * 10000 + p.val, hP⟩ : Fin 100000) p q
      (fun j => region0_rows0 V c t p j ⟨t.val * 10000 + p.val, hP⟩ rfl)
      (fun j => region0_rows1 V c t p j ⟨t.val * 10000 + p.val, hP⟩ rfl)).trans
    (congrArg₂ (fun w b => Cert.Sage.combine true (V c main_v23) (V c main_arg0) w b
        (ix2 (⟨t.val * 10000 + p.val, hP⟩ : Fin 100000) q)) (region0_weights V c t) (region0_bias V c t))

/-- An index of the result array is in point t's block iff each coordinate is in the block's range on its axis. -/
theorem region0_mem_blk (t : Fin cfg0.N) (i : S100000x128.Idx) :
    i ∈ ((cfg0.win 4).blk t).view.set ↔ ∀ a : Fin 2, win0_4.index t a * S10000x128.size a ≤ (i a).val
      ∧ (i a).val < win0_4.index t a * S10000x128.size a + S10000x128.size a := by
  show i ∈ ((View.whole main_v29).slice (win0_4.rect t)).set ↔ _
  rw [View.set_slice_whole, Rect.mem_set_unit]
  exact Iff.rfl

/-- Every index of the result array is in some point's block: row r is in the block of point r / 10000. -/
theorem region0_cover (i : S100000x128.Idx) :
    ∃ t : Fin cfg0.N, (cfg0.win 4).flush t = true ∧ i ∈ ((cfg0.win 4).blk t).view.set := by
  have h0 : (i 0).val < 100000 := (i 0).isLt
  have h1 : (i 1).val < 128 := (i 1).isLt
  have ht : (i 0).val / 10000 < cfg0.N := by rw [show cfg0.N = 10 from N_0]; omega
  obtain ⟨-, -, -, -, -, -, -, -, e0, e1, -⟩ := region0_points ⟨(i 0).val / 10000, ht⟩
  have e0' : win0_4.index ⟨(i 0).val / 10000, ht⟩ (0 : Fin 2) = (i 0).val / 10000 := e0
  refine ⟨⟨(i 0).val / 10000, ht⟩, flush0_4 _, ?_⟩
  rw [region0_mem_blk]
  intro a
  match a with
  | ⟨0, _⟩ =>
    show win0_4.index ⟨(i 0).val / 10000, ht⟩ (0 : Fin 2) * 10000 ≤ (i 0).val
      ∧ (i 0).val < win0_4.index ⟨(i 0).val / 10000, ht⟩ (0 : Fin 2) * 10000 + 10000
    rw [e0']; omega
  | ⟨1, _⟩ =>
    show win0_4.index ⟨(i 0).val / 10000, ht⟩ (1 : Fin 2) * 128 ≤ (i 1).val
      ∧ (i 1).val < win0_4.index ⟨(i 0).val / 10000, ht⟩ (1 : Fin 2) * 128 + 128
    rw [e1]; omega

/-- Layer 0's result array after the run is the layer's function of the arrays the run found: the stacked rows
    of neighbour means and node features times the stacked weights, plus the bias, clamped below at 0. -/
theorem region0_val (c : Dev nD) :
    (dat0 (F := Ideal) V c).arrAt 4 cfg0.N
      = Cert.Sage.combine true (V c main_v23) (V c main_arg0) (V c main_v25) (V c main_v28) :=
  (dat0 V c).arrAt_eq_of_cover 4 _ (fun t _ => region0_flushed V c t) region0_cover

end Cert.KernelIdeal.Gen

end
-- ==== Proof.Region1.lean ====
/-
  Layer 1's kernel over whole arrays.

  The kernel runs over ten grid points. At point t it is handed rows 10000·t … 10000·t + 9999 of the neighbour
  means and of the node features, all of the stacked weights and the bias row, and writes the same rows of its
  result. Each written block is therefore the matching block of ONE function of the whole arrays — the stacked
  row times the stacked weights, plus the bias, clamped below at 0 — and the ten blocks tile the result, so the result
  array after the run is that function.
-/
import proofs.«402578_j10522669875348_3_alg».proof.Proof.Gen.KernelIdeal.Frame
import proofs.«402578_j10522669875348_3_alg».proof.Proof.Payload
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem region1_zeros : (![0, 0] : Fin 2 → Nat) = fun _ => 0 := funext fun a => by fin_cases a <;> rfl

/-- The block indices at every grid point: the two row-blocked inputs and the result sit at block row t, column
    block 0; the weights and the bias are one block each; and there are ten points. -/
theorem region1_points : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 10 :=
  (by decide +kernel : ∀ t : Fin grid1.N, _)

/-- Row p of the neighbour-mean block at point t is row 10000·t + p of the array. -/
theorem region1_rows0 (c : Dev nD) (t : Fin cfg1.N) (p : Fin 10000) (j : Fin 128) (P : Fin 100000)
    (hP : P.val = t.val * 10000 + p.val) :
    (iblk1 V c 0 t : Vec Ideal S10000x128 .f32) (ix2 p j) = (V c main_v41 : Cert.Sage.SN.Idx → EReal) (ix2 P j) := by
  obtain ⟨e0, e1, -⟩ := region1_points t
  unfold iblk1
  rw [View.read_apply]
  show V c main_v41 _ = V c main_v41 _
  congr 1
  funext a
  apply Fin.ext
  match a with
  | ⟨0, _⟩ => show win1_0.index t 0 * 10000 + 1 * p.val = P.val; rw [e0, hP]; omega
  | ⟨1, _⟩ => show win1_0.index t 1 * 128 + 1 * j.val = j.val; rw [e1]; omega

/-- Row p of the node-feature block at point t is row 10000·t + p of the array. -/
theorem region1_rows1 (c : Dev nD) (t : Fin cfg1.N) (p : Fin 10000) (j : Fin 128) (P : Fin 100000)
    (hP : P.val = t.val * 10000 + p.val) :
    (iblk1 V c 1 t : Vec Ideal S10000x128 .f32) (ix2 p j) = (V c main_v29 : Cert.Sage.SN.Idx → EReal) (ix2 P j) := by
  obtain ⟨-, -, e0, e1, -⟩ := region1_points t
  unfold iblk1
  rw [View.read_apply]
  show V c main_v29 _ = V c main_v29 _
  congr 1
  funext a
  apply Fin.ext
  match a with
  | ⟨0, _⟩ => show win1_1.index t 0 * 10000 + 1 * p.val = P.val; rw [e0, hP]; omega
  | ⟨1, _⟩ => show win1_1.index t 1 * 128 + 1 * j.val = j.val; rw [e1]; omega

/-- The weights' block at every point is the whole array of stacked weights. -/
theorem region1_weights (c : Dev nD) (t : Fin cfg1.N) :
    (iblk1 V c 2 t : Vec Ideal S256x128 .f32) = (V c main_v43 : Cert.Sage.SW2.Idx → EReal) := by
  obtain ⟨-, -, -, -, e0, e1, -⟩ := region1_points t
  funext y
  unfold iblk1
  rw [View.read_apply]
  show V c main_v43 _ = V c main_v43 y
  congr 1
  funext a
  apply Fin.ext
  match a with
  | ⟨0, _⟩ => show win1_2.index t 0 * 256 + 1 * (y 0).val = (y 0).val; rw [e0]; omega
  | ⟨1, _⟩ => show win1_2.index t 1 * 128 + 1 * (y 1).val = (y 1).val; rw [e1]; omega

/-- The bias block at every point is the whole bias row. -/
theorem region1_bias (c : Dev nD) (t : Fin cfg1.N) :
    (iblk1 V c 3 t : Vec Ideal S1x128 .f32) = (V c main_v46 : Cert.Sage.SB1.Idx → EReal) := by
  obtain ⟨-, -, -, -, -, -, e0, e1, -⟩ := region1_points t
  funext y
  unfold iblk1
  rw [View.read_apply]
  show V c main_v46 _ = V c main_v46 y
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- What point t writes back is block t of the layer's function of the whole arrays. -/
theorem region1_flushed (c : Dev nD) (t : Fin cfg1.N) :
    (dat1 (F := Ideal) V c).flushed 4 t = ((cfg1.win 4).blk t).view.read (Elt Ideal)
      (Cert.Sage.combine true (V c main_v41) (V c main_v29) (V c main_v43) (V c main_v46)) := by
  show (cfg1.win 4).cut (grid1.coords t) ((dat1 V c).after 4 t) = _
  rw [after1_4]
  unfold out1_4
  rw [View.canon_unit_zero region1_zeros]
  simp only [View.ld_unit_zero (S := S10000x128) region1_zeros, View.ld_unit_zero (S := S256x128) region1_zeros,
    View.ld_unit_zero (S := S1x128) region1_zeros]
  funext j
  obtain ⟨p, q, rfl⟩ : ∃ (p : Fin 10000) (q : Fin 128), j = ix2 p q := ⟨j 0, j 1, eq_ix2 j⟩
  obtain ⟨-, -, -, -, -, -, -, -, e0, e1, ht⟩ := region1_points t
  have hP : t.val * 10000 + p.val < 100000 := by omega
  rw [View.read_apply]
  have he : ((cfg1.win 4).blk t).view.emb (ix2 p q) = ix2 (⟨t.val * 10000 + p.val, hP⟩ : Fin 100000) q :=
    funext fun a => Fin.ext (by
      match a with
      | ⟨0, _⟩ => show win1_4.index t 0 * 10000 + 1 * p.val = t.val * 10000 + p.val; rw [e0]; omega
      | ⟨1, _⟩ => show win1_4.index t 1 * 128 + 1 * q.val = q.val; rw [e1]; omega)
  rw [he]
  show k1_pay1 (iblk1 V c 0 t) (iblk1 V c 1 t) (iblk1 V c 2 t) (iblk1 V c 3 t) (ix2 p q)
    = Cert.Sage.combine true (V c main_v41) (V c main_v29) (V c main_v43) (V c main_v46)
        (ix2 (⟨t.val * 10000 + p.val, hP⟩ : Fin 100000) q)
  exact (k1_pay1_combine (iblk1 V c 0 t) (iblk1 V c 1 t) (iblk1 V c 2 t) (iblk1 V c 3 t) (V c main_v41) (V c main_v29)
      (⟨t.val * 10000 + p.val, hP⟩ : Fin 100000) p q
      (fun j => region1_rows0 V c t p j ⟨t.val * 10000 + p.val, hP⟩ rfl)
      (fun j => region1_rows1 V c t p j ⟨t.val * 10000 + p.val, hP⟩ rfl)).trans
    (congrArg₂ (fun w b => Cert.Sage.combine true (V c main_v41) (V c main_v29) w b
        (ix2 (⟨t.val * 10000 + p.val, hP⟩ : Fin 100000) q)) (region1_weights V c t) (region1_bias V c t))

/-- An index of the result array is in point t's block iff each coordinate is in the block's range on its axis. -/
theorem region1_mem_blk (t : Fin cfg1.N) (i : S100000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v47).slice (win1_4.rect t)).set ↔ _
  rw [View.set_slice_whole, Rect.mem_set_unit]
  exact Iff.rfl

/-- Every index of the result array is in some point's block: row r is in the block of point r / 10000. -/
theorem region1_cover (i : S100000x128.Idx) :
    ∃ t : Fin cfg1.N, (cfg1.win 4).flush t = true ∧ i ∈ ((cfg1.win 4).blk t).view.set := by
  have h0 : (i 0).val < 100000 := (i 0).isLt
  have h1 : (i 1).val < 128 := (i 1).isLt
  have ht : (i 0).val / 10000 < cfg1.N := by rw [show cfg1.N = 10 from N_1]; omega
  obtain ⟨-, -, -, -, -, -, -, -, e0, e1, -⟩ := region1_points ⟨(i 0).val / 10000, ht⟩
  have e0' : win1_4.index ⟨(i 0).val / 10000, ht⟩ (0 : Fin 2) = (i 0).val / 10000 := e0
  refine ⟨⟨(i 0).val / 10000, ht⟩, flush1_4 _, ?_⟩
  rw [region1_mem_blk]
  intro a
  match a with
  | ⟨0, _⟩ =>
    show win1_4.index ⟨(i 0).val / 10000, ht⟩ (0 : Fin 2) * 10000 ≤ (i 0).val
      ∧ (i 0).val < win1_4.index ⟨(i 0).val / 10000, ht⟩ (0 : Fin 2) * 10000 + 10000
    rw [e0']; omega
  | ⟨1, _⟩ =>
    show win1_4.index ⟨(i 0).val / 10000, ht⟩ (1 : Fin 2) * 128 ≤ (i 1).val
      ∧ (i 1).val < win1_4.index ⟨(i 0).val / 10000, ht⟩ (1 : Fin 2) * 128 + 128
    rw [e1]; omega

/-- Layer 1's result array after the run is the layer's function of the arrays the run found: the stacked rows
    of neighbour means and node features times the stacked weights, plus the bias, clamped below at 0. -/
theorem region1_val (c : Dev nD) :
    (dat1 (F := Ideal) V c).arrAt 4 cfg1.N
      = Cert.Sage.combine true (V c main_v41) (V c main_v29) (V c main_v43) (V c main_v46) :=
  (dat1 V c).arrAt_eq_of_cover 4 _ (fun t _ => region1_flushed V c t) region1_cover

end Cert.KernelIdeal.Gen

end
-- ==== Proof.Region2.lean ====
/-
  Layer 2's kernel over whole arrays.

  The kernel runs over ten grid points. At point t it is handed rows 10000·t … 10000·t + 9999 of the neighbour
  means and of the node features, all of the stacked weights and the bias row, and writes the same rows of its
  result. Each written block is therefore the matching block of ONE function of the whole arrays — the stacked
  row times the stacked weights, plus the bias, clamped below at 0 — and the ten blocks tile the result, so the result
  array after the run is that function.
-/
import proofs.«402578_j10522669875348_3_alg».proof.Proof.Gen.KernelIdeal.Frame
import proofs.«402578_j10522669875348_3_alg».proof.Proof.Payload
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem region2_zeros : (![0, 0] : Fin 2 → Nat) = fun _ => 0 := funext fun a => by fin_cases a <;> rfl

/-- The block indices at every grid point: the two row-blocked inputs and the result sit at block row t, column
    block 0; the weights and the bias are one block each; and there are ten points. -/
theorem region2_points : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 ∧ t.val < 10 :=
  (by decide +kernel : ∀ t : Fin grid2.N, _)

/-- Row p of the neighbour-mean block at point t is row 10000·t + p of the array. -/
theorem region2_rows0 (c : Dev nD) (t : Fin cfg2.N) (p : Fin 10000) (j : Fin 128) (P : Fin 100000)
    (hP : P.val = t.val * 10000 + p.val) :
    (iblk2 V c 0 t : Vec Ideal S10000x128 .f32) (ix2 p j) = (V c main_v59 : Cert.Sage.SN.Idx → EReal) (ix2 P j) := by
  obtain ⟨e0, e1, -⟩ := region2_points t
  unfold iblk2
  rw [View.read_apply]
  show V c main_v59 _ = V c main_v59 _
  congr 1
  funext a
  apply Fin.ext
  match a with
  | ⟨0, _⟩ => show win2_0.index t 0 * 10000 + 1 * p.val = P.val; rw [e0, hP]; omega
  | ⟨1, _⟩ => show win2_0.index t 1 * 128 + 1 * j.val = j.val; rw [e1]; omega

/-- Row p of the node-feature block at point t is row 10000·t + p of the array. -/
theorem region2_rows1 (c : Dev nD) (t : Fin cfg2.N) (p : Fin 10000) (j : Fin 128) (P : Fin 100000)
    (hP : P.val = t.val * 10000 + p.val) :
    (iblk2 V c 1 t : Vec Ideal S10000x128 .f32) (ix2 p j) = (V c main_v47 : Cert.Sage.SN.Idx → EReal) (ix2 P j) := by
  obtain ⟨-, -, e0, e1, -⟩ := region2_points t
  unfold iblk2
  rw [View.read_apply]
  show V c main_v47 _ = V c main_v47 _
  congr 1
  funext a
  apply Fin.ext
  match a with
  | ⟨0, _⟩ => show win2_1.index t 0 * 10000 + 1 * p.val = P.val; rw [e0, hP]; omega
  | ⟨1, _⟩ => show win2_1.index t 1 * 128 + 1 * j.val = j.val; rw [e1]; omega

/-- The weights' block at every point is the whole array of stacked weights. -/
theorem region2_weights (c : Dev nD) (t : Fin cfg2.N) :
    (iblk2 V c 2 t : Vec Ideal S256x128 .f32) = (V c main_v61 : Cert.Sage.SW2.Idx → EReal) := by
  obtain ⟨-, -, -, -, e0, e1, -⟩ := region2_points t
  funext y
  unfold iblk2
  rw [View.read_apply]
  show V c main_v61 _ = V c main_v61 y
  congr 1
  funext a
  apply Fin.ext
  match a with
  | ⟨0, _⟩ => show win2_2.index t 0 * 256 + 1 * (y 0).val = (y 0).val; rw [e0]; omega
  | ⟨1, _⟩ => show win2_2.index t 1 * 128 + 1 * (y 1).val = (y 1).val; rw [e1]; omega

/-- The bias block at every point is the whole bias row. -/
theorem region2_bias (c : Dev nD) (t : Fin cfg2.N) :
    (iblk2 V c 3 t : Vec Ideal S1x128 .f32) = (V c main_v64 : Cert.Sage.SB1.Idx → EReal) := by
  obtain ⟨-, -, -, -, -, -, e0, e1, -⟩ := region2_points t
  funext y
  unfold iblk2
  rw [View.read_apply]
  show V c main_v64 _ = V c main_v64 y
  congr 1
  funext a
  apply Fin.ext
  match a with
  | ⟨0, _⟩ => show win2_3.index t 0 * 1 + 1 * (y 0).val = (y 0).val; rw [e0]; omega
  | ⟨1, _⟩ => show win2_3.index t 1 * 128 + 1 * (y 1).val = (y 1).val; rw [e1]; omega

/-- What point t writes back is block t of the layer's function of the whole arrays. -/
theorem region2_flushed (c : Dev nD) (t : Fin cfg2.N) :
    (dat2 (F := Ideal) V c).flushed 4 t = ((cfg2.win 4).blk t).view.read (Elt Ideal)
      (Cert.Sage.combine true (V c main_v59) (V c main_v47) (V c main_v61) (V c main_v64)) := by
  show (cfg2.win 4).cut (grid2.coords t) ((dat2 V c).after 4 t) = _
  rw [after2_4]
  unfold out2_4
  rw [View.canon_unit_zero region2_zeros]
  simp only [View.ld_unit_zero (S := S10000x128) region2_zeros, View.ld_unit_zero (S := S256x128) region2_zeros,
    View.ld_unit_zero (S := S1x128) region2_zeros]
  funext j
  obtain ⟨p, q, rfl⟩ : ∃ (p : Fin 10000) (q : Fin 128), j = ix2 p q := ⟨j 0, j 1, eq_ix2 j⟩
  obtain ⟨-, -, -, -, -, -, -, -, e0, e1, ht⟩ := region2_points t
  have hP : t.val * 10000 + p.val < 100000 := by omega
  rw [View.read_apply]
  have he : ((cfg2.win 4).blk t).view.emb (ix2 p q) = ix2 (⟨t.val * 10000 + p.val, hP⟩ : Fin 100000) q :=
    funext fun a => Fin.ext (by
      match a with
      | ⟨0, _⟩ => show win2_4.index t 0 * 10000 + 1 * p.val = t.val * 10000 + p.val; rw [e0]; omega
      | ⟨1, _⟩ => show win2_4.index t 1 * 128 + 1 * q.val = q.val; rw [e1]; omega)
  rw [he]
  show k2_pay1 (iblk2 V c 0 t) (iblk2 V c 1 t) (iblk2 V c 2 t) (iblk2 V c 3 t) (ix2 p q)
    = Cert.Sage.combine true (V c main_v59) (V c main_v47) (V c main_v61) (V c main_v64)
        (ix2 (⟨t.val * 10000 + p.val, hP⟩ : Fin 100000) q)
  exact (k2_pay1_combine (iblk2 V c 0 t) (iblk2 V c 1 t) (iblk2 V c 2 t) (iblk2 V c 3 t) (V c main_v59) (V c main_v47)
      (⟨t.val * 10000 + p.val, hP⟩ : Fin 100000) p q
      (fun j => region2_rows0 V c t p j ⟨t.val * 10000 + p.val, hP⟩ rfl)
      (fun j => region2_rows1 V c t p j ⟨t.val * 10000 + p.val, hP⟩ rfl)).trans
    (congrArg₂ (fun w b => Cert.Sage.combine true (V c main_v59) (V c main_v47) w b
        (ix2 (⟨t.val * 10000 + p.val, hP⟩ : Fin 100000) q)) (region2_weights V c t) (region2_bias V c t))

/-- An index of the result array is in point t's block iff each coordinate is in the block's range on its axis. -/
theorem region2_mem_blk (t : Fin cfg2.N) (i : S100000x128.Idx) :
    i ∈ ((cfg2.win 4).blk t).view.set ↔ ∀ a : Fin 2, win2_4.index t a * S10000x128.size a ≤ (i a).val
      ∧ (i a).val < win2_4.index t a * S10000x128.size a + S10000x128.size a := by
  show i ∈ ((View.whole main_v65).slice (win2_4.rect t)).set ↔ _
  rw [View.set_slice_whole, Rect.mem_set_unit]
  exact Iff.rfl

/-- Every index of the result array is in some point's block: row r is in the block of point r / 10000. -/
theorem region2_cover (i : S100000x128.Idx) :
    ∃ t : Fin cfg2.N, (cfg2.win 4).flush t = true ∧ i ∈ ((cfg2.win 4).blk t).view.set := by
  have h0 : (i 0).val < 100000 := (i 0).isLt
  have h1 : (i 1).val < 128 := (i 1).isLt
  have ht : (i 0).val / 10000 < cfg2.N := by rw [show cfg2.N = 10 from N_2]; omega
  obtain ⟨-, -, -, -, -, -, -, -, e0, e1, -⟩ := region2_points ⟨(i 0).val / 10000, ht⟩
  have e0' : win2_4.index ⟨(i 0).val / 10000, ht⟩ (0 : Fin 2) = (i 0).val / 10000 := e0
  refine ⟨⟨(i 0).val / 10000, ht⟩, flush2_4 _, ?_⟩
  rw [region2_mem_blk]
  intro a
  match a with
  | ⟨0, _⟩ =>
    show win2_4.index ⟨(i 0).val / 10000, ht⟩ (0 : Fin 2) * 10000 ≤ (i 0).val
      ∧ (i 0).val < win2_4.index ⟨(i 0).val / 10000, ht⟩ (0 : Fin 2) * 10000 + 10000
    rw [e0']; omega
  | ⟨1, _⟩ =>
    show win2_4.index ⟨(i 0).val / 10000, ht⟩ (1 : Fin 2) * 128 ≤ (i 1).val
      ∧ (i 1).val < win2_4.index ⟨(i 0).val / 10000, ht⟩ (1 : Fin 2) * 128 + 128
    rw [e1]; omega

/-- Layer 2's result array after the run is the layer's function of the arrays the run found: the stacked rows
    of neighbour means and node features times the stacked weights, plus the bias, clamped below at 0. -/
theorem region2_val (c : Dev nD) :
    (dat2 (F := Ideal) V c).arrAt 4 cfg2.N
      = Cert.Sage.combine true (V c main_v59) (V c main_v47) (V c main_v61) (V c main_v64) :=
  (dat2 V c).arrAt_eq_of_cover 4 _ (fun t _ => region2_flushed V c t) region2_cover

end Cert.KernelIdeal.Gen

end
-- ==== Proof.Region3.lean ====
/-
  Layer 3's kernel over whole arrays.

  The kernel runs over ten grid points. At point t it is handed rows 10000·t … 10000·t + 9999 of the neighbour
  means and of the node features, all of the stacked weights and the bias row, and writes the same rows of its
  result. Each written block is therefore the matching block of ONE function of the whole arrays — the stacked
  row times the stacked weights, plus the bias, clamped below at 0 — and the ten blocks tile the result, so the result
  array after the run is that function.
-/
import proofs.«402578_j10522669875348_3_alg».proof.Proof.Gen.KernelIdeal.Frame
import proofs.«402578_j10522669875348_3_alg».proof.Proof.Payload
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem region3_zeros : (![0, 0] : Fin 2 → Nat) = fun _ => 0 := funext fun a => by fin_cases a <;> rfl

/-- The block indices at every grid point: the two row-blocked inputs and the result sit at block row t, column
    block 0; the weights and the bias are one block each; and there are ten points. -/
theorem region3_points : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 10 :=
  (by decide +kernel : ∀ t : Fin grid3.N, _)

/-- Row p of the neighbour-mean block at point t is row 10000·t + p of the array. -/
theorem region3_rows0 (c : Dev nD) (t : Fin cfg3.N) (p : Fin 10000) (j : Fin 128) (P : Fin 100000)
    (hP : P.val = t.val * 10000 + p.val) :
    (iblk3 V c 0 t : Vec Ideal S10000x128 .f32) (ix2 p j) = (V c main_v77 : Cert.Sage.SN.Idx → EReal) (ix2 P j) := by
  obtain ⟨e0, e1, -⟩ := region3_points t
  unfold iblk3
  rw [View.read_apply]
  show V c main_v77 _ = V c main_v77 _
  congr 1
  funext a
  apply Fin.ext
  match a with
  | ⟨0, _⟩ => show win3_0.index t 0 * 10000 + 1 * p.val = P.val; rw [e0, hP]; omega
  | ⟨1, _⟩ => show win3_0.index t 1 * 128 + 1 * j.val = j.val; rw [e1]; omega

/-- Row p of the node-feature block at point t is row 10000·t + p of the array. -/
theorem region3_rows1 (c : Dev nD) (t : Fin cfg3.N) (p : Fin 10000) (j : Fin 128) (P : Fin 100000)
    (hP : P.val = t.val * 10000 + p.val) :
    (iblk3 V c 1 t : Vec Ideal S10000x128 .f32) (ix2 p j) = (V c main_v65 : Cert.Sage.SN.Idx → EReal) (ix2 P j) := by
  obtain ⟨-, -, e0, e1, -⟩ := region3_points t
  unfold iblk3
  rw [View.read_apply]
  show V c main_v65 _ = V c main_v65 _
  congr 1
  funext a
  apply Fin.ext
  match a with
  | ⟨0, _⟩ => show win3_1.index t 0 * 10000 + 1 * p.val = P.val; rw [e0, hP]; omega
  | ⟨1, _⟩ => show win3_1.index t 1 * 128 + 1 * j.val = j.val; rw [e1]; omega

/-- The weights' block at every point is the whole array of stacked weights. -/
theorem region3_weights (c : Dev nD) (t : Fin cfg3.N) :
    (iblk3 V c 2 t : Vec Ideal S256x128 .f32) = (V c main_v79 : Cert.Sage.SW2.Idx → EReal) := by
  obtain ⟨-, -, -, -, e0, e1, -⟩ := region3_points t
  funext y
  unfold iblk3
  rw [View.read_apply]
  show V c main_v79 _ = V c main_v79 y
  congr 1
  funext a
  apply Fin.ext
  match a with
  | ⟨0, _⟩ => show win3_2.index t 0 * 256 + 1 * (y 0).val = (y 0).val; rw [e0]; omega
  | ⟨1, _⟩ => show win3_2.index t 1 * 128 + 1 * (y 1).val = (y 1).val; rw [e1]; omega

/-- The bias block at every point is the whole bias row. -/
theorem region3_bias (c : Dev nD) (t : Fin cfg3.N) :
    (iblk3 V c 3 t : Vec Ideal S1x128 .f32) = (V c main_v82 : Cert.Sage.SB1.Idx → EReal) := by
  obtain ⟨-, -, -, -, -, -, e0, e1, -⟩ := region3_points t
  funext y
  unfold iblk3
  rw [View.read_apply]
  show V c main_v82 _ = V c main_v82 y
  congr 1
  funext a
  apply Fin.ext
  match a with
  | ⟨0, _⟩ => show win3_3.index t 0 * 1 + 1 * (y 0).val = (y 0).val; rw [e0]; omega
  | ⟨1, _⟩ => show win3_3.index t 1 * 128 + 1 * (y 1).val = (y 1).val; rw [e1]; omega

/-- What point t writes back is block t of the layer's function of the whole arrays. -/
theorem region3_flushed (c : Dev nD) (t : Fin cfg3.N) :
    (dat3 (F := Ideal) V c).flushed 4 t = ((cfg3.win 4).blk t).view.read (Elt Ideal)
      (Cert.Sage.combine true (V c main_v77) (V c main_v65) (V c main_v79) (V c main_v82)) := by
  show (cfg3.win 4).cut (grid3.coords t) ((dat3 V c).after 4 t) = _
  rw [after3_4]
  unfold out3_4
  rw [View.canon_unit_zero region3_zeros]
  simp only [View.ld_unit_zero (S := S10000x128) region3_zeros, View.ld_unit_zero (S := S256x128) region3_zeros,
    View.ld_unit_zero (S := S1x128) region3_zeros]
  funext j
  obtain ⟨p, q, rfl⟩ : ∃ (p : Fin 10000) (q : Fin 128), j = ix2 p q := ⟨j 0, j 1, eq_ix2 j⟩
  obtain ⟨-, -, -, -, -, -, -, -, e0, e1, ht⟩ := region3_points t
  have hP : t.val * 10000 + p.val < 100000 := by omega
  rw [View.read_apply]
  have he : ((cfg3.win 4).blk t).view.emb (ix2 p q) = ix2 (⟨t.val * 10000 + p.val, hP⟩ : Fin 100000) q :=
    funext fun a => Fin.ext (by
      match a with
      | ⟨0, _⟩ => show win3_4.index t 0 * 10000 + 1 * p.val = t.val * 10000 + p.val; rw [e0]; omega
      | ⟨1, _⟩ => show win3_4.index t 1 * 128 + 1 * q.val = q.val; rw [e1]; omega)
  rw [he]
  show k3_pay1 (iblk3 V c 0 t) (iblk3 V c 1 t) (iblk3 V c 2 t) (iblk3 V c 3 t) (ix2 p q)
    = Cert.Sage.combine true (V c main_v77) (V c main_v65) (V c main_v79) (V c main_v82)
        (ix2 (⟨t.val * 10000 + p.val, hP⟩ : Fin 100000) q)
  exact (k3_pay1_combine (iblk3 V c 0 t) (iblk3 V c 1 t) (iblk3 V c 2 t) (iblk3 V c 3 t) (V c main_v77) (V c main_v65)
      (⟨t.val * 10000 + p.val, hP⟩ : Fin 100000) p q
      (fun j => region3_rows0 V c t p j ⟨t.val * 10000 + p.val, hP⟩ rfl)
      (fun j => region3_rows1 V c t p j ⟨t.val * 10000 + p.val, hP⟩ rfl)).trans
    (congrArg₂ (fun w b => Cert.Sage.combine true (V c main_v77) (V c main_v65) w b
        (ix2 (⟨t.val * 10000 + p.val, hP⟩ : Fin 100000) q)) (region3_weights V c t) (region3_bias V c t))

/-- An index of the result array is in point t's block iff each coordinate is in the block's range on its axis. -/
theorem region3_mem_blk (t : Fin cfg3.N) (i : S100000x128.Idx) :
    i ∈ ((cfg3.win 4).blk t).view.set ↔ ∀ a : Fin 2, win3_4.index t a * S10000x128.size a ≤ (i a).val
      ∧ (i a).val < win3_4.index t a * S10000x128.size a + S10000x128.size a := by
  show i ∈ ((View.whole main_v83).slice (win3_4.rect t)).set ↔ _
  rw [View.set_slice_whole, Rect.mem_set_unit]
  exact Iff.rfl

/-- Every index of the result array is in some point's block: row r is in the block of point r / 10000. -/
theorem region3_cover (i : S100000x128.Idx) :
    ∃ t : Fin cfg3.N, (cfg3.win 4).flush t = true ∧ i ∈ ((cfg3.win 4).blk t).view.set := by
  have h0 : (i 0).val < 100000 := (i 0).isLt
  have h1 : (i 1).val < 128 := (i 1).isLt
  have ht : (i 0).val / 10000 < cfg3.N := by rw [show cfg3.N = 10 from N_3]; omega
  obtain ⟨-, -, -, -, -, -, -, -, e0, e1, -⟩ := region3_points ⟨(i 0).val / 10000, ht⟩
  have e0' : win3_4.index ⟨(i 0).val / 10000, ht⟩ (0 : Fin 2) = (i 0).val / 10000 := e0
  refine ⟨⟨(i 0).val / 10000, ht⟩, flush3_4 _, ?_⟩
  rw [region3_mem_blk]
  intro a
  match a with
  | ⟨0, _⟩ =>
    show win3_4.index ⟨(i 0).val / 10000, ht⟩ (0 : Fin 2) * 10000 ≤ (i 0).val
      ∧ (i 0).val < win3_4.index ⟨(i 0).val / 10000, ht⟩ (0 : Fin 2) * 10000 + 10000
    rw [e0']; omega
  | ⟨1, _⟩ =>
    show win3_4.index ⟨(i 0).val / 10000, ht⟩ (1 : Fin 2) * 128 ≤ (i 1).val
      ∧ (i 1).val < win3_4.index ⟨(i 0).val / 10000, ht⟩ (1 : Fin 2) * 128 + 128
    rw [e1]; omega

/-- Layer 3's result array after the run is the layer's function of the arrays the run found: the stacked rows
    of neighbour means and node features times the stacked weights, plus the bias, clamped below at 0. -/
theorem region3_val (c : Dev nD) :
    (dat3 (F := Ideal) V c).arrAt 4 cfg3.N
      = Cert.Sage.combine true (V c main_v77) (V c main_v65) (V c main_v79) (V c main_v82) :=
  (dat3 V c).arrAt_eq_of_cover 4 _ (fun t _ => region3_flushed V c t) region3_cover

end Cert.KernelIdeal.Gen

end
-- ==== Proof.Region4.lean ====
/-
  Layer 4's kernel over whole arrays.

  The kernel runs over ten grid points. At point t it is handed rows 10000·t … 10000·t + 9999 of the neighbour
  means and of the node features, all of the stacked weights and the bias row, and writes the same rows of its
  result. Each written block is therefore the matching block of ONE function of the whole arrays — the stacked
  row times the stacked weights, plus the bias, clamped below at 0 — and the ten blocks tile the result, so the result
  array after the run is that function.
-/
import proofs.«402578_j10522669875348_3_alg».proof.Proof.Gen.KernelIdeal.Frame
import proofs.«402578_j10522669875348_3_alg».proof.Proof.Payload
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem region4_zeros : (![0, 0] : Fin 2 → Nat) = fun _ => 0 := funext fun a => by fin_cases a <;> rfl

/-- The block indices at every grid point: the two row-blocked inputs and the result sit at block row t, column
    block 0; the weights and the bias are one block each; and there are ten points. -/
theorem region4_points : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 ∧ t.val < 10 :=
  (by decide +kernel : ∀ t : Fin grid4.N, _)

/-- Row p of the neighbour-mean block at point t is row 10000·t + p of the array. -/
theorem region4_rows0 (c : Dev nD) (t : Fin cfg4.N) (p : Fin 10000) (j : Fin 128) (P : Fin 100000)
    (hP : P.val = t.val * 10000 + p.val) :
    (iblk4 V c 0 t : Vec Ideal S10000x128 .f32) (ix2 p j) = (V c main_v95 : Cert.Sage.SN.Idx → EReal) (ix2 P j) := by
  obtain ⟨e0, e1, -⟩ := region4_points t
  unfold iblk4
  rw [View.read_apply]
  show V c main_v95 _ = V c main_v95 _
  congr 1
  funext a
  apply Fin.ext
  match a with
  | ⟨0, _⟩ => show win4_0.index t 0 * 10000 + 1 * p.val = P.val; rw [e0, hP]; omega
  | ⟨1, _⟩ => show win4_0.index t 1 * 128 + 1 * j.val = j.val; rw [e1]; omega

/-- Row p of the node-feature block at point t is row 10000·t + p of the array. -/
theorem region4_rows1 (c : Dev nD) (t : Fin cfg4.N) (p : Fin 10000) (j : Fin 128) (P : Fin 100000)
    (hP : P.val = t.val * 10000 + p.val) :
    (iblk4 V c 1 t : Vec Ideal S10000x128 .f32) (ix2 p j) = (V c main_v83 : Cert.Sage.SN.Idx → EReal) (ix2 P j) := by
  obtain ⟨-, -, e0, e1, -⟩ := region4_points t
  unfold iblk4
  rw [View.read_apply]
  show V c main_v83 _ = V c main_v83 _
  congr 1
  funext a
  apply Fin.ext
  match a with
  | ⟨0, _⟩ => show win4_1.index t 0 * 10000 + 1 * p.val = P.val; rw [e0, hP]; omega
  | ⟨1, _⟩ => show win4_1.index t 1 * 128 + 1 * j.val = j.val; rw [e1]; omega

/-- The weights' block at every point is the whole array of stacked weights. -/
theorem region4_weights (c : Dev nD) (t : Fin cfg4.N) :
    (iblk4 V c 2 t : Vec Ideal S256x128 .f32) = (V c main_v97 : Cert.Sage.SW2.Idx → EReal) := by
  obtain ⟨-, -, -, -, e0, e1, -⟩ := region4_points t
  funext y
  unfold iblk4
  rw [View.read_apply]
  show V c main_v97 _ = V c main_v97 y
  congr 1
  funext a
  apply Fin.ext
  match a with
  | ⟨0, _⟩ => show win4_2.index t 0 * 256 + 1 * (y 0).val = (y 0).val; rw [e0]; omega
  | ⟨1, _⟩ => show win4_2.index t 1 * 128 + 1 * (y 1).val = (y 1).val; rw [e1]; omega

/-- The bias block at every point is the whole bias row. -/
theorem region4_bias (c : Dev nD) (t : Fin cfg4.N) :
    (iblk4 V c 3 t : Vec Ideal S1x128 .f32) = (V c main_v100 : Cert.Sage.SB1.Idx → EReal) := by
  obtain ⟨-, -, -, -, -, -, e0, e1, -⟩ := region4_points t
  funext y
  unfold iblk4
  rw [View.read_apply]
  show V c main_v100 _ = V c main_v100 y
  congr 1
  funext a
  apply Fin.ext
  match a with
  | ⟨0, _⟩ => show win4_3.index t 0 * 1 + 1 * (y 0).val = (y 0).val; rw [e0]; omega
  | ⟨1, _⟩ => show win4_3.index t 1 * 128 + 1 * (y 1).val = (y 1).val; rw [e1]; omega

/-- What point t writes back is block t of the layer's function of the whole arrays. -/
theorem region4_flushed (c : Dev nD) (t : Fin cfg4.N) :
    (dat4 (F := Ideal) V c).flushed 4 t = ((cfg4.win 4).blk t).view.read (Elt Ideal)
      (Cert.Sage.combine true (V c main_v95) (V c main_v83) (V c main_v97) (V c main_v100)) := by
  show (cfg4.win 4).cut (grid4.coords t) ((dat4 V c).after 4 t) = _
  rw [after4_4]
  unfold out4_4
  rw [View.canon_unit_zero region4_zeros]
  simp only [View.ld_unit_zero (S := S10000x128) region4_zeros, View.ld_unit_zero (S := S256x128) region4_zeros,
    View.ld_unit_zero (S := S1x128) region4_zeros]
  funext j
  obtain ⟨p, q, rfl⟩ : ∃ (p : Fin 10000) (q : Fin 128), j = ix2 p q := ⟨j 0, j 1, eq_ix2 j⟩
  obtain ⟨-, -, -, -, -, -, -, -, e0, e1, ht⟩ := region4_points t
  have hP : t.val * 10000 + p.val < 100000 := by omega
  rw [View.read_apply]
  have he : ((cfg4.win 4).blk t).view.emb (ix2 p q) = ix2 (⟨t.val * 10000 + p.val, hP⟩ : Fin 100000) q :=
    funext fun a => Fin.ext (by
      match a with
      | ⟨0, _⟩ => show win4_4.index t 0 * 10000 + 1 * p.val = t.val * 10000 + p.val; rw [e0]; omega
      | ⟨1, _⟩ => show win4_4.index t 1 * 128 + 1 * q.val = q.val; rw [e1]; omega)
  rw [he]
  show k4_pay1 (iblk4 V c 0 t) (iblk4 V c 1 t) (iblk4 V c 2 t) (iblk4 V c 3 t) (ix2 p q)
    = Cert.Sage.combine true (V c main_v95) (V c main_v83) (V c main_v97) (V c main_v100)
        (ix2 (⟨t.val * 10000 + p.val, hP⟩ : Fin 100000) q)
  exact (k4_pay1_combine (iblk4 V c 0 t) (iblk4 V c 1 t) (iblk4 V c 2 t) (iblk4 V c 3 t) (V c main_v95) (V c main_v83)
      (⟨t.val * 10000 + p.val, hP⟩ : Fin 100000) p q
      (fun j => region4_rows0 V c t p j ⟨t.val * 10000 + p.val, hP⟩ rfl)
      (fun j => region4_rows1 V c t p j ⟨t.val * 10000 + p.val, hP⟩ rfl)).trans
    (congrArg₂ (fun w b => Cert.Sage.combine true (V c main_v95) (V c main_v83) w b
        (ix2 (⟨t.val * 10000 + p.val, hP⟩ : Fin 100000) q)) (region4_weights V c t) (region4_bias V c t))

/-- An index of the result array is in point t's block iff each coordinate is in the block's range on its axis. -/
theorem region4_mem_blk (t : Fin cfg4.N) (i : S100000x128.Idx) :
    i ∈ ((cfg4.win 4).blk t).view.set ↔ ∀ a : Fin 2, win4_4.index t a * S10000x128.size a ≤ (i a).val
      ∧ (i a).val < win4_4.index t a * S10000x128.size a + S10000x128.size a := by
  show i ∈ ((View.whole main_v101).slice (win4_4.rect t)).set ↔ _
  rw [View.set_slice_whole, Rect.mem_set_unit]
  exact Iff.rfl

/-- Every index of the result array is in some point's block: row r is in the block of point r / 10000. -/
theorem region4_cover (i : S100000x128.Idx) :
    ∃ t : Fin cfg4.N, (cfg4.win 4).flush t = true ∧ i ∈ ((cfg4.win 4).blk t).view.set := by
  have h0 : (i 0).val < 100000 := (i 0).isLt
  have h1 : (i 1).val < 128 := (i 1).isLt
  have ht : (i 0).val / 10000 < cfg4.N := by rw [show cfg4.N = 10 from N_4]; omega
  obtain ⟨-, -, -, -, -, -, -, -, e0, e1, -⟩ := region4_points ⟨(i 0).val / 10000, ht⟩
  have e0' : win4_4.index ⟨(i 0).val / 10000, ht⟩ (0 : Fin 2) = (i 0).val / 10000 := e0
  refine ⟨⟨(i 0).val / 10000, ht⟩, flush4_4 _, ?_⟩
  rw [region4_mem_blk]
  intro a
  match a with
  | ⟨0, _⟩ =>
    show win4_4.index ⟨(i 0).val / 10000, ht⟩ (0 : Fin 2) * 10000 ≤ (i 0).val
      ∧ (i 0).val < win4_4.index ⟨(i 0).val / 10000, ht⟩ (0 : Fin 2) * 10000 + 10000
    rw [e0']; omega
  | ⟨1, _⟩ =>
    show win4_4.index ⟨(i 0).val / 10000, ht⟩ (1 : Fin 2) * 128 ≤ (i 1).val
      ∧ (i 1).val < win4_4.index ⟨(i 0).val / 10000, ht⟩ (1 : Fin 2) * 128 + 128
    rw [e1]; omega

/-- Layer 4's result array after the run is the layer's function of the arrays the run found: the stacked rows
    of neighbour means and node features times the stacked weights, plus the bias, clamped below at 0. -/
theorem region4_val (c : Dev nD) :
    (dat4 (F := Ideal) V c).arrAt 4 cfg4.N
      = Cert.Sage.combine true (V c main_v95) (V c main_v83) (V c main_v97) (V c main_v100) :=
  (dat4 V c).arrAt_eq_of_cover 4 _ (fun t _ => region4_flushed V c t) region4_cover

end Cert.KernelIdeal.Gen

end
-- ==== Proof.Region5.lean ====
/-
  Layer 5's kernel over whole arrays.

  The kernel runs over ten grid points. At point t it is handed rows 10000·t … 10000·t + 9999 of the neighbour
  means and of the node features, all of the stacked weights and the bias row, and writes the same rows of its
  result. Each written block is therefore the matching block of ONE function of the whole arrays — the stacked
  row times the stacked weights, plus the bias, clamped below at 0 — and the ten blocks tile the result, so the result
  array after the run is that function.
-/
import proofs.«402578_j10522669875348_3_alg».proof.Proof.Gen.KernelIdeal.Frame
import proofs.«402578_j10522669875348_3_alg».proof.Proof.Payload
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem region5_zeros : (![0, 0] : Fin 2 → Nat) = fun _ => 0 := funext fun a => by fin_cases a <;> rfl

/-- The block indices at every grid point: the two row-blocked inputs and the result sit at block row t, column
    block 0; the weights and the bias are one block each; and there are ten points. -/
theorem region5_points : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 ∧ t.val < 10 :=
  (by decide +kernel : ∀ t : Fin grid5.N, _)

/-- Row p of the neighbour-mean block at point t is row 10000·t + p of the array. -/
theorem region5_rows0 (c : Dev nD) (t : Fin cfg5.N) (p : Fin 10000) (j : Fin 128) (P : Fin 100000)
    (hP : P.val = t.val * 10000 + p.val) :
    (iblk5 V c 0 t : Vec Ideal S10000x128 .f32) (ix2 p j) = (V c main_v113 : Cert.Sage.SN.Idx → EReal) (ix2 P j) := by
  obtain ⟨e0, e1, -⟩ := region5_points t
  unfold iblk5
  rw [View.read_apply]
  show V c main_v113 _ = V c main_v113 _
  congr 1
  funext a
  apply Fin.ext
  match a with
  | ⟨0, _⟩ => show win5_0.index t 0 * 10000 + 1 * p.val = P.val; rw [e0, hP]; omega
  | ⟨1, _⟩ => show win5_0.index t 1 * 128 + 1 * j.val = j.val; rw [e1]; omega

/-- Row p of the node-feature block at point t is row 10000·t + p of the array. -/
theorem region5_rows1 (c : Dev nD) (t : Fin cfg5.N) (p : Fin 10000) (j : Fin 128) (P : Fin 100000)
    (hP : P.val = t.val * 10000 + p.val) :
    (iblk5 V c 1 t : Vec Ideal S10000x128 .f32) (ix2 p j) = (V c main_v101 : Cert.Sage.SN.Idx → EReal) (ix2 P j) := by
  obtain ⟨-, -, e0, e1, -⟩ := region5_points t
  unfold iblk5
  rw [View.read_apply]
  show V c main_v101 _ = V c main_v101 _
  congr 1
  funext a
  apply Fin.ext
  match a with
  | ⟨0, _⟩ => show win5_1.index t 0 * 10000 + 1 * p.val = P.val; rw [e0, hP]; omega
  | ⟨1, _⟩ => show win5_1.index t 1 * 128 + 1 * j.val = j.val; rw [e1]; omega

/-- The weights' block at every point is the whole array of stacked weights. -/
theorem region5_weights (c : Dev nD) (t : Fin cfg5.N) :
    (iblk5 V c 2 t : Vec Ideal S256x128 .f32) = (V c main_v115 : Cert.Sage.SW2.Idx → EReal) := by
  obtain ⟨-, -, -, -, e0, e1, -⟩ := region5_points t
  funext y
  unfold iblk5
  rw [View.read_apply]
  show V c main_v115 _ = V c main_v115 y
  congr 1
  funext a
  apply Fin.ext
  match a with
  | ⟨0, _⟩ => show win5_2.index t 0 * 256 + 1 * (y 0).val = (y 0).val; rw [e0]; omega
  | ⟨1, _⟩ => show win5_2.index t 1 * 128 + 1 * (y 1).val = (y 1).val; rw [e1]; omega

/-- The bias block at every point is the whole bias row. -/
theorem region5_bias (c : Dev nD) (t : Fin cfg5.N) :
    (iblk5 V c 3 t : Vec Ideal S1x128 .f32) = (V c main_v118 : Cert.Sage.SB1.Idx → EReal) := by
  obtain ⟨-, -, -, -, -, -, e0, e1, -⟩ := region5_points t
  funext y
  unfold iblk5
  rw [View.read_apply]
  show V c main_v118 _ = V c main_v118 y
  congr 1
  funext a
  apply Fin.ext
  match a with
  | ⟨0, _⟩ => show win5_3.index t 0 * 1 + 1 * (y 0).val = (y 0).val; rw [e0]; omega
  | ⟨1, _⟩ => show win5_3.index t 1 * 128 + 1 * (y 1).val = (y 1).val; rw [e1]; omega

/-- What point t writes back is block t of the layer's function of the whole arrays. -/
theorem region5_flushed (c : Dev nD) (t : Fin cfg5.N) :
    (dat5 (F := Ideal) V c).flushed 4 t = ((cfg5.win 4).blk t).view.read (Elt Ideal)
      (Cert.Sage.combine true (V c main_v113) (V c main_v101) (V c main_v115) (V c main_v118)) := by
  show (cfg5.win 4).cut (grid5.coords t) ((dat5 V c).after 4 t) = _
  rw [after5_4]
  unfold out5_4
  rw [View.canon_unit_zero region5_zeros]
  simp only [View.ld_unit_zero (S := S10000x128) region5_zeros, View.ld_unit_zero (S := S256x128) region5_zeros,
    View.ld_unit_zero (S := S1x128) region5_zeros]
  funext j
  obtain ⟨p, q, rfl⟩ : ∃ (p : Fin 10000) (q : Fin 128), j = ix2 p q := ⟨j 0, j 1, eq_ix2 j⟩
  obtain ⟨-, -, -, -, -, -, -, -, e0, e1, ht⟩ := region5_points t
  have hP : t.val * 10000 + p.val < 100000 := by omega
  rw [View.read_apply]
  have he : ((cfg5.win 4).blk t).view.emb (ix2 p q) = ix2 (⟨t.val * 10000 + p.val, hP⟩ : Fin 100000) q :=
    funext fun a => Fin.ext (by
      match a with
      | ⟨0, _⟩ => show win5_4.index t 0 * 10000 + 1 * p.val = t.val * 10000 + p.val; rw [e0]; omega
      | ⟨1, _⟩ => show win5_4.index t 1 * 128 + 1 * q.val = q.val; rw [e1]; omega)
  rw [he]
  show k5_pay1 (iblk5 V c 0 t) (iblk5 V c 1 t) (iblk5 V c 2 t) (iblk5 V c 3 t) (ix2 p q)
    = Cert.Sage.combine true (V c main_v113) (V c main_v101) (V c main_v115) (V c main_v118)
        (ix2 (⟨t.val * 10000 + p.val, hP⟩ : Fin 100000) q)
  exact (k5_pay1_combine (iblk5 V c 0 t) (iblk5 V c 1 t) (iblk5 V c 2 t) (iblk5 V c 3 t) (V c main_v113) (V c main_v101)
      (⟨t.val * 10000 + p.val, hP⟩ : Fin 100000) p q
      (fun j => region5_rows0 V c t p j ⟨t.val * 10000 + p.val, hP⟩ rfl)
      (fun j => region5_rows1 V c t p j ⟨t.val * 10000 + p.val, hP⟩ rfl)).trans
    (congrArg₂ (fun w b => Cert.Sage.combine true (V c main_v113) (V c main_v101) w b
        (ix2 (⟨t.val * 10000 + p.val, hP⟩ : Fin 100000) q)) (region5_weights V c t) (region5_bias V c t))

/-- An index of the result array is in point t's block iff each coordinate is in the block's range on its axis. -/
theorem region5_mem_blk (t : Fin cfg5.N) (i : S100000x128.Idx) :
    i ∈ ((cfg5.win 4).blk t).view.set ↔ ∀ a : Fin 2, win5_4.index t a * S10000x128.size a ≤ (i a).val
      ∧ (i a).val < win5_4.index t a * S10000x128.size a + S10000x128.size a := by
  show i ∈ ((View.whole main_v119).slice (win5_4.rect t)).set ↔ _
  rw [View.set_slice_whole, Rect.mem_set_unit]
  exact Iff.rfl

/-- Every index of the result array is in some point's block: row r is in the block of point r / 10000. -/
theorem region5_cover (i : S100000x128.Idx) :
    ∃ t : Fin cfg5.N, (cfg5.win 4).flush t = true ∧ i ∈ ((cfg5.win 4).blk t).view.set := by
  have h0 : (i 0).val < 100000 := (i 0).isLt
  have h1 : (i 1).val < 128 := (i 1).isLt
  have ht : (i 0).val / 10000 < cfg5.N := by rw [show cfg5.N = 10 from N_5]; omega
  obtain ⟨-, -, -, -, -, -, -, -, e0, e1, -⟩ := region5_points ⟨(i 0).val / 10000, ht⟩
  have e0' : win5_4.index ⟨(i 0).val / 10000, ht⟩ (0 : Fin 2) = (i 0).val / 10000 := e0
  refine ⟨⟨(i 0).val / 10000, ht⟩, flush5_4 _, ?_⟩
  rw [region5_mem_blk]
  intro a
  match a with
  | ⟨0, _⟩ =>
    show win5_4.index ⟨(i 0).val / 10000, ht⟩ (0 : Fin 2) * 10000 ≤ (i 0).val
      ∧ (i 0).val < win5_4.index ⟨(i 0).val / 10000, ht⟩ (0 : Fin 2) * 10000 + 10000
    rw [e0']; omega
  | ⟨1, _⟩ =>
    show win5_4.index ⟨(i 0).val / 10000, ht⟩ (1 : Fin 2) * 128 ≤ (i 1).val
      ∧ (i 1).val < win5_4.index ⟨(i 0).val / 10000, ht⟩ (1 : Fin 2) * 128 + 128
    rw [e1]; omega

/-- Layer 5's result array after the run is the layer's function of the arrays the run found: the stacked rows
    of neighbour means and node features times the stacked weights, plus the bias, clamped below at 0. -/
theorem region5_val (c : Dev nD) :
    (dat5 (F := Ideal) V c).arrAt 4 cfg5.N
      = Cert.Sage.combine true (V c main_v113) (V c main_v101) (V c main_v115) (V c main_v118) :=
  (dat5 V c).arrAt_eq_of_cover 4 _ (fun t _ => region5_flushed V c t) region5_cover

end Cert.KernelIdeal.Gen

end
-- ==== Proof.Region6.lean ====
/-
  Layer 6's kernel over whole arrays.

  The kernel runs over ten grid points. At point t it is handed rows 10000·t … 10000·t + 9999 of the neighbour
  means and of the node features, all of the stacked weights and the bias row, and writes the same rows of its
  result. Each written block is therefore the matching block of ONE function of the whole arrays — the stacked
  row times the stacked weights, plus the bias, clamped below at 0 — and the ten blocks tile the result, so the result
  array after the run is that function.
-/
import proofs.«402578_j10522669875348_3_alg».proof.Proof.Gen.KernelIdeal.Frame
import proofs.«402578_j10522669875348_3_alg».proof.Proof.Payload
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem region6_zeros : (![0, 0] : Fin 2 → Nat) = fun _ => 0 := funext fun a => by fin_cases a <;> rfl

/-- The block indices at every grid point: the two row-blocked inputs and the result sit at block row t, column
    block 0; the weights and the bias are one block each; and there are ten points. -/
theorem region6_points : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 ∧ t.val < 10 :=
  (by decide +kernel : ∀ t : Fin grid6.N, _)

/-- Row p of the neighbour-mean block at point t is row 10000·t + p of the array. -/
theorem region6_rows0 (c : Dev nD) (t : Fin cfg6.N) (p : Fin 10000) (j : Fin 128) (P : Fin 100000)
    (hP : P.val = t.val * 10000 + p.val) :
    (iblk6 V c 0 t : Vec Ideal S10000x128 .f32) (ix2 p j) = (V c main_v131 : Cert.Sage.SN.Idx → EReal) (ix2 P j) := by
  obtain ⟨e0, e1, -⟩ := region6_points t
  unfold iblk6
  rw [View.read_apply]
  show V c main_v131 _ = V c main_v131 _
  congr 1
  funext a
  apply Fin.ext
  match a with
  | ⟨0, _⟩ => show win6_0.index t 0 * 10000 + 1 * p.val = P.val; rw [e0, hP]; omega
  | ⟨1, _⟩ => show win6_0.index t 1 * 128 + 1 * j.val = j.val; rw [e1]; omega

/-- Row p of the node-feature block at point t is row 10000·t + p of the array. -/
theorem region6_rows1 (c : Dev nD) (t : Fin cfg6.N) (p : Fin 10000) (j : Fin 128) (P : Fin 100000)
    (hP : P.val = t.val * 10000 + p.val) :
    (iblk6 V c 1 t : Vec Ideal S10000x128 .f32) (ix2 p j) = (V c main_v119 : Cert.Sage.SN.Idx → EReal) (ix2 P j) := by
  obtain ⟨-, -, e0, e1, -⟩ := region6_points t
  unfold iblk6
  rw [View.read_apply]
  show V c main_v119 _ = V c main_v119 _
  congr 1
  funext a
  apply Fin.ext
  match a with
  | ⟨0, _⟩ => show win6_1.index t 0 * 10000 + 1 * p.val = P.val; rw [e0, hP]; omega
  | ⟨1, _⟩ => show win6_1.index t 1 * 128 + 1 * j.val = j.val; rw [e1]; omega

/-- The weights' block at every point is the whole array of stacked weights. -/
theorem region6_weights (c : Dev nD) (t : Fin cfg6.N) :
    (iblk6 V c 2 t : Vec Ideal S256x128 .f32) = (V c main_v133 : Cert.Sage.SW2.Idx → EReal) := by
  obtain ⟨-, -, -, -, e0, e1, -⟩ := region6_points t
  funext y
  unfold iblk6
  rw [View.read_apply]
  show V c main_v133 _ = V c main_v133 y
  congr 1
  funext a
  apply Fin.ext
  match a with
  | ⟨0, _⟩ => show win6_2.index t 0 * 256 + 1 * (y 0).val = (y 0).val; rw [e0]; omega
  | ⟨1, _⟩ => show win6_2.index t 1 * 128 + 1 * (y 1).val = (y 1).val; rw [e1]; omega

/-- The bias block at every point is the whole bias row. -/
theorem region6_bias (c : Dev nD) (t : Fin cfg6.N) :
    (iblk6 V c 3 t : Vec Ideal S1x128 .f32) = (V c main_v136 : Cert.Sage.SB1.Idx → EReal) := by
  obtain ⟨-, -, -, -, -, -, e0, e1, -⟩ := region6_points t
  funext y
  unfold iblk6
  rw [View.read_apply]
  show V c main_v136 _ = V c main_v136 y
  congr 1
  funext a
  apply Fin.ext
  match a with
  | ⟨0, _⟩ => show win6_3.index t 0 * 1 + 1 * (y 0).val = (y 0).val; rw [e0]; omega
  | ⟨1, _⟩ => show win6_3.index t 1 * 128 + 1 * (y 1).val = (y 1).val; rw [e1]; omega

/-- What point t writes back is block t of the layer's function of the whole arrays. -/
theorem region6_flushed (c : Dev nD) (t : Fin cfg6.N) :
    (dat6 (F := Ideal) V c).flushed 4 t = ((cfg6.win 4).blk t).view.read (Elt Ideal)
      (Cert.Sage.combine true (V c main_v131) (V c main_v119) (V c main_v133) (V c main_v136)) := by
  show (cfg6.win 4).cut (grid6.coords t) ((dat6 V c).after 4 t) = _
  rw [after6_4]
  unfold out6_4
  rw [View.canon_unit_zero region6_zeros]
  simp only [View.ld_unit_zero (S := S10000x128) region6_zeros, View.ld_unit_zero (S := S256x128) region6_zeros,
    View.ld_unit_zero (S := S1x128) region6_zeros]
  funext j
  obtain ⟨p, q, rfl⟩ : ∃ (p : Fin 10000) (q : Fin 128), j = ix2 p q := ⟨j 0, j 1, eq_ix2 j⟩
  obtain ⟨-, -, -, -, -, -, -, -, e0, e1, ht⟩ := region6_points t
  have hP : t.val * 10000 + p.val < 100000 := by omega
  rw [View.read_apply]
  have he : ((cfg6.win 4).blk t).view.emb (ix2 p q) = ix2 (⟨t.val * 10000 + p.val, hP⟩ : Fin 100000) q :=
    funext fun a => Fin.ext (by
      match a with
      | ⟨0, _⟩ => show win6_4.index t 0 * 10000 + 1 * p.val = t.val * 10000 + p.val; rw [e0]; omega
      | ⟨1, _⟩ => show win6_4.index t 1 * 128 + 1 * q.val = q.val; rw [e1]; omega)
  rw [he]
  show k6_pay1 (iblk6 V c 0 t) (iblk6 V c 1 t) (iblk6 V c 2 t) (iblk6 V c 3 t) (ix2 p q)
    = Cert.Sage.combine true (V c main_v131) (V c main_v119) (V c main_v133) (V c main_v136)
        (ix2 (⟨t.val * 10000 + p.val, hP⟩ : Fin 100000) q)
  exact (k6_pay1_combine (iblk6 V c 0 t) (iblk6 V c 1 t) (iblk6 V c 2 t) (iblk6 V c 3 t) (V c main_v131) (V c main_v119)
      (⟨t.val * 10000 + p.val, hP⟩ : Fin 100000) p q
      (fun j => region6_rows0 V c t p j ⟨t.val * 10000 + p.val, hP⟩ rfl)
      (fun j => region6_rows1 V c t p j ⟨t.val * 10000 + p.val, hP⟩ rfl)).trans
    (congrArg₂ (fun w b => Cert.Sage.combine true (V c main_v131) (V c main_v119) w b
        (ix2 (⟨t.val * 10000 + p.val, hP⟩ : Fin 100000) q)) (region6_weights V c t) (region6_bias V c t))

/-- An index of the result array is in point t's block iff each coordinate is in the block's range on its axis. -/
theorem region6_mem_blk (t : Fin cfg6.N) (i : S100000x128.Idx) :
    i ∈ ((cfg6.win 4).blk t).view.set ↔ ∀ a : Fin 2, win6_4.index t a * S10000x128.size a ≤ (i a).val
      ∧ (i a).val < win6_4.index t a * S10000x128.size a + S10000x128.size a := by
  show i ∈ ((View.whole main_v137).slice (win6_4.rect t)).set ↔ _
  rw [View.set_slice_whole, Rect.mem_set_unit]
  exact Iff.rfl

/-- Every index of the result array is in some point's block: row r is in the block of point r / 10000. -/
theorem region6_cover (i : S100000x128.Idx) :
    ∃ t : Fin cfg6.N, (cfg6.win 4).flush t = true ∧ i ∈ ((cfg6.win 4).blk t).view.set := by
  have h0 : (i 0).val < 100000 := (i 0).isLt
  have h1 : (i 1).val < 128 := (i 1).isLt
  have ht : (i 0).val / 10000 < cfg6.N := by rw [show cfg6.N = 10 from N_6]; omega
  obtain ⟨-, -, -, -, -, -, -, -, e0, e1, -⟩ := region6_points ⟨(i 0).val / 10000, ht⟩
  have e0' : win6_4.index ⟨(i 0).val / 10000, ht⟩ (0 : Fin 2) = (i 0).val / 10000 := e0
  refine ⟨⟨(i 0).val / 10000, ht⟩, flush6_4 _, ?_⟩
  rw [region6_mem_blk]
  intro a
  match a with
  | ⟨0, _⟩ =>
    show win6_4.index ⟨(i 0).val / 10000, ht⟩ (0 : Fin 2) * 10000 ≤ (i 0).val
      ∧ (i 0).val < win6_4.index ⟨(i 0).val / 10000, ht⟩ (0 : Fin 2) * 10000 + 10000
    rw [e0']; omega
  | ⟨1, _⟩ =>
    show win6_4.index ⟨(i 0).val / 10000, ht⟩ (1 : Fin 2) * 128 ≤ (i 1).val
      ∧ (i 1).val < win6_4.index ⟨(i 0).val / 10000, ht⟩ (1 : Fin 2) * 128 + 128
    rw [e1]; omega

/-- Layer 6's result array after the run is the layer's function of the arrays the run found: the stacked rows
    of neighbour means and node features times the stacked weights, plus the bias, clamped below at 0. -/
theorem region6_val (c : Dev nD) :
    (dat6 (F := Ideal) V c).arrAt 4 cfg6.N
      = Cert.Sage.combine true (V c main_v131) (V c main_v119) (V c main_v133) (V c main_v136) :=
  (dat6 V c).arrAt_eq_of_cover 4 _ (fun t _ => region6_flushed V c t) region6_cover

end Cert.KernelIdeal.Gen

end
-- ==== Proof.Region7.lean ====
/-
  Layer 7's kernel over whole arrays.

  The kernel runs over ten grid points. At point t it is handed rows 10000·t … 10000·t + 9999 of the neighbour
  means and of the node features, all of the stacked weights and the bias row, and writes the same rows of its
  result. Each written block is therefore the matching block of ONE function of the whole arrays — the stacked
  row times the stacked weights, plus the bias, clamped below at 0 — and the ten blocks tile the result, so the result
  array after the run is that function.
-/
import proofs.«402578_j10522669875348_3_alg».proof.Proof.Gen.KernelIdeal.Frame
import proofs.«402578_j10522669875348_3_alg».proof.Proof.Payload
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem region7_zeros : (![0, 0] : Fin 2 → Nat) = fun _ => 0 := funext fun a => by fin_cases a <;> rfl

/-- The block indices at every grid point: the two row-blocked inputs and the result sit at block row t, column
    block 0; the weights and the bias are one block each; and there are ten points. -/
theorem region7_points : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 ∧ t.val < 10 :=
  (by decide +kernel : ∀ t : Fin grid7.N, _)

/-- Row p of the neighbour-mean block at point t is row 10000·t + p of the array. -/
theorem region7_rows0 (c : Dev nD) (t : Fin cfg7.N) (p : Fin 10000) (j : Fin 128) (P : Fin 100000)
    (hP : P.val = t.val * 10000 + p.val) :
    (iblk7 V c 0 t : Vec Ideal S10000x128 .f32) (ix2 p j) = (V c main_v149 : Cert.Sage.SN.Idx → EReal) (ix2 P j) := by
  obtain ⟨e0, e1, -⟩ := region7_points t
  unfold iblk7
  rw [View.read_apply]
  show V c main_v149 _ = V c main_v149 _
  congr 1
  funext a
  apply Fin.ext
  match a with
  | ⟨0, _⟩ => show win7_0.index t 0 * 10000 + 1 * p.val = P.val; rw [e0, hP]; omega
  | ⟨1, _⟩ => show win7_0.index t 1 * 128 + 1 * j.val = j.val; rw [e1]; omega

/-- Row p of the node-feature block at point t is row 10000·t + p of the array. -/
theorem region7_rows1 (c : Dev nD) (t : Fin cfg7.N) (p : Fin 10000) (j : Fin 128) (P : Fin 100000)
    (hP : P.val = t.val * 10000 + p.val) :
    (iblk7 V c 1 t : Vec Ideal S10000x128 .f32) (ix2 p j) = (V c main_v137 : Cert.Sage.SN.Idx → EReal) (ix2 P j) := by
  obtain ⟨-, -, e0, e1, -⟩ := region7_points t
  unfold iblk7
  rw [View.read_apply]
  show V c main_v137 _ = V c main_v137 _
  congr 1
  funext a
  apply Fin.ext
  match a with
  | ⟨0, _⟩ => show win7_1.index t 0 * 10000 + 1 * p.val = P.val; rw [e0, hP]; omega
  | ⟨1, _⟩ => show win7_1.index t 1 * 128 + 1 * j.val = j.val; rw [e1]; omega

/-- The weights' block at every point is the whole array of stacked weights. -/
theorem region7_weights (c : Dev nD) (t : Fin cfg7.N) :
    (iblk7 V c 2 t : Vec Ideal S256x128 .f32) = (V c main_v151 : Cert.Sage.SW2.Idx → EReal) := by
  obtain ⟨-, -, -, -, e0, e1, -⟩ := region7_points t
  funext y
  unfold iblk7
  rw [View.read_apply]
  show V c main_v151 _ = V c main_v151 y
  congr 1
  funext a
  apply Fin.ext
  match a with
  | ⟨0, _⟩ => show win7_2.index t 0 * 256 + 1 * (y 0).val = (y 0).val; rw [e0]; omega
  | ⟨1, _⟩ => show win7_2.index t 1 * 128 + 1 * (y 1).val = (y 1).val; rw [e1]; omega

/-- The bias block at every point is the whole bias row. -/
theorem region7_bias (c : Dev nD) (t : Fin cfg7.N) :
    (iblk7 V c 3 t : Vec Ideal S1x128 .f32) = (V c main_v154 : Cert.Sage.SB1.Idx → EReal) := by
  obtain ⟨-, -, -, -, -, -, e0, e1, -⟩ := region7_points t
  funext y
  unfold iblk7
  rw [View.read_apply]
  show V c main_v154 _ = V c main_v154 y
  congr 1
  funext a
  apply Fin.ext
  match a with
  | ⟨0, _⟩ => show win7_3.index t 0 * 1 + 1 * (y 0).val = (y 0).val; rw [e0]; omega
  | ⟨1, _⟩ => show win7_3.index t 1 * 128 + 1 * (y 1).val = (y 1).val; rw [e1]; omega

/-- What point t writes back is block t of the layer's function of the whole arrays. -/
theorem region7_flushed (c : Dev nD) (t : Fin cfg7.N) :
    (dat7 (F := Ideal) V c).flushed 4 t = ((cfg7.win 4).blk t).view.read (Elt Ideal)
      (Cert.Sage.combine true (V c main_v149) (V c main_v137) (V c main_v151) (V c main_v154)) := by
  show (cfg7.win 4).cut (grid7.coords t) ((dat7 V c).after 4 t) = _
  rw [after7_4]
  unfold out7_4
  rw [View.canon_unit_zero region7_zeros]
  simp only [View.ld_unit_zero (S := S10000x128) region7_zeros, View.ld_unit_zero (S := S256x128) region7_zeros,
    View.ld_unit_zero (S := S1x128) region7_zeros]
  funext j
  obtain ⟨p, q, rfl⟩ : ∃ (p : Fin 10000) (q : Fin 128), j = ix2 p q := ⟨j 0, j 1, eq_ix2 j⟩
  obtain ⟨-, -, -, -, -, -, -, -, e0, e1, ht⟩ := region7_points t
  have hP : t.val * 10000 + p.val < 100000 := by omega
  rw [View.read_apply]
  have he : ((cfg7.win 4).blk t).view.emb (ix2 p q) = ix2 (⟨t.val * 10000 + p.val, hP⟩ : Fin 100000) q :=
    funext fun a => Fin.ext (by
      match a with
      | ⟨0, _⟩ => show win7_4.index t 0 * 10000 + 1 * p.val = t.val * 10000 + p.val; rw [e0]; omega
      | ⟨1, _⟩ => show win7_4.index t 1 * 128 + 1 * q.val = q.val; rw [e1]; omega)
  rw [he]
  show k7_pay1 (iblk7 V c 0 t) (iblk7 V c 1 t) (iblk7 V c 2 t) (iblk7 V c 3 t) (ix2 p q)
    = Cert.Sage.combine true (V c main_v149) (V c main_v137) (V c main_v151) (V c main_v154)
        (ix2 (⟨t.val * 10000 + p.val, hP⟩ : Fin 100000) q)
  exact (k7_pay1_combine (iblk7 V c 0 t) (iblk7 V c 1 t) (iblk7 V c 2 t) (iblk7 V c 3 t) (V c main_v149) (V c main_v137)
      (⟨t.val * 10000 + p.val, hP⟩ : Fin 100000) p q
      (fun j => region7_rows0 V c t p j ⟨t.val * 10000 + p.val, hP⟩ rfl)
      (fun j => region7_rows1 V c t p j ⟨t.val * 10000 + p.val, hP⟩ rfl)).trans
    (congrArg₂ (fun w b => Cert.Sage.combine true (V c main_v149) (V c main_v137) w b
        (ix2 (⟨t.val * 10000 + p.val, hP⟩ : Fin 100000) q)) (region7_weights V c t) (region7_bias V c t))

/-- An index of the result array is in point t's block iff each coordinate is in the block's range on its axis. -/
theorem region7_mem_blk (t : Fin cfg7.N) (i : S100000x128.Idx) :
    i ∈ ((cfg7.win 4).blk t).view.set ↔ ∀ a : Fin 2, win7_4.index t a * S10000x128.size a ≤ (i a).val
      ∧ (i a).val < win7_4.index t a * S10000x128.size a + S10000x128.size a := by
  show i ∈ ((View.whole main_v155).slice (win7_4.rect t)).set ↔ _
  rw [View.set_slice_whole, Rect.mem_set_unit]
  exact Iff.rfl

/-- Every index of the result array is in some point's block: row r is in the block of point r / 10000. -/
theorem region7_cover (i : S100000x128.Idx) :
    ∃ t : Fin cfg7.N, (cfg7.win 4).flush t = true ∧ i ∈ ((cfg7.win 4).blk t).view.set := by
  have h0 : (i 0).val < 100000 := (i 0).isLt
  have h1 : (i 1).val < 128 := (i 1).isLt
  have ht : (i 0).val / 10000 < cfg7.N := by rw [show cfg7.N = 10 from N_7]; omega
  obtain ⟨-, -, -, -, -, -, -, -, e0, e1, -⟩ := region7_points ⟨(i 0).val / 10000, ht⟩
  have e0' : win7_4.index ⟨(i 0).val / 10000, ht⟩ (0 : Fin 2) = (i 0).val / 10000 := e0
  refine ⟨⟨(i 0).val / 10000, ht⟩, flush7_4 _, ?_⟩
  rw [region7_mem_blk]
  intro a
  match a with
  | ⟨0, _⟩ =>
    show win7_4.index ⟨(i 0).val / 10000, ht⟩ (0 : Fin 2) * 10000 ≤ (i 0).val
      ∧ (i 0).val < win7_4.index ⟨(i 0).val / 10000, ht⟩ (0 : Fin 2) * 10000 + 10000
    rw [e0']; omega
  | ⟨1, _⟩ =>
    show win7_4.index ⟨(i 0).val / 10000, ht⟩ (1 : Fin 2) * 128 ≤ (i 1).val
      ∧ (i 1).val < win7_4.index ⟨(i 0).val / 10000, ht⟩ (1 : Fin 2) * 128 + 128
    rw [e1]; omega

/-- Layer 7's result array after the run is the layer's function of the arrays the run found: the stacked rows
    of neighbour means and node features times the stacked weights, plus the bias, clamped below at 0. -/
theorem region7_val (c : Dev nD) :
    (dat7 (F := Ideal) V c).arrAt 4 cfg7.N
      = Cert.Sage.combine true (V c main_v149) (V c main_v137) (V c main_v151) (V c main_v154) :=
  (dat7 V c).arrAt_eq_of_cover 4 _ (fun t _ => region7_flushed V c t) region7_cover

end Cert.KernelIdeal.Gen

end
-- ==== Proof.Region8.lean ====
/-
  Layer 8's kernel over whole arrays.

  The kernel runs over ten grid points. At point t it is handed rows 10000·t … 10000·t + 9999 of the neighbour
  means and of the node features, all of the stacked weights and the bias row, and writes the same rows of its
  result. Each written block is therefore the matching block of ONE function of the whole arrays — the stacked
  row times the stacked weights, plus the bias, clamped below at 0 — and the ten blocks tile the result, so the result
  array after the run is that function.
-/
import proofs.«402578_j10522669875348_3_alg».proof.Proof.Gen.KernelIdeal.Frame
import proofs.«402578_j10522669875348_3_alg».proof.Proof.Payload
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem region8_zeros : (![0, 0] : Fin 2 → Nat) = fun _ => 0 := funext fun a => by fin_cases a <;> rfl

/-- The block indices at every grid point: the two row-blocked inputs and the result sit at block row t, column
    block 0; the weights and the bias are one block each; and there are ten points. -/
theorem region8_points : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 ∧ t.val < 10 :=
  (by decide +kernel : ∀ t : Fin grid8.N, _)

/-- Row p of the neighbour-mean block at point t is row 10000·t + p of the array. -/
theorem region8_rows0 (c : Dev nD) (t : Fin cfg8.N) (p : Fin 10000) (j : Fin 128) (P : Fin 100000)
    (hP : P.val = t.val * 10000 + p.val) :
    (iblk8 V c 0 t : Vec Ideal S10000x128 .f32) (ix2 p j) = (V c main_v167 : Cert.Sage.SN.Idx → EReal) (ix2 P j) := by
  obtain ⟨e0, e1, -⟩ := region8_points t
  unfold iblk8
  rw [View.read_apply]
  show V c main_v167 _ = V c main_v167 _
  congr 1
  funext a
  apply Fin.ext
  match a with
  | ⟨0, _⟩ => show win8_0.index t 0 * 10000 + 1 * p.val = P.val; rw [e0, hP]; omega
  | ⟨1, _⟩ => show win8_0.index t 1 * 128 + 1 * j.val = j.val; rw [e1]; omega

/-- Row p of the node-feature block at point t is row 10000·t + p of the array. -/
theorem region8_rows1 (c : Dev nD) (t : Fin cfg8.N) (p : Fin 10000) (j : Fin 128) (P : Fin 100000)
    (hP : P.val = t.val * 10000 + p.val) :
    (iblk8 V c 1 t : Vec Ideal S10000x128 .f32) (ix2 p j) = (V c main_v155 : Cert.Sage.SN.Idx → EReal) (ix2 P j) := by
  obtain ⟨-, -, e0, e1, -⟩ := region8_points t
  unfold iblk8
  rw [View.read_apply]
  show V c main_v155 _ = V c main_v155 _
  congr 1
  funext a
  apply Fin.ext
  match a with
  | ⟨0, _⟩ => show win8_1.index t 0 * 10000 + 1 * p.val = P.val; rw [e0, hP]; omega
  | ⟨1, _⟩ => show win8_1.index t 1 * 128 + 1 * j.val = j.val; rw [e1]; omega

/-- The weights' block at every point is the whole array of stacked weights. -/
theorem region8_weights (c : Dev nD) (t : Fin cfg8.N) :
    (iblk8 V c 2 t : Vec Ideal S256x128 .f32) = (V c main_v169 : Cert.Sage.SW2.Idx → EReal) := by
  obtain ⟨-, -, -, -, e0, e1, -⟩ := region8_points t
  funext y
  unfold iblk8
  rw [View.read_apply]
  show V c main_v169 _ = V c main_v169 y
  congr 1
  funext a
  apply Fin.ext
  match a with
  | ⟨0, _⟩ => show win8_2.index t 0 * 256 + 1 * (y 0).val = (y 0).val; rw [e0]; omega
  | ⟨1, _⟩ => show win8_2.index t 1 * 128 + 1 * (y 1).val = (y 1).val; rw [e1]; omega

/-- The bias block at every point is the whole bias row. -/
theorem region8_bias (c : Dev nD) (t : Fin cfg8.N) :
    (iblk8 V c 3 t : Vec Ideal S1x128 .f32) = (V c main_v172 : Cert.Sage.SB1.Idx → EReal) := by
  obtain ⟨-, -, -, -, -, -, e0, e1, -⟩ := region8_points t
  funext y
  unfold iblk8
  rw [View.read_apply]
  show V c main_v172 _ = V c main_v172 y
  congr 1
  funext a
  apply Fin.ext
  match a with
  | ⟨0, _⟩ => show win8_3.index t 0 * 1 + 1 * (y 0).val = (y 0).val; rw [e0]; omega
  | ⟨1, _⟩ => show win8_3.index t 1 * 128 + 1 * (y 1).val = (y 1).val; rw [e1]; omega

/-- What point t writes back is block t of the layer's function of the whole arrays. -/
theorem region8_flushed (c : Dev nD) (t : Fin cfg8.N) :
    (dat8 (F := Ideal) V c).flushed 4 t = ((cfg8.win 4).blk t).view.read (Elt Ideal)
      (Cert.Sage.combine true (V c main_v167) (V c main_v155) (V c main_v169) (V c main_v172)) := by
  show (cfg8.win 4).cut (grid8.coords t) ((dat8 V c).after 4 t) = _
  rw [after8_4]
  unfold out8_4
  rw [View.canon_unit_zero region8_zeros]
  simp only [View.ld_unit_zero (S := S10000x128) region8_zeros, View.ld_unit_zero (S := S256x128) region8_zeros,
    View.ld_unit_zero (S := S1x128) region8_zeros]
  funext j
  obtain ⟨p, q, rfl⟩ : ∃ (p : Fin 10000) (q : Fin 128), j = ix2 p q := ⟨j 0, j 1, eq_ix2 j⟩
  obtain ⟨-, -, -, -, -, -, -, -, e0, e1, ht⟩ := region8_points t
  have hP : t.val * 10000 + p.val < 100000 := by omega
  rw [View.read_apply]
  have he : ((cfg8.win 4).blk t).view.emb (ix2 p q) = ix2 (⟨t.val * 10000 + p.val, hP⟩ : Fin 100000) q :=
    funext fun a => Fin.ext (by
      match a with
      | ⟨0, _⟩ => show win8_4.index t 0 * 10000 + 1 * p.val = t.val * 10000 + p.val; rw [e0]; omega
      | ⟨1, _⟩ => show win8_4.index t 1 * 128 + 1 * q.val = q.val; rw [e1]; omega)
  rw [he]
  show k8_pay1 (iblk8 V c 0 t) (iblk8 V c 1 t) (iblk8 V c 2 t) (iblk8 V c 3 t) (ix2 p q)
    = Cert.Sage.combine true (V c main_v167) (V c main_v155) (V c main_v169) (V c main_v172)
        (ix2 (⟨t.val * 10000 + p.val, hP⟩ : Fin 100000) q)
  exact (k8_pay1_combine (iblk8 V c 0 t) (iblk8 V c 1 t) (iblk8 V c 2 t) (iblk8 V c 3 t) (V c main_v167) (V c main_v155)
      (⟨t.val * 10000 + p.val, hP⟩ : Fin 100000) p q
      (fun j => region8_rows0 V c t p j ⟨t.val * 10000 + p.val, hP⟩ rfl)
      (fun j => region8_rows1 V c t p j ⟨t.val * 10000 + p.val, hP⟩ rfl)).trans
    (congrArg₂ (fun w b => Cert.Sage.combine true (V c main_v167) (V c main_v155) w b
        (ix2 (⟨t.val * 10000 + p.val, hP⟩ : Fin 100000) q)) (region8_weights V c t) (region8_bias V c t))

/-- An index of the result array is in point t's block iff each coordinate is in the block's range on its axis. -/
theorem region8_mem_blk (t : Fin cfg8.N) (i : S100000x128.Idx) :
    i ∈ ((cfg8.win 4).blk t).view.set ↔ ∀ a : Fin 2, win8_4.index t a * S10000x128.size a ≤ (i a).val
      ∧ (i a).val < win8_4.index t a * S10000x128.size a + S10000x128.size a := by
  show i ∈ ((View.whole main_v173).slice (win8_4.rect t)).set ↔ _
  rw [View.set_slice_whole, Rect.mem_set_unit]
  exact Iff.rfl

/-- Every index of the result array is in some point's block: row r is in the block of point r / 10000. -/
theorem region8_cover (i : S100000x128.Idx) :
    ∃ t : Fin cfg8.N, (cfg8.win 4).flush t = true ∧ i ∈ ((cfg8.win 4).blk t).view.set := by
  have h0 : (i 0).val < 100000 := (i 0).isLt
  have h1 : (i 1).val < 128 := (i 1).isLt
  have ht : (i 0).val / 10000 < cfg8.N := by rw [show cfg8.N = 10 from N_8]; omega
  obtain ⟨-, -, -, -, -, -, -, -, e0, e1, -⟩ := region8_points ⟨(i 0).val / 10000, ht⟩
  have e0' : win8_4.index ⟨(i 0).val / 10000, ht⟩ (0 : Fin 2) = (i 0).val / 10000 := e0
  refine ⟨⟨(i 0).val / 10000, ht⟩, flush8_4 _, ?_⟩
  rw [region8_mem_blk]
  intro a
  match a with
  | ⟨0, _⟩ =>
    show win8_4.index ⟨(i 0).val / 10000, ht⟩ (0 : Fin 2) * 10000 ≤ (i 0).val
      ∧ (i 0).val < win8_4.index ⟨(i 0).val / 10000, ht⟩ (0 : Fin 2) * 10000 + 10000
    rw [e0']; omega
  | ⟨1, _⟩ =>
    show win8_4.index ⟨(i 0).val / 10000, ht⟩ (1 : Fin 2) * 128 ≤ (i 1).val
      ∧ (i 1).val < win8_4.index ⟨(i 0).val / 10000, ht⟩ (1 : Fin 2) * 128 + 128
    rw [e1]; omega

/-- Layer 8's result array after the run is the layer's function of the arrays the run found: the stacked rows
    of neighbour means and node features times the stacked weights, plus the bias, clamped below at 0. -/
theorem region8_val (c : Dev nD) :
    (dat8 (F := Ideal) V c).arrAt 4 cfg8.N
      = Cert.Sage.combine true (V c main_v167) (V c main_v155) (V c main_v169) (V c main_v172) :=
  (dat8 V c).arrAt_eq_of_cover 4 _ (fun t _ => region8_flushed V c t) region8_cover

end Cert.KernelIdeal.Gen

end
-- ==== Proof.Region9.lean ====
/-
  Layer 9's kernel over whole arrays.

  The kernel runs over ten grid points. At point t it is handed rows 10000·t … 10000·t + 9999 of the neighbour
  means and of the node features, all of the stacked weights and the bias row, and writes the same rows of its
  result. Each written block is therefore the matching block of ONE function of the whole arrays — the stacked
  row times the stacked weights, plus the bias — and the ten blocks tile the result, so the result
  array after the run is that function.
-/
import proofs.«402578_j10522669875348_3_alg».proof.Proof.Gen.KernelIdeal.Frame
import proofs.«402578_j10522669875348_3_alg».proof.Proof.Payload
import Idealize.ShloMosaic.Lib.Pipeline.Value
import Idealize.ShloMosaic.Lib.ValueIdx

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem region9_zeros : (![0, 0] : Fin 2 → Nat) = fun _ => 0 := funext fun a => by fin_cases a <;> rfl

/-- The block indices at every grid point: the two row-blocked inputs and the result sit at block row t, column
    block 0; the weights and the bias are one block each; and there are ten points. -/
theorem region9_points : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 ∧ t.val < 10 :=
  (by decide +kernel : ∀ t : Fin grid9.N, _)

/-- Row p of the neighbour-mean block at point t is row 10000·t + p of the array. -/
theorem region9_rows0 (c : Dev nD) (t : Fin cfg9.N) (p : Fin 10000) (j : Fin 128) (P : Fin 100000)
    (hP : P.val = t.val * 10000 + p.val) :
    (iblk9 V c 0 t : Vec Ideal S10000x128 .f32) (ix2 p j) = (V c main_v185 : Cert.Sage.SN.Idx → EReal) (ix2 P j) := by
  obtain ⟨e0, e1, -⟩ := region9_points t
  unfold iblk9
  rw [View.read_apply]
  show V c main_v185 _ = V c main_v185 _
  congr 1
  funext a
  apply Fin.ext
  match a with
  | ⟨0, _⟩ => show win9_0.index t 0 * 10000 + 1 * p.val = P.val; rw [e0, hP]; omega
  | ⟨1, _⟩ => show win9_0.index t 1 * 128 + 1 * j.val = j.val; rw [e1]; omega

/-- Row p of the node-feature block at point t is row 10000·t + p of the array. -/
theorem region9_rows1 (c : Dev nD) (t : Fin cfg9.N) (p : Fin 10000) (j : Fin 128) (P : Fin 100000)
    (hP : P.val = t.val * 10000 + p.val) :
    (iblk9 V c 1 t : Vec Ideal S10000x128 .f32) (ix2 p j) = (V c main_v173 : Cert.Sage.SN.Idx → EReal) (ix2 P j) := by
  obtain ⟨-, -, e0, e1, -⟩ := region9_points t
  unfold iblk9
  rw [View.read_apply]
  show V c main_v173 _ = V c main_v173 _
  congr 1
  funext a
  apply Fin.ext
  match a with
  | ⟨0, _⟩ => show win9_1.index t 0 * 10000 + 1 * p.val = P.val; rw [e0, hP]; omega
  | ⟨1, _⟩ => show win9_1.index t 1 * 128 + 1 * j.val = j.val; rw [e1]; omega

/-- The weights' block at every point is the whole array of stacked weights. -/
theorem region9_weights (c : Dev nD) (t : Fin cfg9.N) :
    (iblk9 V c 2 t : Vec Ideal S256x128 .f32) = (V c main_v187 : Cert.Sage.SW2.Idx → EReal) := by
  obtain ⟨-, -, -, -, e0, e1, -⟩ := region9_points t
  funext y
  unfold iblk9
  rw [View.read_apply]
  show V c main_v187 _ = V c main_v187 y
  congr 1
  funext a
  apply Fin.ext
  match a with
  | ⟨0, _⟩ => show win9_2.index t 0 * 256 + 1 * (y 0).val = (y 0).val; rw [e0]; omega
  | ⟨1, _⟩ => show win9_2.index t 1 * 128 + 1 * (y 1).val = (y 1).val; rw [e1]; omega

/-- The bias block at every point is the whole bias row. -/
theorem region9_bias (c : Dev nD) (t : Fin cfg9.N) :
    (iblk9 V c 3 t : Vec Ideal S1x128 .f32) = (V c main_v190 : Cert.Sage.SB1.Idx → EReal) := by
  obtain ⟨-, -, -, -, -, -, e0, e1, -⟩ := region9_points t
  funext y
  unfold iblk9
  rw [View.read_apply]
  show V c main_v190 _ = V c main_v190 y
  congr 1
  funext a
  apply Fin.ext
  match a with
  | ⟨0, _⟩ => show win9_3.index t 0 * 1 + 1 * (y 0).val = (y 0).val; rw [e0]; omega
  | ⟨1, _⟩ => show win9_3.index t 1 * 128 + 1 * (y 1).val = (y 1).val; rw [e1]; omega

/-- What point t writes back is block t of the layer's function of the whole arrays. -/
theorem region9_flushed (c : Dev nD) (t : Fin cfg9.N) :
    (dat9 (F := Ideal) V c).flushed 4 t = ((cfg9.win 4).blk t).view.read (Elt Ideal)
      (Cert.Sage.combine false (V c main_v185) (V c main_v173) (V c main_v187) (V c main_v190)) := by
  show (cfg9.win 4).cut (grid9.coords t) ((dat9 V c).after 4 t) = _
  rw [after9_4]
  unfold out9_4
  rw [View.canon_unit_zero region9_zeros]
  simp only [View.ld_unit_zero (S := S10000x128) region9_zeros, View.ld_unit_zero (S := S256x128) region9_zeros,
    View.ld_unit_zero (S := S1x128) region9_zeros]
  funext j
  obtain ⟨p, q, rfl⟩ : ∃ (p : Fin 10000) (q : Fin 128), j = ix2 p q := ⟨j 0, j 1, eq_ix2 j⟩
  obtain ⟨-, -, -, -, -, -, -, -, e0, e1, ht⟩ := region9_points t
  have hP : t.val * 10000 + p.val < 100000 := by omega
  rw [View.read_apply]
  have he : ((cfg9.win 4).blk t).view.emb (ix2 p q) = ix2 (⟨t.val * 10000 + p.val, hP⟩ : Fin 100000) q :=
    funext fun a => Fin.ext (by
      match a with
      | ⟨0, _⟩ => show win9_4.index t 0 * 10000 + 1 * p.val = t.val * 10000 + p.val; rw [e0]; omega
      | ⟨1, _⟩ => show win9_4.index t 1 * 128 + 1 * q.val = q.val; rw [e1]; omega)
  rw [he]
  show k9_pay1 (iblk9 V c 0 t) (iblk9 V c 1 t) (iblk9 V c 2 t) (iblk9 V c 3 t) (ix2 p q)
    = Cert.Sage.combine false (V c main_v185) (V c main_v173) (V c main_v187) (V c main_v190)
        (ix2 (⟨t.val * 10000 + p.val, hP⟩ : Fin 100000) q)
  exact (k9_pay1_combine (iblk9 V c 0 t) (iblk9 V c 1 t) (iblk9 V c 2 t) (iblk9 V c 3 t) (V c main_v185) (V c main_v173)
      (⟨t.val * 10000 + p.val, hP⟩ : Fin 100000) p q
      (fun j => region9_rows0 V c t p j ⟨t.val * 10000 + p.val, hP⟩ rfl)
      (fun j => region9_rows1 V c t p j ⟨t.val * 10000 + p.val, hP⟩ rfl)).trans
    (congrArg₂ (fun w b => Cert.Sage.combine false (V c main_v185) (V c main_v173) w b
        (ix2 (⟨t.val * 10000 + p.val, hP⟩ : Fin 100000) q)) (region9_weights V c t) (region9_bias V c t))

/-- An index of the result array is in point t's block iff each coordinate is in the block's range on its axis. -/
theorem region9_mem_blk (t : Fin cfg9.N) (i : S100000x128.Idx) :
    i ∈ ((cfg9.win 4).blk t).view.set ↔ ∀ a : Fin 2, win9_4.index t a * S10000x128.size a ≤ (i a).val
      ∧ (i a).val < win9_4.index t a * S10000x128.size a + S10000x128.size a := by
  show i ∈ ((View.whole main_v191).slice (win9_4.rect t)).set ↔ _
  rw [View.set_slice_whole, Rect.mem_set_unit]
  exact Iff.rfl

/-- Every index of the result array is in some point's block: row r is in the block of point r / 10000. -/
theorem region9_cover (i : S100000x128.Idx) :
    ∃ t : Fin cfg9.N, (cfg9.win 4).flush t = true ∧ i ∈ ((cfg9.win 4).blk t).view.set := by
  have h0 : (i 0).val < 100000 := (i 0).isLt
  have h1 : (i 1).val < 128 := (i 1).isLt
  have ht : (i 0).val / 10000 < cfg9.N := by rw [show cfg9.N = 10 from N_9]; omega
  obtain ⟨-, -, -, -, -, -, -, -, e0, e1, -⟩ := region9_points ⟨(i 0).val / 10000, ht⟩
  have e0' : win9_4.index ⟨(i 0).val / 10000, ht⟩ (0 : Fin 2) = (i 0).val / 10000 := e0
  refine ⟨⟨(i 0).val / 10000, ht⟩, flush9_4 _, ?_⟩
  rw [region9_mem_blk]
  intro a
  match a with
  | ⟨0, _⟩ =>
    show win9_4.index ⟨(i 0).val / 10000, ht⟩ (0 : Fin 2) * 10000 ≤ (i 0).val
      ∧ (i 0).val < win9_4.index ⟨(i 0).val / 10000, ht⟩ (0 : Fin 2) * 10000 + 10000
    rw [e0']; omega
  | ⟨1, _⟩ =>
    show win9_4.index ⟨(i 0).val / 10000, ht⟩ (1 : Fin 2) * 128 ≤ (i 1).val
      ∧ (i 1).val < win9_4.index ⟨(i 0).val / 10000, ht⟩ (1 : Fin 2) * 128 + 128
    rw [e1]; omega

/-- Layer 9's result array after the run is the layer's function of the arrays the run found: the stacked rows
    of neighbour means and node features times the stacked weights, plus the bias. -/
theorem region9_val (c : Dev nD) :
    (dat9 (F := Ideal) V c).arrAt 4 cfg9.N
      = Cert.Sage.combine false (V c main_v185) (V c main_v173) (V c main_v187) (V c main_v190) :=
  (dat9 V c).arrAt_eq_of_cover 4 _ (fun t _ => region9_flushed V c t) region9_cover

end Cert.KernelIdeal.Gen

end
-- ==== Proof.KChain.lean ====
/-
  The kernel's program, boundary by boundary: what its result buffer holds at the return, as ten layer functions
  applied in turn to the launch's node features.

  One invariant is carried through the program. After layer k's kernel call the five buffers that every layer reads
  again — the source ids, the destination ids, the clamped in-degree column, the stacked weights, the bias table —
  hold fixed functions of the launch arrays, and the call's result array holds layer k applied to what the previous
  call's result array held. A host stretch turns the invariant into the call's four operands (the neighbour mean,
  the previous output, the layer's weight slice, the layer's bias row); the call's value theorem turns the operands
  into the layer's output; nothing else that the invariant names is written on the way.
-/
import proofs.«402578_j10522669875348_3_alg».proof.Proof.Gen.KernelIdeal.Frame
import proofs.«402578_j10522669875348_3_alg».proof.Proof.KLayers
import proofs.«402578_j10522669875348_3_alg».proof.Proof.KStretch0
import proofs.«402578_j10522669875348_3_alg».proof.Proof.KStretch1
import proofs.«402578_j10522669875348_3_alg».proof.Proof.KStretch2
import proofs.«402578_j10522669875348_3_alg».proof.Proof.KStretch3
import proofs.«402578_j10522669875348_3_alg».proof.Proof.KStretch4
import proofs.«402578_j10522669875348_3_alg».proof.Proof.KStretch5
import proofs.«402578_j10522669875348_3_alg».proof.Proof.KStretch6
import proofs.«402578_j10522669875348_3_alg».proof.Proof.KStretch7
import proofs.«402578_j10522669875348_3_alg».proof.Proof.KStretch8
import proofs.«402578_j10522669875348_3_alg».proof.Proof.KStretch9
import proofs.«402578_j10522669875348_3_alg».proof.Proof.Region0
import proofs.«402578_j10522669875348_3_alg».proof.Proof.Region1
import proofs.«402578_j10522669875348_3_alg».proof.Proof.Region2
import proofs.«402578_j10522669875348_3_alg».proof.Proof.Region3
import proofs.«402578_j10522669875348_3_alg».proof.Proof.Region4
import proofs.«402578_j10522669875348_3_alg».proof.Proof.Region5
import proofs.«402578_j10522669875348_3_alg».proof.Proof.Region6
import proofs.«402578_j10522669875348_3_alg».proof.Proof.Region7
import proofs.«402578_j10522669875348_3_alg».proof.Proof.Region8
import proofs.«402578_j10522669875348_3_alg».proof.Proof.Region9

noncomputable section

namespace Cert.KernelIdeal.Gen

open Idealize.ShloMosaic Idealize.ShloMosaic.TcCoe Idealize.ShloMosaic.StableHlo Cert.KernelIdeal.Facts₀

variable (m : (ℓ : Loc nD τ sig) → Buf (Elt Ideal) ℓ) (ρ : Dev nD → PrngReg) (c : Dev nD)

/-- The part of the invariant that does not move: in the buffer contents `W` the source ids, the destination ids,
    the in-degree column, the stacked weights and the bias table hold their functions of the launch arrays. -/
structure Pers (W : Valuation τ sig (Elt Ideal)) : Prop where
  v1 : W (Proc.devRef .tc main_v1) = SRC m c
  v3 : W (Proc.devRef .tc main_v3) = DST m c
  v10 : W (Proc.devRef .tc main_v10) = DEG m c
  v11 : W (Proc.devRef .tc main_v11) = WST m c
  arg3 : W (Proc.devRef .tc main_arg3) = BIAS m c

/-! ## Layer 0: from the launch to the first call's exit -/

/-- After the first call the five persistent buffers hold what the opening host stretch computed from the launch
    arrays: the call writes none of them. -/
theorem pers0 : Pers m c (W2 m ρ c) where
  v1 := (W2_of_ne m ρ c main_v1 (by decide)).trans (kstretch0_v1 (W0 m ρ c))
  v3 := (W2_of_ne m ρ c main_v3 (by decide)).trans (kstretch0_v3 (W0 m ρ c))
  v10 := (W2_of_ne m ρ c main_v10 (by decide)).trans (kstretch0_v10 (W0 m ρ c))
  v11 := (W2_of_ne m ρ c main_v11 (by decide)).trans (kstretch0_v11 (W0 m ρ c))
  arg3 := (W2_of_ne m ρ c main_arg3 (by decide)).trans (kstretch0_keep (W0 m ρ c) main_arg3 (.inr rfl))

/-- The first call's result array holds layer 0 of the launch's node features. -/
theorem out0 : W2 m ρ c (Proc.devRef .tc main_v29) = KL0 m c (m ((c : Thread nD τ).loc main_arg0)) := by
  refine (W2_arr m ρ c 4).trans ?_
  rw [region0_val]
  have ha : V1 m ρ c main_v23
      = Cert.Sage.K.agg (SRC m c) (DST m c) (DEG m c) (m ((c : Thread nD τ).loc main_arg0)) := kstretch0_agg (W0 m ρ c)
  have hx : V1 m ρ c main_arg0 = m ((c : Thread nD τ).loc main_arg0) := kstretch0_keep (W0 m ρ c) main_arg0 (.inl rfl)
  have hw : V1 m ρ c main_v25 = Cert.Sage.K.wsl 0 slices_S10x256x128_S1x256x128_0_0_0 (WST m c) := kstretch0_w (W0 m ρ c)
  have hb : V1 m ρ c main_v28 = Cert.Sage.K.bsl 0 slices_S10x128_S1x128_0_0 (BIAS m c) := kstretch0_b (W0 m ρ c)
  rw [ha, hx, hw, hb]
  rfl

/-! ## Layer 1: from the previous call's exit to this call's exit -/

/-- Neither the host stretch nor the call of layer 1 writes a persistent buffer. -/
theorem pers1 (hp : Pers m c (W2 m ρ c)) : Pers m c (W4 m ρ c) where
  v1 := ((W4_of_ne m ρ c main_v1 (by decide)).trans
    (kstretch1_keep (W2 m ρ c) main_v1 (.inr (.inl rfl)))).trans hp.v1
  v3 := ((W4_of_ne m ρ c main_v3 (by decide)).trans
    (kstretch1_keep (W2 m ρ c) main_v3 (.inr (.inr (.inl rfl))))).trans hp.v3
  v10 := ((W4_of_ne m ρ c main_v10 (by decide)).trans
    (kstretch1_keep (W2 m ρ c) main_v10 (.inr (.inr (.inr (.inl rfl)))))).trans hp.v10
  v11 := ((W4_of_ne m ρ c main_v11 (by decide)).trans
    (kstretch1_keep (W2 m ρ c) main_v11 (.inr (.inr (.inr (.inr (.inl rfl))))))).trans hp.v11
  arg3 := ((W4_of_ne m ρ c main_arg3 (by decide)).trans
    (kstretch1_keep (W2 m ρ c) main_arg3 (.inr (.inr (.inr (.inr (.inr rfl))))))).trans hp.arg3

/-- If the previous call's result array holds `y`, the result array of layer 1's call holds layer 1 of `y`. -/
theorem out1 (y : XTy) (hp : Pers m c (W2 m ρ c)) (hy : W2 m ρ c (Proc.devRef .tc main_v29) = y) :
    W4 m ρ c (Proc.devRef .tc main_v47) = KL1 m c y := by
  refine (W4_arr m ρ c 4).trans ?_
  rw [region1_val]
  have ha : V3 m ρ c main_v41 = Cert.Sage.K.agg (SRC m c) (DST m c) (DEG m c) y := by
    have h := kstretch1_agg (W2 m ρ c)
    rw [hp.v1, hp.v3, hp.v10, hy] at h
    exact h
  have hx : V3 m ρ c main_v29 = y := (kstretch1_keep (W2 m ρ c) main_v29 (.inl rfl)).trans hy
  have hw : V3 m ρ c main_v43 = Cert.Sage.K.wsl 1 slices_S10x256x128_S1x256x128_1_0_0 (WST m c) := by
    have h := kstretch1_w (W2 m ρ c)
    rw [hp.v11] at h
    exact h
  have hb : V3 m ρ c main_v46 = Cert.Sage.K.bsl 1 slices_S10x128_S1x128_1_0 (BIAS m c) := by
    have h := kstretch1_b (W2 m ρ c)
    rw [hp.arg3] at h
    exact h
  rw [ha, hx, hw, hb]
  rfl

/-! ## Layer 2: from the previous call's exit to this call's exit -/

/-- Neither the host stretch nor the call of layer 2 writes a persistent buffer. -/
theorem pers2 (hp : Pers m c (W4 m ρ c)) : Pers m c (W6 m ρ c) where
  v1 := ((W6_of_ne m ρ c main_v1 (by decide)).trans
    (kstretch2_keep (W4 m ρ c) main_v1 (.inr (.inl rfl)))).trans hp.v1
  v3 := ((W6_of_ne m ρ c main_v3 (by decide)).trans
    (kstretch2_keep (W4 m ρ c) main_v3 (.inr (.inr (.inl rfl))))).trans hp.v3
  v10 := ((W6_of_ne m ρ c main_v10 (by decide)).trans
    (kstretch2_keep (W4 m ρ c) main_v10 (.inr (.inr (.inr (.inl rfl)))))).trans hp.v10
  v11 := ((W6_of_ne m ρ c main_v11 (by decide)).trans
    (kstretch2_keep (W4 m ρ c) main_v11 (.inr (.inr (.inr (.inr (.inl rfl))))))).trans hp.v11
  arg3 := ((W6_of_ne m ρ c main_arg3 (by decide)).trans
    (kstretch2_keep (W4 m ρ c) main_arg3 (.inr (.inr (.inr (.inr (.inr rfl))))))).trans hp.arg3

/-- If the previous call's result array holds `y`, the result array of layer 2's call holds layer 2 of `y`. -/
theorem out2 (y : XTy) (hp : Pers m c (W4 m ρ c)) (hy : W4 m ρ c (Proc.devRef .tc main_v47) = y) :
    W6 m ρ c (Proc.devRef .tc main_v65) = KL2 m c y := by
  refine (W6_arr m ρ c 4).trans ?_
  rw [region2_val]
  have ha : V5 m ρ c main_v59 = Cert.Sage.K.agg (SRC m c) (DST m c) (DEG m c) y := by
    have h := kstretch2_agg (W4 m ρ c)
    rw [hp.v1, hp.v3, hp.v10, hy] at h
    exact h
  have hx : V5 m ρ c main_v47 = y := (kstretch2_keep (W4 m ρ c) main_v47 (.inl rfl)).trans hy
  have hw : V5 m ρ c main_v61 = Cert.Sage.K.wsl 2 slices_S10x256x128_S1x256x128_2_0_0 (WST m c) := by
    have h := kstretch2_w (W4 m ρ c)
    rw [hp.v11] at h
    exact h
  have hb : V5 m ρ c main_v64 = Cert.Sage.K.bsl 2 slices_S10x128_S1x128_2_0 (BIAS m c) := by
    have h := kstretch2_b (W4 m ρ c)
    rw [hp.arg3] at h
    exact h
  rw [ha, hx, hw, hb]
  rfl

/-! ## Layer 3: from the previous call's exit to this call's exit -/

/-- Neither the host stretch nor the call of layer 3 writes a persistent buffer. -/
theorem pers3 (hp : Pers m c (W6 m ρ c)) : Pers m c (W8 m ρ c) where
  v1 := ((W8_of_ne m ρ c main_v1 (by decide)).trans
    (kstretch3_keep (W6 m ρ c) main_v1 (.inr (.inl rfl)))).trans hp.v1
  v3 := ((W8_of_ne m ρ c main_v3 (by decide)).trans
    (kstretch3_keep (W6 m ρ c) main_v3 (.inr (.inr (.inl rfl))))).trans hp.v3
  v10 := ((W8_of_ne m ρ c main_v10 (by decide)).trans
    (kstretch3_keep (W6 m ρ c) main_v10 (.inr (.inr (.inr (.inl rfl)))))).trans hp.v10
  v11 := ((W8_of_ne m ρ c main_v11 (by decide)).trans
    (kstretch3_keep (W6 m ρ c) main_v11 (.inr (.inr (.inr (.inr (.inl rfl))))))).trans hp.v11
  arg3 := ((W8_of_ne m ρ c main_arg3 (by decide)).trans
    (kstretch3_keep (W6 m ρ c) main_arg3 (.inr (.inr (.inr (.inr (.inr rfl))))))).trans hp.arg3

/-- If the previous call's result array holds `y`, the result array of layer 3's call holds layer 3 of `y`. -/
theorem out3 (y : XTy) (hp : Pers m c (W6 m ρ c)) (hy : W6 m ρ c (Proc.devRef .tc main_v65) = y) :
    W8 m ρ c (Proc.devRef .tc main_v83) = KL3 m c y := by
  refine (W8_arr m ρ c 4).trans ?_
  rw [region3_val]
  have ha : V7 m ρ c main_v77 = Cert.Sage.K.agg (SRC m c) (DST m c) (DEG m c) y := by
    have h := kstretch3_agg (W6 m ρ c)
    rw [hp.v1, hp.v3, hp.v10, hy] at h
    exact h
  have hx : V7 m ρ c main_v65 = y := (kstretch3_keep (W6 m ρ c) main_v65 (.inl rfl)).trans hy
  have hw : V7 m ρ c main_v79 = Cert.Sage.K.wsl 3 slices_S10x256x128_S1x256x128_3_0_0 (WST m c) := by
    have h := kstretch3_w (W6 m ρ c)
    rw [hp.v11] at h
    exact h
  have hb : V7 m ρ c main_v82 = Cert.Sage.K.bsl 3 slices_S10x128_S1x128_3_0 (BIAS m c) := by
    have h := kstretch3_b (W6 m ρ c)
    rw [hp.arg3] at h
    exact h
  rw [ha, hx, hw, hb]
  rfl

/-! ## Layer 4: from the previous call's exit to this call's exit -/

/-- Neither the host stretch nor the call of layer 4 writes a persistent buffer. -/
theorem pers4 (hp : Pers m c (W8 m ρ c)) : Pers m c (W10 m ρ c) where
  v1 := ((W10_of_ne m ρ c main_v1 (by decide)).trans
    (kstretch4_keep (W8 m ρ c) main_v1 (.inr (.inl rfl)))).trans hp.v1
  v3 := ((W10_of_ne m ρ c main_v3 (by decide)).trans
    (kstretch4_keep (W8 m ρ c) main_v3 (.inr (.inr (.inl rfl))))).trans hp.v3
  v10 := ((W10_of_ne m ρ c main_v10 (by decide)).trans
    (kstretch4_keep (W8 m ρ c) main_v10 (.inr (.inr (.inr (.inl rfl)))))).trans hp.v10
  v11 := ((W10_of_ne m ρ c main_v11 (by decide)).trans
    (kstretch4_keep (W8 m ρ c) main_v11 (.inr (.inr (.inr (.inr (.inl rfl))))))).trans hp.v11
  arg3 := ((W10_of_ne m ρ c main_arg3 (by decide)).trans
    (kstretch4_keep (W8 m ρ c) main_arg3 (.inr (.inr (.inr (.inr (.inr rfl))))))).trans hp.arg3

/-- If the previous call's result array holds `y`, the result array of layer 4's call holds layer 4 of `y`. -/
theorem out4 (y : XTy) (hp : Pers m c (W8 m ρ c)) (hy : W8 m ρ c (Proc.devRef .tc main_v83) = y) :
    W10 m ρ c (Proc.devRef .tc main_v101) = KL4 m c y := by
  refine (W10_arr m ρ c 4).trans ?_
  rw [region4_val]
  have ha : V9 m ρ c main_v95 = Cert.Sage.K.agg (SRC m c) (DST m c) (DEG m c) y := by
    have h := kstretch4_agg (W8 m ρ c)
    rw [hp.v1, hp.v3, hp.v10, hy] at h
    exact h
  have hx : V9 m ρ c main_v83 = y := (kstretch4_keep (W8 m ρ c) main_v83 (.inl rfl)).trans hy
  have hw : V9 m ρ c main_v97 = Cert.Sage.K.wsl 4 slices_S10x256x128_S1x256x128_4_0_0 (WST m c) := by
    have h := kstretch4_w (W8 m ρ c)
    rw [hp.v11] at h
    exact h
  have hb : V9 m ρ c main_v100 = Cert.Sage.K.bsl 4 slices_S10x128_S1x128_4_0 (BIAS m c) := by
    have h := kstretch4_b (W8 m ρ c)
    rw [hp.arg3] at h
    exact h
  rw [ha, hx, hw, hb]
  rfl

/-! ## Layer 5: from the previous call's exit to this call's exit -/

/-- Neither the host stretch nor the call of layer 5 writes a persistent buffer. -/
theorem pers5 (hp : Pers m c (W10 m ρ c)) : Pers m c (W12 m ρ c) where
  v1 := ((W12_of_ne m ρ c main_v1 (by decide)).trans
    (kstretch5_keep (W10 m ρ c) main_v1 (.inr (.inl rfl)))).trans hp.v1
  v3 := ((W12_of_ne m ρ c main_v3 (by decide)).trans
    (kstretch5_keep (W10 m ρ c) main_v3 (.inr (.inr (.inl rfl))))).trans hp.v3
  v10 := ((W12_of_ne m ρ c main_v10 (by decide)).trans
    (kstretch5_keep (W10 m ρ c) main_v10 (.inr (.inr (.inr (.inl rfl)))))).trans hp.v10
  v11 := ((W12_of_ne m ρ c main_v11 (by decide)).trans
    (kstretch5_keep (W10 m ρ c) main_v11 (.inr (.inr (.inr (.inr (.inl rfl))))))).trans hp.v11
  arg3 := ((W12_of_ne m ρ c main_arg3 (by decide)).trans
    (kstretch5_keep (W10 m ρ c) main_arg3 (.inr (.inr (.inr (.inr (.inr rfl))))))).trans hp.arg3

/-- If the previous call's result array holds `y`, the result array of layer 5's call holds layer 5 of `y`. -/
theorem out5 (y : XTy) (hp : Pers m c (W10 m ρ c)) (hy : W10 m ρ c (Proc.devRef .tc main_v101) = y) :
    W12 m ρ c (Proc.devRef .tc main_v119) = KL5 m c y := by
  refine (W12_arr m ρ c 4).trans ?_
  rw [region5_val]
  have ha : V11 m ρ c main_v113 = Cert.Sage.K.agg (SRC m c) (DST m c) (DEG m c) y := by
    have h := kstretch5_agg (W10 m ρ c)
    rw [hp.v1, hp.v3, hp.v10, hy] at h
    exact h
  have hx : V11 m ρ c main_v101 = y := (kstretch5_keep (W10 m ρ c) main_v101 (.inl rfl)).trans hy
  have hw : V11 m ρ c main_v115 = Cert.Sage.K.wsl 5 slices_S10x256x128_S1x256x128_5_0_0 (WST m c) := by
    have h := kstretch5_w (W10 m ρ c)
    rw [hp.v11] at h
    exact h
  have hb : V11 m ρ c main_v118 = Cert.Sage.K.bsl 5 slices_S10x128_S1x128_5_0 (BIAS m c) := by
    have h := kstretch5_b (W10 m ρ c)
    rw [hp.arg3] at h
    exact h
  rw [ha, hx, hw, hb]
  rfl

/-! ## Layer 6: from the previous call's exit to this call's exit -/

/-- Neither the host stretch nor the call of layer 6 writes a persistent buffer. -/
theorem pers6 (hp : Pers m c (W12 m ρ c)) : Pers m c (W14 m ρ c) where
  v1 := ((W14_of_ne m ρ c main_v1 (by decide)).trans
    (kstretch6_keep (W12 m ρ c) main_v1 (.inr (.inl rfl)))).trans hp.v1
  v3 := ((W14_of_ne m ρ c main_v3 (by decide)).trans
    (kstretch6_keep (W12 m ρ c) main_v3 (.inr (.inr (.inl rfl))))).trans hp.v3
  v10 := ((W14_of_ne m ρ c main_v10 (by decide)).trans
    (kstretch6_keep (W12 m ρ c) main_v10 (.inr (.inr (.inr (.inl rfl)))))).trans hp.v10
  v11 := ((W14_of_ne m ρ c main_v11 (by decide)).trans
    (kstretch6_keep (W12 m ρ c) main_v11 (.inr (.inr (.inr (.inr (.inl rfl))))))).trans hp.v11
  arg3 := ((W14_of_ne m ρ c main_arg3 (by decide)).trans
    (kstretch6_keep (W12 m ρ c) main_arg3 (.inr (.inr (.inr (.inr (.inr rfl))))))).trans hp.arg3

/-- If the previous call's result array holds `y`, the result array of layer 6's call holds layer 6 of `y`. -/
theorem out6 (y : XTy) (hp : Pers m c (W12 m ρ c)) (hy : W12 m ρ c (Proc.devRef .tc main_v119) = y) :
    W14 m ρ c (Proc.devRef .tc main_v137) = KL6 m c y := by
  refine (W14_arr m ρ c 4).trans ?_
  rw [region6_val]
  have ha : V13 m ρ c main_v131 = Cert.Sage.K.agg (SRC m c) (DST m c) (DEG m c) y := by
    have h := kstretch6_agg (W12 m ρ c)
    rw [hp.v1, hp.v3, hp.v10, hy] at h
    exact h
  have hx : V13 m ρ c main_v119 = y := (kstretch6_keep (W12 m ρ c) main_v119 (.inl rfl)).trans hy
  have hw : V13 m ρ c main_v133 = Cert.Sage.K.wsl 6 slices_S10x256x128_S1x256x128_6_0_0 (WST m c) := by
    have h := kstretch6_w (W12 m ρ c)
    rw [hp.v11] at h
    exact h
  have hb : V13 m ρ c main_v136 = Cert.Sage.K.bsl 6 slices_S10x128_S1x128_6_0 (BIAS m c) := by
    have h := kstretch6_b (W12 m ρ c)
    rw [hp.arg3] at h
    exact h
  rw [ha, hx, hw, hb]
  rfl

/-! ## Layer 7: from the previous call's exit to this call's exit -/

/-- Neither the host stretch nor the call of layer 7 writes a persistent buffer. -/
theorem pers7 (hp : Pers m c (W14 m ρ c)) : Pers m c (W16 m ρ c) where
  v1 := ((W16_of_ne m ρ c main_v1 (by decide)).trans
    (kstretch7_keep (W14 m ρ c) main_v1 (.inr (.inl rfl)))).trans hp.v1
  v3 := ((W16_of_ne m ρ c main_v3 (by decide)).trans
    (kstretch7_keep (W14 m ρ c) main_v3 (.inr (.inr (.inl rfl))))).trans hp.v3
  v10 := ((W16_of_ne m ρ c main_v10 (by decide)).trans
    (kstretch7_keep (W14 m ρ c) main_v10 (.inr (.inr (.inr (.inl rfl)))))).trans hp.v10
  v11 := ((W16_of_ne m ρ c main_v11 (by decide)).trans
    (kstretch7_keep (W14 m ρ c) main_v11 (.inr (.inr (.inr (.inr (.inl rfl))))))).trans hp.v11
  arg3 := ((W16_of_ne m ρ c main_arg3 (by decide)).trans
    (kstretch7_keep (W14 m ρ c) main_arg3 (.inr (.inr (.inr (.inr (.inr rfl))))))).trans hp.arg3

/-- If the previous call's result array holds `y`, the result array of layer 7's call holds layer 7 of `y`. -/
theorem out7 (y : XTy) (hp : Pers m c (W14 m ρ c)) (hy : W14 m ρ c (Proc.devRef .tc main_v137) = y) :
    W16 m ρ c (Proc.devRef .tc main_v155) = KL7 m c y := by
  refine (W16_arr m ρ c 4).trans ?_
  rw [region7_val]
  have ha : V15 m ρ c main_v149 = Cert.Sage.K.agg (SRC m c) (DST m c) (DEG m c) y := by
    have h := kstretch7_agg (W14 m ρ c)
    rw [hp.v1, hp.v3, hp.v10, hy] at h
    exact h
  have hx : V15 m ρ c main_v137 = y := (kstretch7_keep (W14 m ρ c) main_v137 (.inl rfl)).trans hy
  have hw : V15 m ρ c main_v151 = Cert.Sage.K.wsl 7 slices_S10x256x128_S1x256x128_7_0_0 (WST m c) := by
    have h := kstretch7_w (W14 m ρ c)
    rw [hp.v11] at h
    exact h
  have hb : V15 m ρ c main_v154 = Cert.Sage.K.bsl 7 slices_S10x128_S1x128_7_0 (BIAS m c) := by
    have h := kstretch7_b (W14 m ρ c)
    rw [hp.arg3] at h
    exact h
  rw [ha, hx, hw, hb]
  rfl

/-! ## Layer 8: from the previous call's exit to this call's exit -/

/-- Neither the host stretch nor the call of layer 8 writes a persistent buffer. -/
theorem pers8 (hp : Pers m c (W16 m ρ c)) : Pers m c (W18 m ρ c) where
  v1 := ((W18_of_ne m ρ c main_v1 (by decide)).trans
    (kstretch8_keep (W16 m ρ c) main_v1 (.inr (.inl rfl)))).trans hp.v1
  v3 := ((W18_of_ne m ρ c main_v3 (by decide)).trans
    (kstretch8_keep (W16 m ρ c) main_v3 (.inr (.inr (.inl rfl))))).trans hp.v3
  v10 := ((W18_of_ne m ρ c main_v10 (by decide)).trans
    (kstretch8_keep (W16 m ρ c) main_v10 (.inr (.inr (.inr (.inl rfl)))))).trans hp.v10
  v11 := ((W18_of_ne m ρ c main_v11 (by decide)).trans
    (kstretch8_keep (W16 m ρ c) main_v11 (.inr (.inr (.inr (.inr (.inl rfl))))))).trans hp.v11
  arg3 := ((W18_of_ne m ρ c main_arg3 (by decide)).trans
    (kstretch8_keep (W16 m ρ c) main_arg3 (.inr (.inr (.inr (.inr (.inr rfl))))))).trans hp.arg3

/-- If the previous call's result array holds `y`, the result array of layer 8's call holds layer 8 of `y`. -/
theorem out8 (y : XTy) (hp : Pers m c (W16 m ρ c)) (hy : W16 m ρ c (Proc.devRef .tc main_v155) = y) :
    W18 m ρ c (Proc.devRef .tc main_v173) = KL8 m c y := by
  refine (W18_arr m ρ c 4).trans ?_
  rw [region8_val]
  have ha : V17 m ρ c main_v167 = Cert.Sage.K.agg (SRC m c) (DST m c) (DEG m c) y := by
    have h := kstretch8_agg (W16 m ρ c)
    rw [hp.v1, hp.v3, hp.v10, hy] at h
    exact h
  have hx : V17 m ρ c main_v155 = y := (kstretch8_keep (W16 m ρ c) main_v155 (.inl rfl)).trans hy
  have hw : V17 m ρ c main_v169 = Cert.Sage.K.wsl 8 slices_S10x256x128_S1x256x128_8_0_0 (WST m c) := by
    have h := kstretch8_w (W16 m ρ c)
    rw [hp.v11] at h
    exact h
  have hb : V17 m ρ c main_v172 = Cert.Sage.K.bsl 8 slices_S10x128_S1x128_8_0 (BIAS m c) := by
    have h := kstretch8_b (W16 m ρ c)
    rw [hp.arg3] at h
    exact h
  rw [ha, hx, hw, hb]
  rfl

/-! ## Layer 9: from the previous call's exit to this call's exit -/

/-- Neither the host stretch nor the call of layer 9 writes a persistent buffer. -/
theorem pers9 (hp : Pers m c (W18 m ρ c)) : Pers m c (W20 m ρ c) where
  v1 := ((W20_of_ne m ρ c main_v1 (by decide)).trans
    (kstretch9_keep (W18 m ρ c) main_v1 (.inr (.inl rfl)))).trans hp.v1
  v3 := ((W20_of_ne m ρ c main_v3 (by decide)).trans
    (kstretch9_keep (W18 m ρ c) main_v3 (.inr (.inr (.inl rfl))))).trans hp.v3
  v10 := ((W20_of_ne m ρ c main_v10 (by decide)).trans
    (kstretch9_keep (W18 m ρ c) main_v10 (.inr (.inr (.inr (.inl rfl)))))).trans hp.v10
  v11 := ((W20_of_ne m ρ c main_v11 (by decide)).trans
    (kstretch9_keep (W18 m ρ c) main_v11 (.inr (.inr (.inr (.inr (.inl rfl))))))).trans hp.v11
  arg3 := ((W20_of_ne m ρ c main_arg3 (by decide)).trans
    (kstretch9_keep (W18 m ρ c) main_arg3 (.inr (.inr (.inr (.inr (.inr rfl))))))).trans hp.arg3

/-- If the previous call's result array holds `y`, the result array of layer 9's call holds layer 9 of `y`. -/
theorem out9 (y : XTy) (hp : Pers m c (W18 m ρ c)) (hy : W18 m ρ c (Proc.devRef .tc main_v173) = y) :
    W20 m ρ c (Proc.devRef .tc main_v191) = KL9 m c y := by
  refine (W20_arr m ρ c 4).trans ?_
  rw [region9_val]
  have ha : V19 m ρ c main_v185 = Cert.Sage.K.agg (SRC m c) (DST m c) (DEG m c) y := by
    have h := kstretch9_agg (W18 m ρ c)
    rw [hp.v1, hp.v3, hp.v10, hy] at h
    exact h
  have hx : V19 m ρ c main_v173 = y := (kstretch9_keep (W18 m ρ c) main_v173 (.inl rfl)).trans hy
  have hw : V19 m ρ c main_v187 = Cert.Sage.K.wsl 9 slices_S10x256x128_S1x256x128_9_0_0 (WST m c) := by
    have h := kstretch9_w (W18 m ρ c)
    rw [hp.v11] at h
    exact h
  have hb : V19 m ρ c main_v190 = Cert.Sage.K.bsl 9 slices_S10x128_S1x128_9_0 (BIAS m c) := by
    have h := kstretch9_b (W18 m ρ c)
    rw [hp.arg3] at h
    exact h
  rw [ha, hx, hw, hb]
  rfl

/-! ## The return -/

/-- At the return the program's result buffer holds the ten layers applied in turn to the launch's node features. -/
theorem kernel_value :
    W20 (F := Ideal) m ρ c (Proc.devRef .tc main_v191)
      = KL9 m c (KL8 m c (KL7 m c (KL6 m c (KL5 m c (KL4 m c (KL3 m c (KL2 m c (KL1 m c (KL0 m c
          (m ((c : Thread nD τ).loc main_arg0))))))))))) :=
  have p0 := pers0 m ρ c
  have p1 := pers1 m ρ c p0
  have p2 := pers2 m ρ c p1
  have p3 := pers3 m ρ c p2
  have p4 := pers4 m ρ c p3
  have p5 := pers5 m ρ c p4
  have p6 := pers6 m ρ c p5
  have p7 := pers7 m ρ c p6
  have p8 := pers8 m ρ c p7
  out9 m ρ c _ p8 (out8 m ρ c _ p7 (out7 m ρ c _ p6 (out6 m ρ c _ p5 (out5 m ρ c _ p4 (out4 m ρ c _ p3
    (out3 m ρ c _ p2 (out2 m ρ c _ p1 (out1 m ρ c _ p0 (out0 m ρ c)))))))))

end Cert.KernelIdeal.Gen

end
-- ==== Proof.ROps.lean ====
/-
  The reference program's host function, as a list of its operations cut where the mathematics cuts it.

  The function is a straight line of 311 tensor operations. The first 14 compute, once, the source ids, the
  destination ids and the in-degree column (clamped below at 1) from the edge table. Then come ten stretches, one
  per layer: a layer gathers the previous features along the source ids, adds them up at the destination ids,
  divides by the in-degree, multiplies the mean and the previous features by the layer's slices of the two weight
  tables, adds the two products and the layer's bias row, and — on every layer but the last — takes the maximum
  with 0 (three operations of a called function, written in its call's place). This module names the eleven
  lists, shows that the function is the run of their concatenation, that no operation allocates a buffer of
  unknown contents, and that every operation touches buffers of the device only.
-/
import proofs.«402578_j10522669875348_3_alg».proof.Proof.Gen.ReferenceIdeal
import Idealize.ShloMosaic.Lib.StableHlo.Run
import Idealize.ShloMosaic.Lib.Pipeline.Frame

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-- The 14 operations before the first layer: the source ids, the destination ids, the clamped in-degree column. -/
abbrev opsPre : List (HloOp τ sig (Elt F)) :=
  [ unary main_arg4 main_v0 ((extractStridedSlice S1x625000 ![0, 0] · slices_S2x625000_S1x625000_0_0) : (⟨S2x625000, .i32⟩ : BufTy).Contents (Elt F) → (⟨S1x625000, .i32⟩ : BufTy).Contents (Elt F)),
    reshape main_v0 main_v1 rfl shapeCasts_S1x625000_S625000,
    unary main_arg4 main_v2 ((extractStridedSlice S1x625000 ![1, 0] · slices_S2x625000_S1x625000_1_0) : (⟨S2x625000, .i32⟩ : BufTy).Contents (Elt F) → (⟨S1x625000, .i32⟩ : BufTy).Contents (Elt F)),
    reshape main_v2 main_v3 rfl shapeCasts_S1x625000_S625000,
    nullary main_cst (constant S_ .f32 0x3F800000#32),
    unary main_cst main_v4 (broadcastInDim S625000 ![] bcast_S_S625000 : (⟨S_, .f32⟩ : BufTy).Contents (Elt F) → (⟨S625000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S625000x1 ![0] bcast_S625000_S625000x1_0 : (⟨S625000, .i32⟩ : BufTy).Contents (Elt F) → (⟨S625000x1, .i32⟩ : BufTy).Contents (Elt F)),
    ternary main_v5 main_v6 main_v4 main_v7 ((fun x i u => Host.scatterAdd scatter_S100000_S625000x1_S625000_n_0_0_1 x i u) : (⟨S100000, .f32⟩ : BufTy).Contents (Elt F) → (⟨S625000x1, .i32⟩ : BufTy).Contents (Elt F) → (⟨S625000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    unary main_v9 main_v10 (broadcastInDim S100000x1 ![0] bcast_S100000_S100000x1_0 : (⟨S100000, .f32⟩ : BufTy).Contents (Elt F) → (⟨S100000x1, .f32⟩ : BufTy).Contents (Elt F)) ]

/-- Layer 0's 30 operations: from the index constant of its gather to the operation that writes its output. -/
abbrev opsL0 : List (HloOp τ sig (Elt F)) :=
  [ nullary main_c (constantI S_ 32 0#32),
    unary main_c main_v11 (broadcastInDim S625000 ![] bcast_S_S625000 : (⟨S_, .i32⟩ : BufTy).Contents (Elt F) → (⟨S625000, .i32⟩ : BufTy).Contents (Elt F)),
    binary main_v1 main_v11 main_v12 (cmpi .slt : (⟨S625000, .i32⟩ : BufTy).Contents (Elt F) → (⟨S625000, .i32⟩ : BufTy).Contents (Elt F) → (⟨S625000, .i1⟩ : BufTy).Contents (Elt F)),
    nullary main_c_2 (constantI S_ 32 100000#32),
    unary main_c_2 main_v13 (broadcastInDim S625000 ![] bcast_S_S625000 : (⟨S_, .i32⟩ : BufTy).Contents (Elt F) → (⟨S625000, .i32⟩ : BufTy).Contents (Elt F)),
    binary main_v1 main_v13 main_v14 (addi : (⟨S625000, .i32⟩ : BufTy).Contents (Elt F) → (⟨S625000, .i32⟩ : BufTy).Contents (Elt F) → (⟨S625000, .i32⟩ : BufTy).Contents (Elt F)),
    ternary main_v12 main_v14 main_v1 main_v15 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v15 main_v16 (broadcastInDim S625000x1 ![0] bcast_S625000_S625000x1_0 : (⟨S625000, .i32⟩ : BufTy).Contents (Elt F) → (⟨S625000x1, .i32⟩ : BufTy).Contents (Elt F)),
    binary main_arg0 main_v16 main_v17 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_3 (constant S_ .f32 0x00000000#32),
    unary main_cst_3 main_v18 (broadcastInDim S100000x128 ![] bcast_S_S100000x128 : (⟨S_, .f32⟩ : BufTy).Contents (Elt F) → (⟨S100000x128, .f32⟩ : BufTy).Contents (Elt F)),
    unary main_v3 main_v19 (broadcastInDim S625000x1 ![0] bcast_S625000_S625000x1_0 : (⟨S625000, .i32⟩ : BufTy).Contents (Elt F) → (⟨S625000x1, .i32⟩ : BufTy).Contents (Elt F)),
    ternary main_v18 main_v19 main_v17 main_v20 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v10 main_v21 (broadcastInDim S100000x128 ![0, 1] bcast_S100000x1_S100000x128_0_1 : (⟨S100000x1, .f32⟩ : BufTy).Contents (Elt F) → (⟨S100000x128, .f32⟩ : BufTy).Contents (Elt F)),
    binary main_v20 main_v21 main_v22 (Host.divf : (⟨S100000x128, .f32⟩ : BufTy).Contents (Elt F) → (⟨S100000x128, .f32⟩ : BufTy).Contents (Elt F) → (⟨S100000x128, .f32⟩ : BufTy).Contents (Elt F)),
    unary main_arg1 main_v23 ((extractStridedSlice S1x128x128 ![0, 0, 0] · slices_S10x128x128_S1x128x128_0_0_0) : (⟨S10x128x128, .f32⟩ : BufTy).Contents (Elt F) → (⟨S1x128x128, .f32⟩ : BufTy).Contents (Elt F)),
    reshape main_v23 main_v24 rfl shapeCasts_S1x128x128_S128x128,
    binary main_v22 main_v24 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v26 ((extractStridedSlice S1x128x128 ![0, 0, 0] · slices_S10x128x128_S1x128x128_0_0_0) : (⟨S10x128x128, .f32⟩ : BufTy).Contents (Elt F) → (⟨S1x128x128, .f32⟩ : BufTy).Contents (Elt F)),
    reshape main_v26 main_v27 rfl shapeCasts_S1x128x128_S128x128,
    binary main_arg0 main_v27 main_v28 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v25 main_v28 main_v29 (addf : (⟨S100000x128, .f32⟩ : BufTy).Contents (Elt F) → (⟨S100000x128, .f32⟩ : BufTy).Contents (Elt F) → (⟨S100000x128, .f32⟩ : BufTy).Contents (Elt F)),
    unary main_arg3 main_v30 ((extractStridedSlice S1x128 ![0, 0] · slices_S10x128_S1x128_0_0) : (⟨S10x128, .f32⟩ : BufTy).Contents (Elt F) → (⟨S1x128, .f32⟩ : BufTy).Contents (Elt F)),
    reshape main_v30 main_v31 rfl shapeCasts_S1x128_S128,
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v29 main_v33 main_v34 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v34) (TRef.of (T := ⟨S100000x128, .f32⟩) main_call0_v0) (TRef.of (T := ⟨S100000x128, .f32⟩) main_v35) maximumf ]

/-- Layer 1's 30 operations: from the index constant of its gather to the operation that writes its output. -/
abbrev opsL1 : List (HloOp τ sig (Elt F)) :=
  [ nullary main_c_4 (constantI S_ 32 0#32),
    unary main_c_4 main_v36 (broadcastInDim S625000 ![] bcast_S_S625000 : (⟨S_, .i32⟩ : BufTy).Contents (Elt F) → (⟨S625000, .i32⟩ : BufTy).Contents (Elt F)),
    binary main_v1 main_v36 main_v37 (cmpi .slt : (⟨S625000, .i32⟩ : BufTy).Contents (Elt F) → (⟨S625000, .i32⟩ : BufTy).Contents (Elt F) → (⟨S625000, .i1⟩ : BufTy).Contents (Elt F)),
    nullary main_c_5 (constantI S_ 32 100000#32),
    unary main_c_5 main_v38 (broadcastInDim S625000 ![] bcast_S_S625000 : (⟨S_, .i32⟩ : BufTy).Contents (Elt F) → (⟨S625000, .i32⟩ : BufTy).Contents (Elt F)),
    binary main_v1 main_v38 main_v39 (addi : (⟨S625000, .i32⟩ : BufTy).Contents (Elt F) → (⟨S625000, .i32⟩ : BufTy).Contents (Elt F) → (⟨S625000, .i32⟩ : BufTy).Contents (Elt F)),
    ternary main_v37 main_v39 main_v1 main_v40 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v40 main_v41 (broadcastInDim S625000x1 ![0] bcast_S625000_S625000x1_0 : (⟨S625000, .i32⟩ : BufTy).Contents (Elt F) → (⟨S625000x1, .i32⟩ : BufTy).Contents (Elt F)),
    binary main_v35 main_v41 main_v42 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_6 (constant S_ .f32 0x00000000#32),
    unary main_cst_6 main_v43 (broadcastInDim S100000x128 ![] bcast_S_S100000x128 : (⟨S_, .f32⟩ : BufTy).Contents (Elt F) → (⟨S100000x128, .f32⟩ : BufTy).Contents (Elt F)),
    unary main_v3 main_v44 (broadcastInDim S625000x1 ![0] bcast_S625000_S625000x1_0 : (⟨S625000, .i32⟩ : BufTy).Contents (Elt F) → (⟨S625000x1, .i32⟩ : BufTy).Contents (Elt F)),
    ternary main_v43 main_v44 main_v42 main_v45 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v10 main_v46 (broadcastInDim S100000x128 ![0, 1] bcast_S100000x1_S100000x128_0_1 : (⟨S100000x1, .f32⟩ : BufTy).Contents (Elt F) → (⟨S100000x128, .f32⟩ : BufTy).Contents (Elt F)),
    binary main_v45 main_v46 main_v47 (Host.divf : (⟨S100000x128, .f32⟩ : BufTy).Contents (Elt F) → (⟨S100000x128, .f32⟩ : BufTy).Contents (Elt F) → (⟨S100000x128, .f32⟩ : BufTy).Contents (Elt F)),
    unary main_arg1 main_v48 ((extractStridedSlice S1x128x128 ![1, 0, 0] · slices_S10x128x128_S1x128x128_1_0_0) : (⟨S10x128x128, .f32⟩ : BufTy).Contents (Elt F) → (⟨S1x128x128, .f32⟩ : BufTy).Contents (Elt F)),
    reshape main_v48 main_v49 rfl shapeCasts_S1x128x128_S128x128,
    binary main_v47 main_v49 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v51 ((extractStridedSlice S1x128x128 ![1, 0, 0] · slices_S10x128x128_S1x128x128_1_0_0) : (⟨S10x128x128, .f32⟩ : BufTy).Contents (Elt F) → (⟨S1x128x128, .f32⟩ : BufTy).Contents (Elt F)),
    reshape main_v51 main_v52 rfl shapeCasts_S1x128x128_S128x128,
    binary main_v35 main_v52 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v50 main_v53 main_v54 (addf : (⟨S100000x128, .f32⟩ : BufTy).Contents (Elt F) → (⟨S100000x128, .f32⟩ : BufTy).Contents (Elt F) → (⟨S100000x128, .f32⟩ : BufTy).Contents (Elt F)),
    unary main_arg3 main_v55 ((extractStridedSlice S1x128 ![1, 0] · slices_S10x128_S1x128_1_0) : (⟨S10x128, .f32⟩ : BufTy).Contents (Elt F) → (⟨S1x128, .f32⟩ : BufTy).Contents (Elt F)),
    reshape main_v55 main_v56 rfl shapeCasts_S1x128_S128,
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v54 main_v58 main_v59 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v59) (TRef.of (T := ⟨S100000x128, .f32⟩) main_call1_v0) (TRef.of (T := ⟨S100000x128, .f32⟩) main_v60) maximumf ]

/-- Layer 2's 30 operations: from the index constant of its gather to the operation that writes its output. -/
abbrev opsL2 : List (HloOp τ sig (Elt F)) :=
  [ nullary main_c_7 (constantI S_ 32 0#32),
    unary main_c_7 main_v61 (broadcastInDim S625000 ![] bcast_S_S625000 : (⟨S_, .i32⟩ : BufTy).Contents (Elt F) → (⟨S625000, .i32⟩ : BufTy).Contents (Elt F)),
    binary main_v1 main_v61 main_v62 (cmpi .slt : (⟨S625000, .i32⟩ : BufTy).Contents (Elt F) → (⟨S625000, .i32⟩ : BufTy).Contents (Elt F) → (⟨S625000, .i1⟩ : BufTy).Contents (Elt F)),
    nullary main_c_8 (constantI S_ 32 100000#32),
    unary main_c_8 main_v63 (broadcastInDim S625000 ![] bcast_S_S625000 : (⟨S_, .i32⟩ : BufTy).Contents (Elt F) → (⟨S625000, .i32⟩ : BufTy).Contents (Elt F)),
    binary main_v1 main_v63 main_v64 (addi : (⟨S625000, .i32⟩ : BufTy).Contents (Elt F) → (⟨S625000, .i32⟩ : BufTy).Contents (Elt F) → (⟨S625000, .i32⟩ : BufTy).Contents (Elt F)),
    ternary main_v62 main_v64 main_v1 main_v65 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v65 main_v66 (broadcastInDim S625000x1 ![0] bcast_S625000_S625000x1_0 : (⟨S625000, .i32⟩ : BufTy).Contents (Elt F) → (⟨S625000x1, .i32⟩ : BufTy).Contents (Elt F)),
    binary main_v60 main_v66 main_v67 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_9 (constant S_ .f32 0x00000000#32),
    unary main_cst_9 main_v68 (broadcastInDim S100000x128 ![] bcast_S_S100000x128 : (⟨S_, .f32⟩ : BufTy).Contents (Elt F) → (⟨S100000x128, .f32⟩ : BufTy).Contents (Elt F)),
    unary main_v3 main_v69 (broadcastInDim S625000x1 ![0] bcast_S625000_S625000x1_0 : (⟨S625000, .i32⟩ : BufTy).Contents (Elt F) → (⟨S625000x1, .i32⟩ : BufTy).Contents (Elt F)),
    ternary main_v68 main_v69 main_v67 main_v70 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v10 main_v71 (broadcastInDim S100000x128 ![0, 1] bcast_S100000x1_S100000x128_0_1 : (⟨S100000x1, .f32⟩ : BufTy).Contents (Elt F) → (⟨S100000x128, .f32⟩ : BufTy).Contents (Elt F)),
    binary main_v70 main_v71 main_v72 (Host.divf : (⟨S100000x128, .f32⟩ : BufTy).Contents (Elt F) → (⟨S100000x128, .f32⟩ : BufTy).Contents (Elt F) → (⟨S100000x128, .f32⟩ : BufTy).Contents (Elt F)),
    unary main_arg1 main_v73 ((extractStridedSlice S1x128x128 ![2, 0, 0] · slices_S10x128x128_S1x128x128_2_0_0) : (⟨S10x128x128, .f32⟩ : BufTy).Contents (Elt F) → (⟨S1x128x128, .f32⟩ : BufTy).Contents (Elt F)),
    reshape main_v73 main_v74 rfl shapeCasts_S1x128x128_S128x128,
    binary main_v72 main_v74 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v76 ((extractStridedSlice S1x128x128 ![2, 0, 0] · slices_S10x128x128_S1x128x128_2_0_0) : (⟨S10x128x128, .f32⟩ : BufTy).Contents (Elt F) → (⟨S1x128x128, .f32⟩ : BufTy).Contents (Elt F)),
    reshape main_v76 main_v77 rfl shapeCasts_S1x128x128_S128x128,
    binary main_v60 main_v77 main_v78 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v75 main_v78 main_v79 (addf : (⟨S100000x128, .f32⟩ : BufTy).Contents (Elt F) → (⟨S100000x128, .f32⟩ : BufTy).Contents (Elt F) → (⟨S100000x128, .f32⟩ : BufTy).Contents (Elt F)),
    unary main_arg3 main_v80 ((extractStridedSlice S1x128 ![2, 0] · slices_S10x128_S1x128_2_0) : (⟨S10x128, .f32⟩ : BufTy).Contents (Elt F) → (⟨S1x128, .f32⟩ : BufTy).Contents (Elt F)),
    reshape main_v80 main_v81 rfl shapeCasts_S1x128_S128,
    unary main_v81 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v79 main_v83 main_v84 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v84) (TRef.of (T := ⟨S100000x128, .f32⟩) main_call2_v0) (TRef.of (T := ⟨S100000x128, .f32⟩) main_v85) maximumf ]

/-- Layer 3's 30 operations: from the index constant of its gather to the operation that writes its output. -/
abbrev opsL3 : List (HloOp τ sig (Elt F)) :=
  [ nullary main_c_10 (constantI S_ 32 0#32),
    unary main_c_10 main_v86 (broadcastInDim S625000 ![] bcast_S_S625000 : (⟨S_, .i32⟩ : BufTy).Contents (Elt F) → (⟨S625000, .i32⟩ : BufTy).Contents (Elt F)),
    binary main_v1 main_v86 main_v87 (cmpi .slt : (⟨S625000, .i32⟩ : BufTy).Contents (Elt F) → (⟨S625000, .i32⟩ : BufTy).Contents (Elt F) → (⟨S625000, .i1⟩ : BufTy).Contents (Elt F)),
    nullary main_c_11 (constantI S_ 32 100000#32),
    unary main_c_11 main_v88 (broadcastInDim S625000 ![] bcast_S_S625000 : (⟨S_, .i32⟩ : BufTy).Contents (Elt F) → (⟨S625000, .i32⟩ : BufTy).Contents (Elt F)),
    binary main_v1 main_v88 main_v89 (addi : (⟨S625000, .i32⟩ : BufTy).Contents (Elt F) → (⟨S625000, .i32⟩ : BufTy).Contents (Elt F) → (⟨S625000, .i32⟩ : BufTy).Contents (Elt F)),
    ternary main_v87 main_v89 main_v1 main_v90 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v90 main_v91 (broadcastInDim S625000x1 ![0] bcast_S625000_S625000x1_0 : (⟨S625000, .i32⟩ : BufTy).Contents (Elt F) → (⟨S625000x1, .i32⟩ : BufTy).Contents (Elt F)),
    binary main_v85 main_v91 main_v92 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_12 (constant S_ .f32 0x00000000#32),
    unary main_cst_12 main_v93 (broadcastInDim S100000x128 ![] bcast_S_S100000x128 : (⟨S_, .f32⟩ : BufTy).Contents (Elt F) → (⟨S100000x128, .f32⟩ : BufTy).Contents (Elt F)),
    unary main_v3 main_v94 (broadcastInDim S625000x1 ![0] bcast_S625000_S625000x1_0 : (⟨S625000, .i32⟩ : BufTy).Contents (Elt F) → (⟨S625000x1, .i32⟩ : BufTy).Contents (Elt F)),
    ternary main_v93 main_v94 main_v92 main_v95 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v10 main_v96 (broadcastInDim S100000x128 ![0, 1] bcast_S100000x1_S100000x128_0_1 : (⟨S100000x1, .f32⟩ : BufTy).Contents (Elt F) → (⟨S100000x128, .f32⟩ : BufTy).Contents (Elt F)),
    binary main_v95 main_v96 main_v97 (Host.divf : (⟨S100000x128, .f32⟩ : BufTy).Contents (Elt F) → (⟨S100000x128, .f32⟩ : BufTy).Contents (Elt F) → (⟨S100000x128, .f32⟩ : BufTy).Contents (Elt F)),
    unary main_arg1 main_v98 ((extractStridedSlice S1x128x128 ![3, 0, 0] · slices_S10x128x128_S1x128x128_3_0_0) : (⟨S10x128x128, .f32⟩ : BufTy).Contents (Elt F) → (⟨S1x128x128, .f32⟩ : BufTy).Contents (Elt F)),
    reshape main_v98 main_v99 rfl shapeCasts_S1x128x128_S128x128,
    binary main_v97 main_v99 main_v100 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v101 ((extractStridedSlice S1x128x128 ![3, 0, 0] · slices_S10x128x128_S1x128x128_3_0_0) : (⟨S10x128x128, .f32⟩ : BufTy).Contents (Elt F) → (⟨S1x128x128, .f32⟩ : BufTy).Contents (Elt F)),
    reshape main_v101 main_v102 rfl shapeCasts_S1x128x128_S128x128,
    binary main_v85 main_v102 main_v103 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v100 main_v103 main_v104 (addf : (⟨S100000x128, .f32⟩ : BufTy).Contents (Elt F) → (⟨S100000x128, .f32⟩ : BufTy).Contents (Elt F) → (⟨S100000x128, .f32⟩ : BufTy).Contents (Elt F)),
    unary main_arg3 main_v105 ((extractStridedSlice S1x128 ![3, 0] · slices_S10x128_S1x128_3_0) : (⟨S10x128, .f32⟩ : BufTy).Contents (Elt F) → (⟨S1x128, .f32⟩ : BufTy).Contents (Elt F)),
    reshape main_v105 main_v106 rfl shapeCasts_S1x128_S128,
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v104 main_v108 main_v109 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v109) (TRef.of (T := ⟨S100000x128, .f32⟩) main_call3_v0) (TRef.of (T := ⟨S100000x128, .f32⟩) main_v110) maximumf ]

/-- Layer 4's 30 operations: from the index constant of its gather to the operation that writes its output. -/
abbrev opsL4 : List (HloOp τ sig (Elt F)) :=
  [ nullary main_c_13 (constantI S_ 32 0#32),
    unary main_c_13 main_v111 (broadcastInDim S625000 ![] bcast_S_S625000 : (⟨S_, .i32⟩ : BufTy).Contents (Elt F) → (⟨S625000, .i32⟩ : BufTy).Contents (Elt F)),
    binary main_v1 main_v111 main_v112 (cmpi .slt : (⟨S625000, .i32⟩ : BufTy).Contents (Elt F) → (⟨S625000, .i32⟩ : BufTy).Contents (Elt F) → (⟨S625000, .i1⟩ : BufTy).Contents (Elt F)),
    nullary main_c_14 (constantI S_ 32 100000#32),
    unary main_c_14 main_v113 (broadcastInDim S625000 ![] bcast_S_S625000 : (⟨S_, .i32⟩ : BufTy).Contents (Elt F) → (⟨S625000, .i32⟩ : BufTy).Contents (Elt F)),
    binary main_v1 main_v113 main_v114 (addi : (⟨S625000, .i32⟩ : BufTy).Contents (Elt F) → (⟨S625000, .i32⟩ : BufTy).Contents (Elt F) → (⟨S625000, .i32⟩ : BufTy).Contents (Elt F)),
    ternary main_v112 main_v114 main_v1 main_v115 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v115 main_v116 (broadcastInDim S625000x1 ![0] bcast_S625000_S625000x1_0 : (⟨S625000, .i32⟩ : BufTy).Contents (Elt F) → (⟨S625000x1, .i32⟩ : BufTy).Contents (Elt F)),
    binary main_v110 main_v116 main_v117 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_15 (constant S_ .f32 0x00000000#32),
    unary main_cst_15 main_v118 (broadcastInDim S100000x128 ![] bcast_S_S100000x128 : (⟨S_, .f32⟩ : BufTy).Contents (Elt F) → (⟨S100000x128, .f32⟩ : BufTy).Contents (Elt F)),
    unary main_v3 main_v119 (broadcastInDim S625000x1 ![0] bcast_S625000_S625000x1_0 : (⟨S625000, .i32⟩ : BufTy).Contents (Elt F) → (⟨S625000x1, .i32⟩ : BufTy).Contents (Elt F)),
    ternary main_v118 main_v119 main_v117 main_v120 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v10 main_v121 (broadcastInDim S100000x128 ![0, 1] bcast_S100000x1_S100000x128_0_1 : (⟨S100000x1, .f32⟩ : BufTy).Contents (Elt F) → (⟨S100000x128, .f32⟩ : BufTy).Contents (Elt F)),
    binary main_v120 main_v121 main_v122 (Host.divf : (⟨S100000x128, .f32⟩ : BufTy).Contents (Elt F) → (⟨S100000x128, .f32⟩ : BufTy).Contents (Elt F) → (⟨S100000x128, .f32⟩ : BufTy).Contents (Elt F)),
    unary main_arg1 main_v123 ((extractStridedSlice S1x128x128 ![4, 0, 0] · slices_S10x128x128_S1x128x128_4_0_0) : (⟨S10x128x128, .f32⟩ : BufTy).Contents (Elt F) → (⟨S1x128x128, .f32⟩ : BufTy).Contents (Elt F)),
    reshape main_v123 main_v124 rfl shapeCasts_S1x128x128_S128x128,
    binary main_v122 main_v124 main_v125 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v126 ((extractStridedSlice S1x128x128 ![4, 0, 0] · slices_S10x128x128_S1x128x128_4_0_0) : (⟨S10x128x128, .f32⟩ : BufTy).Contents (Elt F) → (⟨S1x128x128, .f32⟩ : BufTy).Contents (Elt F)),
    reshape main_v126 main_v127 rfl shapeCasts_S1x128x128_S128x128,
    binary main_v110 main_v127 main_v128 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v125 main_v128 main_v129 (addf : (⟨S100000x128, .f32⟩ : BufTy).Contents (Elt F) → (⟨S100000x128, .f32⟩ : BufTy).Contents (Elt F) → (⟨S100000x128, .f32⟩ : BufTy).Contents (Elt F)),
    unary main_arg3 main_v130 ((extractStridedSlice S1x128 ![4, 0] · slices_S10x128_S1x128_4_0) : (⟨S10x128, .f32⟩ : BufTy).Contents (Elt F) → (⟨S1x128, .f32⟩ : BufTy).Contents (Elt F)),
    reshape main_v130 main_v131 rfl shapeCasts_S1x128_S128,
    unary main_v131 main_v132 (broadcastInDim S1x128 ![1] bcast_S128_S1x128_1 : (⟨S128, .f32⟩ : BufTy).Contents (Elt F) → (⟨S1x128, .f32⟩ : BufTy).Contents (Elt F)),
    unary main_v132 main_v133 (broadcastInDim S100000x128 ![0, 1] bcast_S1x128_S100000x128_0_1 : (⟨S1x128, .f32⟩ : BufTy).Contents (Elt F) → (⟨S100000x128, .f32⟩ : BufTy).Contents (Elt F)),
    binary main_v129 main_v133 main_v134 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v134) (TRef.of (T := ⟨S100000x128, .f32⟩) main_call4_v0) (TRef.of (T := ⟨S100000x128, .f32⟩) main_v135) maximumf ]

/-- Layer 5's 30 operations: from the index constant of its gather to the operation that writes its output. -/
abbrev opsL5 : List (HloOp τ sig (Elt F)) :=
  [ nullary main_c_16 (constantI S_ 32 0#32),
    unary main_c_16 main_v136 (broadcastInDim S625000 ![] bcast_S_S625000 : (⟨S_, .i32⟩ : BufTy).Contents (Elt F) → (⟨S625000, .i32⟩ : BufTy).Contents (Elt F)),
    binary main_v1 main_v136 main_v137 (cmpi .slt : (⟨S625000, .i32⟩ : BufTy).Contents (Elt F) → (⟨S625000, .i32⟩ : BufTy).Contents (Elt F) → (⟨S625000, .i1⟩ : BufTy).Contents (Elt F)),
    nullary main_c_17 (constantI S_ 32 100000#32),
    unary main_c_17 main_v138 (broadcastInDim S625000 ![] bcast_S_S625000 : (⟨S_, .i32⟩ : BufTy).Contents (Elt F) → (⟨S625000, .i32⟩ : BufTy).Contents (Elt F)),
    binary main_v1 main_v138 main_v139 (addi : (⟨S625000, .i32⟩ : BufTy).Contents (Elt F) → (⟨S625000, .i32⟩ : BufTy).Contents (Elt F) → (⟨S625000, .i32⟩ : BufTy).Contents (Elt F)),
    ternary main_v137 main_v139 main_v1 main_v140 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v140 main_v141 (broadcastInDim S625000x1 ![0] bcast_S625000_S625000x1_0 : (⟨S625000, .i32⟩ : BufTy).Contents (Elt F) → (⟨S625000x1, .i32⟩ : BufTy).Contents (Elt F)),
    binary main_v135 main_v141 main_v142 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_18 (constant S_ .f32 0x00000000#32),
    unary main_cst_18 main_v143 (broadcastInDim S100000x128 ![] bcast_S_S100000x128 : (⟨S_, .f32⟩ : BufTy).Contents (Elt F) → (⟨S100000x128, .f32⟩ : BufTy).Contents (Elt F)),
    unary main_v3 main_v144 (broadcastInDim S625000x1 ![0] bcast_S625000_S625000x1_0 : (⟨S625000, .i32⟩ : BufTy).Contents (Elt F) → (⟨S625000x1, .i32⟩ : BufTy).Contents (Elt F)),
    ternary main_v143 main_v144 main_v142 main_v145 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v10 main_v146 (broadcastInDim S100000x128 ![0, 1] bcast_S100000x1_S100000x128_0_1 : (⟨S100000x1, .f32⟩ : BufTy).Contents (Elt F) → (⟨S100000x128, .f32⟩ : BufTy).Contents (Elt F)),
    binary main_v145 main_v146 main_v147 (Host.divf : (⟨S100000x128, .f32⟩ : BufTy).Contents (Elt F) → (⟨S100000x128, .f32⟩ : BufTy).Contents (Elt F) → (⟨S100000x128, .f32⟩ : BufTy).Contents (Elt F)),
    unary main_arg1 main_v148 ((extractStridedSlice S1x128x128 ![5, 0, 0] · slices_S10x128x128_S1x128x128_5_0_0) : (⟨S10x128x128, .f32⟩ : BufTy).Contents (Elt F) → (⟨S1x128x128, .f32⟩ : BufTy).Contents (Elt F)),
    reshape main_v148 main_v149 rfl shapeCasts_S1x128x128_S128x128,
    binary main_v147 main_v149 main_v150 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v151 ((extractStridedSlice S1x128x128 ![5, 0, 0] · slices_S10x128x128_S1x128x128_5_0_0) : (⟨S10x128x128, .f32⟩ : BufTy).Contents (Elt F) → (⟨S1x128x128, .f32⟩ : BufTy).Contents (Elt F)),
    reshape main_v151 main_v152 rfl shapeCasts_S1x128x128_S128x128,
    binary main_v135 main_v152 main_v153 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v150 main_v153 main_v154 (addf : (⟨S100000x128, .f32⟩ : BufTy).Contents (Elt F) → (⟨S100000x128, .f32⟩ : BufTy).Contents (Elt F) → (⟨S100000x128, .f32⟩ : BufTy).Contents (Elt F)),
    unary main_arg3 main_v155 ((extractStridedSlice S1x128 ![5, 0] · slices_S10x128_S1x128_5_0) : (⟨S10x128, .f32⟩ : BufTy).Contents (Elt F) → (⟨S1x128, .f32⟩ : BufTy).Contents (Elt F)),
    reshape main_v155 main_v156 rfl shapeCasts_S1x128_S128,
    unary main_v156 main_v157 (broadcastInDim S1x128 ![1] bcast_S128_S1x128_1 : (⟨S128, .f32⟩ : BufTy).Contents (Elt F) → (⟨S1x128, .f32⟩ : BufTy).Contents (Elt F)),
    unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v154 main_v158 main_v159 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v159) (TRef.of (T := ⟨S100000x128, .f32⟩) main_call5_v0) (TRef.of (T := ⟨S100000x128, .f32⟩) main_v160) maximumf ]

/-- Layer 6's 30 operations: from the index constant of its gather to the operation that writes its output. -/
abbrev opsL6 : List (HloOp τ sig (Elt F)) :=
  [ nullary main_c_19 (constantI S_ 32 0#32),
    unary main_c_19 main_v161 (broadcastInDim S625000 ![] bcast_S_S625000 : (⟨S_, .i32⟩ : BufTy).Contents (Elt F) → (⟨S625000, .i32⟩ : BufTy).Contents (Elt F)),
    binary main_v1 main_v161 main_v162 (cmpi .slt : (⟨S625000, .i32⟩ : BufTy).Contents (Elt F) → (⟨S625000, .i32⟩ : BufTy).Contents (Elt F) → (⟨S625000, .i1⟩ : BufTy).Contents (Elt F)),
    nullary main_c_20 (constantI S_ 32 100000#32),
    unary main_c_20 main_v163 (broadcastInDim S625000 ![] bcast_S_S625000 : (⟨S_, .i32⟩ : BufTy).Contents (Elt F) → (⟨S625000, .i32⟩ : BufTy).Contents (Elt F)),
    binary main_v1 main_v163 main_v164 (addi : (⟨S625000, .i32⟩ : BufTy).Contents (Elt F) → (⟨S625000, .i32⟩ : BufTy).Contents (Elt F) → (⟨S625000, .i32⟩ : BufTy).Contents (Elt F)),
    ternary main_v162 main_v164 main_v1 main_v165 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v165 main_v166 (broadcastInDim S625000x1 ![0] bcast_S625000_S625000x1_0 : (⟨S625000, .i32⟩ : BufTy).Contents (Elt F) → (⟨S625000x1, .i32⟩ : BufTy).Contents (Elt F)),
    binary main_v160 main_v166 main_v167 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_21 (constant S_ .f32 0x00000000#32),
    unary main_cst_21 main_v168 (broadcastInDim S100000x128 ![] bcast_S_S100000x128 : (⟨S_, .f32⟩ : BufTy).Contents (Elt F) → (⟨S100000x128, .f32⟩ : BufTy).Contents (Elt F)),
    unary main_v3 main_v169 (broadcastInDim S625000x1 ![0] bcast_S625000_S625000x1_0 : (⟨S625000, .i32⟩ : BufTy).Contents (Elt F) → (⟨S625000x1, .i32⟩ : BufTy).Contents (Elt F)),
    ternary main_v168 main_v169 main_v167 main_v170 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v10 main_v171 (broadcastInDim S100000x128 ![0, 1] bcast_S100000x1_S100000x128_0_1 : (⟨S100000x1, .f32⟩ : BufTy).Contents (Elt F) → (⟨S100000x128, .f32⟩ : BufTy).Contents (Elt F)),
    binary main_v170 main_v171 main_v172 (Host.divf : (⟨S100000x128, .f32⟩ : BufTy).Contents (Elt F) → (⟨S100000x128, .f32⟩ : BufTy).Contents (Elt F) → (⟨S100000x128, .f32⟩ : BufTy).Contents (Elt F)),
    unary main_arg1 main_v173 ((extractStridedSlice S1x128x128 ![6, 0, 0] · slices_S10x128x128_S1x128x128_6_0_0) : (⟨S10x128x128, .f32⟩ : BufTy).Contents (Elt F) → (⟨S1x128x128, .f32⟩ : BufTy).Contents (Elt F)),
    reshape main_v173 main_v174 rfl shapeCasts_S1x128x128_S128x128,
    binary main_v172 main_v174 main_v175 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v176 ((extractStridedSlice S1x128x128 ![6, 0, 0] · slices_S10x128x128_S1x128x128_6_0_0) : (⟨S10x128x128, .f32⟩ : BufTy).Contents (Elt F) → (⟨S1x128x128, .f32⟩ : BufTy).Contents (Elt F)),
    reshape main_v176 main_v177 rfl shapeCasts_S1x128x128_S128x128,
    binary main_v160 main_v177 main_v178 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v175 main_v178 main_v179 (addf : (⟨S100000x128, .f32⟩ : BufTy).Contents (Elt F) → (⟨S100000x128, .f32⟩ : BufTy).Contents (Elt F) → (⟨S100000x128, .f32⟩ : BufTy).Contents (Elt F)),
    unary main_arg3 main_v180 ((extractStridedSlice S1x128 ![6, 0] · slices_S10x128_S1x128_6_0) : (⟨S10x128, .f32⟩ : BufTy).Contents (Elt F) → (⟨S1x128, .f32⟩ : BufTy).Contents (Elt F)),
    reshape main_v180 main_v181 rfl shapeCasts_S1x128_S128,
    unary main_v181 main_v182 (broadcastInDim S1x128 ![1] bcast_S128_S1x128_1 : (⟨S128, .f32⟩ : BufTy).Contents (Elt F) → (⟨S1x128, .f32⟩ : BufTy).Contents (Elt F)),
    unary main_v182 main_v183 (broadcastInDim S100000x128 ![0, 1] bcast_S1x128_S100000x128_0_1 : (⟨S1x128, .f32⟩ : BufTy).Contents (Elt F) → (⟨S100000x128, .f32⟩ : BufTy).Contents (Elt F)),
    binary main_v179 main_v183 main_v184 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v184) (TRef.of (T := ⟨S100000x128, .f32⟩) main_call6_v0) (TRef.of (T := ⟨S100000x128, .f32⟩) main_v185) maximumf ]

/-- Layer 7's 30 operations: from the index constant of its gather to the operation that writes its output. -/
abbrev opsL7 : List (HloOp τ sig (Elt F)) :=
  [ nullary main_c_22 (constantI S_ 32 0#32),
    unary main_c_22 main_v186 (broadcastInDim S625000 ![] bcast_S_S625000 : (⟨S_, .i32⟩ : BufTy).Contents (Elt F) → (⟨S625000, .i32⟩ : BufTy).Contents (Elt F)),
    binary main_v1 main_v186 main_v187 (cmpi .slt : (⟨S625000, .i32⟩ : BufTy).Contents (Elt F) → (⟨S625000, .i32⟩ : BufTy).Contents (Elt F) → (⟨S625000, .i1⟩ : BufTy).Contents (Elt F)),
    nullary main_c_23 (constantI S_ 32 100000#32),
    unary main_c_23 main_v188 (broadcastInDim S625000 ![] bcast_S_S625000 : (⟨S_, .i32⟩ : BufTy).Contents (Elt F) → (⟨S625000, .i32⟩ : BufTy).Contents (Elt F)),
    binary main_v1 main_v188 main_v189 (addi : (⟨S625000, .i32⟩ : BufTy).Contents (Elt F) → (⟨S625000, .i32⟩ : BufTy).Contents (Elt F) → (⟨S625000, .i32⟩ : BufTy).Contents (Elt F)),
    ternary main_v187 main_v189 main_v1 main_v190 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v190 main_v191 (broadcastInDim S625000x1 ![0] bcast_S625000_S625000x1_0 : (⟨S625000, .i32⟩ : BufTy).Contents (Elt F) → (⟨S625000x1, .i32⟩ : BufTy).Contents (Elt F)),
    binary main_v185 main_v191 main_v192 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_24 (constant S_ .f32 0x00000000#32),
    unary main_cst_24 main_v193 (broadcastInDim S100000x128 ![] bcast_S_S100000x128 : (⟨S_, .f32⟩ : BufTy).Contents (Elt F) → (⟨S100000x128, .f32⟩ : BufTy).Contents (Elt F)),
    unary main_v3 main_v194 (broadcastInDim S625000x1 ![0] bcast_S625000_S625000x1_0 : (⟨S625000, .i32⟩ : BufTy).Contents (Elt F) → (⟨S625000x1, .i32⟩ : BufTy).Contents (Elt F)),
    ternary main_v193 main_v194 main_v192 main_v195 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v10 main_v196 (broadcastInDim S100000x128 ![0, 1] bcast_S100000x1_S100000x128_0_1 : (⟨S100000x1, .f32⟩ : BufTy).Contents (Elt F) → (⟨S100000x128, .f32⟩ : BufTy).Contents (Elt F)),
    binary main_v195 main_v196 main_v197 (Host.divf : (⟨S100000x128, .f32⟩ : BufTy).Contents (Elt F) → (⟨S100000x128, .f32⟩ : BufTy).Contents (Elt F) → (⟨S100000x128, .f32⟩ : BufTy).Contents (Elt F)),
    unary main_arg1 main_v198 ((extractStridedSlice S1x128x128 ![7, 0, 0] · slices_S10x128x128_S1x128x128_7_0_0) : (⟨S10x128x128, .f32⟩ : BufTy).Contents (Elt F) → (⟨S1x128x128, .f32⟩ : BufTy).Contents (Elt F)),
    reshape main_v198 main_v199 rfl shapeCasts_S1x128x128_S128x128,
    binary main_v197 main_v199 main_v200 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v201 ((extractStridedSlice S1x128x128 ![7, 0, 0] · slices_S10x128x128_S1x128x128_7_0_0) : (⟨S10x128x128, .f32⟩ : BufTy).Contents (Elt F) → (⟨S1x128x128, .f32⟩ : BufTy).Contents (Elt F)),
    reshape main_v201 main_v202 rfl shapeCasts_S1x128x128_S128x128,
    binary main_v185 main_v202 main_v203 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v200 main_v203 main_v204 (addf : (⟨S100000x128, .f32⟩ : BufTy).Contents (Elt F) → (⟨S100000x128, .f32⟩ : BufTy).Contents (Elt F) → (⟨S100000x128, .f32⟩ : BufTy).Contents (Elt F)),
    unary main_arg3 main_v205 ((extractStridedSlice S1x128 ![7, 0] · slices_S10x128_S1x128_7_0) : (⟨S10x128, .f32⟩ : BufTy).Contents (Elt F) → (⟨S1x128, .f32⟩ : BufTy).Contents (Elt F)),
    reshape main_v205 main_v206 rfl shapeCasts_S1x128_S128,
    unary main_v206 main_v207 (broadcastInDim S1x128 ![1] bcast_S128_S1x128_1 : (⟨S128, .f32⟩ : BufTy).Contents (Elt F) → (⟨S1x128, .f32⟩ : BufTy).Contents (Elt F)),
    unary main_v207 main_v208 (broadcastInDim S100000x128 ![0, 1] bcast_S1x128_S100000x128_0_1 : (⟨S1x128, .f32⟩ : BufTy).Contents (Elt F) → (⟨S100000x128, .f32⟩ : BufTy).Contents (Elt F)),
    binary main_v204 main_v208 main_v209 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x128, .f32⟩) main_call7_v0) (broadcastInDim S100000x128 ![] bcast_S_S100000x128),
    TRef.binary (TRef.of (T := ⟨S100000x128, .f32⟩) main_v209) (TRef.of (T := ⟨S100000x128, .f32⟩) main_call7_v0) (TRef.of (T := ⟨S100000x128, .f32⟩) main_v210) maximumf ]

/-- Layer 8's 30 operations: from the index constant of its gather to the operation that writes its output. -/
abbrev opsL8 : List (HloOp τ sig (Elt F)) :=
  [ nullary main_c_25 (constantI S_ 32 0#32),
    unary main_c_25 main_v211 (broadcastInDim S625000 ![] bcast_S_S625000 : (⟨S_, .i32⟩ : BufTy).Contents (Elt F) → (⟨S625000, .i32⟩ : BufTy).Contents (Elt F)),
    binary main_v1 main_v211 main_v212 (cmpi .slt : (⟨S625000, .i32⟩ : BufTy).Contents (Elt F) → (⟨S625000, .i32⟩ : BufTy).Contents (Elt F) → (⟨S625000, .i1⟩ : BufTy).Contents (Elt F)),
    nullary main_c_26 (constantI S_ 32 100000#32),
    unary main_c_26 main_v213 (broadcastInDim S625000 ![] bcast_S_S625000 : (⟨S_, .i32⟩ : BufTy).Contents (Elt F) → (⟨S625000, .i32⟩ : BufTy).Contents (Elt F)),
    binary main_v1 main_v213 main_v214 (addi : (⟨S625000, .i32⟩ : BufTy).Contents (Elt F) → (⟨S625000, .i32⟩ : BufTy).Contents (Elt F) → (⟨S625000, .i32⟩ : BufTy).Contents (Elt F)),
    ternary main_v212 main_v214 main_v1 main_v215 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v215 main_v216 (broadcastInDim S625000x1 ![0] bcast_S625000_S625000x1_0 : (⟨S625000, .i32⟩ : BufTy).Contents (Elt F) → (⟨S625000x1, .i32⟩ : BufTy).Contents (Elt F)),
    binary main_v210 main_v216 main_v217 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_27 (constant S_ .f32 0x00000000#32),
    unary main_cst_27 main_v218 (broadcastInDim S100000x128 ![] bcast_S_S100000x128 : (⟨S_, .f32⟩ : BufTy).Contents (Elt F) → (⟨S100000x128, .f32⟩ : BufTy).Contents (Elt F)),
    unary main_v3 main_v219 (broadcastInDim S625000x1 ![0] bcast_S625000_S625000x1_0 : (⟨S625000, .i32⟩ : BufTy).Contents (Elt F) → (⟨S625000x1, .i32⟩ : BufTy).Contents (Elt F)),
    ternary main_v218 main_v219 main_v217 main_v220 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v10 main_v221 (broadcastInDim S100000x128 ![0, 1] bcast_S100000x1_S100000x128_0_1 : (⟨S100000x1, .f32⟩ : BufTy).Contents (Elt F) → (⟨S100000x128, .f32⟩ : BufTy).Contents (Elt F)),
    binary main_v220 main_v221 main_v222 (Host.divf : (⟨S100000x128, .f32⟩ : BufTy).Contents (Elt F) → (⟨S100000x128, .f32⟩ : BufTy).Contents (Elt F) → (⟨S100000x128, .f32⟩ : BufTy).Contents (Elt F)),
    unary main_arg1 main_v223 ((extractStridedSlice S1x128x128 ![8, 0, 0] · slices_S10x128x128_S1x128x128_8_0_0) : (⟨S10x128x128, .f32⟩ : BufTy).Contents (Elt F) → (⟨S1x128x128, .f32⟩ : BufTy).Contents (Elt F)),
    reshape main_v223 main_v224 rfl shapeCasts_S1x128x128_S128x128,
    binary main_v222 main_v224 main_v225 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v226 ((extractStridedSlice S1x128x128 ![8, 0, 0] · slices_S10x128x128_S1x128x128_8_0_0) : (⟨S10x128x128, .f32⟩ : BufTy).Contents (Elt F) → (⟨S1x128x128, .f32⟩ : BufTy).Contents (Elt F)),
    reshape main_v226 main_v227 rfl shapeCasts_S1x128x128_S128x128,
    binary main_v210 main_v227 main_v228 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v225 main_v228 main_v229 (addf : (⟨S100000x128, .f32⟩ : BufTy).Contents (Elt F) → (⟨S100000x128, .f32⟩ : BufTy).Contents (Elt F) → (⟨S100000x128, .f32⟩ : BufTy).Contents (Elt F)),
    unary main_arg3 main_v230 ((extractStridedSlice S1x128 ![8, 0] · slices_S10x128_S1x128_8_0) : (⟨S10x128, .f32⟩ : BufTy).Contents (Elt F) → (⟨S1x128, .f32⟩ : BufTy).Contents (Elt F)),
    reshape main_v230 main_v231 rfl shapeCasts_S1x128_S128,
    unary main_v231 main_v232 (broadcastInDim S1x128 ![1] bcast_S128_S1x128_1 : (⟨S128, .f32⟩ : BufTy).Contents (Elt F) → (⟨S1x128, .f32⟩ : BufTy).Contents (Elt F)),
    unary main_v232 main_v233 (broadcastInDim S100000x128 ![0, 1] bcast_S1x128_S100000x128_0_1 : (⟨S1x128, .f32⟩ : BufTy).Contents (Elt F) → (⟨S100000x128, .f32⟩ : BufTy).Contents (Elt F)),
    binary main_v229 main_v233 main_v234 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v234) (TRef.of (T := ⟨S100000x128, .f32⟩) main_call8_v0) (TRef.of (T := ⟨S100000x128, .f32⟩) main_v235) maximumf ]

/-- Layer 9's 27 operations: from the index constant of its gather to the operation that writes its output. -/
abbrev opsL9 : List (HloOp τ sig (Elt F)) :=
  [ nullary main_c_28 (constantI S_ 32 0#32),
    unary main_c_28 main_v236 (broadcastInDim S625000 ![] bcast_S_S625000 : (⟨S_, .i32⟩ : BufTy).Contents (Elt F) → (⟨S625000, .i32⟩ : BufTy).Contents (Elt F)),
    binary main_v1 main_v236 main_v237 (cmpi .slt : (⟨S625000, .i32⟩ : BufTy).Contents (Elt F) → (⟨S625000, .i32⟩ : BufTy).Contents (Elt F) → (⟨S625000, .i1⟩ : BufTy).Contents (Elt F)),
    nullary main_c_29 (constantI S_ 32 100000#32),
    unary main_c_29 main_v238 (broadcastInDim S625000 ![] bcast_S_S625000 : (⟨S_, .i32⟩ : BufTy).Contents (Elt F) → (⟨S625000, .i32⟩ : BufTy).Contents (Elt F)),
    binary main_v1 main_v238 main_v239 (addi : (⟨S625000, .i32⟩ : BufTy).Contents (Elt F) → (⟨S625000, .i32⟩ : BufTy).Contents (Elt F) → (⟨S625000, .i32⟩ : BufTy).Contents (Elt F)),
    ternary main_v237 main_v239 main_v1 main_v240 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v240 main_v241 (broadcastInDim S625000x1 ![0] bcast_S625000_S625000x1_0 : (⟨S625000, .i32⟩ : BufTy).Contents (Elt F) → (⟨S625000x1, .i32⟩ : BufTy).Contents (Elt F)),
    binary main_v235 main_v241 main_v242 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_30 (constant S_ .f32 0x00000000#32),
    unary main_cst_30 main_v243 (broadcastInDim S100000x128 ![] bcast_S_S100000x128 : (⟨S_, .f32⟩ : BufTy).Contents (Elt F) → (⟨S100000x128, .f32⟩ : BufTy).Contents (Elt F)),
    unary main_v3 main_v244 (broadcastInDim S625000x1 ![0] bcast_S625000_S625000x1_0 : (⟨S625000, .i32⟩ : BufTy).Contents (Elt F) → (⟨S625000x1, .i32⟩ : BufTy).Contents (Elt F)),
    ternary main_v243 main_v244 main_v242 main_v245 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v10 main_v246 (broadcastInDim S100000x128 ![0, 1] bcast_S100000x1_S100000x128_0_1 : (⟨S100000x1, .f32⟩ : BufTy).Contents (Elt F) → (⟨S100000x128, .f32⟩ : BufTy).Contents (Elt F)),
    binary main_v245 main_v246 main_v247 (Host.divf : (⟨S100000x128, .f32⟩ : BufTy).Contents (Elt F) → (⟨S100000x128, .f32⟩ : BufTy).Contents (Elt F) → (⟨S100000x128, .f32⟩ : BufTy).Contents (Elt F)),
    unary main_arg1 main_v248 ((extractStridedSlice S1x128x128 ![9, 0, 0] · slices_S10x128x128_S1x128x128_9_0_0) : (⟨S10x128x128, .f32⟩ : BufTy).Contents (Elt F) → (⟨S1x128x128, .f32⟩ : BufTy).Contents (Elt F)),
    reshape main_v248 main_v249 rfl shapeCasts_S1x128x128_S128x128,
    binary main_v247 main_v249 main_v250 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v251 ((extractStridedSlice S1x128x128 ![9, 0, 0] · slices_S10x128x128_S1x128x128_9_0_0) : (⟨S10x128x128, .f32⟩ : BufTy).Contents (Elt F) → (⟨S1x128x128, .f32⟩ : BufTy).Contents (Elt F)),
    reshape main_v251 main_v252 rfl shapeCasts_S1x128x128_S128x128,
    binary main_v235 main_v252 main_v253 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v250 main_v253 main_v254 (addf : (⟨S100000x128, .f32⟩ : BufTy).Contents (Elt F) → (⟨S100000x128, .f32⟩ : BufTy).Contents (Elt F) → (⟨S100000x128, .f32⟩ : BufTy).Contents (Elt F)),
    unary main_arg3 main_v255 ((extractStridedSlice S1x128 ![9, 0] · slices_S10x128_S1x128_9_0) : (⟨S10x128, .f32⟩ : BufTy).Contents (Elt F) → (⟨S1x128, .f32⟩ : BufTy).Contents (Elt F)),
    reshape main_v255 main_v256 rfl shapeCasts_S1x128_S128,
    unary main_v256 main_v257 (broadcastInDim S1x128 ![1] bcast_S128_S1x128_1 : (⟨S128, .f32⟩ : BufTy).Contents (Elt F) → (⟨S1x128, .f32⟩ : BufTy).Contents (Elt F)),
    unary main_v257 main_v258 (broadcastInDim S100000x128 ![0, 1] bcast_S1x128_S100000x128_0_1 : (⟨S1x128, .f32⟩ : BufTy).Contents (Elt F) → (⟨S100000x128, .f32⟩ : BufTy).Contents (Elt F)),
    binary main_v254 main_v258 main_v259 (addf : (⟨S100000x128, .f32⟩ : BufTy).Contents (Elt F) → (⟨S100000x128, .f32⟩ : BufTy).Contents (Elt F) → (⟨S100000x128, .f32⟩ : BufTy).Contents (Elt F)) ]

/-- The function's 311 operations, in order: the prefix, then the ten layers. -/
abbrev ops : List (HloOp τ sig (Elt F)) :=
  opsPre ++ (opsL0 ++ (opsL1 ++ (opsL2 ++ (opsL3 ++ (opsL4 ++ (opsL5 ++ (opsL6 ++ (opsL7 ++ (opsL8 ++ opsL9)))))))))

set_option maxRecDepth 8192 in
set_option maxHeartbeats 4000000 in
/-- The function is the run of its operations, one after the other. -/
theorem main_eq (c : Dev nD) : main (F := F) c = seq ops := rfl

/-- The signature scopes no buffer of the device. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- A property of every member of two lists is one of every member of their concatenation. -/
theorem forall_mem_append {α : Type _} {p : α → Prop} {l₁ l₂ : List α} (h₁ : ∀ x ∈ l₁, p x) (h₂ : ∀ x ∈ l₂, p x) :
    ∀ x ∈ l₁ ++ l₂, p x :=
  fun x hx => (List.mem_append.mp hx).elim (h₁ x) (h₂ x)

/-- Every operation of the prefix touches buffers of the device only. -/
theorem opsPre_sub : (opsPre : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub ..⟩
/-- No operation of the prefix allocates a buffer of unknown contents. -/
theorem opsPre_fresh : ∀ op ∈ (opsPre : List (HloOp τ sig (Elt F))), op.fresh = ∅ := by
  intro _ h; (repeat (cases h with | head => rfl | tail _ h => ?_)); exact nomatch h

/-- Every operation of layer 0 touches buffers of the device only. -/
theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., unary_bufs_sub .., binary_bufs_sub ..⟩
/-- No operation of layer 0 allocates a buffer of unknown contents. -/
theorem opsL0_fresh : ∀ op ∈ (opsL0 : List (HloOp τ sig (Elt F))), op.fresh = ∅ := by
  intro _ h; (repeat (cases h with | head => rfl | tail _ h => ?_)); exact nomatch h

/-- Every operation of layer 1 touches buffers of the device only. -/
theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., unary_bufs_sub .., binary_bufs_sub ..⟩
/-- No operation of layer 1 allocates a buffer of unknown contents. -/
theorem opsL1_fresh : ∀ op ∈ (opsL1 : List (HloOp τ sig (Elt F))), op.fresh = ∅ := by
  intro _ h; (repeat (cases h with | head => rfl | tail _ h => ?_)); exact nomatch h

/-- Every operation of layer 2 touches buffers of the device only. -/
theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., unary_bufs_sub .., binary_bufs_sub ..⟩
/-- No operation of layer 2 allocates a buffer of unknown contents. -/
theorem opsL2_fresh : ∀ op ∈ (opsL2 : List (HloOp τ sig (Elt F))), op.fresh = ∅ := by
  intro _ h; (repeat (cases h with | head => rfl | tail _ h => ?_)); exact nomatch h

/-- Every operation of layer 3 touches buffers of the device only. -/
theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., unary_bufs_sub .., binary_bufs_sub ..⟩
/-- No operation of layer 3 allocates a buffer of unknown contents. -/
theorem opsL3_fresh : ∀ op ∈ (opsL3 : List (HloOp τ sig (Elt F))), op.fresh = ∅ := by
  intro _ h; (repeat (cases h with | head => rfl | tail _ h => ?_)); exact nomatch h

/-- Every operation of layer 4 touches buffers of the device only. -/
theorem opsL4_sub : (opsL4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., unary_bufs_sub .., binary_bufs_sub ..⟩
/-- No operation of layer 4 allocates a buffer of unknown contents. -/
theorem opsL4_fresh : ∀ op ∈ (opsL4 : List (HloOp τ sig (Elt F))), op.fresh = ∅ := by
  intro _ h; (repeat (cases h with | head => rfl | tail _ h => ?_)); exact nomatch h

/-- Every operation of layer 5 touches buffers of the device only. -/
theorem opsL5_sub : (opsL5 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., unary_bufs_sub .., binary_bufs_sub ..⟩
/-- No operation of layer 5 allocates a buffer of unknown contents. -/
theorem opsL5_fresh : ∀ op ∈ (opsL5 : List (HloOp τ sig (Elt F))), op.fresh = ∅ := by
  intro _ h; (repeat (cases h with | head => rfl | tail _ h => ?_)); exact nomatch h

/-- Every operation of layer 6 touches buffers of the device only. -/
theorem opsL6_sub : (opsL6 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., unary_bufs_sub .., binary_bufs_sub ..⟩
/-- No operation of layer 6 allocates a buffer of unknown contents. -/
theorem opsL6_fresh : ∀ op ∈ (opsL6 : List (HloOp τ sig (Elt F))), op.fresh = ∅ := by
  intro _ h; (repeat (cases h with | head => rfl | tail _ h => ?_)); exact nomatch h

/-- Every operation of layer 7 touches buffers of the device only. -/
theorem opsL7_sub : (opsL7 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., unary_bufs_sub .., binary_bufs_sub ..⟩
/-- No operation of layer 7 allocates a buffer of unknown contents. -/
theorem opsL7_fresh : ∀ op ∈ (opsL7 : List (HloOp τ sig (Elt F))), op.fresh = ∅ := by
  intro _ h; (repeat (cases h with | head => rfl | tail _ h => ?_)); exact nomatch h

/-- Every operation of layer 8 touches buffers of the device only. -/
theorem opsL8_sub : (opsL8 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., unary_bufs_sub .., binary_bufs_sub ..⟩
/-- No operation of layer 8 allocates a buffer of unknown contents. -/
theorem opsL8_fresh : ∀ op ∈ (opsL8 : List (HloOp τ sig (Elt F))), op.fresh = ∅ := by
  intro _ h; (repeat (cases h with | head => rfl | tail _ h => ?_)); exact nomatch h

/-- Every operation of layer 9 touches buffers of the device only. -/
theorem opsL9_sub : (opsL9 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., binary_bufs_sub .., unary_bufs_sub .., reshape_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub ..⟩
/-- No operation of layer 9 allocates a buffer of unknown contents. -/
theorem opsL9_fresh : ∀ op ∈ (opsL9 : List (HloOp τ sig (Elt F))), op.fresh = ∅ := by
  intro _ h; (repeat (cases h with | head => rfl | tail _ h => ?_)); exact nomatch h

/-- Every operation of the function touches buffers of the device only. -/
theorem ops_sub : (ops : List (HloOp τ sig (Elt F))).Forall fun op => op.bufs ⊆ tcRefs τ sig :=
  List.forall_iff_forall_mem.mpr
    (forall_mem_append (List.forall_iff_forall_mem.mp opsPre_sub) (forall_mem_append (List.forall_iff_forall_mem.mp opsL0_sub) (forall_mem_append (List.forall_iff_forall_mem.mp opsL1_sub) (forall_mem_append (List.forall_iff_forall_mem.mp opsL2_sub) (forall_mem_append (List.forall_iff_forall_mem.mp opsL3_sub) (forall_mem_append (List.forall_iff_forall_mem.mp opsL4_sub) (forall_mem_append (List.forall_iff_forall_mem.mp opsL5_sub) (forall_mem_append (List.forall_iff_forall_mem.mp opsL6_sub) (forall_mem_append (List.forall_iff_forall_mem.mp opsL7_sub) (forall_mem_append (List.forall_iff_forall_mem.mp opsL8_sub) ((List.forall_iff_forall_mem.mp opsL9_sub))))))))))))

/-- No operation of the function allocates a buffer of unknown contents. -/
theorem ops_fresh : ∀ op ∈ (ops : List (HloOp τ sig (Elt F))), op.fresh = ∅ :=
  forall_mem_append opsPre_fresh (forall_mem_append opsL0_fresh (forall_mem_append opsL1_fresh (forall_mem_append opsL2_fresh (forall_mem_append opsL3_fresh (forall_mem_append opsL4_fresh (forall_mem_append opsL5_fresh (forall_mem_append opsL6_fresh (forall_mem_append opsL7_fresh (forall_mem_append opsL8_fresh (opsL9_fresh))))))))))

end Cert.ReferenceIdeal.Value2

end
-- ==== Proof.RLayer0.lean ====
/-
  Layer 0 of the reference, read as a function. From ANY buffer contents `R`, after the layer's operations the
  layer's output buffer holds the maximum with 0 of: the neighbour mean of the previous features (gathered along the
  source ids, added up at the destination ids, divided by the in-degree column), times the layer's slice of the first
  weight table, plus the previous features times the layer's slice of the second, plus the layer's bias row. The
  buffers later layers read again — the two id vectors, the in-degree column and the five arguments — keep their
  contents.
-/
import proofs.«402578_j10522669875348_3_alg».proof.Proof.ROps
import proofs.«402578_j10522669875348_3_alg».proof.Proof.RDefs

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-- After layer 0's operations its output buffer holds the layer's value of the contents before them. -/
theorem rlayer0_out (R : Valuation τ sig (Elt F)) :
    StableHlo.after (opsL0 (F := F)) R (Proc.devRef .tc main_v35)
      = Cert.Sage.R.relu (Cert.Sage.R.pre 0 slices_S10x128x128_S1x128x128_0_0_0 slices_S10x128_S1x128_0_0
          (Cert.Sage.R.agg (R (Proc.devRef .tc main_v1)) (R (Proc.devRef .tc main_v3)) (R (Proc.devRef .tc main_v10)) (R (Proc.devRef .tc main_arg0)))
          (R (Proc.devRef .tc main_arg0)) (R (Proc.devRef .tc main_arg1)) (R (Proc.devRef .tc main_arg2)) (R (Proc.devRef .tc main_arg3))) := by
  after_results_simp
  rfl

/-- No operation of layer 0 writes `b`: its contents pass through. -/
theorem rlayer0_keep (R : Valuation τ sig (Elt F)) (b : Ref sig .tc)
    (hb : b = main_v1 ∨ b = main_v3 ∨ b = main_v10 ∨ b = main_arg0 ∨ b = main_arg1 ∨ b = main_arg2 ∨ b = main_arg3 ∨ b = main_arg4) :
    StableHlo.after (opsL0 (F := F)) R (Proc.devRef .tc b) = R (Proc.devRef .tc b) := by
  refine StableHlo.after_of_forall_not_mem (b := Proc.devRef .tc b) _ _ (List.forall_iff_forall_mem.mp ?_)
  simp only [opsL0, List.Forall, TRef.nullary, TRef.unary, TRef.binary, StableHlo.nullary_writes, StableHlo.unary_writes,
    StableHlo.binary_writes, StableHlo.ternary_writes, StableHlo.reshape_writes, Finset.mem_singleton]
  rcases hb with rfl | rfl | rfl | rfl | rfl | rfl | rfl | rfl <;>
    (repeat' apply And.intro) <;> exact StableHlo.devRef_ne_of_ne (by decide)

end Cert.ReferenceIdeal.Value2

end
-- ==== Proof.RLayer1.lean ====
/-
  Layer 1 of the reference, read as a function. From ANY buffer contents `R`, after the layer's operations the
  layer's output buffer holds the maximum with 0 of: the neighbour mean of the previous features (gathered along the
  source ids, added up at the destination ids, divided by the in-degree column), times the layer's slice of the first
  weight table, plus the previous features times the layer's slice of the second, plus the layer's bias row. The
  buffers later layers read again — the two id vectors, the in-degree column and the five arguments — keep their
  contents.
-/
import proofs.«402578_j10522669875348_3_alg».proof.Proof.ROps
import proofs.«402578_j10522669875348_3_alg».proof.Proof.RDefs

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-- After layer 1's operations its output buffer holds the layer's value of the contents before them. -/
theorem rlayer1_out (R : Valuation τ sig (Elt F)) :
    StableHlo.after (opsL1 (F := F)) R (Proc.devRef .tc main_v60)
      = Cert.Sage.R.relu (Cert.Sage.R.pre 1 slices_S10x128x128_S1x128x128_1_0_0 slices_S10x128_S1x128_1_0
          (Cert.Sage.R.agg (R (Proc.devRef .tc main_v1)) (R (Proc.devRef .tc main_v3)) (R (Proc.devRef .tc main_v10)) (R (Proc.devRef .tc main_v35)))
          (R (Proc.devRef .tc main_v35)) (R (Proc.devRef .tc main_arg1)) (R (Proc.devRef .tc main_arg2)) (R (Proc.devRef .tc main_arg3))) := by
  after_results_simp
  rfl

/-- No operation of layer 1 writes `b`: its contents pass through. -/
theorem rlayer1_keep (R : Valuation τ sig (Elt F)) (b : Ref sig .tc)
    (hb : b = main_v1 ∨ b = main_v3 ∨ b = main_v10 ∨ b = main_arg0 ∨ b = main_arg1 ∨ b = main_arg2 ∨ b = main_arg3 ∨ b = main_arg4) :
    StableHlo.after (opsL1 (F := F)) R (Proc.devRef .tc b) = R (Proc.devRef .tc b) := by
  refine StableHlo.after_of_forall_not_mem (b := Proc.devRef .tc b) _ _ (List.forall_iff_forall_mem.mp ?_)
  simp only [opsL1, List.Forall, TRef.nullary, TRef.unary, TRef.binary, StableHlo.nullary_writes, StableHlo.unary_writes,
    StableHlo.binary_writes, StableHlo.ternary_writes, StableHlo.reshape_writes, Finset.mem_singleton]
  rcases hb with rfl | rfl | rfl | rfl | rfl | rfl | rfl | rfl <;>
    (repeat' apply And.intro) <;> exact StableHlo.devRef_ne_of_ne (by decide)

end Cert.ReferenceIdeal.Value2

end
-- ==== Proof.RLayer2.lean ====
/-
  Layer 2 of the reference, read as a function. From ANY buffer contents `R`, after the layer's operations the
  layer's output buffer holds the maximum with 0 of: the neighbour mean of the previous features (gathered along the
  source ids, added up at the destination ids, divided by the in-degree column), times the layer's slice of the first
  weight table, plus the previous features times the layer's slice of the second, plus the layer's bias row. The
  buffers later layers read again — the two id vectors, the in-degree column and the five arguments — keep their
  contents.
-/
import proofs.«402578_j10522669875348_3_alg».proof.Proof.ROps
import proofs.«402578_j10522669875348_3_alg».proof.Proof.RDefs

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-- After layer 2's operations its output buffer holds the layer's value of the contents before them. -/
theorem rlayer2_out (R : Valuation τ sig (Elt F)) :
    StableHlo.after (opsL2 (F := F)) R (Proc.devRef .tc main_v85)
      = Cert.Sage.R.relu (Cert.Sage.R.pre 2 slices_S10x128x128_S1x128x128_2_0_0 slices_S10x128_S1x128_2_0
          (Cert.Sage.R.agg (R (Proc.devRef .tc main_v1)) (R (Proc.devRef .tc main_v3)) (R (Proc.devRef .tc main_v10)) (R (Proc.devRef .tc main_v60)))
          (R (Proc.devRef .tc main_v60)) (R (Proc.devRef .tc main_arg1)) (R (Proc.devRef .tc main_arg2)) (R (Proc.devRef .tc main_arg3))) := by
  after_results_simp
  rfl

/-- No operation of layer 2 writes `b`: its contents pass through. -/
theorem rlayer2_keep (R : Valuation τ sig (Elt F)) (b : Ref sig .tc)
    (hb : b = main_v1 ∨ b = main_v3 ∨ b = main_v10 ∨ b = main_arg0 ∨ b = main_arg1 ∨ b = main_arg2 ∨ b = main_arg3 ∨ b = main_arg4) :
    StableHlo.after (opsL2 (F := F)) R (Proc.devRef .tc b) = R (Proc.devRef .tc b) := by
  refine StableHlo.after_of_forall_not_mem (b := Proc.devRef .tc b) _ _ (List.forall_iff_forall_mem.mp ?_)
  simp only [opsL2, List.Forall, TRef.nullary, TRef.unary, TRef.binary, StableHlo.nullary_writes, StableHlo.unary_writes,
    StableHlo.binary_writes, StableHlo.ternary_writes, StableHlo.reshape_writes, Finset.mem_singleton]
  rcases hb with rfl | rfl | rfl | rfl | rfl | rfl | rfl | rfl <;>
    (repeat' apply And.intro) <;> exact StableHlo.devRef_ne_of_ne (by decide)

end Cert.ReferenceIdeal.Value2

end
-- ==== Proof.RLayer3.lean ====
/-
  Layer 3 of the reference, read as a function. From ANY buffer contents `R`, after the layer's operations the
  layer's output buffer holds the maximum with 0 of: the neighbour mean of the previous features (gathered along the
  source ids, added up at the destination ids, divided by the in-degree column), times the layer's slice of the first
  weight table, plus the previous features times the layer's slice of the second, plus the layer's bias row. The
  buffers later layers read again — the two id vectors, the in-degree column and the five arguments — keep their
  contents.
-/
import proofs.«402578_j10522669875348_3_alg».proof.Proof.ROps
import proofs.«402578_j10522669875348_3_alg».proof.Proof.RDefs

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-- After layer 3's operations its output buffer holds the layer's value of the contents before them. -/
theorem rlayer3_out (R : Valuation τ sig (Elt F)) :
    StableHlo.after (opsL3 (F := F)) R (Proc.devRef .tc main_v110)
      = Cert.Sage.R.relu (Cert.Sage.R.pre 3 slices_S10x128x128_S1x128x128_3_0_0 slices_S10x128_S1x128_3_0
          (Cert.Sage.R.agg (R (Proc.devRef .tc main_v1)) (R (Proc.devRef .tc main_v3)) (R (Proc.devRef .tc main_v10)) (R (Proc.devRef .tc main_v85)))
          (R (Proc.devRef .tc main_v85)) (R (Proc.devRef .tc main_arg1)) (R (Proc.devRef .tc main_arg2)) (R (Proc.devRef .tc main_arg3))) := by
  after_results_simp
  rfl

/-- No operation of layer 3 writes `b`: its contents pass through. -/
theorem rlayer3_keep (R : Valuation τ sig (Elt F)) (b : Ref sig .tc)
    (hb : b = main_v1 ∨ b = main_v3 ∨ b = main_v10 ∨ b = main_arg0 ∨ b = main_arg1 ∨ b = main_arg2 ∨ b = main_arg3 ∨ b = main_arg4) :
    StableHlo.after (opsL3 (F := F)) R (Proc.devRef .tc b) = R (Proc.devRef .tc b) := by
  refine StableHlo.after_of_forall_not_mem (b := Proc.devRef .tc b) _ _ (List.forall_iff_forall_mem.mp ?_)
  simp only [opsL3, List.Forall, TRef.nullary, TRef.unary, TRef.binary, StableHlo.nullary_writes, StableHlo.unary_writes,
    StableHlo.binary_writes, StableHlo.ternary_writes, StableHlo.reshape_writes, Finset.mem_singleton]
  rcases hb with rfl | rfl | rfl | rfl | rfl | rfl | rfl | rfl <;>
    (repeat' apply And.intro) <;> exact StableHlo.devRef_ne_of_ne (by decide)

end Cert.ReferenceIdeal.Value2

end
-- ==== Proof.RLayer4.lean ====
/-
  Layer 4 of the reference, read as a function. From ANY buffer contents `R`, after the layer's operations the
  layer's output buffer holds the maximum with 0 of: the neighbour mean of the previous features (gathered along the
  source ids, added up at the destination ids, divided by the in-degree column), times the layer's slice of the first
  weight table, plus the previous features times the layer's slice of the second, plus the layer's bias row. The
  buffers later layers read again — the two id vectors, the in-degree column and the five arguments — keep their
  contents.
-/
import proofs.«402578_j10522669875348_3_alg».proof.Proof.ROps
import proofs.«402578_j10522669875348_3_alg».proof.Proof.RDefs

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-- After layer 4's operations its output buffer holds the layer's value of the contents before them. -/
theorem rlayer4_out (R : Valuation τ sig (Elt F)) :
    StableHlo.after (opsL4 (F := F)) R (Proc.devRef .tc main_v135)
      = Cert.Sage.R.relu (Cert.Sage.R.pre 4 slices_S10x128x128_S1x128x128_4_0_0 slices_S10x128_S1x128_4_0
          (Cert.Sage.R.agg (R (Proc.devRef .tc main_v1)) (R (Proc.devRef .tc main_v3)) (R (Proc.devRef .tc main_v10)) (R (Proc.devRef .tc main_v110)))
          (R (Proc.devRef .tc main_v110)) (R (Proc.devRef .tc main_arg1)) (R (Proc.devRef .tc main_arg2)) (R (Proc.devRef .tc main_arg3))) := by
  after_results_simp
  rfl

/-- No operation of layer 4 writes `b`: its contents pass through. -/
theorem rlayer4_keep (R : Valuation τ sig (Elt F)) (b : Ref sig .tc)
    (hb : b = main_v1 ∨ b = main_v3 ∨ b = main_v10 ∨ b = main_arg0 ∨ b = main_arg1 ∨ b = main_arg2 ∨ b = main_arg3 ∨ b = main_arg4) :
    StableHlo.after (opsL4 (F := F)) R (Proc.devRef .tc b) = R (Proc.devRef .tc b) := by
  refine StableHlo.after_of_forall_not_mem (b := Proc.devRef .tc b) _ _ (List.forall_iff_forall_mem.mp ?_)
  simp only [opsL4, List.Forall, TRef.nullary, TRef.unary, TRef.binary, StableHlo.nullary_writes, StableHlo.unary_writes,
    StableHlo.binary_writes, StableHlo.ternary_writes, StableHlo.reshape_writes, Finset.mem_singleton]
  rcases hb with rfl | rfl | rfl | rfl | rfl | rfl | rfl | rfl <;>
    (repeat' apply And.intro) <;> exact StableHlo.devRef_ne_of_ne (by decide)

end Cert.ReferenceIdeal.Value2

end
-- ==== Proof.RLayer5.lean ====
/-
  Layer 5 of the reference, read as a function. From ANY buffer contents `R`, after the layer's operations the
  layer's output buffer holds the maximum with 0 of: the neighbour mean of the previous features (gathered along the
  source ids, added up at the destination ids, divided by the in-degree column), times the layer's slice of the first
  weight table, plus the previous features times the layer's slice of the second, plus the layer's bias row. The
  buffers later layers read again — the two id vectors, the in-degree column and the five arguments — keep their
  contents.
-/
import proofs.«402578_j10522669875348_3_alg».proof.Proof.ROps
import proofs.«402578_j10522669875348_3_alg».proof.Proof.RDefs

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-- After layer 5's operations its output buffer holds the layer's value of the contents before them. -/
theorem rlayer5_out (R : Valuation τ sig (Elt F)) :
    StableHlo.after (opsL5 (F := F)) R (Proc.devRef .tc main_v160)
      = Cert.Sage.R.relu (Cert.Sage.R.pre 5 slices_S10x128x128_S1x128x128_5_0_0 slices_S10x128_S1x128_5_0
          (Cert.Sage.R.agg (R (Proc.devRef .tc main_v1)) (R (Proc.devRef .tc main_v3)) (R (Proc.devRef .tc main_v10)) (R (Proc.devRef .tc main_v135)))
          (R (Proc.devRef .tc main_v135)) (R (Proc.devRef .tc main_arg1)) (R (Proc.devRef .tc main_arg2)) (R (Proc.devRef .tc main_arg3))) := by
  after_results_simp
  rfl

/-- No operation of layer 5 writes `b`: its contents pass through. -/
theorem rlayer5_keep (R : Valuation τ sig (Elt F)) (b : Ref sig .tc)
    (hb : b = main_v1 ∨ b = main_v3 ∨ b = main_v10 ∨ b = main_arg0 ∨ b = main_arg1 ∨ b = main_arg2 ∨ b = main_arg3 ∨ b = main_arg4) :
    StableHlo.after (opsL5 (F := F)) R (Proc.devRef .tc b) = R (Proc.devRef .tc b) := by
  refine StableHlo.after_of_forall_not_mem (b := Proc.devRef .tc b) _ _ (List.forall_iff_forall_mem.mp ?_)
  simp only [opsL5, List.Forall, TRef.nullary, TRef.unary, TRef.binary, StableHlo.nullary_writes, StableHlo.unary_writes,
    StableHlo.binary_writes, StableHlo.ternary_writes, StableHlo.reshape_writes, Finset.mem_singleton]
  rcases hb with rfl | rfl | rfl | rfl | rfl | rfl | rfl | rfl <;>
    (repeat' apply And.intro) <;> exact StableHlo.devRef_ne_of_ne (by decide)

end Cert.ReferenceIdeal.Value2

end
-- ==== Proof.RLayer6.lean ====
/-
  Layer 6 of the reference, read as a function. From ANY buffer contents `R`, after the layer's operations the
  layer's output buffer holds the maximum with 0 of: the neighbour mean of the previous features (gathered along the
  source ids, added up at the destination ids, divided by the in-degree column), times the layer's slice of the first
  weight table, plus the previous features times the layer's slice of the second, plus the layer's bias row. The
  buffers later layers read again — the two id vectors, the in-degree column and the five arguments — keep their
  contents.
-/
import proofs.«402578_j10522669875348_3_alg».proof.Proof.ROps
import proofs.«402578_j10522669875348_3_alg».proof.Proof.RDefs

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-- After layer 6's operations its output buffer holds the layer's value of the contents before them. -/
theorem rlayer6_out (R : Valuation τ sig (Elt F)) :
    StableHlo.after (opsL6 (F := F)) R (Proc.devRef .tc main_v185)
      = Cert.Sage.R.relu (Cert.Sage.R.pre 6 slices_S10x128x128_S1x128x128_6_0_0 slices_S10x128_S1x128_6_0
          (Cert.Sage.R.agg (R (Proc.devRef .tc main_v1)) (R (Proc.devRef .tc main_v3)) (R (Proc.devRef .tc main_v10)) (R (Proc.devRef .tc main_v160)))
          (R (Proc.devRef .tc main_v160)) (R (Proc.devRef .tc main_arg1)) (R (Proc.devRef .tc main_arg2)) (R (Proc.devRef .tc main_arg3))) := by
  after_results_simp
  rfl

/-- No operation of layer 6 writes `b`: its contents pass through. -/
theorem rlayer6_keep (R : Valuation τ sig (Elt F)) (b : Ref sig .tc)
    (hb : b = main_v1 ∨ b = main_v3 ∨ b = main_v10 ∨ b = main_arg0 ∨ b = main_arg1 ∨ b = main_arg2 ∨ b = main_arg3 ∨ b = main_arg4) :
    StableHlo.after (opsL6 (F := F)) R (Proc.devRef .tc b) = R (Proc.devRef .tc b) := by
  refine StableHlo.after_of_forall_not_mem (b := Proc.devRef .tc b) _ _ (List.forall_iff_forall_mem.mp ?_)
  simp only [opsL6, List.Forall, TRef.nullary, TRef.unary, TRef.binary, StableHlo.nullary_writes, StableHlo.unary_writes,
    StableHlo.binary_writes, StableHlo.ternary_writes, StableHlo.reshape_writes, Finset.mem_singleton]
  rcases hb with rfl | rfl | rfl | rfl | rfl | rfl | rfl | rfl <;>
    (repeat' apply And.intro) <;> exact StableHlo.devRef_ne_of_ne (by decide)

end Cert.ReferenceIdeal.Value2

end
-- ==== Proof.RLayer7.lean ====
/-
  Layer 7 of the reference, read as a function. From ANY buffer contents `R`, after the layer's operations the
  layer's output buffer holds the maximum with 0 of: the neighbour mean of the previous features (gathered along the
  source ids, added up at the destination ids, divided by the in-degree column), times the layer's slice of the first
  weight table, plus the previous features times the layer's slice of the second, plus the layer's bias row. The
  buffers later layers read again — the two id vectors, the in-degree column and the five arguments — keep their
  contents.
-/
import proofs.«402578_j10522669875348_3_alg».proof.Proof.ROps
import proofs.«402578_j10522669875348_3_alg».proof.Proof.RDefs

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-- After layer 7's operations its output buffer holds the layer's value of the contents before them. -/
theorem rlayer7_out (R : Valuation τ sig (Elt F)) :
    StableHlo.after (opsL7 (F := F)) R (Proc.devRef .tc main_v210)
      = Cert.Sage.R.relu (Cert.Sage.R.pre 7 slices_S10x128x128_S1x128x128_7_0_0 slices_S10x128_S1x128_7_0
          (Cert.Sage.R.agg (R (Proc.devRef .tc main_v1)) (R (Proc.devRef .tc main_v3)) (R (Proc.devRef .tc main_v10)) (R (Proc.devRef .tc main_v185)))
          (R (Proc.devRef .tc main_v185)) (R (Proc.devRef .tc main_arg1)) (R (Proc.devRef .tc main_arg2)) (R (Proc.devRef .tc main_arg3))) := by
  after_results_simp
  rfl

/-- No operation of layer 7 writes `b`: its contents pass through. -/
theorem rlayer7_keep (R : Valuation τ sig (Elt F)) (b : Ref sig .tc)
    (hb : b = main_v1 ∨ b = main_v3 ∨ b = main_v10 ∨ b = main_arg0 ∨ b = main_arg1 ∨ b = main_arg2 ∨ b = main_arg3 ∨ b = main_arg4) :
    StableHlo.after (opsL7 (F := F)) R (Proc.devRef .tc b) = R (Proc.devRef .tc b) := by
  refine StableHlo.after_of_forall_not_mem (b := Proc.devRef .tc b) _ _ (List.forall_iff_forall_mem.mp ?_)
  simp only [opsL7, List.Forall, TRef.nullary, TRef.unary, TRef.binary, StableHlo.nullary_writes, StableHlo.unary_writes,
    StableHlo.binary_writes, StableHlo.ternary_writes, StableHlo.reshape_writes, Finset.mem_singleton]
  rcases hb with rfl | rfl | rfl | rfl | rfl | rfl | rfl | rfl <;>
    (repeat' apply And.intro) <;> exact StableHlo.devRef_ne_of_ne (by decide)

end Cert.ReferenceIdeal.Value2

end
-- ==== Proof.RLayer8.lean ====
/-
  Layer 8 of the reference, read as a function. From ANY buffer contents `R`, after the layer's operations the
  layer's output buffer holds the maximum with 0 of: the neighbour mean of the previous features (gathered along the
  source ids, added up at the destination ids, divided by the in-degree column), times the layer's slice of the first
  weight table, plus the previous features times the layer's slice of the second, plus the layer's bias row. The
  buffers later layers read again — the two id vectors, the in-degree column and the five arguments — keep their
  contents.
-/
import proofs.«402578_j10522669875348_3_alg».proof.Proof.ROps
import proofs.«402578_j10522669875348_3_alg».proof.Proof.RDefs

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-- After layer 8's operations its output buffer holds the layer's value of the contents before them. -/
theorem rlayer8_out (R : Valuation τ sig (Elt F)) :
    StableHlo.after (opsL8 (F := F)) R (Proc.devRef .tc main_v235)
      = Cert.Sage.R.relu (Cert.Sage.R.pre 8 slices_S10x128x128_S1x128x128_8_0_0 slices_S10x128_S1x128_8_0
          (Cert.Sage.R.agg (R (Proc.devRef .tc main_v1)) (R (Proc.devRef .tc main_v3)) (R (Proc.devRef .tc main_v10)) (R (Proc.devRef .tc main_v210)))
          (R (Proc.devRef .tc main_v210)) (R (Proc.devRef .tc main_arg1)) (R (Proc.devRef .tc main_arg2)) (R (Proc.devRef .tc main_arg3))) := by
  after_results_simp
  rfl

/-- No operation of layer 8 writes `b`: its contents pass through. -/
theorem rlayer8_keep (R : Valuation τ sig (Elt F)) (b : Ref sig .tc)
    (hb : b = main_v1 ∨ b = main_v3 ∨ b = main_v10 ∨ b = main_arg0 ∨ b = main_arg1 ∨ b = main_arg2 ∨ b = main_arg3 ∨ b = main_arg4) :
    StableHlo.after (opsL8 (F := F)) R (Proc.devRef .tc b) = R (Proc.devRef .tc b) := by
  refine StableHlo.after_of_forall_not_mem (b := Proc.devRef .tc b) _ _ (List.forall_iff_forall_mem.mp ?_)
  simp only [opsL8, List.Forall, TRef.nullary, TRef.unary, TRef.binary, StableHlo.nullary_writes, StableHlo.unary_writes,
    StableHlo.binary_writes, StableHlo.ternary_writes, StableHlo.reshape_writes, Finset.mem_singleton]
  rcases hb with rfl | rfl | rfl | rfl | rfl | rfl | rfl | rfl <;>
    (repeat' apply And.intro) <;> exact StableHlo.devRef_ne_of_ne (by decide)

end Cert.ReferenceIdeal.Value2

end
-- ==== Proof.RLayer9.lean ====
/-
  Layer 9, the last, of the reference, read as a function. From ANY buffer contents `R`, after the layer's operations
  the layer's output buffer holds: the neighbour mean of the previous features (gathered along the source ids, added up
  at the destination ids, divided by the in-degree column), times the layer's slice of the first weight table, plus the
  previous features times the layer's slice of the second, plus the layer's bias row — with no clamp at 0 on this
  layer. The two id vectors, the in-degree column and the five arguments keep their contents.
-/
import proofs.«402578_j10522669875348_3_alg».proof.Proof.ROps
import proofs.«402578_j10522669875348_3_alg».proof.Proof.RDefs

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-- After layer 9's operations its output buffer holds the layer's value of the contents before them. -/
theorem rlayer9_out (R : Valuation τ sig (Elt F)) :
    StableHlo.after (opsL9 (F := F)) R (Proc.devRef .tc main_v259)
      = Cert.Sage.R.pre 9 slices_S10x128x128_S1x128x128_9_0_0 slices_S10x128_S1x128_9_0
          (Cert.Sage.R.agg (R (Proc.devRef .tc main_v1)) (R (Proc.devRef .tc main_v3)) (R (Proc.devRef .tc main_v10)) (R (Proc.devRef .tc main_v235)))
          (R (Proc.devRef .tc main_v235)) (R (Proc.devRef .tc main_arg1)) (R (Proc.devRef .tc main_arg2)) (R (Proc.devRef .tc main_arg3)) := by
  after_results_simp
  rfl

/-- No operation of layer 9 writes `b`: its contents pass through. -/
theorem rlayer9_keep (R : Valuation τ sig (Elt F)) (b : Ref sig .tc)
    (hb : b = main_v1 ∨ b = main_v3 ∨ b = main_v10 ∨ b = main_arg0 ∨ b = main_arg1 ∨ b = main_arg2 ∨ b = main_arg3 ∨ b = main_arg4) :
    StableHlo.after (opsL9 (F := F)) R (Proc.devRef .tc b) = R (Proc.devRef .tc b) := by
  refine StableHlo.after_of_forall_not_mem (b := Proc.devRef .tc b) _ _ (List.forall_iff_forall_mem.mp ?_)
  simp only [opsL9, List.Forall, StableHlo.nullary_writes, StableHlo.unary_writes,
    StableHlo.binary_writes, StableHlo.ternary_writes, StableHlo.reshape_writes, Finset.mem_singleton]
  rcases hb with rfl | rfl | rfl | rfl | rfl | rfl | rfl | rfl <;>
    (repeat' apply And.intro) <;> exact StableHlo.devRef_ne_of_ne (by decide)

end Cert.ReferenceIdeal.Value2

end
-- ==== Proof.RRun.lean ====
/-
  The reference's run, stretch by stretch.

  Every weakly fair execution of the reference's function ends with each buffer of the device at the contents
  its operations, folded in order over the launch's contents, leave there. The line of operations is cut in eleven
  stretches: a prefix that computes the two id vectors and the in-degree column from the edge table, and one
  stretch per layer. At every cut the same eight facts hold — the id vectors and the in-degree column are those of the
  launched edge table, the five arguments are as launched — because no layer writes those buffers; and from contents
  at which they hold, a layer's stretch leaves in its output buffer the layer's function of what its input buffer
  held. Walking the cuts from the launch to the end gives the last output buffer as the ten layers' functions, one
  in the other, of the launched node features. Each stretch's fold stays folded throughout: only the facts above
  about it are used.
-/
import proofs.«402578_j10522669875348_3_alg».proof.Proof.ROps
import proofs.«402578_j10522669875348_3_alg».proof.Proof.RLayers
import proofs.«402578_j10522669875348_3_alg».proof.Proof.RLayer0
import proofs.«402578_j10522669875348_3_alg».proof.Proof.RLayer1
import proofs.«402578_j10522669875348_3_alg».proof.Proof.RLayer2
import proofs.«402578_j10522669875348_3_alg».proof.Proof.RLayer3
import proofs.«402578_j10522669875348_3_alg».proof.Proof.RLayer4
import proofs.«402578_j10522669875348_3_alg».proof.Proof.RLayer5
import proofs.«402578_j10522669875348_3_alg».proof.Proof.RLayer6
import proofs.«402578_j10522669875348_3_alg».proof.Proof.RLayer7
import proofs.«402578_j10522669875348_3_alg».proof.Proof.RLayer8
import proofs.«402578_j10522669875348_3_alg».proof.Proof.RLayer9

noncomputable section

namespace Cert.ReferenceIdeal.Value2

open Cert.ReferenceIdeal Cert.ReferenceIdeal.Gen Idealize.ShloMosaic Idealize.ShloMosaic.TcCoe Idealize.SL.Sem Idealize.ShloMosaic.StableHlo

variable {F : FTy → Type} [FloatOps F]

/-! ## The prefix -/

/-- After the prefix the first id vector is row 0 of the edge table. -/
theorem rpre_v1 (R : Valuation τ sig (Elt F)) :
    StableHlo.after (opsPre (F := F)) R (Proc.devRef .tc main_v1) = Cert.Sage.R.src (R (Proc.devRef .tc main_arg4)) := by
  after_results_simp
  rfl

/-- After the prefix the second id vector is row 1 of the edge table. -/
theorem rpre_v3 (R : Valuation τ sig (Elt F)) :
    StableHlo.after (opsPre (F := F)) R (Proc.devRef .tc main_v3) = Cert.Sage.R.dst (R (Proc.devRef .tc main_arg4)) := by
  after_results_simp
  rfl

/-- After the prefix the in-degree column is the clamped count of the destination ids. -/
theorem rpre_v10 (R : Valuation τ sig (Elt F)) :
    StableHlo.after (opsPre (F := F)) R (Proc.devRef .tc main_v10) = Cert.Sage.R.deg (Cert.Sage.R.dst (R (Proc.devRef .tc main_arg4))) := by
  after_results_simp
  rfl

/-- No operation of the prefix writes an argument: its contents pass through. -/
theorem rpre_keep (R : Valuation τ sig (Elt F)) (b : Ref sig .tc)
    (hb : b = main_arg0 ∨ b = main_arg1 ∨ b = main_arg2 ∨ b = main_arg3 ∨ b = main_arg4) :
    StableHlo.after (opsPre (F := F)) R (Proc.devRef .tc b) = R (Proc.devRef .tc b) := by
  refine StableHlo.after_of_forall_not_mem (b := Proc.devRef .tc b) _ _ (List.forall_iff_forall_mem.mp ?_)
  simp only [opsPre, List.Forall, StableHlo.nullary_writes, StableHlo.unary_writes, StableHlo.binary_writes,
    StableHlo.ternary_writes, StableHlo.reshape_writes, Finset.mem_singleton]
  rcases hb with rfl | rfl | rfl | rfl | rfl <;>
    (repeat' apply And.intro) <;> exact StableHlo.devRef_ne_of_ne (by decide)

/-! ## What holds at every cut -/

/-- What holds of the buffer contents `V` at every cut between two stretches, on device `c` launched from memory `m`:
    the two id vectors and the in-degree column are those of the launch's edge table, and the five arguments are as
    launched. -/
structure Inv (m : (ℓ : Loc nD τ sig) → Buf (Elt F) ℓ) (c : Dev nD) (V : Valuation τ sig (Elt F)) : Prop where
  v1 : V (Proc.devRef .tc main_v1) = SRC m c
  v3 : V (Proc.devRef .tc main_v3) = DST m c
  v10 : V (Proc.devRef .tc main_v10) = DEG m c
  a0 : V (Proc.devRef .tc main_arg0) = m ((c.tc : Thread nD τ).loc main_arg0)
  a1 : V (Proc.devRef .tc main_arg1) = m ((c.tc : Thread nD τ).loc main_arg1)
  a2 : V (Proc.devRef .tc main_arg2) = m ((c.tc : Thread nD τ).loc main_arg2)
  a3 : V (Proc.devRef .tc main_arg3) = m ((c.tc : Thread nD τ).loc main_arg3)
  a4 : V (Proc.devRef .tc main_arg4) = m ((c.tc : Thread nD τ).loc main_arg4)

variable {m : (ℓ : Loc nD τ sig) → Buf (Elt F) ℓ} {c : Dev nD}

/-- It holds after the prefix, run from the launch's contents. -/
theorem inv_pre (m : (ℓ : Loc nD τ sig) → Buf (Elt F) ℓ) (c : Dev nD) :
    Inv m c (StableHlo.after (opsPre (F := F)) (launchContents m c)) where
  v1 := (rpre_v1 _).trans rfl
  v3 := (rpre_v3 _).trans rfl
  v10 := (rpre_v10 _).trans rfl
  a0 := (rpre_keep _ main_arg0 (Or.inl rfl)).trans rfl
  a1 := (rpre_keep _ main_arg1 (Or.inr (Or.inl rfl))).trans rfl
  a2 := (rpre_keep _ main_arg2 (Or.inr (Or.inr (Or.inl rfl)))).trans rfl
  a3 := (rpre_keep _ main_arg3 (Or.inr (Or.inr (Or.inr (Or.inl rfl))))).trans rfl
  a4 := (rpre_keep _ main_arg4 (Or.inr (Or.inr (Or.inr (Or.inr (rfl)))))).trans rfl

/-- A stretch that writes none of the eight buffers carries it over. -/
theorem inv_step {L : List (HloOp τ sig (Elt F))} {V : Valuation τ sig (Elt F)}
    (keep : ∀ (R : Valuation τ sig (Elt F)) (b : Ref sig .tc), (b = main_v1 ∨ b = main_v3 ∨ b = main_v10 ∨ b = main_arg0 ∨ b = main_arg1 ∨ b = main_arg2 ∨ b = main_arg3 ∨ b = main_arg4) →
      StableHlo.after L R (Proc.devRef .tc b) = R (Proc.devRef .tc b))
    (h : Inv m c V) : Inv m c (StableHlo.after L V) where
  v1 := (keep V main_v1 (Or.inl rfl)).trans h.v1
  v3 := (keep V main_v3 (Or.inr (Or.inl rfl))).trans h.v3
  v10 := (keep V main_v10 (Or.inr (Or.inr (Or.inl rfl)))).trans h.v10
  a0 := (keep V main_arg0 (Or.inr (Or.inr (Or.inr (Or.inl rfl))))).trans h.a0
  a1 := (keep V main_arg1 (Or.inr (Or.inr (Or.inr (Or.inr (Or.inl rfl)))))).trans h.a1
  a2 := (keep V main_arg2 (Or.inr (Or.inr (Or.inr (Or.inr (Or.inr (Or.inl rfl))))))).trans h.a2
  a3 := (keep V main_arg3 (Or.inr (Or.inr (Or.inr (Or.inr (Or.inr (Or.inr (Or.inl rfl)))))))).trans h.a3
  a4 := (keep V main_arg4 (Or.inr (Or.inr (Or.inr (Or.inr (Or.inr (Or.inr (Or.inr (rfl))))))))).trans h.a4

/-! ## One layer, from contents at which it holds -/

/-- Layer 0's output, from contents at which the cut's facts hold, is the layer's function of its input. -/
theorem out_L0 {V : Valuation τ sig (Elt F)} (h : Inv m c V) :
    StableHlo.after (opsL0 (F := F)) V (Proc.devRef .tc main_v35) = RL0 m c (V (Proc.devRef .tc main_arg0)) := by
  rw [rlayer0_out, h.v1, h.v3, h.v10, h.a1, h.a2, h.a3]
  rfl

/-- Layer 1's output, from contents at which the cut's facts hold, is the layer's function of its input. -/
theorem out_L1 {V : Valuation τ sig (Elt F)} (h : Inv m c V) :
    StableHlo.after (opsL1 (F := F)) V (Proc.devRef .tc main_v60) = RL1 m c (V (Proc.devRef .tc main_v35)) := by
  rw [rlayer1_out, h.v1, h.v3, h.v10, h.a1, h.a2, h.a3]
  rfl

/-- Layer 2's output, from contents at which the cut's facts hold, is the layer's function of its input. -/
theorem out_L2 {V : Valuation τ sig (Elt F)} (h : Inv m c V) :
    StableHlo.after (opsL2 (F := F)) V (Proc.devRef .tc main_v85) = RL2 m c (V (Proc.devRef .tc main_v60)) := by
  rw [rlayer2_out, h.v1, h.v3, h.v10, h.a1, h.a2, h.a3]
  rfl

/-- Layer 3's output, from contents at which the cut's facts hold, is the layer's function of its input. -/
theorem out_L3 {V : Valuation τ sig (Elt F)} (h : Inv m c V) :
    StableHlo.after (opsL3 (F := F)) V (Proc.devRef .tc main_v110) = RL3 m c (V (Proc.devRef .tc main_v85)) := by
  rw [rlayer3_out, h.v1, h.v3, h.v10, h.a1, h.a2, h.a3]
  rfl

/-- Layer 4's output, from contents at which the cut's facts hold, is the layer's function of its input. -/
theorem out_L4 {V : Valuation τ sig (Elt F)} (h : Inv m c V) :
    StableHlo.after (opsL4 (F := F)) V (Proc.devRef .tc main_v135) = RL4 m c (V (Proc.devRef .tc main_v110)) := by
  rw [rlayer4_out, h.v1, h.v3, h.v10, h.a1, h.a2, h.a3]
  rfl

/-- Layer 5's output, from contents at which the cut's facts hold, is the layer's function of its input. -/
theorem out_L5 {V : Valuation τ sig (Elt F)} (h : Inv m c V) :
    StableHlo.after (opsL5 (F := F)) V (Proc.devRef .tc main_v160) = RL5 m c (V (Proc.devRef .tc main_v135)) := by
  rw [rlayer5_out, h.v1, h.v3, h.v10, h.a1, h.a2, h.a3]
  rfl

/-- Layer 6's output, from contents at which the cut's facts hold, is the layer's function of its input. -/
theorem out_L6 {V : Valuation τ sig (Elt F)} (h : Inv m c V) :
    StableHlo.after (opsL6 (F := F)) V (Proc.devRef .tc main_v185) = RL6 m c (V (Proc.devRef .tc main_v160)) := by
  rw [rlayer6_out, h.v1, h.v3, h.v10, h.a1, h.a2, h.a3]
  rfl

/-- Layer 7's output, from contents at which the cut's facts hold, is the layer's function of its input. -/
theorem out_L7 {V : Valuation τ sig (Elt F)} (h : Inv m c V) :
    StableHlo.after (opsL7 (F := F)) V (Proc.devRef .tc main_v210) = RL7 m c (V (Proc.devRef .tc main_v185)) := by
  rw [rlayer7_out, h.v1, h.v3, h.v10, h.a1, h.a2, h.a3]
  rfl

/-- Layer 8's output, from contents at which the cut's facts hold, is the layer's function of its input. -/
theorem out_L8 {V : Valuation τ sig (Elt F)} (h : Inv m c V) :
    StableHlo.after (opsL8 (F := F)) V (Proc.devRef .tc main_v235) = RL8 m c (V (Proc.devRef .tc main_v210)) := by
  rw [rlayer8_out, h.v1, h.v3, h.v10, h.a1, h.a2, h.a3]
  rfl

/-- Layer 9's output, from contents at which the cut's facts hold, is the layer's function of its input. -/
theorem out_L9 {V : Valuation τ sig (Elt F)} (h : Inv m c V) :
    StableHlo.after (opsL9 (F := F)) V (Proc.devRef .tc main_v259) = RL9 m c (V (Proc.devRef .tc main_v235)) := by
  rw [rlayer9_out, h.v1, h.v3, h.v10, h.a1, h.a2, h.a3]
  rfl

/-! ## The whole line -/

/-- The contents after the whole line are those after the eleven stretches, one after the other. -/
theorem ops_after (V : Valuation τ sig (Elt F)) :
    StableHlo.after (ops (F := F)) V = StableHlo.after (opsL9 (F := F)) (StableHlo.after (opsL8 (F := F)) (StableHlo.after (opsL7 (F := F)) (StableHlo.after (opsL6 (F := F)) (StableHlo.after (opsL5 (F := F)) (StableHlo.after (opsL4 (F := F)) (StableHlo.after (opsL3 (F := F)) (StableHlo.after (opsL2 (F := F)) (StableHlo.after (opsL1 (F := F)) (StableHlo.after (opsL0 (F := F)) (StableHlo.after (opsPre (F := F)) V)))))))))) := by
  simp only [ops, StableHlo.after_append]

/-- The cut's facts after the prefix and layers 0 … 9. -/
theorem inv_all (m : (ℓ : Loc nD τ sig) → Buf (Elt F) ℓ) (c : Dev nD) :
    Inv m c (StableHlo.after (ops (F := F)) (launchContents m c)) := by
  rw [ops_after]
  exact inv_step rlayer9_keep (inv_step rlayer8_keep (inv_step rlayer7_keep (inv_step rlayer6_keep (inv_step rlayer5_keep (inv_step rlayer4_keep (inv_step rlayer3_keep (inv_step rlayer2_keep (inv_step rlayer1_keep (inv_step rlayer0_keep (inv_pre m c))))))))))

/-- The last layer's output after the whole line, from the launch's contents: the ten layers' functions, one in the
    other, of the launched node features. -/
theorem run_out (m : (ℓ : Loc nD τ sig) → Buf (Elt F) ℓ) (c : Dev nD) :
    StableHlo.after (ops (F := F)) (launchContents m c) (Proc.devRef .tc main_v259)
      = RL9 m c (RL8 m c (RL7 m c (RL6 m c (RL5 m c (RL4 m c (RL3 m c (RL2 m c (RL1 m c (RL0 m c (m ((c.tc : Thread nD τ).loc main_arg0))))))))))) := by
  have h0 := inv_pre m c
  have h1 := inv_step rlayer0_keep h0
  have h2 := inv_step rlayer1_keep h1
  have h3 := inv_step rlayer2_keep h2
  have h4 := inv_step rlayer3_keep h3
  have h5 := inv_step rlayer4_keep h4
  have h6 := inv_step rlayer5_keep h5
  have h7 := inv_step rlayer6_keep h6
  have h8 := inv_step rlayer7_keep h7
  have h9 := inv_step rlayer8_keep h8
  rw [ops_after, out_L9 h9, out_L8 h8, out_L7 h7, out_L6 h6, out_L5 h5, out_L4 h4, out_L3 h3, out_L2 h2, out_L1 h1, out_L0 h0, h0.a0]

/-- On every device, for any float values, from any memory with zero counters: every weakly fair execution of the
    reference's function terminates with the last layer's output buffer at the ten layers' functions, one in the other,
    of the launched node features, and the five arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v259) = RL9 m c (RL8 m c (RL7 m c (RL6 m c (RL5 m c (RL4 m c (RL3 m c (RL2 m c (RL1 m c (RL0 m c (m ((c.tc : Thread nD τ).loc main_arg0)))))))))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v259).trans (run_out m c),
      (h c main_arg0).trans (inv_all m c).a0,
      (h c main_arg1).trans (inv_all m c).a1,
      (h c main_arg2).trans (inv_all m c).a2,
      (h c main_arg3).trans (inv_all m c).a3,
      (h c main_arg4).trans (inv_all m c).a4⟩)
    (run_seq scopedRefs_eq scopedSems_eq defs main (fun _ => ops) main_eq (fun _ => ops_sub) m ρ (fun _ => ops_fresh))

end Cert.ReferenceIdeal.Value2

end
-- ==== Proof.Bridge.lean ====
/-
  The two programs' layers, read entry by entry, are the specification's layer.

  The kernel's program hands each layer the slice `k` of the stacked weights `[Wl ; Wr]` and the bias row `k`; read at
  an entry, row r of that slice is row r of `Wl[k]` for r < 128 and row r - 128 of `Wr[k]` otherwise, so the product
  of the stacked row `[agg(p, ·) | x(p, ·)]` with a column of the slice is a sum over `Fin 256` that splits into the two
  sums over `Fin 128` of the specification. The reference computes those two sums directly: each of its two products
  read at (p, q) is the sum over j of the left entry (p, j) times the weight entry (k, j, q), and its broadcast bias
  read at (p, q) is `B (k, q)`. The clamp is the maximum with 0 on both sides. The layer number `k` stays a variable.
-/
import proofs.«402578_j10522669875348_3_alg».proof.Proof.Spec
import proofs.«402578_j10522669875348_3_alg».proof.Proof.KDefs
import proofs.«402578_j10522669875348_3_alg».proof.Proof.RDefs
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx

/-! ## The kernel's program -/

section Kernel

open Cert.KernelIdeal Cert.KernelIdeal.Facts₀

variable [Cert.KernelIdeal.Facts₀]

/-- Row `r` of layer `k`'s slice of the stacked weights is row `r` of `Wl[k]` for `r < 128` and row `r - 128` of
    `Wr[k]` otherwise: column q of the slice is the stacked column `[Wl[k](·, q) ; Wr[k](·, q)]`. -/
theorem K.wsl_apply (k : Fin 10) (hw : S10x256x128.Slices ![k.val, 0, 0] S1x256x128)
    (wl wr : (⟨S10x128x128, .f32⟩ : BufTy).Contents (Elt Ideal)) (r : Fin 256) (q : Fin 128) :
    K.wsl k.val hw (K.wst wl wr) (ix2 r q) = catRow (fun j => wl (ix3 k j q)) (fun j => wr (ix3 k j q)) r := by
  unfold K.wsl K.wst
  refine (shapeCast_apply _ shapeCasts_S1x256x128_S256x128 (ix2 r q) (ix3 (0 : Fin 1) r q) ?_).trans ?_
  · rw [Shape.rowMajor_val_three, Shape.rowMajor_val_two]
    show (0 * 256 + r.val) * 128 + q.val = r.val * 128 + q.val
    omega
  refine (extractStridedSlice_apply _ _ hw (ix3 (0 : Fin 1) r q) (ix3 k r q) (fun a => match a with
      | ⟨0, _⟩ => by show k.val = k.val + 0; omega
      | ⟨1, _⟩ => by show r.val = 0 + r.val; omega
      | ⟨2, _⟩ => by show q.val = 0 + q.val; omega)).trans ?_
  unfold catRow
  by_cases h : r.val < 128
  · rw [dif_pos h]
    exact concatenate_pair_apply_left 1 wl wr concatenates_S10x128x128_S10x128x128_S10x256x128_d1 (ix3 k r q) rfl
      (ix3 k (⟨r.val, h⟩ : Fin 128) q) (fun b => match b with
        | ⟨0, _⟩ => rfl
        | ⟨1, _⟩ => rfl
        | ⟨2, _⟩ => rfl)
  · rw [dif_neg h]
    exact concatenate_pair_apply_right 1 wl wr concatenates_S10x128x128_S10x128x128_S10x256x128_d1 (ix3 k r q) rfl rfl
      (ix3 k (⟨r.val - 128, by have := r.isLt; omega⟩ : Fin 128) q) (fun b => match b with
        | ⟨0, _⟩ => fun _ => rfl
        | ⟨1, _⟩ => fun hne => absurd rfl hne
        | ⟨2, _⟩ => fun _ => rfl)
      (by show (r.val - 128) + 128 = r.val; omega)

/-- Entry (0, q) of layer `k`'s bias row is `B (k, q)`. -/
theorem K.bsl_apply (k : Fin 10) (hb : S10x128.Slices ![k.val, 0] S1x128)
    (B : (⟨S10x128, .f32⟩ : BufTy).Contents (Elt Ideal)) (q : Fin 128) :
    K.bsl k.val hb B (ix2 (0 : Fin 1) q) = B (ix2 k q) := by
  unfold K.bsl
  refine (shapeCast_apply _ shapeCasts_S128_S1x128 (ix2 (0 : Fin 1) q) (ix1 q) ?_).trans ?_
  · rw [Shape.rowMajor_val_two, Shape.rowMajor_val_one]
    show q.val = 0 * 128 + q.val
    omega
  refine (shapeCast_apply _ shapeCasts_S1x128_S128 (ix1 q) (ix2 (0 : Fin 1) q) ?_).trans ?_
  · rw [Shape.rowMajor_val_two, Shape.rowMajor_val_one]
    show 0 * 128 + q.val = q.val
    omega
  · exact extractStridedSlice_apply _ B hb (ix2 (0 : Fin 1) q) (ix2 k q) (fun a => match a with
      | ⟨0, _⟩ => by show k.val = k.val + 0; omega
      | ⟨1, _⟩ => by show q.val = 0 + q.val; omega)

/-- The kernel's stacked product against layer `k`'s slices of the stacked weights and of the biases is the
    specification's layer: the stacked column splits into its `Wl[k]` and `Wr[k]` halves, and the sum with it. -/
theorem bridgeK (k : Fin 10) (relu : Bool) (hw : S10x256x128.Slices ![k.val, 0, 0] S1x256x128) (hb : S10x128.Slices ![k.val, 0] S1x128)
    (a x : (⟨S100000x128, .f32⟩ : BufTy).Contents (Elt Ideal)) (wl wr : (⟨S10x128x128, .f32⟩ : BufTy).Contents (Elt Ideal))
    (B : (⟨S10x128, .f32⟩ : BufTy).Contents (Elt Ideal)) :
    combine relu a x (K.wsl k.val hw (K.wst wl wr)) (K.bsl k.val hb B) = layerVal k relu a x wl wr B := by
  funext i
  obtain ⟨p, q, rfl⟩ : ∃ (p : Fin 100000) (q : Fin 128), i = ix2 p q := ⟨i 0, i 1, eq_ix2 i⟩
  have hs : (∑ r : Fin 256, catRow (fun j => a (ix2 p j)) (fun j => x (ix2 p j)) r * K.wsl k.val hw (K.wst wl wr) (ix2 r q))
      + K.bsl k.val hb B (ix2 (0 : Fin 1) q) = preAct k a x wl wr B p q := by
    unfold preAct
    rw [K.bsl_apply]
    simp only [K.wsl_apply]
    rw [sum_cat]
  cases relu
  · exact hs
  · exact congrArg (fun t => max t 0) hs

end Kernel

/-! ## The reference -/

section Reference

open Cert.ReferenceIdeal Cert.ReferenceIdeal.Facts₀

variable [Cert.ReferenceIdeal.Facts₀]

/-- Entry (j, q) of layer `k`'s slice of a weight table is entry (k, j, q) of the table. -/
theorem R.wsl_apply (k : Fin 10) (hw : S10x128x128.Slices ![k.val, 0, 0] S1x128x128)
    (w : (⟨S10x128x128, .f32⟩ : BufTy).Contents (Elt Ideal)) (j q : Fin 128) :
    R.wsl k.val hw w (ix2 j q) = w (ix3 k j q) := by
  unfold R.wsl
  refine (shapeCast_apply _ shapeCasts_S1x128x128_S128x128 (ix2 j q) (ix3 (0 : Fin 1) j q) ?_).trans ?_
  · rw [Shape.rowMajor_val_three, Shape.rowMajor_val_two]
    show (0 * 128 + j.val) * 128 + q.val = j.val * 128 + q.val
    omega
  · exact extractStridedSlice_apply _ w hw (ix3 (0 : Fin 1) j q) (ix3 k j q) (fun a => match a with
      | ⟨0, _⟩ => by show k.val = k.val + 0; omega
      | ⟨1, _⟩ => by show j.val = 0 + j.val; omega
      | ⟨2, _⟩ => by show q.val = 0 + q.val; omega)

/-- Entry (p, q) of layer `k`'s broadcast bias is `B (k, q)`, whatever the node p. -/
theorem R.bb_apply (k : Fin 10) (hb : S10x128.Slices ![k.val, 0] S1x128)
    (B : (⟨S10x128, .f32⟩ : BufTy).Contents (Elt Ideal)) (p : Fin 100000) (q : Fin 128) :
    R.bb k.val hb B (ix2 p q) = B (ix2 k q) := by
  unfold R.bb
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  refine (broadcastInDim_apply _ bcast_S128_S1x128_1 _ (ix2 (0 : Fin 1) q) (ix1 q) (fun a => match a with
    | ⟨0, _⟩ => by show q.val = if (128 : Nat) = 1 then 0 else q.val; rw [if_neg (by decide)])).trans ?_
  refine (shapeCast_apply _ shapeCasts_S1x128_S128 (ix1 q) (ix2 (0 : Fin 1) q) ?_).trans ?_
  · rw [Shape.rowMajor_val_two, Shape.rowMajor_val_one]
    show 0 * 128 + q.val = q.val
    omega
  · exact extractStridedSlice_apply _ B hb (ix2 (0 : Fin 1) q) (ix2 k q) (fun a => match a with
      | ⟨0, _⟩ => by show k.val = k.val + 0; omega
      | ⟨1, _⟩ => by show q.val = 0 + q.val; omega)

/-- The left operand's index on its free axis 0 is the output row. -/
theorem R.dot_lhs_0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch from List.not_mem_nil),
    dif_pos (show (0 : Fin S100000x128.rank) ∈ dot_S100000x128_S128x128_S100000x128_1_0_0_1_n_n.lhsNonContracting from List.mem_singleton.mpr rfl)]
  rfl

/-- The left operand's index on its contracted axis 1 is the contraction coordinate. -/
theorem R.dot_lhs_1 (i : S100000x128.Idx) (c : dot_S100000x128_S128x128_S100000x128_1_0_0_1_n_n.contr.Idx) :
    (dot_S100000x128_S128x128_S100000x128_1_0_0_1_n_n.lhsIdx i c 1).val = (c ⟨0, Nat.lt_of_lt_of_eq Nat.one_pos (rfl : 1 = dot_S100000x128_S128x128_S100000x128_1_0_0_1_n_n.contr.rank)⟩).val :=
  dot_S100000x128_S128x128_S100000x128_1_0_0_1_n_n.lhsIdx_val_of_single rfl i c

/-- The right operand's index on its contracted axis 0 is the contraction coordinate. -/
theorem R.dot_rhs_0 (i : S100000x128.Idx) (c : dot_S100000x128_S128x128_S100000x128_1_0_0_1_n_n.contr.Idx) :
    (dot_S100000x128_S128x128_S100000x128_1_0_0_1_n_n.rhsIdx i c 0).val = (c ⟨0, Nat.lt_of_lt_of_eq Nat.one_pos (rfl : 1 = dot_S100000x128_S128x128_S100000x128_1_0_0_1_n_n.contr.rank)⟩).val :=
  dot_S100000x128_S128x128_S100000x128_1_0_0_1_n_n.rhsIdx_val_of_single rfl i c

/-- The right operand's index on its free axis 1 is the output column. -/
theorem R.dot_rhs_1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch from List.not_mem_nil),
    dif_pos (show (1 : Fin S128x128.rank) ∈ dot_S100000x128_S128x128_S100000x128_1_0_0_1_n_n.rhsNonContracting from List.mem_singleton.mpr rfl)]
  rfl

/-- Entry (p, q) of the product of a [100000, 128] array with a [128, 128] matrix is the sum over j of
    `l (p, j) * r (j, q)`. -/
theorem R.dot_apply (l : (⟨S100000x128, .f32⟩ : BufTy).Contents (Elt Ideal)) (r : (⟨S128x128, .f32⟩ : BufTy).Contents (Elt Ideal))
    (p : Fin 100000) (q : Fin 128) :
    Host.dotGeneral (F := Ideal) (φ₁ := .f32) (φ₂ := .f32) dot_S100000x128_S128x128_S100000x128_1_0_0_1_n_n none l r (ix2 p q)
      = ∑ j : Fin 128, l (ix2 p j) * r (ix2 j q) := by
  simp only [Host.dotGeneral]
  rw [Ideal.dotGeneral_apply, ← Equiv.sum_comp (contrEquiv1 dot_S100000x128_S128x128_S100000x128_1_0_0_1_n_n 128 rfl rfl).symm]
  refine Finset.sum_congr rfl fun j _ => ?_
  have hj := contrEquiv1_symm_val dot_S100000x128_S128x128_S100000x128_1_0_0_1_n_n 128 rfl rfl j
  have el : dot_S100000x128_S128x128_S100000x128_1_0_0_1_n_n.lhsIdx (ix2 p q)
      ((contrEquiv1 dot_S100000x128_S128x128_S100000x128_1_0_0_1_n_n 128 rfl rfl).symm j) = ix2 p j :=
    funext fun a => Fin.ext (by
      match a with
      | ⟨0, _⟩ => exact R.dot_lhs_0 _ _
      | ⟨1, _⟩ => exact (R.dot_lhs_1 _ _).trans hj)
  have er : dot_S100000x128_S128x128_S100000x128_1_0_0_1_n_n.rhsIdx (ix2 p q)
      ((contrEquiv1 dot_S100000x128_S128x128_S100000x128_1_0_0_1_n_n 128 rfl rfl).symm j) = ix2 j q :=
    funext fun a => Fin.ext (by
      match a with
      | ⟨0, _⟩ => exact (R.dot_rhs_0 _ _).trans hj
      | ⟨1, _⟩ => exact R.dot_rhs_1 _ _)
  rw [el, er]

/-- The clamp at an index is the maximum with 0. -/
theorem R.relu_apply (y : (⟨S100000x128, .f32⟩ : BufTy).Contents (Elt Ideal)) (i : S100000x128.Idx) :
    R.relu y i = max (y i) 0 := by
  unfold R.relu
  show max (y i) (Ideal.ofBits .f32 0x00000000#32) = _
  rw [Ideal.ofBits_zero_f32]

/-- Entry (p, q) of the reference's layer `k` before the clamp is the specification's `preAct`. -/
theorem R.pre_apply (k : Fin 10) (hw : S10x128x128.Slices ![k.val, 0, 0] S1x128x128) (hb : S10x128.Slices ![k.val, 0] S1x128)
    (a x : (⟨S100000x128, .f32⟩ : BufTy).Contents (Elt Ideal)) (wl wr : (⟨S10x128x128, .f32⟩ : BufTy).Contents (Elt Ideal))
    (B : (⟨S10x128, .f32⟩ : BufTy).Contents (Elt Ideal)) (p : Fin 100000) (q : Fin 128) :
    R.pre k.val hw hb a x wl wr B (ix2 p q) = preAct k a x wl wr B p q := by
  unfold R.pre preAct
  rw [addf_apply, addf_apply, R.dot_apply, R.dot_apply, R.bb_apply]
  simp only [R.wsl_apply]

/-- The reference's layer `k` without the clamp (the last layer) is the specification's layer. -/
theorem bridgeR_pre (k : Fin 10) (hw : S10x128x128.Slices ![k.val, 0, 0] S1x128x128) (hb : S10x128.Slices ![k.val, 0] S1x128)
    (a x : (⟨S100000x128, .f32⟩ : BufTy).Contents (Elt Ideal)) (wl wr : (⟨S10x128x128, .f32⟩ : BufTy).Contents (Elt Ideal))
    (B : (⟨S10x128, .f32⟩ : BufTy).Contents (Elt Ideal)) :
    R.pre k.val hw hb a x wl wr B = layerVal k false a x wl wr B := by
  funext i
  obtain ⟨p, q, rfl⟩ : ∃ (p : Fin 100000) (q : Fin 128), i = ix2 p q := ⟨i 0, i 1, eq_ix2 i⟩
  rw [R.pre_apply]
  rfl

/-- The reference's layer `k` with the clamp is the specification's clamped layer. -/
theorem bridgeR_relu (k : Fin 10) (hw : S10x128x128.Slices ![k.val, 0, 0] S1x128x128) (hb : S10x128.Slices ![k.val, 0] S1x128)
    (a x : (⟨S100000x128, .f32⟩ : BufTy).Contents (Elt Ideal)) (wl wr : (⟨S10x128x128, .f32⟩ : BufTy).Contents (Elt Ideal))
    (B : (⟨S10x128, .f32⟩ : BufTy).Contents (Elt Ideal)) :
    R.relu (R.pre k.val hw hb a x wl wr B) = layerVal k true a x wl wr B := by
  funext i
  obtain ⟨p, q, rfl⟩ : ∃ (p : Fin 100000) (q : Fin 128), i = ix2 p q := ⟨i 0, i 1, eq_ix2 i⟩
  rw [R.relu_apply, R.pre_apply]
  rfl

end Reference

end Cert.Sage

end
-- ==== Proof.lean ====
/-
  A ten-layer GraphSAGE encoder: the kernel's program against its jnp reference, over the extended reals.

  Each layer maps the node features `x : [100000, 128]` to `max(agg · Wl[k] + x · Wr[k] + b[k], 0)` (no maximum on
  the last layer), where `agg` is the mean of `x` over each node's in-neighbours — a gather of rows at the source
  ids, a scatter-add at the destination ids, a division by the in-degree clamped below at 1. Both programs compute
  `agg` on the host by the same operations. The reference then takes the two products of 128 terms and adds them;
  the kernel's program stacks `[agg | x]` and `[Wl[k] ; Wr[k]]` and takes ONE product of 256 terms inside a
  pallas_call over ten row blocks of 10000 nodes. A finite sum over 128 + 128 indices is the sum over its two
  halves in any commutative monoid, so the two agree on every extended real and finiteness of the inputs is never
  used.

  The kernel's run ends with its result buffer at the contents of the last of twenty segment boundaries
  (`run_W20`); those contents are ten applications of the layer functions `KL0 … KL9` to the launch array
  (`kernel_value`). The reference's run ends at ten applications of `RL0 … RL9` (`ref_run`). Layer by layer the
  two are one function (`layer{k}_eq`): each is `Cert.Sage.layerVal k` of the same neighbour mean (`bridgeK`,
  `bridgeR_pre`, `bridgeR_relu`; the host chain is shared: `agg_same` and its companions).
-/
import proofs.«402578_j10522669875348_3_alg».proof.Defs
import proofs.«402578_j10522669875348_3_alg».proof.Proof.Gen.Kernel
import proofs.«402578_j10522669875348_3_alg».proof.Proof.Gen.Kernel.Frame
import proofs.«402578_j10522669875348_3_alg».proof.Proof.Gen.KernelIdeal
import proofs.«402578_j10522669875348_3_alg».proof.Proof.Gen.KernelIdeal.Frame
import proofs.«402578_j10522669875348_3_alg».proof.Proof.Gen.ReferenceIdeal
import proofs.«402578_j10522669875348_3_alg».proof.Proof.Gen.Pre_finite_inputs
import proofs.«402578_j10522669875348_3_alg».proof.Proof.KRun
import proofs.«402578_j10522669875348_3_alg».proof.Proof.KLayers
import proofs.«402578_j10522669875348_3_alg».proof.Proof.RLayers
import proofs.«402578_j10522669875348_3_alg».proof.Proof.Same
import proofs.«402578_j10522669875348_3_alg».proof.Proof.KChain
import proofs.«402578_j10522669875348_3_alg».proof.Proof.RRun
import proofs.«402578_j10522669875348_3_alg».proof.Proof.Bridge
import Idealize.ShloMosaic.Adequacy
import Idealize.ShloMosaic.Init

noncomputable section

open Idealize.ShloMosaic Idealize.ShloMosaic.TcCoe Idealize.SL.Sem

namespace Cert.Proof
open Cert.KernelIdeal.Gen Cert.ReferenceIdeal.Value2

section Layers
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include h1 h2 h3 h4 in
/-- Layer 0: from launch arrays that agree, the reference's layer and the kernel's are one function of the
    previous layer's output — both are `layerVal 0` of the same neighbour mean. -/
theorem layer0_eq (x : Cert.KernelIdeal.Gen.XTy) : RL0 (F := Ideal) m' c x = KL0 m c x := by
  have hS : Cert.ReferenceIdeal.Value2.SRC m' c = Cert.KernelIdeal.Gen.SRC m c := by
    unfold Cert.ReferenceIdeal.Value2.SRC Cert.KernelIdeal.Gen.SRC; rw [h4, Cert.Sage.src_same]
  have hD : Cert.ReferenceIdeal.Value2.DST m' c = Cert.KernelIdeal.Gen.DST m c := by
    unfold Cert.ReferenceIdeal.Value2.DST Cert.KernelIdeal.Gen.DST; rw [h4, Cert.Sage.dst_same]
  have hG : Cert.ReferenceIdeal.Value2.DEG m' c = Cert.KernelIdeal.Gen.DEG m c := by
    unfold Cert.ReferenceIdeal.Value2.DEG Cert.KernelIdeal.Gen.DEG; rw [hD, Cert.Sage.deg_same]
  unfold RL0 KL0
  rw [hS, hD, hG, h1, h2, h3]
  refine (Cert.Sage.bridgeR_relu (0 : Fin 10) _ _ _ _ _ _ _).trans ?_
  refine Eq.trans ?_ (Cert.Sage.bridgeK (0 : Fin 10) true _ _ _ _ _ _ _).symm
  rw [Cert.Sage.agg_same]
  rfl

include h1 h2 h3 h4 in
/-- Layer 1: from launch arrays that agree, the reference's layer and the kernel's are one function of the
    previous layer's output — both are `layerVal 1` of the same neighbour mean. -/
theorem layer1_eq (x : Cert.KernelIdeal.Gen.XTy) : RL1 (F := Ideal) m' c x = KL1 m c x := by
  have hS : Cert.ReferenceIdeal.Value2.SRC m' c = Cert.KernelIdeal.Gen.SRC m c := by
    unfold Cert.ReferenceIdeal.Value2.SRC Cert.KernelIdeal.Gen.SRC; rw [h4, Cert.Sage.src_same]
  have hD : Cert.ReferenceIdeal.Value2.DST m' c = Cert.KernelIdeal.Gen.DST m c := by
    unfold Cert.ReferenceIdeal.Value2.DST Cert.KernelIdeal.Gen.DST; rw [h4, Cert.Sage.dst_same]
  have hG : Cert.ReferenceIdeal.Value2.DEG m' c = Cert.KernelIdeal.Gen.DEG m c := by
    unfold Cert.ReferenceIdeal.Value2.DEG Cert.KernelIdeal.Gen.DEG; rw [hD, Cert.Sage.deg_same]
  unfold RL1 KL1
  rw [hS, hD, hG, h1, h2, h3]
  refine (Cert.Sage.bridgeR_relu (1 : Fin 10) _ _ _ _ _ _ _).trans ?_
  refine Eq.trans ?_ (Cert.Sage.bridgeK (1 : Fin 10) true _ _ _ _ _ _ _).symm
  rw [Cert.Sage.agg_same]
  rfl

include h1 h2 h3 h4 in
/-- Layer 2: from launch arrays that agree, the reference's layer and the kernel's are one function of the
    previous layer's output — both are `layerVal 2` of the same neighbour mean. -/
theorem layer2_eq (x : Cert.KernelIdeal.Gen.XTy) : RL2 (F := Ideal) m' c x = KL2 m c x := by
  have hS : Cert.ReferenceIdeal.Value2.SRC m' c = Cert.KernelIdeal.Gen.SRC m c := by
    unfold Cert.ReferenceIdeal.Value2.SRC Cert.KernelIdeal.Gen.SRC; rw [h4, Cert.Sage.src_same]
  have hD : Cert.ReferenceIdeal.Value2.DST m' c = Cert.KernelIdeal.Gen.DST m c := by
    unfold Cert.ReferenceIdeal.Value2.DST Cert.KernelIdeal.Gen.DST; rw [h4, Cert.Sage.dst_same]
  have hG : Cert.ReferenceIdeal.Value2.DEG m' c = Cert.KernelIdeal.Gen.DEG m c := by
    unfold Cert.ReferenceIdeal.Value2.DEG Cert.KernelIdeal.Gen.DEG; rw [hD, Cert.Sage.deg_same]
  unfold RL2 KL2
  rw [hS, hD, hG, h1, h2, h3]
  refine (Cert.Sage.bridgeR_relu (2 : Fin 10) _ _ _ _ _ _ _).trans ?_
  refine Eq.trans ?_ (Cert.Sage.bridgeK (2 : Fin 10) true _ _ _ _ _ _ _).symm
  rw [Cert.Sage.agg_same]
  rfl

include h1 h2 h3 h4 in
/-- Layer 3: from launch arrays that agree, the reference's layer and the kernel's are one function of the
    previous layer's output — both are `layerVal 3` of the same neighbour mean. -/
theorem layer3_eq (x : Cert.KernelIdeal.Gen.XTy) : RL3 (F := Ideal) m' c x = KL3 m c x := by
  have hS : Cert.ReferenceIdeal.Value2.SRC m' c = Cert.KernelIdeal.Gen.SRC m c := by
    unfold Cert.ReferenceIdeal.Value2.SRC Cert.KernelIdeal.Gen.SRC; rw [h4, Cert.Sage.src_same]
  have hD : Cert.ReferenceIdeal.Value2.DST m' c = Cert.KernelIdeal.Gen.DST m c := by
    unfold Cert.ReferenceIdeal.Value2.DST Cert.KernelIdeal.Gen.DST; rw [h4, Cert.Sage.dst_same]
  have hG : Cert.ReferenceIdeal.Value2.DEG m' c = Cert.KernelIdeal.Gen.DEG m c := by
    unfold Cert.ReferenceIdeal.Value2.DEG Cert.KernelIdeal.Gen.DEG; rw [hD, Cert.Sage.deg_same]
  unfold RL3 KL3
  rw [hS, hD, hG, h1, h2, h3]
  refine (Cert.Sage.bridgeR_relu (3 : Fin 10) _ _ _ _ _ _ _).trans ?_
  refine Eq.trans ?_ (Cert.Sage.bridgeK (3 : Fin 10) true _ _ _ _ _ _ _).symm
  rw [Cert.Sage.agg_same]
  rfl

include h1 h2 h3 h4 in
/-- Layer 4: from launch arrays that agree, the reference's layer and the kernel's are one function of the
    previous layer's output — both are `layerVal 4` of the same neighbour mean. -/
theorem layer4_eq (x : Cert.KernelIdeal.Gen.XTy) : RL4 (F := Ideal) m' c x = KL4 m c x := by
  have hS : Cert.ReferenceIdeal.Value2.SRC m' c = Cert.KernelIdeal.Gen.SRC m c := by
    unfold Cert.ReferenceIdeal.Value2.SRC Cert.KernelIdeal.Gen.SRC; rw [h4, Cert.Sage.src_same]
  have hD : Cert.ReferenceIdeal.Value2.DST m' c = Cert.KernelIdeal.Gen.DST m c := by
    unfold Cert.ReferenceIdeal.Value2.DST Cert.KernelIdeal.Gen.DST; rw [h4, Cert.Sage.dst_same]
  have hG : Cert.ReferenceIdeal.Value2.DEG m' c = Cert.KernelIdeal.Gen.DEG m c := by
    unfold Cert.ReferenceIdeal.Value2.DEG Cert.KernelIdeal.Gen.DEG; rw [hD, Cert.Sage.deg_same]
  unfold RL4 KL4
  rw [hS, hD, hG, h1, h2, h3]
  refine (Cert.Sage.bridgeR_relu (4 : Fin 10) _ _ _ _ _ _ _).trans ?_
  refine Eq.trans ?_ (Cert.Sage.bridgeK (4 : Fin 10) true _ _ _ _ _ _ _).symm
  rw [Cert.Sage.agg_same]
  rfl

include h1 h2 h3 h4 in
/-- Layer 5: from launch arrays that agree, the reference's layer and the kernel's are one function of the
    previous layer's output — both are `layerVal 5` of the same neighbour mean. -/
theorem layer5_eq (x : Cert.KernelIdeal.Gen.XTy) : RL5 (F := Ideal) m' c x = KL5 m c x := by
  have hS : Cert.ReferenceIdeal.Value2.SRC m' c = Cert.KernelIdeal.Gen.SRC m c := by
    unfold Cert.ReferenceIdeal.Value2.SRC Cert.KernelIdeal.Gen.SRC; rw [h4, Cert.Sage.src_same]
  have hD : Cert.ReferenceIdeal.Value2.DST m' c = Cert.KernelIdeal.Gen.DST m c := by
    unfold Cert.ReferenceIdeal.Value2.DST Cert.KernelIdeal.Gen.DST; rw [h4, Cert.Sage.dst_same]
  have hG : Cert.ReferenceIdeal.Value2.DEG m' c = Cert.KernelIdeal.Gen.DEG m c := by
    unfold Cert.ReferenceIdeal.Value2.DEG Cert.KernelIdeal.Gen.DEG; rw [hD, Cert.Sage.deg_same]
  unfold RL5 KL5
  rw [hS, hD, hG, h1, h2, h3]
  refine (Cert.Sage.bridgeR_relu (5 : Fin 10) _ _ _ _ _ _ _).trans ?_
  refine Eq.trans ?_ (Cert.Sage.bridgeK (5 : Fin 10) true _ _ _ _ _ _ _).symm
  rw [Cert.Sage.agg_same]
  rfl

include h1 h2 h3 h4 in
/-- Layer 6: from launch arrays that agree, the reference's layer and the kernel's are one function of the
    previous layer's output — both are `layerVal 6` of the same neighbour mean. -/
theorem layer6_eq (x : Cert.KernelIdeal.Gen.XTy) : RL6 (F := Ideal) m' c x = KL6 m c x := by
  have hS : Cert.ReferenceIdeal.Value2.SRC m' c = Cert.KernelIdeal.Gen.SRC m c := by
    unfold Cert.ReferenceIdeal.Value2.SRC Cert.KernelIdeal.Gen.SRC; rw [h4, Cert.Sage.src_same]
  have hD : Cert.ReferenceIdeal.Value2.DST m' c = Cert.KernelIdeal.Gen.DST m c := by
    unfold Cert.ReferenceIdeal.Value2.DST Cert.KernelIdeal.Gen.DST; rw [h4, Cert.Sage.dst_same]
  have hG : Cert.ReferenceIdeal.Value2.DEG m' c = Cert.KernelIdeal.Gen.DEG m c := by
    unfold Cert.ReferenceIdeal.Value2.DEG Cert.KernelIdeal.Gen.DEG; rw [hD, Cert.Sage.deg_same]
  unfold RL6 KL6
  rw [hS, hD, hG, h1, h2, h3]
  refine (Cert.Sage.bridgeR_relu (6 : Fin 10) _ _ _ _ _ _ _).trans ?_
  refine Eq.trans ?_ (Cert.Sage.bridgeK (6 : Fin 10) true _ _ _ _ _ _ _).symm
  rw [Cert.Sage.agg_same]
  rfl

include h1 h2 h3 h4 in
/-- Layer 7: from launch arrays that agree, the reference's layer and the kernel's are one function of the
    previous layer's output — both are `layerVal 7` of the same neighbour mean. -/
theorem layer7_eq (x : Cert.KernelIdeal.Gen.XTy) : RL7 (F := Ideal) m' c x = KL7 m c x := by
  have hS : Cert.ReferenceIdeal.Value2.SRC m' c = Cert.KernelIdeal.Gen.SRC m c := by
    unfold Cert.ReferenceIdeal.Value2.SRC Cert.KernelIdeal.Gen.SRC; rw [h4, Cert.Sage.src_same]
  have hD : Cert.ReferenceIdeal.Value2.DST m' c = Cert.KernelIdeal.Gen.DST m c := by
    unfold Cert.ReferenceIdeal.Value2.DST Cert.KernelIdeal.Gen.DST; rw [h4, Cert.Sage.dst_same]
  have hG : Cert.ReferenceIdeal.Value2.DEG m' c = Cert.KernelIdeal.Gen.DEG m c := by
    unfold Cert.ReferenceIdeal.Value2.DEG Cert.KernelIdeal.Gen.DEG; rw [hD, Cert.Sage.deg_same]
  unfold RL7 KL7
  rw [hS, hD, hG, h1, h2, h3]
  refine (Cert.Sage.bridgeR_relu (7 : Fin 10) _ _ _ _ _ _ _).trans ?_
  refine Eq.trans ?_ (Cert.Sage.bridgeK (7 : Fin 10) true _ _ _ _ _ _ _).symm
  rw [Cert.Sage.agg_same]
  rfl

include h1 h2 h3 h4 in
/-- Layer 8: from launch arrays that agree, the reference's layer and the kernel's are one function of the
    previous layer's output — both are `layerVal 8` of the same neighbour mean. -/
theorem layer8_eq (x : Cert.KernelIdeal.Gen.XTy) : RL8 (F := Ideal) m' c x = KL8 m c x := by
  have hS : Cert.ReferenceIdeal.Value2.SRC m' c = Cert.KernelIdeal.Gen.SRC m c := by
    unfold Cert.ReferenceIdeal.Value2.SRC Cert.KernelIdeal.Gen.SRC; rw [h4, Cert.Sage.src_same]
  have hD : Cert.ReferenceIdeal.Value2.DST m' c = Cert.KernelIdeal.Gen.DST m c := by
    unfold Cert.ReferenceIdeal.Value2.DST Cert.KernelIdeal.Gen.DST; rw [h4, Cert.Sage.dst_same]
  have hG : Cert.ReferenceIdeal.Value2.DEG m' c = Cert.KernelIdeal.Gen.DEG m c := by
    unfold Cert.ReferenceIdeal.Value2.DEG Cert.KernelIdeal.Gen.DEG; rw [hD, Cert.Sage.deg_same]
  unfold RL8 KL8
  rw [hS, hD, hG, h1, h2, h3]
  refine (Cert.Sage.bridgeR_relu (8 : Fin 10) _ _ _ _ _ _ _).trans ?_
  refine Eq.trans ?_ (Cert.Sage.bridgeK (8 : Fin 10) true _ _ _ _ _ _ _).symm
  rw [Cert.Sage.agg_same]
  rfl

include h1 h2 h3 h4 in
/-- Layer 9: from launch arrays that agree, the reference's layer and the kernel's are one function of the
    previous layer's output — both are `layerVal 9` of the same neighbour mean. -/
theorem layer9_eq (x : Cert.KernelIdeal.Gen.XTy) : RL9 (F := Ideal) m' c x = KL9 m c x := by
  have hS : Cert.ReferenceIdeal.Value2.SRC m' c = Cert.KernelIdeal.Gen.SRC m c := by
    unfold Cert.ReferenceIdeal.Value2.SRC Cert.KernelIdeal.Gen.SRC; rw [h4, Cert.Sage.src_same]
  have hD : Cert.ReferenceIdeal.Value2.DST m' c = Cert.KernelIdeal.Gen.DST m c := by
    unfold Cert.ReferenceIdeal.Value2.DST Cert.KernelIdeal.Gen.DST; rw [h4, Cert.Sage.dst_same]
  have hG : Cert.ReferenceIdeal.Value2.DEG m' c = Cert.KernelIdeal.Gen.DEG m c := by
    unfold Cert.ReferenceIdeal.Value2.DEG Cert.KernelIdeal.Gen.DEG; rw [hD, Cert.Sage.deg_same]
  unfold RL9 KL9
  rw [hS, hD, hG, h1, h2, h3]
  refine (Cert.Sage.bridgeR_pre (9 : Fin 10) _ _ _ _ _ _ _).trans ?_
  refine Eq.trans ?_ (Cert.Sage.bridgeK (9 : Fin 10) false _ _ _ _ _ _ _).symm
  rw [Cert.Sage.agg_same]
  rfl

end Layers

/-- The word-level kernel's frame: generated. -/
theorem frame_p : Cert.frame_Kernel := fun m ρ _ => Cert.Kernel.Gen.frame m ρ
/-- The idealized kernel's frame: generated. -/
theorem frame_pi : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.Value2.ref_run (F := Ideal) m ρ)

/-- Both programs end with the same result: ten layers, each the same function of the layer before. -/
theorem algebraic : Cert.algebraic_KernelIdeal_ReferenceIdeal := by
  intro m ρ m' ρ' _ hagree
  refine ⟨fun c => KL9 m c (KL8 m c (KL7 m c (KL6 m c (KL5 m c (KL4 m c (KL3 m c (KL2 m c (KL1 m c (KL0 m c (m ((c : Thread Cert.KernelIdeal.nD Cert.KernelIdeal.τ).loc Cert.KernelIdeal.main_arg0))))))))))), ?_, ?_⟩
  · exact (θ_run Cert.KernelIdeal.defs _ _).mono (fun r h c => ⟨(h c).1.trans (Cert.KernelIdeal.Gen.kernel_value m ρ c), (h c).2⟩)
      (Cert.KernelIdeal.Gen.run_W20 m ρ)
  · refine (θ_run Cert.ReferenceIdeal.defs _ _).mono (fun r h c => ⟨(h c).1.trans ?_, (h c).2⟩)
      (Cert.ReferenceIdeal.Value2.ref_run (F := Ideal) m' ρ')
    obtain ⟨h0, h1, h2, h3, h4⟩ := hagree c
    rw [h0, layer0_eq m m' c h1 h2 h3 h4, layer1_eq m m' c h1 h2 h3 h4, layer2_eq m m' c h1 h2 h3 h4, layer3_eq m m' c h1 h2 h3 h4,
      layer4_eq m m' c h1 h2 h3 h4, layer5_eq m m' c h1 h2 h3 h4, layer6_eq m m' c h1 h2 h3 h4, layer7_eq m m' c h1 h2 h3 h4,
      layer8_eq m m' c h1 h2 h3 h4, layer9_eq m m' c h1 h2 h3 h4]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof
end
